-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v250)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v250) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v280) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S2048x64 : Shape := ⟨2, ![2048, 64]⟩
abbrev S8192x64 : Shape := ⟨2, ![8192, 64]⟩
abbrev S64x64 : Shape := ⟨2, ![64, 64]⟩
abbrev S16384x128 : Shape := ⟨2, ![16384, 128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S128x256 : Shape := ⟨2, ![128, 256]⟩
abbrev S128 : Shape := ⟨1, ![128]⟩
abbrev S16384 : Shape := ⟨1, ![16384]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S8192x64 : S_.BroadcastsInDim S8192x64 (![] : Fin 0 → Fin S8192x64.rank)
  reducesTo_S8192x64_S_d0_1 : S8192x64.ReducesTo [0, 1] S_
  bcast_S_S64x64 : S_.BroadcastsInDim S64x64 (![] : Fin 0 → Fin S64x64.rank)
  reducesTo_S64x64_S_d0_1 : S64x64.ReducesTo [0, 1] S_
  bcast_S_S16384x128 : S_.BroadcastsInDim S16384x128 (![] : Fin 0 → Fin S16384x128.rank)
  reducesTo_S16384x128_S_d0_1 : S16384x128.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S256x64 : S_.BroadcastsInDim S256x64 (![] : Fin 0 → Fin S256x64.rank)
  reducesTo_S256x64_S_d0_1 : S256x64.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S256 .f32) (main_arg12 : FVec F S256 .f32) (main_arg13 : FVec F S128x256 .f32) (main_arg14 : FVec F S128 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S128x256 .f32 := Host.absf main_arg13
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg14 main_v63 main_v67

def fn_part2 {F : FTy → Type} [FloatOps F] (main_arg7 : FVec F S256 .f32) (main_arg8 : FVec F S64x256 .f32) (main_arg9 : FVec F S64 .f32) (main_arg10 : FVec F S256x64 .f32) (main_arg11 : FVec F S256 .f32) (main_arg12 : FVec F S256 .f32) (main_arg13 : FVec F S128x256 .f32) (main_arg14 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S64x256 .f32 := Host.absf main_arg8
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S256x64 .f32 := Host.absf main_arg10
  let main_cst_18 : FVec F S_ .f32 := constant S_ .f32 0x7F800000#32
  let main_v50 : FVec F S256x64 .f32 := broadcastInDim S256x64 ![] bcast_S_S256x64 main_cst_18
  fn_part3 (F := F) main_arg11 main_arg12 main_arg13 main_arg14 main_v48 main_v49 main_v50

def fn_part1 {F : FTy → Type} [FloatOps F] (main_arg4 : FVec F S16384x128 .f32) (main_arg5 : FVec F S256x128 .f32) (main_arg6 : FVec F S256 .f32) (main_arg7 : FVec F S256 .f32) (main_arg8 : FVec F S64x256 .f32) (main_arg9 : FVec F S64 .f32) (main_arg10 : FVec F S256x64 .f32) (main_arg11 : FVec F S256 .f32) (main_arg12 : FVec F S256 .f32) (main_arg13 : FVec F S128x256 .f32) (main_arg14 : FVec F S128 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S16384x128 .f32 := Host.absf main_arg4
  let main_cst_6 : FVec F S_ .f32 := constant S_ .f32 0x7F800000#32
  let main_v20 : FVec F S16384x128 .f32 := broadcastInDim S16384x128 ![] bcast_S_S16384x128 main_cst_6
  let main_v21 : IVec S16384x128 1 := cmpf .olt main_v19 main_v20
  let main_c_7 : IVec S_ 1 := constantI S_ 1 1#1
  let main_v22 : IVec S_ 1 := (fun x v => Host.reduce IntOp.andi x v reducesTo_S16384x128_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x64 .f32) (main_arg1 : FVec F S2048x64 .f32) (main_arg2 : FVec F S8192x64 .f32) (main_arg3 : FVec F S64x64 .f32) (main_arg4 : FVec F S16384x128 .f32) (main_arg5 : FVec F S256x128 .f32) (main_arg6 : FVec F S256 .f32) (main_arg7 : FVec F S256 .f32) (main_arg8 : FVec F S64x256 .f32) (main_arg9 : FVec F S64 .f32) (main_arg10 : FVec F S256x64 .f32) (main_arg11 : FVec F S256 .f32) (main_arg12 : FVec F S256 .f32) (main_arg13 : FVec F S128x256 .f32) (main_arg14 : FVec F S128 .f32) (main_arg15 : IVec S16384 32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x64 : Shape := ⟨2, ![16384, 64]⟩
abbrev S2048x64 : Shape := ⟨2, ![2048, 64]⟩
abbrev S8192x64 : Shape := ⟨2, ![8192, 64]⟩
abbrev S64x64 : Shape := ⟨2, ![64, 64]⟩
abbrev S16384x128 : Shape := ⟨2, ![16384, 128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S128x256 : Shape := ⟨2, ![128, 256]⟩
abbrev S128 : Shape := ⟨1, ![128]⟩
abbrev S16384 : Shape := ⟨1, ![16384]⟩
abbrev S_ : Shape := ⟨0, ![]⟩
abbrev S16384x256 : Shape := ⟨2, ![16384, 256]⟩
abbrev S1x256 : Shape := ⟨2, ![1, 256]⟩
abbrev S1x64 : Shape := ⟨2, ![1, 64]⟩
abbrev S2048x256 : Shape := ⟨2, ![2048, 256]⟩
abbrev S2048x128 : Shape := ⟨2, ![2048, 128]⟩
abbrev S1x128 : Shape := ⟨2, ![1, 128]⟩
abbrev S16384x1 : Shape := ⟨2, ![16384, 1]⟩
abbrev S1x16384 : Shape := ⟨2, ![1, 16384]⟩
abbrev S2048x1 : Shape := ⟨2, ![2048, 1]⟩
abbrev S512x128 : Shape := ⟨2, ![512, 128]⟩
abbrev S1x2048 : Shape := ⟨2, ![1, 2048]⟩
abbrev S512x1 : Shape := ⟨2, ![512, 1]⟩
abbrev S512x2048 : Shape := ⟨2, ![512, 2048]⟩
abbrev S512 : Shape := ⟨1, ![512]⟩
abbrev S2048 : Shape := ⟨1, ![2048]⟩
abbrev S8192x256 : Shape := ⟨2, ![8192, 256]⟩
abbrev S8192x128 : Shape := ⟨2, ![8192, 128]⟩
abbrev S64x8192 : Shape := ⟨2, ![64, 8192]⟩
abbrev S64x1 : Shape := ⟨2, ![64, 1]⟩
abbrev S64x64x1 : Shape := ⟨3, ![64, 64, 1]⟩
abbrev S64x1x64 : Shape := ⟨3, ![64, 1, 64]⟩
abbrev S64x64x64 : Shape := ⟨3, ![64, 64, 64]⟩
abbrev S1x64x64 : Shape := ⟨3, ![1, 64, 64]⟩
abbrev S64x1x1 : Shape := ⟨3, ![64, 1, 1]⟩
abbrev S64x2 : Shape := ⟨2, ![64, 2]⟩
abbrev S1x64x1 : Shape := ⟨3, ![1, 64, 1]⟩
abbrev S1x1x64 : Shape := ⟨3, ![1, 1, 64]⟩

abbrev nBuf : Space → Nat
  | .hbm => 422
  | .vmem => 8
  | .smem => 0
  | _ => 0

abbrev hbmTy0_0 (i : Nat) : BufTy := match i % 128 with
  | 0 => ⟨S16384x64, .f32⟩
  | 1 => ⟨S2048x64, .f32⟩
  | 2 => ⟨S8192x64, .f32⟩
  | 3 => ⟨S64x64, .f32⟩
  | 4 => ⟨S16384x128, .f32⟩
  | 5 => ⟨S256x128, .f32⟩
  | 6 => ⟨S256, .f32⟩
  | 7 => ⟨S256, .f32⟩
  | 8 => ⟨S64x256, .f32⟩
  | 9 => ⟨S64, .f32⟩
  | 10 => ⟨S256x64, .f32⟩
  | 11 => ⟨S256, .f32⟩
  | 12 => ⟨S256, .f32⟩
  | 13 => ⟨S128x256, .f32⟩
  | 14 => ⟨S128, .f32⟩
  | 15 => ⟨S16384, .i32⟩
  | 16 => ⟨S64x64, .f32⟩
  | 17 => ⟨S64x64, .f32⟩
  | 18 => ⟨S64x64, .f32⟩
  | 19 => ⟨S64x64, .f32⟩
  | 20 => ⟨S_, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x64, .i32⟩
  | 27 => ⟨S64x64, .i32⟩
  | 28 => ⟨S_, .i32⟩
  | 29 => ⟨S64x64, .i32⟩
  | 30 => ⟨S64x64, .i32⟩
  | 31 => ⟨S64x64, .i1⟩
  | 32 => ⟨S64x64, .f32⟩
  | 33 => ⟨S_, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S_, .f32⟩
  | 41 => ⟨S_, .f32⟩
  | 42 => ⟨S128x256, .f32⟩
  | 43 => ⟨S16384x256, .f32⟩
  | 44 => ⟨S_, .f32⟩
  | 45 => ⟨S256, .f32⟩
  | 46 => ⟨S_, .f32⟩
  | 47 => ⟨S256, .f32⟩
  | 48 => ⟨S256, .f32⟩
  | 49 => ⟨S_, .i32⟩
  | 50 => ⟨S_, .f32⟩
  | 51 => ⟨S256, .f32⟩
  | 52 => ⟨S1x256, .f32⟩
  | 53 => ⟨S_, .f32⟩
  | 54 => ⟨S1x256, .f32⟩
  | 55 => ⟨S1x256, .f32⟩
  | 56 => ⟨S16384x256, .f32⟩
  | 57 => ⟨S16384x256, .f32⟩
  | 58 => ⟨S16384x256, .f32⟩
  | 59 => ⟨S_, .f32⟩
  | 60 => ⟨S_, .f32⟩
  | 61 => ⟨S_, .f32⟩
  | 62 => ⟨S_, .f32⟩
  | 63 => ⟨S256, .f32⟩
  | 64 => ⟨S256, .f32⟩
  | 65 => ⟨S256, .f32⟩
  | 66 => ⟨S_, .f32⟩
  | 67 => ⟨S_, .i1⟩
  | 68 => ⟨S_, .f32⟩
  | 69 => ⟨S_, .f32⟩
  | 70 => ⟨S256, .f32⟩
  | 71 => ⟨S256, .f32⟩
  | 72 => ⟨S1x256, .f32⟩
  | 73 => ⟨S16384x256, .f32⟩
  | 74 => ⟨S16384x256, .f32⟩
  | 75 => ⟨S_, .f32⟩
  | 76 => ⟨S256, .f32⟩
  | 77 => ⟨S256, .f32⟩
  | 78 => ⟨S256, .f32⟩
  | 79 => ⟨S1x256, .f32⟩
  | 80 => ⟨S16384x256, .f32⟩
  | 81 => ⟨S16384x256, .f32⟩
  | 82 => ⟨S1x256, .f32⟩
  | 83 => ⟨S16384x256, .f32⟩
  | 84 => ⟨S16384x256, .f32⟩
  | 85 => ⟨S1x256, .f32⟩
  | 86 => ⟨S16384x256, .f32⟩
  | 87 => ⟨S16384x256, .f32⟩
  | 88 => ⟨S_, .f32⟩
  | 89 => ⟨S16384x256, .f32⟩
  | 90 => ⟨S16384x256, .i1⟩
  | 91 => ⟨S_, .f32⟩
  | 92 => ⟨S16384x256, .f32⟩
  | 93 => ⟨S16384x256, .f32⟩
  | 94 => ⟨S16384x256, .f32⟩
  | 95 => ⟨S256x64, .f32⟩
  | 96 => ⟨S16384x64, .f32⟩
  | 97 => ⟨S1x64, .f32⟩
  | 98 => ⟨S16384x64, .f32⟩
  | 99 => ⟨S16384x64, .f32⟩
  | 100 => ⟨S16384x64, .f32⟩
  | 101 => ⟨S16384x64, .f32⟩
  | 102 => ⟨S_, .f32⟩
  | 103 => ⟨S_, .f32⟩
  | 104 => ⟨S_, .f32⟩
  | 105 => ⟨S_, .f32⟩
  | 106 => ⟨S64x256, .f32⟩
  | 107 => ⟨S2048x256, .f32⟩
  | 108 => ⟨S_, .f32⟩
  | 109 => ⟨S256, .f32⟩
  | 110 => ⟨S_, .f32⟩
  | 111 => ⟨S256, .f32⟩
  | 112 => ⟨S256, .f32⟩
  | 113 => ⟨S_, .i32⟩
  | 114 => ⟨S_, .f32⟩
  | 115 => ⟨S256, .f32⟩
  | 116 => ⟨S1x256, .f32⟩
  | 117 => ⟨S_, .f32⟩
  | 118 => ⟨S1x256, .f32⟩
  | 119 => ⟨S1x256, .f32⟩
  | 120 => ⟨S2048x256, .f32⟩
  | 121 => ⟨S2048x256, .f32⟩
  | 122 => ⟨S2048x256, .f32⟩
  | 123 => ⟨S_, .f32⟩
  | 124 => ⟨S_, .f32⟩
  | 125 => ⟨S_, .f32⟩
  | 126 => ⟨S_, .f32⟩
  | 127 => ⟨S256, .f32⟩
  | _ => ⟨S16384x64, .f32⟩

abbrev hbmTy0_1 (i : Nat) : BufTy := match i % 128 with
  | 0 => ⟨S256, .f32⟩
  | 1 => ⟨S256, .f32⟩
  | 2 => ⟨S_, .f32⟩
  | 3 => ⟨S_, .i1⟩
  | 4 => ⟨S_, .f32⟩
  | 5 => ⟨S_, .f32⟩
  | 6 => ⟨S256, .f32⟩
  | 7 => ⟨S256, .f32⟩
  | 8 => ⟨S1x256, .f32⟩
  | 9 => ⟨S2048x256, .f32⟩
  | 10 => ⟨S2048x256, .f32⟩
  | 11 => ⟨S_, .f32⟩
  | 12 => ⟨S256, .f32⟩
  | 13 => ⟨S256, .f32⟩
  | 14 => ⟨S256, .f32⟩
  | 15 => ⟨S1x256, .f32⟩
  | 16 => ⟨S2048x256, .f32⟩
  | 17 => ⟨S2048x256, .f32⟩
  | 18 => ⟨S1x256, .f32⟩
  | 19 => ⟨S2048x256, .f32⟩
  | 20 => ⟨S2048x256, .f32⟩
  | 21 => ⟨S1x256, .f32⟩
  | 22 => ⟨S2048x256, .f32⟩
  | 23 => ⟨S2048x256, .f32⟩
  | 24 => ⟨S_, .f32⟩
  | 25 => ⟨S2048x256, .f32⟩
  | 26 => ⟨S2048x256, .i1⟩
  | 27 => ⟨S_, .f32⟩
  | 28 => ⟨S2048x256, .f32⟩
  | 29 => ⟨S2048x256, .f32⟩
  | 30 => ⟨S2048x256, .f32⟩
  | 31 => ⟨S256x128, .f32⟩
  | 32 => ⟨S2048x128, .f32⟩
  | 33 => ⟨S1x128, .f32⟩
  | 34 => ⟨S2048x128, .f32⟩
  | 35 => ⟨S2048x128, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x128, .f32⟩
  | 45 => ⟨S16384x128, .f32⟩
  | 46 => ⟨S_, .f32⟩
  | 47 => ⟨S16384, .f32⟩
  | 48 => ⟨S16384x1, .f32⟩
  | 49 => ⟨S1x16384, .f32⟩
  | 50 => ⟨S2048x1, .f32⟩
  | 51 => ⟨S2048x128, .f32⟩
  | 52 => ⟨S_, .f32⟩
  | 53 => ⟨S2048, .f32⟩
  | 54 => ⟨S2048x1, .f32⟩
  | 55 => ⟨S2048x1, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S64x256, .f32⟩
  | 63 => ⟨S8192x256, .f32⟩
  | 64 => ⟨S_, .f32⟩
  | 65 => ⟨S256, .f32⟩
  | 66 => ⟨S_, .f32⟩
  | 67 => ⟨S256, .f32⟩
  | 68 => ⟨S256, .f32⟩
  | 69 => ⟨S_, .i32⟩
  | 70 => ⟨S_, .f32⟩
  | 71 => ⟨S256, .f32⟩
  | 72 => ⟨S1x256, .f32⟩
  | 73 => ⟨S_, .f32⟩
  | 74 => ⟨S1x256, .f32⟩
  | 75 => ⟨S1x256, .f32⟩
  | 76 => ⟨S8192x256, .f32⟩
  | 77 => ⟨S8192x256, .f32⟩
  | 78 => ⟨S8192x256, .f32⟩
  | 79 => ⟨S_, .f32⟩
  | 80 => ⟨S_, .f32⟩
  | 81 => ⟨S_, .f32⟩
  | 82 => ⟨S_, .f32⟩
  | 83 => ⟨S256, .f32⟩
  | 84 => ⟨S256, .f32⟩
  | 85 => ⟨S256, .f32⟩
  | 86 => ⟨S_, .f32⟩
  | 87 => ⟨S_, .i1⟩
  | 88 => ⟨S_, .f32⟩
  | 89 => ⟨S_, .f32⟩
  | 90 => ⟨S256, .f32⟩
  | 91 => ⟨S256, .f32⟩
  | 92 => ⟨S1x256, .f32⟩
  | 93 => ⟨S8192x256, .f32⟩
  | 94 => ⟨S8192x256, .f32⟩
  | 95 => ⟨S_, .f32⟩
  | 96 => ⟨S256, .f32⟩
  | 97 => ⟨S256, .f32⟩
  | 98 => ⟨S256, .f32⟩
  | 99 => ⟨S1x256, .f32⟩
  | 100 => ⟨S8192x256, .f32⟩
  | 101 => ⟨S8192x256, .f32⟩
  | 102 => ⟨S1x256, .f32⟩
  | 103 => ⟨S8192x256, .f32⟩
  | 104 => ⟨S8192x256, .f32⟩
  | 105 => ⟨S1x256, .f32⟩
  | 106 => ⟨S8192x256, .f32⟩
  | 107 => ⟨S8192x256, .f32⟩
  | 108 => ⟨S_, .f32⟩
  | 109 => ⟨S8192x256, .f32⟩
  | 110 => ⟨S8192x256, .i1⟩
  | 111 => ⟨S_, .f32⟩
  | 112 => ⟨S8192x256, .f32⟩
  | 113 => ⟨S8192x256, .f32⟩
  | 114 => ⟨S8192x256, .f32⟩
  | 115 => ⟨S256x128, .f32⟩
  | 116 => ⟨S8192x128, .f32⟩
  | 117 => ⟨S1x128, .f32⟩
  | 118 => ⟨S8192x128, .f32⟩
  | 119 => ⟨S8192x128, .f32⟩
  | 120 => ⟨S128x256, .f32⟩
  | 121 => ⟨S8192x256, .f32⟩
  | 122 => ⟨S_, .f32⟩
  | 123 => ⟨S256, .f32⟩
  | 124 => ⟨S_, .f32⟩
  | 125 => ⟨S256, .f32⟩
  | 126 => ⟨S256, .f32⟩
  | 127 => ⟨S_, .i32⟩
  | _ => ⟨S16384x64, .f32⟩

abbrev hbmTy0_2 (i : Nat) : BufTy := match i % 128 with
  | 0 => ⟨S_, .f32⟩
  | 1 => ⟨S256, .f32⟩
  | 2 => ⟨S1x256, .f32⟩
  | 3 => ⟨S_, .f32⟩
  | 4 => ⟨S1x256, .f32⟩
  | 5 => ⟨S1x256, .f32⟩
  | 6 => ⟨S8192x256, .f32⟩
  | 7 => ⟨S8192x256, .f32⟩
  | 8 => ⟨S8192x256, .f32⟩
  | 9 => ⟨S_, .f32⟩
  | 10 => ⟨S_, .f32⟩
  | 11 => ⟨S_, .f32⟩
  | 12 => ⟨S_, .f32⟩
  | 13 => ⟨S256, .f32⟩
  | 14 => ⟨S256, .f32⟩
  | 15 => ⟨S256, .f32⟩
  | 16 => ⟨S_, .f32⟩
  | 17 => ⟨S_, .i1⟩
  | 18 => ⟨S_, .f32⟩
  | 19 => ⟨S_, .f32⟩
  | 20 => ⟨S256, .f32⟩
  | 21 => ⟨S256, .f32⟩
  | 22 => ⟨S1x256, .f32⟩
  | 23 => ⟨S8192x256, .f32⟩
  | 24 => ⟨S8192x256, .f32⟩
  | 25 => ⟨S_, .f32⟩
  | 26 => ⟨S256, .f32⟩
  | 27 => ⟨S256, .f32⟩
  | 28 => ⟨S256, .f32⟩
  | 29 => ⟨S1x256, .f32⟩
  | 30 => ⟨S8192x256, .f32⟩
  | 31 => ⟨S8192x256, .f32⟩
  | 32 => ⟨S1x256, .f32⟩
  | 33 => ⟨S8192x256, .f32⟩
  | 34 => ⟨S8192x256, .f32⟩
  | 35 => ⟨S1x256, .f32⟩
  | 36 => ⟨S8192x256, .f32⟩
  | 37 => ⟨S8192x256, .f32⟩
  | 38 => ⟨S_, .f32⟩
  | 39 => ⟨S8192x256, .f32⟩
  | 40 => ⟨S8192x256, .i1⟩
  | 41 => ⟨S_, .f32⟩
  | 42 => ⟨S8192x256, .f32⟩
  | 43 => ⟨S8192x256, .f32⟩
  | 44 => ⟨S8192x256, .f32⟩
  | 45 => ⟨S256x64, .f32⟩
  | 46 => ⟨S8192x64, .f32⟩
  | 47 => ⟨S1x64, .f32⟩
  | 48 => ⟨S8192x64, .f32⟩
  | 49 => ⟨S8192x64, .f32⟩
  | 50 => ⟨S_, .f32⟩
  | 51 => ⟨S64, .f32⟩
  | 52 => ⟨S_, .f32⟩
  | 53 => ⟨S64, .f32⟩
  | 54 => ⟨S64, .f32⟩
  | 55 => ⟨S1x64, .f32⟩
  | 56 => ⟨S8192x64, .f32⟩
  | 57 => ⟨S8192x64, .f32⟩
  | 58 => ⟨S8192x64, .f32⟩
  | 59 => ⟨S_, .f32⟩
  | 60 => ⟨S64, .f32⟩
  | 61 => ⟨S64x8192, .f32⟩
  | 62 => ⟨S64x64, .f32⟩
  | 63 => ⟨S64x64, .f32⟩
  | 64 => ⟨S64x1, .f32⟩
  | 65 => ⟨S1x64, .f32⟩
  | 66 => ⟨S64x64, .f32⟩
  | 67 => ⟨S64x64, .f32⟩
  | 68 => ⟨S64x64, .f32⟩
  | 69 => ⟨S64x64, .f32⟩
  | 70 => ⟨S64x64, .i32⟩
  | 71 => ⟨S64x64, .i32⟩
  | 72 => ⟨S_, .i32⟩
  | 73 => ⟨S64x64, .i32⟩
  | 74 => ⟨S64x64, .i32⟩
  | 75 => ⟨S64x64, .i1⟩
  | 76 => ⟨S64x64, .f32⟩
  | 77 => ⟨S_, .f32⟩
  | 78 => ⟨S64x64, .f32⟩
  | 79 => ⟨S64x64, .f32⟩
  | 80 => ⟨S64x64, .f32⟩
  | 81 => ⟨S_, .f32⟩
  | 82 => ⟨S_, .f32⟩
  | 83 => ⟨S_, .f32⟩
  | 84 => ⟨S_, .f32⟩
  | 85 => ⟨S64x64x1, .f32⟩
  | 86 => ⟨S64x1x64, .f32⟩
  | 87 => ⟨S64x64x64, .f32⟩
  | 88 => ⟨S64x64x64, .f32⟩
  | 89 => ⟨S64x64x64, .f32⟩
  | 90 => ⟨S1x64x64, .f32⟩
  | 91 => ⟨S64x1x1, .f32⟩
  | 92 => ⟨S64x64x64, .f32⟩
  | 93 => ⟨S64x64x64, .f32⟩
  | 94 => ⟨S64x64x64, .f32⟩
  | 95 => ⟨S64x64x64, .f32⟩
  | 96 => ⟨S64, .i32⟩
  | 97 => ⟨S64, .i32⟩
  | 98 => ⟨S_, .i32⟩
  | 99 => ⟨S64, .i32⟩
  | 100 => ⟨S64, .i1⟩
  | 101 => ⟨S_, .i32⟩
  | 102 => ⟨S64, .i32⟩
  | 103 => ⟨S64, .i32⟩
  | 104 => ⟨S64, .i32⟩
  | 105 => ⟨S_, .i32⟩
  | 106 => ⟨S64, .i32⟩
  | 107 => ⟨S64, .i1⟩
  | 108 => ⟨S_, .i32⟩
  | 109 => ⟨S64, .i32⟩
  | 110 => ⟨S64, .i32⟩
  | 111 => ⟨S64, .i32⟩
  | 112 => ⟨S64x1, .i32⟩
  | 113 => ⟨S64x1, .i32⟩
  | 114 => ⟨S64x2, .i32⟩
  | 115 => ⟨S64x64, .f32⟩
  | 116 => ⟨S64x64x1, .f32⟩
  | 117 => ⟨S64x1x64, .f32⟩
  | 118 => ⟨S64x64x64, .f32⟩
  | 119 => ⟨S64x64x64, .f32⟩
  | 120 => ⟨S64x64x64, .f32⟩
  | 121 => ⟨S64, .i32⟩
  | 122 => ⟨S1x64x1, .i32⟩
  | 123 => ⟨S64x1x1, .i32⟩
  | 124 => ⟨S64x64x1, .i32⟩
  | 125 => ⟨S64x64x1, .i32⟩
  | 126 => ⟨S64x64x1, .i1⟩
  | 127 => ⟨S1x1x64, .i32⟩
  | _ => ⟨S16384x64, .f32⟩

abbrev hbmTy0_3 (i : Nat) : BufTy := match i % 128 with
  | 0 => ⟨S64x1x1, .i32⟩
  | 1 => ⟨S64x1x64, .i32⟩
  | 2 => ⟨S64x1x64, .i32⟩
  | 3 => ⟨S64x1x64, .i1⟩
  | 4 => ⟨S64x64x64, .i1⟩
  | 5 => ⟨S64x64x64, .i1⟩
  | 6 => ⟨S64x64x64, .i1⟩
  | 7 => ⟨S1x64x1, .i32⟩
  | 8 => ⟨S1x1x64, .i32⟩
  | 9 => ⟨S1x64x64, .i32⟩
  | 10 => ⟨S1x64x64, .i32⟩
  | 11 => ⟨S1x64x64, .i1⟩
  | 12 => ⟨S64x64x64, .i1⟩
  | 13 => ⟨S64x64x64, .i1⟩
  | 14 => ⟨S_, .f32⟩
  | 15 => ⟨S_, .f32⟩
  | 16 => ⟨S64x64x64, .f32⟩
  | 17 => ⟨S64x64x64, .f32⟩
  | 18 => ⟨S64x64x64, .f32⟩
  | 19 => ⟨S64x64x64, .f32⟩
  | 20 => ⟨S_, .f32⟩
  | 21 => ⟨S_, .f32⟩
  | 22 => ⟨S64x64x64, .f32⟩
  | 23 => ⟨S64x64x64, .f32⟩
  | 24 => ⟨S64x64, .f32⟩
  | 25 => ⟨S64x64, .f32⟩
  | 26 => ⟨S64x64x1, .f32⟩
  | 27 => ⟨S64x1x64, .f32⟩
  | 28 => ⟨S64x64x64, .f32⟩
  | 29 => ⟨S64x64x64, .f32⟩
  | 30 => ⟨S64x64x64, .f32⟩
  | 31 => ⟨S64x64x64, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | _ => ⟨S16384x64, .f32⟩

abbrev hbmTy (i : Nat) : BufTy := match i / 128 with
  | 0 => hbmTy0_0 i
  | 1 => hbmTy0_1 i
  | 2 => hbmTy0_2 i
  | 3 => hbmTy0_3 i
  | _ => ⟨S16384x64, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S1x2048, .f32⟩
  | .local _ .vmem, ⟨5, _⟩ => ⟨S1x2048, .f32⟩
  | .local _ .vmem, ⟨6, _⟩ => ⟨S512x1, .f32⟩
  | .local _ .vmem, ⟨7, _⟩ => ⟨S512x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_6 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_cst_7 : Ref sig .tc := ⟨.hbm, 88, rfl⟩
abbrev main_v42 : Ref sig .tc := ⟨.hbm, 89, rfl⟩
abbrev main_v43 : Ref sig .tc := ⟨.hbm, 90, rfl⟩
abbrev main_cst_8 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_9 : Ref sig .tc := ⟨.hbm, 102, rfl⟩
abbrev main_v54 : Ref sig .tc := ⟨.hbm, 103, rfl⟩
abbrev main_cst_10 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_11 : Ref sig .tc := ⟨.hbm, 108, rfl⟩
abbrev main_v58 : Ref sig .tc := ⟨.hbm, 109, rfl⟩
abbrev main_cst_12 : Ref sig .tc := ⟨.hbm, 110, rfl⟩
abbrev main_v59 : Ref sig .tc := ⟨.hbm, 111, rfl⟩
abbrev main_v60 : Ref sig .tc := ⟨.hbm, 112, rfl⟩
abbrev main_c_13 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_cst_1 : Ref sig .tc := ⟨.hbm, 124, rfl⟩
abbrev main_call2_v8 : Ref sig .tc := ⟨.hbm, 125, rfl⟩
abbrev main_call2_cst_2 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_cst_3 : Ref sig .tc := ⟨.hbm, 130, rfl⟩
abbrev main_call2_v12 : Ref sig .tc := ⟨.hbm, 131, rfl⟩
abbrev main_call2_cst_4 : Ref sig .tc := ⟨.hbm, 132, rfl⟩
abbrev main_call2_call0_v0 : Ref sig .tc := ⟨.hbm, 133, rfl⟩
abbrev main_call2_call0_v1 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_cst_14 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_cst_15 : Ref sig .tc := ⟨.hbm, 152, rfl⟩
abbrev main_v77 : Ref sig .tc := ⟨.hbm, 153, rfl⟩
abbrev main_v78 : Ref sig .tc := ⟨.hbm, 154, rfl⟩
abbrev main_cst_16 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_c_17 : Ref sig .tc := ⟨.hbm, 164, rfl⟩
abbrev main_v87 : Ref sig .tc := ⟨.hbm, 165, rfl⟩
abbrev main_v88 : Ref sig .tc := ⟨.hbm, 166, rfl⟩
abbrev main_c_18 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_cst_19 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_cst_20 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_cst_21 : Ref sig .tc := ⟨.hbm, 184, rfl⟩
abbrev main_v103 : Ref sig .tc := ⟨.hbm, 185, rfl⟩
abbrev main_cst_22 : Ref sig .tc := ⟨.hbm, 186, rfl⟩
abbrev main_v104 : Ref sig .tc := ⟨.hbm, 187, rfl⟩
abbrev main_cst_23 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_cst_24 : Ref sig .tc := ⟨.hbm, 192, rfl⟩
abbrev main_v108 : Ref sig .tc := ⟨.hbm, 193, rfl⟩
abbrev main_cst_25 : Ref sig .tc := ⟨.hbm, 194, rfl⟩
abbrev main_v109 : Ref sig .tc := ⟨.hbm, 195, rfl⟩
abbrev main_v110 : Ref sig .tc := ⟨.hbm, 196, rfl⟩
abbrev main_c_26 : Ref sig .tc := ⟨.hbm, 197, rfl⟩
abbrev main_call4_cst : Ref sig .tc := ⟨.hbm, 198, rfl⟩
abbrev main_call4_v0 : Ref sig .tc := ⟨.hbm, 199, rfl⟩
abbrev main_call4_v1 : Ref sig .tc := ⟨.hbm, 200, rfl⟩
abbrev main_call4_cst_0 : Ref sig .tc := ⟨.hbm, 201, rfl⟩
abbrev main_call4_v2 : Ref sig .tc := ⟨.hbm, 202, rfl⟩
abbrev main_call4_v3 : Ref sig .tc := ⟨.hbm, 203, rfl⟩
abbrev main_call4_v4 : Ref sig .tc := ⟨.hbm, 204, rfl⟩
abbrev main_call4_v5 : Ref sig .tc := ⟨.hbm, 205, rfl⟩
abbrev main_call4_v6 : Ref sig .tc := ⟨.hbm, 206, rfl⟩
abbrev main_call4_v7 : Ref sig .tc := ⟨.hbm, 207, rfl⟩
abbrev main_call4_cst_1 : Ref sig .tc := ⟨.hbm, 208, rfl⟩
abbrev main_call4_v8 : Ref sig .tc := ⟨.hbm, 209, rfl⟩
abbrev main_call4_cst_2 : Ref sig .tc := ⟨.hbm, 210, rfl⟩
abbrev main_call4_v9 : Ref sig .tc := ⟨.hbm, 211, rfl⟩
abbrev main_call4_v10 : Ref sig .tc := ⟨.hbm, 212, rfl⟩
abbrev main_call4_v11 : Ref sig .tc := ⟨.hbm, 213, rfl⟩
abbrev main_call4_cst_3 : Ref sig .tc := ⟨.hbm, 214, rfl⟩
abbrev main_call4_v12 : Ref sig .tc := ⟨.hbm, 215, rfl⟩
abbrev main_call4_cst_4 : Ref sig .tc := ⟨.hbm, 216, rfl⟩
abbrev main_call4_call0_v0 : Ref sig .tc := ⟨.hbm, 217, rfl⟩
abbrev main_call4_call0_v1 : Ref sig .tc := ⟨.hbm, 218, rfl⟩
abbrev main_v111 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_cst_27 : Ref sig .tc := ⟨.hbm, 223, rfl⟩
abbrev main_v115 : Ref sig .tc := ⟨.hbm, 224, rfl⟩
abbrev main_v116 : Ref sig .tc := ⟨.hbm, 225, rfl⟩
abbrev main_v117 : Ref sig .tc := ⟨.hbm, 226, rfl⟩
abbrev main_v118 : Ref sig .tc := ⟨.hbm, 227, rfl⟩
abbrev main_v119 : Ref sig .tc := ⟨.hbm, 228, rfl⟩
abbrev main_v120 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_cst_28 : Ref sig .tc := ⟨.hbm, 236, rfl⟩
abbrev main_v127 : Ref sig .tc := ⟨.hbm, 237, rfl⟩
abbrev main_v128 : Ref sig .tc := ⟨.hbm, 238, rfl⟩
abbrev main_cst_29 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_cst_30 : Ref sig .tc := ⟨.hbm, 250, rfl⟩
abbrev main_v139 : Ref sig .tc := ⟨.hbm, 251, rfl⟩
abbrev main_cst_31 : Ref sig .tc := ⟨.hbm, 252, rfl⟩
abbrev main_v140 : Ref sig .tc := ⟨.hbm, 253, rfl⟩
abbrev main_v141 : Ref sig .tc := ⟨.hbm, 254, rfl⟩
abbrev main_c_32 : Ref sig .tc := ⟨.hbm, 255, rfl⟩
abbrev main_call6_cst : Ref sig .tc := ⟨.hbm, 256, rfl⟩
abbrev main_call6_v0 : Ref sig .tc := ⟨.hbm, 257, rfl⟩
abbrev main_call6_v1 : Ref sig .tc := ⟨.hbm, 258, rfl⟩
abbrev main_call6_cst_0 : Ref sig .tc := ⟨.hbm, 259, rfl⟩
abbrev main_call6_v2 : Ref sig .tc := ⟨.hbm, 260, rfl⟩
abbrev main_call6_v3 : Ref sig .tc := ⟨.hbm, 261, rfl⟩
abbrev main_call6_v4 : Ref sig .tc := ⟨.hbm, 262, rfl⟩
abbrev main_call6_v5 : Ref sig .tc := ⟨.hbm, 263, rfl⟩
abbrev main_call6_v6 : Ref sig .tc := ⟨.hbm, 264, rfl⟩
abbrev main_call6_v7 : Ref sig .tc := ⟨.hbm, 265, rfl⟩
abbrev main_call6_cst_1 : Ref sig .tc := ⟨.hbm, 266, rfl⟩
abbrev main_call6_v8 : Ref sig .tc := ⟨.hbm, 267, rfl⟩
abbrev main_call6_cst_2 : Ref sig .tc := ⟨.hbm, 268, rfl⟩
abbrev main_call6_v9 : Ref sig .tc := ⟨.hbm, 269, rfl⟩
abbrev main_call6_v10 : Ref sig .tc := ⟨.hbm, 270, rfl⟩
abbrev main_call6_v11 : Ref sig .tc := ⟨.hbm, 271, rfl⟩
abbrev main_call6_cst_3 : Ref sig .tc := ⟨.hbm, 272, rfl⟩
abbrev main_call6_v12 : Ref sig .tc := ⟨.hbm, 273, rfl⟩
abbrev main_call6_cst_4 : Ref sig .tc := ⟨.hbm, 274, rfl⟩
abbrev main_call6_call0_v0 : Ref sig .tc := ⟨.hbm, 275, rfl⟩
abbrev main_call6_call0_v1 : Ref sig .tc := ⟨.hbm, 276, rfl⟩
abbrev main_v142 : Ref sig .tc := ⟨.hbm, 277, rfl⟩
abbrev main_v143 : Ref sig .tc := ⟨.hbm, 278, rfl⟩
abbrev main_v144 : Ref sig .tc := ⟨.hbm, 279, rfl⟩
abbrev main_v145 : Ref sig .tc := ⟨.hbm, 280, rfl⟩
abbrev main_cst_33 : Ref sig .tc := ⟨.hbm, 281, rfl⟩
abbrev main_v146 : Ref sig .tc := ⟨.hbm, 282, rfl⟩
abbrev main_v147 : Ref sig .tc := ⟨.hbm, 283, rfl⟩
abbrev main_v148 : Ref sig .tc := ⟨.hbm, 284, rfl⟩
abbrev main_v149 : Ref sig .tc := ⟨.hbm, 285, rfl⟩
abbrev main_v150 : Ref sig .tc := ⟨.hbm, 286, rfl⟩
abbrev main_v151 : Ref sig .tc := ⟨.hbm, 287, rfl⟩
abbrev main_v152 : Ref sig .tc := ⟨.hbm, 288, rfl⟩
abbrev main_v153 : Ref sig .tc := ⟨.hbm, 289, rfl⟩
abbrev main_v154 : Ref sig .tc := ⟨.hbm, 290, rfl⟩
abbrev main_v155 : Ref sig .tc := ⟨.hbm, 291, rfl⟩
abbrev main_v156 : Ref sig .tc := ⟨.hbm, 292, rfl⟩
abbrev main_v157 : Ref sig .tc := ⟨.hbm, 293, rfl⟩
abbrev main_cst_34 : Ref sig .tc := ⟨.hbm, 294, rfl⟩
abbrev main_v158 : Ref sig .tc := ⟨.hbm, 295, rfl⟩
abbrev main_v159 : Ref sig .tc := ⟨.hbm, 296, rfl⟩
abbrev main_cst_35 : Ref sig .tc := ⟨.hbm, 297, rfl⟩
abbrev main_v160 : Ref sig .tc := ⟨.hbm, 298, rfl⟩
abbrev main_v161 : Ref sig .tc := ⟨.hbm, 299, rfl⟩
abbrev main_v162 : Ref sig .tc := ⟨.hbm, 300, rfl⟩
abbrev main_v163 : Ref sig .tc := ⟨.hbm, 301, rfl⟩
abbrev main_v164 : Ref sig .tc := ⟨.hbm, 302, rfl⟩
abbrev main_v165 : Ref sig .tc := ⟨.hbm, 303, rfl⟩
abbrev main_v166 : Ref sig .tc := ⟨.hbm, 304, rfl⟩
abbrev main_v167 : Ref sig .tc := ⟨.hbm, 305, rfl⟩
abbrev main_cst_36 : Ref sig .tc := ⟨.hbm, 306, rfl⟩
abbrev main_v168 : Ref sig .tc := ⟨.hbm, 307, rfl⟩
abbrev main_cst_37 : Ref sig .tc := ⟨.hbm, 308, rfl⟩
abbrev main_v169 : Ref sig .tc := ⟨.hbm, 309, rfl⟩
abbrev main_v170 : Ref sig .tc := ⟨.hbm, 310, rfl⟩
abbrev main_v171 : Ref sig .tc := ⟨.hbm, 311, rfl⟩
abbrev main_v172 : Ref sig .tc := ⟨.hbm, 312, rfl⟩
abbrev main_v173 : Ref sig .tc := ⟨.hbm, 313, rfl⟩
abbrev main_v174 : Ref sig .tc := ⟨.hbm, 314, rfl⟩
abbrev main_cst_38 : Ref sig .tc := ⟨.hbm, 315, rfl⟩
abbrev main_v175 : Ref sig .tc := ⟨.hbm, 316, rfl⟩
abbrev main_v176 : Ref sig .tc := ⟨.hbm, 317, rfl⟩
abbrev main_v177 : Ref sig .tc := ⟨.hbm, 318, rfl⟩
abbrev main_v178 : Ref sig .tc := ⟨.hbm, 319, rfl⟩
abbrev main_v179 : Ref sig .tc := ⟨.hbm, 320, rfl⟩
abbrev main_v180 : Ref sig .tc := ⟨.hbm, 321, rfl⟩
abbrev main_v181 : Ref sig .tc := ⟨.hbm, 322, rfl⟩
abbrev main_v182 : Ref sig .tc := ⟨.hbm, 323, rfl⟩
abbrev main_v183 : Ref sig .tc := ⟨.hbm, 324, rfl⟩
abbrev main_v184 : Ref sig .tc := ⟨.hbm, 325, rfl⟩
abbrev main_v185 : Ref sig .tc := ⟨.hbm, 326, rfl⟩
abbrev main_v186 : Ref sig .tc := ⟨.hbm, 327, rfl⟩
abbrev main_c_39 : Ref sig .tc := ⟨.hbm, 328, rfl⟩
abbrev main_v187 : Ref sig .tc := ⟨.hbm, 329, rfl⟩
abbrev main_v188 : Ref sig .tc := ⟨.hbm, 330, rfl⟩
abbrev main_v189 : Ref sig .tc := ⟨.hbm, 331, rfl⟩
abbrev main_v190 : Ref sig .tc := ⟨.hbm, 332, rfl⟩
abbrev main_cst_40 : Ref sig .tc := ⟨.hbm, 333, rfl⟩
abbrev main_v191 : Ref sig .tc := ⟨.hbm, 334, rfl⟩
abbrev main_v192 : Ref sig .tc := ⟨.hbm, 335, rfl⟩
abbrev main_v193 : Ref sig .tc := ⟨.hbm, 336, rfl⟩
abbrev main_cst_41 : Ref sig .tc := ⟨.hbm, 337, rfl⟩
abbrev main_v194 : Ref sig .tc := ⟨.hbm, 338, rfl⟩
abbrev main_cst_42 : Ref sig .tc := ⟨.hbm, 339, rfl⟩
abbrev main_v195 : Ref sig .tc := ⟨.hbm, 340, rfl⟩
abbrev main_v196 : Ref sig .tc := ⟨.hbm, 341, rfl⟩
abbrev main_v197 : Ref sig .tc := ⟨.hbm, 342, rfl⟩
abbrev main_v198 : Ref sig .tc := ⟨.hbm, 343, rfl⟩
abbrev main_v199 : Ref sig .tc := ⟨.hbm, 344, rfl⟩
abbrev main_v200 : Ref sig .tc := ⟨.hbm, 345, rfl⟩
abbrev main_v201 : Ref sig .tc := ⟨.hbm, 346, rfl⟩
abbrev main_v202 : Ref sig .tc := ⟨.hbm, 347, rfl⟩
abbrev main_v203 : Ref sig .tc := ⟨.hbm, 348, rfl⟩
abbrev main_v204 : Ref sig .tc := ⟨.hbm, 349, rfl⟩
abbrev main_v205 : Ref sig .tc := ⟨.hbm, 350, rfl⟩
abbrev main_v206 : Ref sig .tc := ⟨.hbm, 351, rfl⟩
abbrev main_call8_v0 : Ref sig .tc := ⟨.hbm, 352, rfl⟩
abbrev main_call8_v1 : Ref sig .tc := ⟨.hbm, 353, rfl⟩
abbrev main_call8_c : Ref sig .tc := ⟨.hbm, 354, rfl⟩
abbrev main_call8_v2 : Ref sig .tc := ⟨.hbm, 355, rfl⟩
abbrev main_call8_v3 : Ref sig .tc := ⟨.hbm, 356, rfl⟩
abbrev main_call8_c_0 : Ref sig .tc := ⟨.hbm, 357, rfl⟩
abbrev main_call8_v4 : Ref sig .tc := ⟨.hbm, 358, rfl⟩
abbrev main_call8_v5 : Ref sig .tc := ⟨.hbm, 359, rfl⟩
abbrev main_call8_v6 : Ref sig .tc := ⟨.hbm, 360, rfl⟩
abbrev main_call8_c_1 : Ref sig .tc := ⟨.hbm, 361, rfl⟩
abbrev main_call8_v7 : Ref sig .tc := ⟨.hbm, 362, rfl⟩
abbrev main_call8_v8 : Ref sig .tc := ⟨.hbm, 363, rfl⟩
abbrev main_call8_c_2 : Ref sig .tc := ⟨.hbm, 364, rfl⟩
abbrev main_call8_v9 : Ref sig .tc := ⟨.hbm, 365, rfl⟩
abbrev main_call8_v10 : Ref sig .tc := ⟨.hbm, 366, rfl⟩
abbrev main_call8_v11 : Ref sig .tc := ⟨.hbm, 367, rfl⟩
abbrev main_call8_v12 : Ref sig .tc := ⟨.hbm, 368, rfl⟩
abbrev main_call8_v13 : Ref sig .tc := ⟨.hbm, 369, rfl⟩
abbrev main_call8_v14 : Ref sig .tc := ⟨.hbm, 370, rfl⟩
abbrev main_v207 : Ref sig .tc := ⟨.hbm, 371, rfl⟩
abbrev main_v208 : Ref sig .tc := ⟨.hbm, 372, rfl⟩
abbrev main_v209 : Ref sig .tc := ⟨.hbm, 373, rfl⟩
abbrev main_v210 : Ref sig .tc := ⟨.hbm, 374, rfl⟩
abbrev main_v211 : Ref sig .tc := ⟨.hbm, 375, rfl⟩
abbrev main_v212 : Ref sig .tc := ⟨.hbm, 376, rfl⟩
abbrev main_v213 : Ref sig .tc := ⟨.hbm, 377, rfl⟩
abbrev main_v214 : Ref sig .tc := ⟨.hbm, 378, rfl⟩
abbrev main_v215 : Ref sig .tc := ⟨.hbm, 379, rfl⟩
abbrev main_v216 : Ref sig .tc := ⟨.hbm, 380, rfl⟩
abbrev main_v217 : Ref sig .tc := ⟨.hbm, 381, rfl⟩
abbrev main_v218 : Ref sig .tc := ⟨.hbm, 382, rfl⟩
abbrev main_v219 : Ref sig .tc := ⟨.hbm, 383, rfl⟩
abbrev main_v220 : Ref sig .tc := ⟨.hbm, 384, rfl⟩
abbrev main_v221 : Ref sig .tc := ⟨.hbm, 385, rfl⟩
abbrev main_v222 : Ref sig .tc := ⟨.hbm, 386, rfl⟩
abbrev main_v223 : Ref sig .tc := ⟨.hbm, 387, rfl⟩
abbrev main_v224 : Ref sig .tc := ⟨.hbm, 388, rfl⟩
abbrev main_v225 : Ref sig .tc := ⟨.hbm, 389, rfl⟩
abbrev main_v226 : Ref sig .tc := ⟨.hbm, 390, rfl⟩
abbrev main_v227 : Ref sig .tc := ⟨.hbm, 391, rfl⟩
abbrev main_v228 : Ref sig .tc := ⟨.hbm, 392, rfl⟩
abbrev main_v229 : Ref sig .tc := ⟨.hbm, 393, rfl⟩
abbrev main_v230 : Ref sig .tc := ⟨.hbm, 394, rfl⟩
abbrev main_v231 : Ref sig .tc := ⟨.hbm, 395, rfl⟩
abbrev main_v232 : Ref sig .tc := ⟨.hbm, 396, rfl⟩
abbrev main_v233 : Ref sig .tc := ⟨.hbm, 397, rfl⟩
abbrev main_cst_43 : Ref sig .tc := ⟨.hbm, 398, rfl⟩
abbrev main_call9_v0 : Ref sig .tc := ⟨.hbm, 399, rfl⟩
abbrev main_call9_v1 : Ref sig .tc := ⟨.hbm, 400, rfl⟩
abbrev main_v234 : Ref sig .tc := ⟨.hbm, 401, rfl⟩
abbrev main_v235 : Ref sig .tc := ⟨.hbm, 402, rfl⟩
abbrev main_v236 : Ref sig .tc := ⟨.hbm, 403, rfl⟩
abbrev main_cst_44 : Ref sig .tc := ⟨.hbm, 404, rfl⟩
abbrev main_call10_v0 : Ref sig .tc := ⟨.hbm, 405, rfl⟩
abbrev main_call10_v1 : Ref sig .tc := ⟨.hbm, 406, rfl⟩
abbrev main_v237 : Ref sig .tc := ⟨.hbm, 407, rfl⟩
abbrev main_v238 : Ref sig .tc := ⟨.hbm, 408, rfl⟩
abbrev main_v239 : Ref sig .tc := ⟨.hbm, 409, rfl⟩
abbrev main_v240 : Ref sig .tc := ⟨.hbm, 410, rfl⟩
abbrev main_v241 : Ref sig .tc := ⟨.hbm, 411, rfl⟩
abbrev main_v242 : Ref sig .tc := ⟨.hbm, 412, rfl⟩
abbrev main_v243 : Ref sig .tc := ⟨.hbm, 413, rfl⟩
abbrev main_v244 : Ref sig .tc := ⟨.hbm, 414, rfl⟩
abbrev main_v245 : Ref sig .tc := ⟨.hbm, 415, rfl⟩
abbrev main_cst_45 : Ref sig .tc := ⟨.hbm, 416, rfl⟩
abbrev main_v246 : Ref sig .tc := ⟨.hbm, 417, rfl⟩
abbrev main_v247 : Ref sig .tc := ⟨.hbm, 418, rfl⟩
abbrev main_v248 : Ref sig .tc := ⟨.hbm, 419, rfl⟩
abbrev main_v249 : Ref sig .tc := ⟨.hbm, 420, rfl⟩
abbrev main_v250 : Ref sig .tc := ⟨.hbm, 421, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S64x64_S64x64_1_0 : S64x64.Transposes [1, 0] S64x64
  bcast_S_S64x64 : S_.BroadcastsInDim S64x64 (![] : Fin 0 → Fin S64x64.rank)
  reducesTo_S64x64_S_d0_1 : S64x64.ReducesTo [0, 1] S_
  h_S_ : 0 < S_.numel
  transposes_S256x128_S128x256_1_0 : S256x128.Transposes [1, 0] S128x256
  reducesTo_S16384x256_S256_d0 : S16384x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S64x256_S256x64_1_0 : S64x256.Transposes [1, 0] S256x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S_d0_1 : S16384x64.ReducesTo [0, 1] S_
  transposes_S256x64_S64x256_1_0 : S256x64.Transposes [1, 0] S64x256
  reducesTo_S2048x256_S256_d0 : S2048x256.ReducesTo [0] S256
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  transposes_S128x256_S256x128_1_0 : S128x256.Transposes [1, 0] S256x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S16384x128_S16384_d1 : S16384x128.ReducesTo [1] S16384
  transposes_S16384x1_S1x16384_1_0 : S16384x1.Transposes [1, 0] S1x16384
  inb_S512x1_S512x1_0_0 : ∀ a, (![0, 0] : Fin 2 → Nat) a + S512x1.size a ≤ S512x1.size a
  h_S512x1 : 0 < S512x1.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  shapeCasts_S512x1_S512x1 : S512x1.ShapeCasts S512x1
  reducesTo_S2048x128_S2048_d1 : S2048x128.ReducesTo [1] S2048
  bcast_S2048_S2048x1_0 : S2048.BroadcastsInDim S2048x1 (![0] : Fin 1 → Fin S2048x1.rank)
  reducesTo_S2048x1_S_d0_1 : S2048x1.ReducesTo [0, 1] S_
  reducesTo_S8192x256_S256_d0 : S8192x256.ReducesTo [0] S256
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1x128_S8192x128_0_1 : S1x128.BroadcastsInDim S8192x128 (![0, 1] : Fin 2 → Fin S8192x128.rank)
  bcast_S1x64_S8192x64_0_1 : S1x64.BroadcastsInDim S8192x64 (![0, 1] : Fin 2 → Fin S8192x64.rank)
  reducesTo_S8192x64_S64_d0 : S8192x64.ReducesTo [0] S64
  bcast_S_S64 : S_.BroadcastsInDim S64 (![] : Fin 0 → Fin S64.rank)
  transposes_S8192x64_S64x8192_1_0 : S8192x64.Transposes [1, 0] S64x8192
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S64x64_S64x64x1_0_1 : S64x64.BroadcastsInDim S64x64x1 (![0, 1] : Fin 2 → Fin S64x64x1.rank)
  bcast_S64x64_S64x1x64_0_2 : S64x64.BroadcastsInDim S64x1x64 (![0, 2] : Fin 2 → Fin S64x1x64.rank)
  bcast_S64x64x1_S64x64x64_0_1_2 : S64x64x1.BroadcastsInDim S64x64x64 (![0, 1, 2] : Fin 3 → Fin S64x64x64.rank)
  bcast_S64x1x64_S64x64x64_0_1_2 : S64x1x64.BroadcastsInDim S64x64x64 (![0, 1, 2] : Fin 3 → Fin S64x64x64.rank)
  bcast_S64x64_S1x64x64_1_2 : S64x64.BroadcastsInDim S1x64x64 (![1, 2] : Fin 2 → Fin S1x64x64.rank)
  bcast_S64_S64x1x1_0 : S64.BroadcastsInDim S64x1x1 (![0] : Fin 1 → Fin S64x1x1.rank)
  bcast_S64x1x1_S64x64x64_0_1_2 : S64x1x1.BroadcastsInDim S64x64x64 (![0, 1, 2] : Fin 3 → Fin S64x64x64.rank)
  bcast_S1x64x64_S64x64x64_0_1_2 : S1x64x64.BroadcastsInDim S64x64x64 (![0, 1, 2] : Fin 3 → Fin S64x64x64.rank)
  concatenates_S64x1_S64x1_S64x2_d1 : Shape.Concatenates [S64x1, S64x1] S64x2 1
  bcast_S64_S1x64x1_1 : S64.BroadcastsInDim S1x64x1 (![1] : Fin 1 → Fin S1x64x1.rank)
  bcast_S1x64x1_S64x64x1_0_1_2 : S1x64x1.BroadcastsInDim S64x64x1 (![0, 1, 2] : Fin 3 → Fin S64x64x1.rank)
  bcast_S64x1x1_S64x64x1_0_1_2 : S64x1x1.BroadcastsInDim S64x64x1 (![0, 1, 2] : Fin 3 → Fin S64x64x1.rank)
  bcast_S64_S1x1x64_2 : S64.BroadcastsInDim S1x1x64 (![2] : Fin 1 → Fin S1x1x64.rank)
  bcast_S1x1x64_S64x1x64_0_1_2 : S1x1x64.BroadcastsInDim S64x1x64 (![0, 1, 2] : Fin 3 → Fin S64x1x64.rank)
  bcast_S64x1x1_S64x1x64_0_1_2 : S64x1x1.BroadcastsInDim S64x1x64 (![0, 1, 2] : Fin 3 → Fin S64x1x64.rank)
  bcast_S1x64x1_S1x64x64_0_1_2 : S1x64x1.BroadcastsInDim S1x64x64 (![0, 1, 2] : Fin 3 → Fin S1x64x64.rank)
  bcast_S1x1x64_S1x64x64_0_1_2 : S1x1x64.BroadcastsInDim S1x64x64 (![0, 1, 2] : Fin 3 → Fin S1x64x64.rank)
  bcast_S_S64x64x64 : S_.BroadcastsInDim S64x64x64 (![] : Fin 0 → Fin S64x64x64.rank)
  reducesTo_S64x64x64_S_d0_1_2 : S64x64x64.ReducesTo [0, 1, 2] S_
  dot_S64x64_S64x64_S64x64_1_0_0_1_n_n_wf : DotDims.WF S64x64 S64x64 S64x64 [1] [0] [0] [1] [] []
  dot_S16384x128_S128x256_S16384x256_1_0_0_1_n_n_wf : DotDims.WF S16384x128 S128x256 S16384x256 [1] [0] [0] [1] [] []
  dot_S16384x256_S256x64_S16384x64_1_0_0_1_n_n_wf : DotDims.WF S16384x256 S256x64 S16384x64 [1] [0] [0] [1] [] []
  dot_S2048x64_S64x256_S2048x256_1_0_0_1_n_n_wf : DotDims.WF S2048x64 S64x256 S2048x256 [1] [0] [0] [1] [] []
  dot_S2048x256_S256x128_S2048x128_1_0_0_1_n_n_wf : DotDims.WF S2048x256 S256x128 S2048x128 [1] [0] [0] [1] [] []
  gather_S16384x128_S16384x1_S16384x128_1_0_n_n_0_1_1128_wf : GatherDims.WF S16384x128 S16384x1 S16384x128 [1] [0] [] [0] [] 1 ![1, 128]
  dot_S512x128_S2048x128_S512x2048_1_1_0_0_n_n_wf : DotDims.WF S512x128 S2048x128 S512x2048 [1] [1] [0] [0] [] []
  dot_S8192x64_S64x256_S8192x256_1_0_0_1_n_n_wf : DotDims.WF S8192x64 S64x256 S8192x256 [1] [0] [0] [1] [] []
  dot_S8192x256_S256x128_S8192x128_1_0_0_1_n_n_wf : DotDims.WF S8192x256 S256x128 S8192x128 [1] [0] [0] [1] [] []
  dot_S8192x128_S128x256_S8192x256_1_0_0_1_n_n_wf : DotDims.WF S8192x128 S128x256 S8192x256 [1] [0] [0] [1] [] []
  dot_S8192x256_S256x64_S8192x64_1_0_0_1_n_n_wf : DotDims.WF S8192x256 S256x64 S8192x64 [1] [0] [0] [1] [] []
  dot_S64x8192_S8192x64_S64x64_1_0_0_1_n_n_wf : DotDims.WF S64x8192 S8192x64 S64x64 [1] [0] [0] [1] [] []
  gather_S64x64x64_S64x2_S64x64_0_12_n_n_12_1_6411_wf : GatherDims.WF S64x64x64 S64x2 S64x64 [0] [1, 2] [] [1, 2] [] 1 ![64, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x128.size a
  hwx0_0 : ∀ i : grid0.Coords, EltTy.bits .f32 = 32 ∨ (Rect.block (s := S2048x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .f32 = 32 ∨ (Rect.block (s := S16384x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S2048x1.size a
  hwx0_3 : ∀ i : grid0.Coords, EltTy.bits .f32 = 32 ∨ (Rect.block (s := S2048x1) S512x1.size (cc0_transform_3 i) (hinb0_3 i)).WholeWords (EltTy.packing .f32)

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S16384x128_S16384x1_S16384x128_1_0_n_n_0_1_1128 : GatherDims S16384x128 S16384x1 S16384x128 where
  offsetDims := [1]
  collapsedSliceDims := [0]
  operandBatchingDims := []
  startIndicesBatchingDims := []
  startIndexMap := [0]
  indexVectorDim := 1
  sliceSizes := ![1, 128]
  wf := gather_S16384x128_S16384x1_S16384x128_1_0_n_n_0_1_1128_wf
def dot_S512x128_S2048x128_S512x2048_1_1_0_0_n_n : DotDims S512x128 S2048x128 S512x2048 where
  lhsContracting := [1]
  rhsContracting := [1]
  lhsNonContracting := [0]
  rhsNonContracting := [0]
  lhsBatch := []
  rhsBatch := []
  wf := dot_S512x128_S2048x128_S512x2048_1_1_0_0_n_n_wf
def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S64x8192_S8192x64_S64x64_1_0_0_1_n_n : DotDims S64x8192 S8192x64 S64x64 where
  lhsContracting := [1]
  rhsContracting := [0]
  lhsNonContracting := [0]
  rhsNonContracting := [1]
  lhsBatch := []
  rhsBatch := []
  wf := dot_S64x8192_S8192x64_S64x64_1_0_0_1_n_n_wf
def gather_S64x64x64_S64x2_S64x64_0_12_n_n_12_1_6411 : GatherDims S64x64x64 S64x2 S64x64 where
  offsetDims := [0]
  collapsedSliceDims := [1, 2]
  operandBatchingDims := []
  startIndicesBatchingDims := []
  startIndexMap := [1, 2]
  indexVectorDim := 1
  sliceSizes := ![64, 1, 1]
  wf := gather_S64x64x64_S64x2_S64x64_0_12_n_n_12_1_6411_wf

abbrev win0_0 : Pipeline.Window sig grid0 :=
  Pipeline.Window.ofSpec (Memref.whole main_v86) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v93) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v97) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v98) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x64 : Shape := ⟨2, ![16384, 64]⟩
abbrev S2048x64 : Shape := ⟨2, ![2048, 64]⟩
abbrev S8192x64 : Shape := ⟨2, ![8192, 64]⟩
abbrev S64x64 : Shape := ⟨2, ![64, 64]⟩
abbrev S16384x128 : Shape := ⟨2, ![16384, 128]⟩
abbrev S256x128 : Shape := ⟨2, ![256, 128]⟩
abbrev S256 : Shape := ⟨1, ![256]⟩
abbrev S64x256 : Shape := ⟨2, ![64, 256]⟩
abbrev S64 : Shape := ⟨1, ![64]⟩
abbrev S256x64 : Shape := ⟨2, ![256, 64]⟩
abbrev S128x256 : Shape := ⟨2, ![128, 256]⟩
abbrev S128 : Shape := ⟨1, ![128]⟩
abbrev S16384 : Shape := ⟨1, ![16384]⟩
abbrev S_ : Shape := ⟨0, ![]⟩
abbrev S16384x256 : Shape := ⟨2, ![16384, 256]⟩
abbrev S1x256 : Shape := ⟨2, ![1, 256]⟩
abbrev S1x64 : Shape := ⟨2, ![1, 64]⟩
abbrev S2048x256 : Shape := ⟨2, ![2048, 256]⟩
abbrev S2048x128 : Shape := ⟨2, ![2048, 128]⟩
abbrev S1x128 : Shape := ⟨2, ![1, 128]⟩
abbrev S16384x1 : Shape := ⟨2, ![16384, 1]⟩
abbrev S2048 : Shape := ⟨1, ![2048]⟩
abbrev S2048x1 : Shape := ⟨2, ![2048, 1]⟩
abbrev S1x16384 : Shape := ⟨2, ![1, 16384]⟩
abbrev S2048x16384 : Shape := ⟨2, ![2048, 16384]⟩
abbrev S128x16384 : Shape := ⟨2, ![128, 16384]⟩
abbrev S8192x256 : Shape := ⟨2, ![8192, 256]⟩
abbrev S8192x128 : Shape := ⟨2, ![8192, 128]⟩
abbrev S64x8192 : Shape := ⟨2, ![64, 8192]⟩
abbrev S64x1 : Shape := ⟨2, ![64, 1]⟩
abbrev S1x8192x64 : Shape := ⟨3, ![1, 8192, 64]⟩
abbrev S64x8192x1 : Shape := ⟨3, ![64, 8192, 1]⟩
abbrev S64x1x64 : Shape := ⟨3, ![64, 1, 64]⟩
abbrev S64x8192x64 : Shape := ⟨3, ![64, 8192, 64]⟩
abbrev S64x64x64 : Shape := ⟨3, ![64, 64, 64]⟩
abbrev S64x64x1 : Shape := ⟨3, ![64, 64, 1]⟩
abbrev S1x64x1 : Shape := ⟨3, ![1, 64, 1]⟩
abbrev S64x1x1 : Shape := ⟨3, ![64, 1, 1]⟩
abbrev S1x1x64 : Shape := ⟨3, ![1, 1, 64]⟩
abbrev S1x64x64 : Shape := ⟨3, ![1, 64, 64]⟩

abbrev nBuf : Space → Nat
  | .hbm => 439
  | .vmem => 0
  | .smem => 0
  | _ => 0

abbrev hbmTy0_0 (i : Nat) : BufTy := match i % 128 with
  | 0 => ⟨S16384x64, .f32⟩
  | 1 => ⟨S2048x64, .f32⟩
  | 2 => ⟨S8192x64, .f32⟩
  | 3 => ⟨S64x64, .f32⟩
  | 4 => ⟨S16384x128, .f32⟩
  | 5 => ⟨S256x128, .f32⟩
  | 6 => ⟨S256, .f32⟩
  | 7 => ⟨S256, .f32⟩
  | 8 => ⟨S64x256, .f32⟩
  | 9 => ⟨S64, .f32⟩
  | 10 => ⟨S256x64, .f32⟩
  | 11 => ⟨S256, .f32⟩
  | 12 => ⟨S256, .f32⟩
  | 13 => ⟨S128x256, .f32⟩
  | 14 => ⟨S128, .f32⟩
  | 15 => ⟨S16384, .i32⟩
  | 16 => ⟨S64x64, .f32⟩
  | 17 => ⟨S64x64, .f32⟩
  | 18 => ⟨S64x64, .f32⟩
  | 19 => ⟨S64x64, .f32⟩
  | 20 => ⟨S_, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x64, .i32⟩
  | 27 => ⟨S64x64, .i32⟩
  | 28 => ⟨S_, .i32⟩
  | 29 => ⟨S64x64, .i32⟩
  | 30 => ⟨S64x64, .i32⟩
  | 31 => ⟨S64x64, .i1⟩
  | 32 => ⟨S64x64, .f32⟩
  | 33 => ⟨S_, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S_, .f32⟩
  | 41 => ⟨S_, .f32⟩
  | 42 => ⟨S128x256, .f32⟩
  | 43 => ⟨S16384x256, .f32⟩
  | 44 => ⟨S_, .f32⟩
  | 45 => ⟨S256, .f32⟩
  | 46 => ⟨S_, .f32⟩
  | 47 => ⟨S256, .f32⟩
  | 48 => ⟨S256, .f32⟩
  | 49 => ⟨S_, .i32⟩
  | 50 => ⟨S_, .f32⟩
  | 51 => ⟨S256, .f32⟩
  | 52 => ⟨S1x256, .f32⟩
  | 53 => ⟨S_, .f32⟩
  | 54 => ⟨S1x256, .f32⟩
  | 55 => ⟨S1x256, .f32⟩
  | 56 => ⟨S16384x256, .f32⟩
  | 57 => ⟨S16384x256, .f32⟩
  | 58 => ⟨S16384x256, .f32⟩
  | 59 => ⟨S_, .f32⟩
  | 60 => ⟨S_, .f32⟩
  | 61 => ⟨S_, .f32⟩
  | 62 => ⟨S_, .f32⟩
  | 63 => ⟨S256, .f32⟩
  | 64 => ⟨S256, .f32⟩
  | 65 => ⟨S256, .f32⟩
  | 66 => ⟨S_, .f32⟩
  | 67 => ⟨S_, .i1⟩
  | 68 => ⟨S_, .f32⟩
  | 69 => ⟨S_, .f32⟩
  | 70 => ⟨S256, .f32⟩
  | 71 => ⟨S256, .f32⟩
  | 72 => ⟨S1x256, .f32⟩
  | 73 => ⟨S16384x256, .f32⟩
  | 74 => ⟨S16384x256, .f32⟩
  | 75 => ⟨S_, .f32⟩
  | 76 => ⟨S256, .f32⟩
  | 77 => ⟨S256, .f32⟩
  | 78 => ⟨S256, .f32⟩
  | 79 => ⟨S1x256, .f32⟩
  | 80 => ⟨S16384x256, .f32⟩
  | 81 => ⟨S16384x256, .f32⟩
  | 82 => ⟨S1x256, .f32⟩
  | 83 => ⟨S16384x256, .f32⟩
  | 84 => ⟨S16384x256, .f32⟩
  | 85 => ⟨S1x256, .f32⟩
  | 86 => ⟨S16384x256, .f32⟩
  | 87 => ⟨S16384x256, .f32⟩
  | 88 => ⟨S_, .f32⟩
  | 89 => ⟨S16384x256, .f32⟩
  | 90 => ⟨S16384x256, .i1⟩
  | 91 => ⟨S_, .f32⟩
  | 92 => ⟨S16384x256, .f32⟩
  | 93 => ⟨S16384x256, .f32⟩
  | 94 => ⟨S16384x256, .f32⟩
  | 95 => ⟨S256x64, .f32⟩
  | 96 => ⟨S16384x64, .f32⟩
  | 97 => ⟨S1x64, .f32⟩
  | 98 => ⟨S16384x64, .f32⟩
  | 99 => ⟨S16384x64, .f32⟩
  | 100 => ⟨S16384x64, .f32⟩
  | 101 => ⟨S16384x64, .f32⟩
  | 102 => ⟨S_, .f32⟩
  | 103 => ⟨S_, .f32⟩
  | 104 => ⟨S_, .f32⟩
  | 105 => ⟨S_, .f32⟩
  | 106 => ⟨S64x256, .f32⟩
  | 107 => ⟨S2048x256, .f32⟩
  | 108 => ⟨S_, .f32⟩
  | 109 => ⟨S256, .f32⟩
  | 110 => ⟨S_, .f32⟩
  | 111 => ⟨S256, .f32⟩
  | 112 => ⟨S256, .f32⟩
  | 113 => ⟨S_, .i32⟩
  | 114 => ⟨S_, .f32⟩
  | 115 => ⟨S256, .f32⟩
  | 116 => ⟨S1x256, .f32⟩
  | 117 => ⟨S_, .f32⟩
  | 118 => ⟨S1x256, .f32⟩
  | 119 => ⟨S1x256, .f32⟩
  | 120 => ⟨S2048x256, .f32⟩
  | 121 => ⟨S2048x256, .f32⟩
  | 122 => ⟨S2048x256, .f32⟩
  | 123 => ⟨S_, .f32⟩
  | 124 => ⟨S_, .f32⟩
  | 125 => ⟨S_, .f32⟩
  | 126 => ⟨S_, .f32⟩
  | 127 => ⟨S256, .f32⟩
  | _ => ⟨S16384x64, .f32⟩

abbrev hbmTy0_1 (i : Nat) : BufTy := match i % 128 with
  | 0 => ⟨S256, .f32⟩
  | 1 => ⟨S256, .f32⟩
  | 2 => ⟨S_, .f32⟩
  | 3 => ⟨S_, .i1⟩
  | 4 => ⟨S_, .f32⟩
  | 5 => ⟨S_, .f32⟩
  | 6 => ⟨S256, .f32⟩
  | 7 => ⟨S256, .f32⟩
  | 8 => ⟨S1x256, .f32⟩
  | 9 => ⟨S2048x256, .f32⟩
  | 10 => ⟨S2048x256, .f32⟩
  | 11 => ⟨S_, .f32⟩
  | 12 => ⟨S256, .f32⟩
  | 13 => ⟨S256, .f32⟩
  | 14 => ⟨S256, .f32⟩
  | 15 => ⟨S1x256, .f32⟩
  | 16 => ⟨S2048x256, .f32⟩
  | 17 => ⟨S2048x256, .f32⟩
  | 18 => ⟨S1x256, .f32⟩
  | 19 => ⟨S2048x256, .f32⟩
  | 20 => ⟨S2048x256, .f32⟩
  | 21 => ⟨S1x256, .f32⟩
  | 22 => ⟨S2048x256, .f32⟩
  | 23 => ⟨S2048x256, .f32⟩
  | 24 => ⟨S_, .f32⟩
  | 25 => ⟨S2048x256, .f32⟩
  | 26 => ⟨S2048x256, .i1⟩
  | 27 => ⟨S_, .f32⟩
  | 28 => ⟨S2048x256, .f32⟩
  | 29 => ⟨S2048x256, .f32⟩
  | 30 => ⟨S2048x256, .f32⟩
  | 31 => ⟨S256x128, .f32⟩
  | 32 => ⟨S2048x128, .f32⟩
  | 33 => ⟨S1x128, .f32⟩
  | 34 => ⟨S2048x128, .f32⟩
  | 35 => ⟨S2048x128, .f32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x128, .f32⟩
  | 45 => ⟨S2048x128, .f32⟩
  | 46 => ⟨S_, .f32⟩
  | 47 => ⟨S2048, .f32⟩
  | 48 => ⟨S2048x1, .f32⟩
  | 49 => ⟨S16384x128, .f32⟩
  | 50 => ⟨S_, .f32⟩
  | 51 => ⟨S16384, .f32⟩
  | 52 => ⟨S1x16384, .f32⟩
  | 53 => ⟨S2048x16384, .f32⟩
  | 54 => ⟨S2048x16384, .f32⟩
  | 55 => ⟨S2048x16384, .f32⟩
  | 56 => ⟨S128x16384, .f32⟩
  | 57 => ⟨S2048x16384, .f32⟩
  | 58 => ⟨S_, .f32⟩
  | 59 => ⟨S2048x16384, .f32⟩
  | 60 => ⟨S2048x16384, .f32⟩
  | 61 => ⟨S2048x16384, .f32⟩
  | 62 => ⟨S_, .f32⟩
  | 63 => ⟨S2048x16384, .f32⟩
  | 64 => ⟨S2048x16384, .f32⟩
  | 65 => ⟨S_, .f32⟩
  | 66 => ⟨S2048, .f32⟩
  | 67 => ⟨S_, .f32⟩
  | 68 => ⟨S_, .f32⟩
  | 69 => ⟨S_, .f32⟩
  | 70 => ⟨S_, .f32⟩
  | 71 => ⟨S64x256, .f32⟩
  | 72 => ⟨S8192x256, .f32⟩
  | 73 => ⟨S_, .f32⟩
  | 74 => ⟨S256, .f32⟩
  | 75 => ⟨S_, .f32⟩
  | 76 => ⟨S256, .f32⟩
  | 77 => ⟨S256, .f32⟩
  | 78 => ⟨S_, .i32⟩
  | 79 => ⟨S_, .f32⟩
  | 80 => ⟨S256, .f32⟩
  | 81 => ⟨S1x256, .f32⟩
  | 82 => ⟨S_, .f32⟩
  | 83 => ⟨S1x256, .f32⟩
  | 84 => ⟨S1x256, .f32⟩
  | 85 => ⟨S8192x256, .f32⟩
  | 86 => ⟨S8192x256, .f32⟩
  | 87 => ⟨S8192x256, .f32⟩
  | 88 => ⟨S_, .f32⟩
  | 89 => ⟨S_, .f32⟩
  | 90 => ⟨S_, .f32⟩
  | 91 => ⟨S_, .f32⟩
  | 92 => ⟨S256, .f32⟩
  | 93 => ⟨S256, .f32⟩
  | 94 => ⟨S256, .f32⟩
  | 95 => ⟨S_, .f32⟩
  | 96 => ⟨S_, .i1⟩
  | 97 => ⟨S_, .f32⟩
  | 98 => ⟨S_, .f32⟩
  | 99 => ⟨S256, .f32⟩
  | 100 => ⟨S256, .f32⟩
  | 101 => ⟨S1x256, .f32⟩
  | 102 => ⟨S8192x256, .f32⟩
  | 103 => ⟨S8192x256, .f32⟩
  | 104 => ⟨S_, .f32⟩
  | 105 => ⟨S256, .f32⟩
  | 106 => ⟨S256, .f32⟩
  | 107 => ⟨S256, .f32⟩
  | 108 => ⟨S1x256, .f32⟩
  | 109 => ⟨S8192x256, .f32⟩
  | 110 => ⟨S8192x256, .f32⟩
  | 111 => ⟨S1x256, .f32⟩
  | 112 => ⟨S8192x256, .f32⟩
  | 113 => ⟨S8192x256, .f32⟩
  | 114 => ⟨S1x256, .f32⟩
  | 115 => ⟨S8192x256, .f32⟩
  | 116 => ⟨S8192x256, .f32⟩
  | 117 => ⟨S_, .f32⟩
  | 118 => ⟨S8192x256, .f32⟩
  | 119 => ⟨S8192x256, .i1⟩
  | 120 => ⟨S_, .f32⟩
  | 121 => ⟨S8192x256, .f32⟩
  | 122 => ⟨S8192x256, .f32⟩
  | 123 => ⟨S8192x256, .f32⟩
  | 124 => ⟨S256x128, .f32⟩
  | 125 => ⟨S8192x128, .f32⟩
  | 126 => ⟨S1x128, .f32⟩
  | 127 => ⟨S8192x128, .f32⟩
  | _ => ⟨S16384x64, .f32⟩

abbrev hbmTy0_2 (i : Nat) : BufTy := match i % 128 with
  | 0 => ⟨S8192x128, .f32⟩
  | 1 => ⟨S128x256, .f32⟩
  | 2 => ⟨S8192x256, .f32⟩
  | 3 => ⟨S_, .f32⟩
  | 4 => ⟨S256, .f32⟩
  | 5 => ⟨S_, .f32⟩
  | 6 => ⟨S256, .f32⟩
  | 7 => ⟨S256, .f32⟩
  | 8 => ⟨S_, .i32⟩
  | 9 => ⟨S_, .f32⟩
  | 10 => ⟨S256, .f32⟩
  | 11 => ⟨S1x256, .f32⟩
  | 12 => ⟨S_, .f32⟩
  | 13 => ⟨S1x256, .f32⟩
  | 14 => ⟨S1x256, .f32⟩
  | 15 => ⟨S8192x256, .f32⟩
  | 16 => ⟨S8192x256, .f32⟩
  | 17 => ⟨S8192x256, .f32⟩
  | 18 => ⟨S_, .f32⟩
  | 19 => ⟨S_, .f32⟩
  | 20 => ⟨S_, .f32⟩
  | 21 => ⟨S_, .f32⟩
  | 22 => ⟨S256, .f32⟩
  | 23 => ⟨S256, .f32⟩
  | 24 => ⟨S256, .f32⟩
  | 25 => ⟨S_, .f32⟩
  | 26 => ⟨S_, .i1⟩
  | 27 => ⟨S_, .f32⟩
  | 28 => ⟨S_, .f32⟩
  | 29 => ⟨S256, .f32⟩
  | 30 => ⟨S256, .f32⟩
  | 31 => ⟨S1x256, .f32⟩
  | 32 => ⟨S8192x256, .f32⟩
  | 33 => ⟨S8192x256, .f32⟩
  | 34 => ⟨S_, .f32⟩
  | 35 => ⟨S256, .f32⟩
  | 36 => ⟨S256, .f32⟩
  | 37 => ⟨S256, .f32⟩
  | 38 => ⟨S1x256, .f32⟩
  | 39 => ⟨S8192x256, .f32⟩
  | 40 => ⟨S8192x256, .f32⟩
  | 41 => ⟨S1x256, .f32⟩
  | 42 => ⟨S8192x256, .f32⟩
  | 43 => ⟨S8192x256, .f32⟩
  | 44 => ⟨S1x256, .f32⟩
  | 45 => ⟨S8192x256, .f32⟩
  | 46 => ⟨S8192x256, .f32⟩
  | 47 => ⟨S_, .f32⟩
  | 48 => ⟨S8192x256, .f32⟩
  | 49 => ⟨S8192x256, .i1⟩
  | 50 => ⟨S_, .f32⟩
  | 51 => ⟨S8192x256, .f32⟩
  | 52 => ⟨S8192x256, .f32⟩
  | 53 => ⟨S8192x256, .f32⟩
  | 54 => ⟨S256x64, .f32⟩
  | 55 => ⟨S8192x64, .f32⟩
  | 56 => ⟨S1x64, .f32⟩
  | 57 => ⟨S8192x64, .f32⟩
  | 58 => ⟨S8192x64, .f32⟩
  | 59 => ⟨S_, .f32⟩
  | 60 => ⟨S64, .f32⟩
  | 61 => ⟨S_, .f32⟩
  | 62 => ⟨S64, .f32⟩
  | 63 => ⟨S64, .f32⟩
  | 64 => ⟨S1x64, .f32⟩
  | 65 => ⟨S8192x64, .f32⟩
  | 66 => ⟨S8192x64, .f32⟩
  | 67 => ⟨S8192x64, .f32⟩
  | 68 => ⟨S_, .f32⟩
  | 69 => ⟨S64, .f32⟩
  | 70 => ⟨S64x8192, .f32⟩
  | 71 => ⟨S64x64, .f32⟩
  | 72 => ⟨S64x64, .f32⟩
  | 73 => ⟨S64x1, .f32⟩
  | 74 => ⟨S1x64, .f32⟩
  | 75 => ⟨S64x64, .f32⟩
  | 76 => ⟨S64x64, .f32⟩
  | 77 => ⟨S64x64, .f32⟩
  | 78 => ⟨S64x64, .f32⟩
  | 79 => ⟨S64x64, .i32⟩
  | 80 => ⟨S64x64, .i32⟩
  | 81 => ⟨S_, .i32⟩
  | 82 => ⟨S64x64, .i32⟩
  | 83 => ⟨S64x64, .i32⟩
  | 84 => ⟨S64x64, .i1⟩
  | 85 => ⟨S64x64, .f32⟩
  | 86 => ⟨S_, .f32⟩
  | 87 => ⟨S64x64, .f32⟩
  | 88 => ⟨S64x64, .f32⟩
  | 89 => ⟨S64x64, .f32⟩
  | 90 => ⟨S_, .f32⟩
  | 91 => ⟨S_, .f32⟩
  | 92 => ⟨S_, .f32⟩
  | 93 => ⟨S_, .f32⟩
  | 94 => ⟨S64x1, .f32⟩
  | 95 => ⟨S64x64, .f32⟩
  | 96 => ⟨S64x64, .f32⟩
  | 97 => ⟨S1x64, .f32⟩
  | 98 => ⟨S64x1, .f32⟩
  | 99 => ⟨S64x64, .f32⟩
  | 100 => ⟨S64x64, .f32⟩
  | 101 => ⟨S64x64, .f32⟩
  | 102 => ⟨S64x64, .f32⟩
  | 103 => ⟨S1x8192x64, .f32⟩
  | 104 => ⟨S64x8192, .f32⟩
  | 105 => ⟨S64x8192x1, .f32⟩
  | 106 => ⟨S64x1x64, .f32⟩
  | 107 => ⟨S64x8192x64, .f32⟩
  | 108 => ⟨S64x8192x64, .f32⟩
  | 109 => ⟨S64x8192x64, .f32⟩
  | 110 => ⟨S64x1x64, .f32⟩
  | 111 => ⟨S64x8192x64, .f32⟩
  | 112 => ⟨S64x8192x64, .f32⟩
  | 113 => ⟨S64x8192x64, .f32⟩
  | 114 => ⟨S64x8192x64, .f32⟩
  | 115 => ⟨S_, .f32⟩
  | 116 => ⟨S64x64, .f32⟩
  | 117 => ⟨S64x1x64, .f32⟩
  | 118 => ⟨S_, .f32⟩
  | 119 => ⟨S64x1x64, .f32⟩
  | 120 => ⟨S64x1x64, .f32⟩
  | 121 => ⟨S64x8192x64, .f32⟩
  | 122 => ⟨S64x8192x64, .f32⟩
  | 123 => ⟨S64x64x64, .f32⟩
  | 124 => ⟨S64x64, .i32⟩
  | 125 => ⟨S64x64, .i32⟩
  | 126 => ⟨S64x64, .i1⟩
  | 127 => ⟨S64x64x64, .i1⟩
  | _ => ⟨S16384x64, .f32⟩

abbrev hbmTy0_3 (i : Nat) : BufTy := match i % 128 with
  | 0 => ⟨S_, .f32⟩
  | 1 => ⟨S64x64x64, .f32⟩
  | 2 => ⟨S64x64x64, .f32⟩
  | 3 => ⟨S_, .f32⟩
  | 4 => ⟨S64x64, .f32⟩
  | 5 => ⟨S64x64x1, .f32⟩
  | 6 => ⟨S64x1x64, .f32⟩
  | 7 => ⟨S64x64x64, .f32⟩
  | 8 => ⟨S64x64x64, .f32⟩
  | 9 => ⟨S64x64x64, .f32⟩
  | 10 => ⟨S64, .i32⟩
  | 11 => ⟨S1x64x1, .i32⟩
  | 12 => ⟨S64x1x1, .i32⟩
  | 13 => ⟨S64x64x1, .i32⟩
  | 14 => ⟨S64x64x1, .i32⟩
  | 15 => ⟨S64x64x1, .i1⟩
  | 16 => ⟨S1x1x64, .i32⟩
  | 17 => ⟨S64x1x1, .i32⟩
  | 18 => ⟨S64x1x64, .i32⟩
  | 19 => ⟨S64x1x64, .i32⟩
  | 20 => ⟨S64x1x64, .i1⟩
  | 21 => ⟨S64x64x64, .i1⟩
  | 22 => ⟨S64x64x64, .i1⟩
  | 23 => ⟨S64x64x64, .i1⟩
  | 24 => ⟨S1x64x1, .i32⟩
  | 25 => ⟨S1x1x64, .i32⟩
  | 26 => ⟨S1x64x64, .i32⟩
  | 27 => ⟨S1x64x64, .i32⟩
  | 28 => ⟨S1x64x64, .i1⟩
  | 29 => ⟨S64x64x64, .i1⟩
  | 30 => ⟨S64x64x64, .i1⟩
  | 31 => ⟨S64x64x64, .f32⟩
  | 32 => ⟨S_, .f32⟩
  | 33 => ⟨S_, .f32⟩
  | 34 => ⟨S64x64x64, .f32⟩
  | 35 => ⟨S64x64x64, .f32⟩
  | 36 => ⟨S64x64x64, .f32⟩
  | 37 => ⟨S_, .f32⟩
  | 38 => ⟨S_, .f32⟩
  | 39 => ⟨S64x64x64, .f32⟩
  | 40 => ⟨S64x64x64, .f32⟩
  | 41 => ⟨S64x64, .f32⟩
  | 42 => ⟨S64x64, .f32⟩
  | 43 => ⟨S64x64x1, .f32⟩
  | 44 => ⟨S64x1x64, .f32⟩
  | 45 => ⟨S64x64x64, .f32⟩
  | 46 => ⟨S64x64x64, .f32⟩
  | 47 => ⟨S64x64x64, .f32⟩
  | 48 => ⟨S64x64x64, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | _ => ⟨S16384x64, .f32⟩

abbrev hbmTy (i : Nat) : BufTy := match i / 128 with
  | 0 => hbmTy0_0 i
  | 1 => hbmTy0_1 i
  | 2 => hbmTy0_2 i
  | 3 => hbmTy0_3 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_cst_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst_1 : Ref sig .tc := ⟨.hbm, 60, rfl⟩
abbrev main_call0_v8 : Ref sig .tc := ⟨.hbm, 61, rfl⟩
abbrev main_call0_cst_2 : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_cst_3 : Ref sig .tc := ⟨.hbm, 66, rfl⟩
abbrev main_call0_v12 : Ref sig .tc := ⟨.hbm, 67, rfl⟩
abbrev main_call0_cst_4 : Ref sig .tc := ⟨.hbm, 68, rfl⟩
abbrev main_call0_call0_v0 : Ref sig .tc := ⟨.hbm, 69, rfl⟩
abbrev main_call0_call0_v1 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_cst_6 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_cst_7 : Ref sig .tc := ⟨.hbm, 88, rfl⟩
abbrev main_v42 : Ref sig .tc := ⟨.hbm, 89, rfl⟩
abbrev main_v43 : Ref sig .tc := ⟨.hbm, 90, rfl⟩
abbrev main_cst_8 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_9 : Ref sig .tc := ⟨.hbm, 102, rfl⟩
abbrev main_v54 : Ref sig .tc := ⟨.hbm, 103, rfl⟩
abbrev main_cst_10 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_11 : Ref sig .tc := ⟨.hbm, 108, rfl⟩
abbrev main_v58 : Ref sig .tc := ⟨.hbm, 109, rfl⟩
abbrev main_cst_12 : Ref sig .tc := ⟨.hbm, 110, rfl⟩
abbrev main_v59 : Ref sig .tc := ⟨.hbm, 111, rfl⟩
abbrev main_v60 : Ref sig .tc := ⟨.hbm, 112, rfl⟩
abbrev main_c_13 : Ref sig .tc := ⟨.hbm, 113, rfl⟩
abbrev main_call2_cst : Ref sig .tc := ⟨.hbm, 114, rfl⟩
abbrev main_call2_v0 : Ref sig .tc := ⟨.hbm, 115, rfl⟩
abbrev main_call2_v1 : Ref sig .tc := ⟨.hbm, 116, rfl⟩
abbrev main_call2_cst_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_cst_1 : Ref sig .tc := ⟨.hbm, 124, rfl⟩
abbrev main_call2_v8 : Ref sig .tc := ⟨.hbm, 125, rfl⟩
abbrev main_call2_cst_2 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_cst_3 : Ref sig .tc := ⟨.hbm, 130, rfl⟩
abbrev main_call2_v12 : Ref sig .tc := ⟨.hbm, 131, rfl⟩
abbrev main_call2_cst_4 : Ref sig .tc := ⟨.hbm, 132, rfl⟩
abbrev main_call2_call0_v0 : Ref sig .tc := ⟨.hbm, 133, rfl⟩
abbrev main_call2_call0_v1 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_cst_14 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_cst_15 : Ref sig .tc := ⟨.hbm, 152, rfl⟩
abbrev main_v77 : Ref sig .tc := ⟨.hbm, 153, rfl⟩
abbrev main_v78 : Ref sig .tc := ⟨.hbm, 154, rfl⟩
abbrev main_cst_16 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_c_17 : Ref sig .tc := ⟨.hbm, 164, rfl⟩
abbrev main_v87 : Ref sig .tc := ⟨.hbm, 165, rfl⟩
abbrev main_v88 : Ref sig .tc := ⟨.hbm, 166, rfl⟩
abbrev main_c_18 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_cst_19 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_cst_20 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_cst_21 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_cst_22 : Ref sig .tc := ⟨.hbm, 190, rfl⟩
abbrev main_v108 : Ref sig .tc := ⟨.hbm, 191, rfl⟩
abbrev main_v109 : Ref sig .tc := ⟨.hbm, 192, rfl⟩
abbrev main_cst_23 : Ref sig .tc := ⟨.hbm, 193, rfl⟩
abbrev main_v110 : Ref sig .tc := ⟨.hbm, 194, rfl⟩
abbrev main_cst_24 : Ref sig .tc := ⟨.hbm, 195, rfl⟩
abbrev main_v111 : Ref sig .tc := ⟨.hbm, 196, rfl⟩
abbrev main_cst_25 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_cst_26 : Ref sig .tc := ⟨.hbm, 201, rfl⟩
abbrev main_v115 : Ref sig .tc := ⟨.hbm, 202, rfl⟩
abbrev main_cst_27 : Ref sig .tc := ⟨.hbm, 203, rfl⟩
abbrev main_v116 : Ref sig .tc := ⟨.hbm, 204, rfl⟩
abbrev main_v117 : Ref sig .tc := ⟨.hbm, 205, rfl⟩
abbrev main_c_28 : Ref sig .tc := ⟨.hbm, 206, rfl⟩
abbrev main_call4_cst : Ref sig .tc := ⟨.hbm, 207, rfl⟩
abbrev main_call4_v0 : Ref sig .tc := ⟨.hbm, 208, rfl⟩
abbrev main_call4_v1 : Ref sig .tc := ⟨.hbm, 209, rfl⟩
abbrev main_call4_cst_0 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_call4_v5 : Ref sig .tc := ⟨.hbm, 214, rfl⟩
abbrev main_call4_v6 : Ref sig .tc := ⟨.hbm, 215, rfl⟩
abbrev main_call4_v7 : Ref sig .tc := ⟨.hbm, 216, rfl⟩
abbrev main_call4_cst_1 : Ref sig .tc := ⟨.hbm, 217, rfl⟩
abbrev main_call4_v8 : Ref sig .tc := ⟨.hbm, 218, rfl⟩
abbrev main_call4_cst_2 : Ref sig .tc := ⟨.hbm, 219, rfl⟩
abbrev main_call4_v9 : Ref sig .tc := ⟨.hbm, 220, rfl⟩
abbrev main_call4_v10 : Ref sig .tc := ⟨.hbm, 221, rfl⟩
abbrev main_call4_v11 : Ref sig .tc := ⟨.hbm, 222, rfl⟩
abbrev main_call4_cst_3 : Ref sig .tc := ⟨.hbm, 223, rfl⟩
abbrev main_call4_v12 : Ref sig .tc := ⟨.hbm, 224, rfl⟩
abbrev main_call4_cst_4 : Ref sig .tc := ⟨.hbm, 225, rfl⟩
abbrev main_call4_call0_v0 : Ref sig .tc := ⟨.hbm, 226, rfl⟩
abbrev main_call4_call0_v1 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_v121 : Ref sig .tc := ⟨.hbm, 231, rfl⟩
abbrev main_cst_29 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_cst_30 : Ref sig .tc := ⟨.hbm, 245, rfl⟩
abbrev main_v134 : Ref sig .tc := ⟨.hbm, 246, rfl⟩
abbrev main_v135 : Ref sig .tc := ⟨.hbm, 247, rfl⟩
abbrev main_cst_31 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_cst_32 : Ref sig .tc := ⟨.hbm, 259, rfl⟩
abbrev main_v146 : Ref sig .tc := ⟨.hbm, 260, rfl⟩
abbrev main_cst_33 : Ref sig .tc := ⟨.hbm, 261, rfl⟩
abbrev main_v147 : Ref sig .tc := ⟨.hbm, 262, rfl⟩
abbrev main_v148 : Ref sig .tc := ⟨.hbm, 263, rfl⟩
abbrev main_c_34 : Ref sig .tc := ⟨.hbm, 264, rfl⟩
abbrev main_call6_cst : Ref sig .tc := ⟨.hbm, 265, rfl⟩
abbrev main_call6_v0 : Ref sig .tc := ⟨.hbm, 266, rfl⟩
abbrev main_call6_v1 : Ref sig .tc := ⟨.hbm, 267, rfl⟩
abbrev main_call6_cst_0 : Ref sig .tc := ⟨.hbm, 268, rfl⟩
abbrev main_call6_v2 : Ref sig .tc := ⟨.hbm, 269, rfl⟩
abbrev main_call6_v3 : Ref sig .tc := ⟨.hbm, 270, rfl⟩
abbrev main_call6_v4 : Ref sig .tc := ⟨.hbm, 271, rfl⟩
abbrev main_call6_v5 : Ref sig .tc := ⟨.hbm, 272, rfl⟩
abbrev main_call6_v6 : Ref sig .tc := ⟨.hbm, 273, rfl⟩
abbrev main_call6_v7 : Ref sig .tc := ⟨.hbm, 274, rfl⟩
abbrev main_call6_cst_1 : Ref sig .tc := ⟨.hbm, 275, rfl⟩
abbrev main_call6_v8 : Ref sig .tc := ⟨.hbm, 276, rfl⟩
abbrev main_call6_cst_2 : Ref sig .tc := ⟨.hbm, 277, rfl⟩
abbrev main_call6_v9 : Ref sig .tc := ⟨.hbm, 278, rfl⟩
abbrev main_call6_v10 : Ref sig .tc := ⟨.hbm, 279, rfl⟩
abbrev main_call6_v11 : Ref sig .tc := ⟨.hbm, 280, rfl⟩
abbrev main_call6_cst_3 : Ref sig .tc := ⟨.hbm, 281, rfl⟩
abbrev main_call6_v12 : Ref sig .tc := ⟨.hbm, 282, rfl⟩
abbrev main_call6_cst_4 : Ref sig .tc := ⟨.hbm, 283, rfl⟩
abbrev main_call6_call0_v0 : Ref sig .tc := ⟨.hbm, 284, rfl⟩
abbrev main_call6_call0_v1 : Ref sig .tc := ⟨.hbm, 285, rfl⟩
abbrev main_v149 : Ref sig .tc := ⟨.hbm, 286, rfl⟩
abbrev main_v150 : Ref sig .tc := ⟨.hbm, 287, rfl⟩
abbrev main_v151 : Ref sig .tc := ⟨.hbm, 288, rfl⟩
abbrev main_v152 : Ref sig .tc := ⟨.hbm, 289, rfl⟩
abbrev main_cst_35 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_v156 : Ref sig .tc := ⟨.hbm, 294, rfl⟩
abbrev main_v157 : Ref sig .tc := ⟨.hbm, 295, rfl⟩
abbrev main_v158 : Ref sig .tc := ⟨.hbm, 296, rfl⟩
abbrev main_v159 : Ref sig .tc := ⟨.hbm, 297, rfl⟩
abbrev main_v160 : Ref sig .tc := ⟨.hbm, 298, rfl⟩
abbrev main_v161 : Ref sig .tc := ⟨.hbm, 299, rfl⟩
abbrev main_v162 : Ref sig .tc := ⟨.hbm, 300, rfl⟩
abbrev main_v163 : Ref sig .tc := ⟨.hbm, 301, rfl⟩
abbrev main_v164 : Ref sig .tc := ⟨.hbm, 302, rfl⟩
abbrev main_cst_36 : Ref sig .tc := ⟨.hbm, 303, rfl⟩
abbrev main_v165 : Ref sig .tc := ⟨.hbm, 304, rfl⟩
abbrev main_v166 : Ref sig .tc := ⟨.hbm, 305, rfl⟩
abbrev main_cst_37 : Ref sig .tc := ⟨.hbm, 306, rfl⟩
abbrev main_v167 : Ref sig .tc := ⟨.hbm, 307, rfl⟩
abbrev main_v168 : Ref sig .tc := ⟨.hbm, 308, rfl⟩
abbrev main_v169 : Ref sig .tc := ⟨.hbm, 309, rfl⟩
abbrev main_v170 : Ref sig .tc := ⟨.hbm, 310, rfl⟩
abbrev main_v171 : Ref sig .tc := ⟨.hbm, 311, rfl⟩
abbrev main_v172 : Ref sig .tc := ⟨.hbm, 312, rfl⟩
abbrev main_v173 : Ref sig .tc := ⟨.hbm, 313, rfl⟩
abbrev main_v174 : Ref sig .tc := ⟨.hbm, 314, rfl⟩
abbrev main_cst_38 : Ref sig .tc := ⟨.hbm, 315, rfl⟩
abbrev main_v175 : Ref sig .tc := ⟨.hbm, 316, rfl⟩
abbrev main_cst_39 : Ref sig .tc := ⟨.hbm, 317, rfl⟩
abbrev main_v176 : Ref sig .tc := ⟨.hbm, 318, rfl⟩
abbrev main_v177 : Ref sig .tc := ⟨.hbm, 319, rfl⟩
abbrev main_v178 : Ref sig .tc := ⟨.hbm, 320, rfl⟩
abbrev main_v179 : Ref sig .tc := ⟨.hbm, 321, rfl⟩
abbrev main_v180 : Ref sig .tc := ⟨.hbm, 322, rfl⟩
abbrev main_v181 : Ref sig .tc := ⟨.hbm, 323, rfl⟩
abbrev main_cst_40 : Ref sig .tc := ⟨.hbm, 324, rfl⟩
abbrev main_v182 : Ref sig .tc := ⟨.hbm, 325, rfl⟩
abbrev main_v183 : Ref sig .tc := ⟨.hbm, 326, rfl⟩
abbrev main_v184 : Ref sig .tc := ⟨.hbm, 327, rfl⟩
abbrev main_v185 : Ref sig .tc := ⟨.hbm, 328, rfl⟩
abbrev main_v186 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_v190 : Ref sig .tc := ⟨.hbm, 333, rfl⟩
abbrev main_v191 : Ref sig .tc := ⟨.hbm, 334, rfl⟩
abbrev main_v192 : Ref sig .tc := ⟨.hbm, 335, rfl⟩
abbrev main_v193 : Ref sig .tc := ⟨.hbm, 336, rfl⟩
abbrev main_c_41 : Ref sig .tc := ⟨.hbm, 337, rfl⟩
abbrev main_v194 : Ref sig .tc := ⟨.hbm, 338, rfl⟩
abbrev main_v195 : Ref sig .tc := ⟨.hbm, 339, rfl⟩
abbrev main_v196 : Ref sig .tc := ⟨.hbm, 340, rfl⟩
abbrev main_v197 : Ref sig .tc := ⟨.hbm, 341, rfl⟩
abbrev main_cst_42 : Ref sig .tc := ⟨.hbm, 342, rfl⟩
abbrev main_v198 : Ref sig .tc := ⟨.hbm, 343, rfl⟩
abbrev main_v199 : Ref sig .tc := ⟨.hbm, 344, rfl⟩
abbrev main_v200 : Ref sig .tc := ⟨.hbm, 345, rfl⟩
abbrev main_cst_43 : Ref sig .tc := ⟨.hbm, 346, rfl⟩
abbrev main_v201 : Ref sig .tc := ⟨.hbm, 347, rfl⟩
abbrev main_cst_44 : Ref sig .tc := ⟨.hbm, 348, rfl⟩
abbrev main_v202 : Ref sig .tc := ⟨.hbm, 349, rfl⟩
abbrev main_v203 : Ref sig .tc := ⟨.hbm, 350, rfl⟩
abbrev main_v204 : Ref sig .tc := ⟨.hbm, 351, rfl⟩
abbrev main_v205 : Ref sig .tc := ⟨.hbm, 352, rfl⟩
abbrev main_v206 : Ref sig .tc := ⟨.hbm, 353, rfl⟩
abbrev main_v207 : Ref sig .tc := ⟨.hbm, 354, rfl⟩
abbrev main_v208 : Ref sig .tc := ⟨.hbm, 355, rfl⟩
abbrev main_v209 : Ref sig .tc := ⟨.hbm, 356, rfl⟩
abbrev main_v210 : Ref sig .tc := ⟨.hbm, 357, rfl⟩
abbrev main_v211 : Ref sig .tc := ⟨.hbm, 358, rfl⟩
abbrev main_v212 : Ref sig .tc := ⟨.hbm, 359, rfl⟩
abbrev main_v213 : Ref sig .tc := ⟨.hbm, 360, rfl⟩
abbrev main_v214 : Ref sig .tc := ⟨.hbm, 361, rfl⟩
abbrev main_v215 : Ref sig .tc := ⟨.hbm, 362, rfl⟩
abbrev main_v216 : Ref sig .tc := ⟨.hbm, 363, rfl⟩
abbrev main_v217 : Ref sig .tc := ⟨.hbm, 364, rfl⟩
abbrev main_v218 : Ref sig .tc := ⟨.hbm, 365, rfl⟩
abbrev main_v219 : Ref sig .tc := ⟨.hbm, 366, rfl⟩
abbrev main_v220 : Ref sig .tc := ⟨.hbm, 367, rfl⟩
abbrev main_v221 : Ref sig .tc := ⟨.hbm, 368, rfl⟩
abbrev main_v222 : Ref sig .tc := ⟨.hbm, 369, rfl⟩
abbrev main_v223 : Ref sig .tc := ⟨.hbm, 370, rfl⟩
abbrev main_cst_45 : Ref sig .tc := ⟨.hbm, 371, rfl⟩
abbrev main_v224 : Ref sig .tc := ⟨.hbm, 372, rfl⟩
abbrev main_v225 : Ref sig .tc := ⟨.hbm, 373, rfl⟩
abbrev main_cst_46 : Ref sig .tc := ⟨.hbm, 374, rfl⟩
abbrev main_v226 : Ref sig .tc := ⟨.hbm, 375, rfl⟩
abbrev main_v227 : Ref sig .tc := ⟨.hbm, 376, rfl⟩
abbrev main_v228 : Ref sig .tc := ⟨.hbm, 377, rfl⟩
abbrev main_v229 : Ref sig .tc := ⟨.hbm, 378, rfl⟩
abbrev main_v230 : Ref sig .tc := ⟨.hbm, 379, rfl⟩
abbrev main_v231 : Ref sig .tc := ⟨.hbm, 380, rfl⟩
abbrev main_v232 : Ref sig .tc := ⟨.hbm, 381, rfl⟩
abbrev main_v233 : Ref sig .tc := ⟨.hbm, 382, rfl⟩
abbrev main_v234 : Ref sig .tc := ⟨.hbm, 383, rfl⟩
abbrev main_cst_47 : Ref sig .tc := ⟨.hbm, 384, rfl⟩
abbrev main_v235 : Ref sig .tc := ⟨.hbm, 385, rfl⟩
abbrev main_v236 : Ref sig .tc := ⟨.hbm, 386, rfl⟩
abbrev main_cst_48 : Ref sig .tc := ⟨.hbm, 387, rfl⟩
abbrev main_v237 : Ref sig .tc := ⟨.hbm, 388, rfl⟩
abbrev main_v238 : Ref sig .tc := ⟨.hbm, 389, rfl⟩
abbrev main_v239 : Ref sig .tc := ⟨.hbm, 390, rfl⟩
abbrev main_v240 : Ref sig .tc := ⟨.hbm, 391, rfl⟩
abbrev main_v241 : Ref sig .tc := ⟨.hbm, 392, rfl⟩
abbrev main_v242 : Ref sig .tc := ⟨.hbm, 393, rfl⟩
abbrev main_v243 : Ref sig .tc := ⟨.hbm, 394, rfl⟩
abbrev main_v244 : Ref sig .tc := ⟨.hbm, 395, rfl⟩
abbrev main_v245 : Ref sig .tc := ⟨.hbm, 396, rfl⟩
abbrev main_v246 : Ref sig .tc := ⟨.hbm, 397, rfl⟩
abbrev main_v247 : Ref sig .tc := ⟨.hbm, 398, rfl⟩
abbrev main_v248 : Ref sig .tc := ⟨.hbm, 399, rfl⟩
abbrev main_v249 : Ref sig .tc := ⟨.hbm, 400, rfl⟩
abbrev main_v250 : Ref sig .tc := ⟨.hbm, 401, rfl⟩
abbrev main_v251 : Ref sig .tc := ⟨.hbm, 402, rfl⟩
abbrev main_v252 : Ref sig .tc := ⟨.hbm, 403, rfl⟩
abbrev main_v253 : Ref sig .tc := ⟨.hbm, 404, rfl⟩
abbrev main_v254 : Ref sig .tc := ⟨.hbm, 405, rfl⟩
abbrev main_v255 : Ref sig .tc := ⟨.hbm, 406, rfl⟩
abbrev main_v256 : Ref sig .tc := ⟨.hbm, 407, rfl⟩
abbrev main_v257 : Ref sig .tc := ⟨.hbm, 408, rfl⟩
abbrev main_v258 : Ref sig .tc := ⟨.hbm, 409, rfl⟩
abbrev main_v259 : Ref sig .tc := ⟨.hbm, 410, rfl⟩
abbrev main_v260 : Ref sig .tc := ⟨.hbm, 411, rfl⟩
abbrev main_v261 : Ref sig .tc := ⟨.hbm, 412, rfl⟩
abbrev main_v262 : Ref sig .tc := ⟨.hbm, 413, rfl⟩
abbrev main_v263 : Ref sig .tc := ⟨.hbm, 414, rfl⟩
abbrev main_v264 : Ref sig .tc := ⟨.hbm, 415, rfl⟩
abbrev main_cst_49 : Ref sig .tc := ⟨.hbm, 416, rfl⟩
abbrev main_call8_v0 : Ref sig .tc := ⟨.hbm, 417, rfl⟩
abbrev main_call8_v1 : Ref sig .tc := ⟨.hbm, 418, rfl⟩
abbrev main_v265 : Ref sig .tc := ⟨.hbm, 419, rfl⟩
abbrev main_v266 : Ref sig .tc := ⟨.hbm, 420, rfl⟩
abbrev main_cst_50 : Ref sig .tc := ⟨.hbm, 421, rfl⟩
abbrev main_call9_v0 : Ref sig .tc := ⟨.hbm, 422, rfl⟩
abbrev main_call9_v1 : Ref sig .tc := ⟨.hbm, 423, rfl⟩
abbrev main_v267 : Ref sig .tc := ⟨.hbm, 424, rfl⟩
abbrev main_v268 : Ref sig .tc := ⟨.hbm, 425, rfl⟩
abbrev main_v269 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_v273 : Ref sig .tc := ⟨.hbm, 430, rfl⟩
abbrev main_v274 : Ref sig .tc := ⟨.hbm, 431, rfl⟩
abbrev main_v275 : Ref sig .tc := ⟨.hbm, 432, rfl⟩
abbrev main_cst_51 : Ref sig .tc := ⟨.hbm, 433, rfl⟩
abbrev main_v276 : Ref sig .tc := ⟨.hbm, 434, rfl⟩
abbrev main_v277 : Ref sig .tc := ⟨.hbm, 435, rfl⟩
abbrev main_v278 : Ref sig .tc := ⟨.hbm, 436, rfl⟩
abbrev main_v279 : Ref sig .tc := ⟨.hbm, 437, rfl⟩
abbrev main_v280 : Ref sig .tc := ⟨.hbm, 438, rfl⟩

abbrev nD : Nat := 1
abbrev τ : Topo := Topo.v7x

variable {F : FTy → Type} [FloatOps F]

class Facts₀ : Prop where
  transposes_S64x64_S64x64_1_0 : S64x64.Transposes [1, 0] S64x64
  bcast_S_S64x64 : S_.BroadcastsInDim S64x64 (![] : Fin 0 → Fin S64x64.rank)
  reducesTo_S64x64_S_d0_1 : S64x64.ReducesTo [0, 1] S_
  h_S_ : 0 < S_.numel
  transposes_S256x128_S128x256_1_0 : S256x128.Transposes [1, 0] S128x256
  reducesTo_S16384x256_S256_d0 : S16384x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S64x256_S256x64_1_0 : S64x256.Transposes [1, 0] S256x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S_d0_1 : S16384x64.ReducesTo [0, 1] S_
  transposes_S256x64_S64x256_1_0 : S256x64.Transposes [1, 0] S64x256
  reducesTo_S2048x256_S256_d0 : S2048x256.ReducesTo [0] S256
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  transposes_S128x256_S256x128_1_0 : S128x256.Transposes [1, 0] S256x128
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S2048x128_S2048_d1 : S2048x128.ReducesTo [1] S2048
  bcast_S2048_S2048x1_0 : S2048.BroadcastsInDim S2048x1 (![0] : Fin 1 → Fin S2048x1.rank)
  reducesTo_S16384x128_S16384_d1 : S16384x128.ReducesTo [1] S16384
  bcast_S16384_S1x16384_1 : S16384.BroadcastsInDim S1x16384 (![1] : Fin 1 → Fin S1x16384.rank)
  bcast_S2048x1_S2048x16384_0_1 : S2048x1.BroadcastsInDim S2048x16384 (![0, 1] : Fin 2 → Fin S2048x16384.rank)
  bcast_S1x16384_S2048x16384_0_1 : S1x16384.BroadcastsInDim S2048x16384 (![0, 1] : Fin 2 → Fin S2048x16384.rank)
  transposes_S16384x128_S128x16384_1_0 : S16384x128.Transposes [1, 0] S128x16384
  bcast_S_S2048x16384 : S_.BroadcastsInDim S2048x16384 (![] : Fin 0 → Fin S2048x16384.rank)
  reducesTo_S2048x16384_S2048_d1 : S2048x16384.ReducesTo [1] S2048
  reducesTo_S2048_S_d0 : S2048.ReducesTo [0] S_
  reducesTo_S8192x256_S256_d0 : S8192x256.ReducesTo [0] S256
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S1x128_S8192x128_0_1 : S1x128.BroadcastsInDim S8192x128 (![0, 1] : Fin 2 → Fin S8192x128.rank)
  bcast_S1x64_S8192x64_0_1 : S1x64.BroadcastsInDim S8192x64 (![0, 1] : Fin 2 → Fin S8192x64.rank)
  reducesTo_S8192x64_S64_d0 : S8192x64.ReducesTo [0] S64
  bcast_S_S64 : S_.BroadcastsInDim S64 (![] : Fin 0 → Fin S64.rank)
  transposes_S8192x64_S64x8192_1_0 : S8192x64.Transposes [1, 0] S64x8192
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S8192x64_S1x8192x64_1_2 : S8192x64.BroadcastsInDim S1x8192x64 (![1, 2] : Fin 2 → Fin S1x8192x64.rank)
  bcast_S64x8192_S64x8192x1_0_1 : S64x8192.BroadcastsInDim S64x8192x1 (![0, 1] : Fin 2 → Fin S64x8192x1.rank)
  bcast_S64x64_S64x1x64_0_2 : S64x64.BroadcastsInDim S64x1x64 (![0, 2] : Fin 2 → Fin S64x1x64.rank)
  bcast_S64x8192x1_S64x8192x64_0_1_2 : S64x8192x1.BroadcastsInDim S64x8192x64 (![0, 1, 2] : Fin 3 → Fin S64x8192x64.rank)
  bcast_S64x1x64_S64x8192x64_0_1_2 : S64x1x64.BroadcastsInDim S64x8192x64 (![0, 1, 2] : Fin 3 → Fin S64x8192x64.rank)
  bcast_S1x8192x64_S64x8192x64_0_1_2 : S1x8192x64.BroadcastsInDim S64x8192x64 (![0, 1, 2] : Fin 3 → Fin S64x8192x64.rank)
  reducesTo_S64x8192x64_S64x64_d1 : S64x8192x64.ReducesTo [1] S64x64
  bcast_S_S64x1x64 : S_.BroadcastsInDim S64x1x64 (![] : Fin 0 → Fin S64x1x64.rank)
  bcast_S64x64_S64x64x64_1_2 : S64x64.BroadcastsInDim S64x64x64 (![1, 2] : Fin 2 → Fin S64x64x64.rank)
  bcast_S_S64x64x64 : S_.BroadcastsInDim S64x64x64 (![] : Fin 0 → Fin S64x64x64.rank)
  reducesTo_S64x64x64_S64x64_d1 : S64x64x64.ReducesTo [1] S64x64
  bcast_S64x64_S64x64x1_0_1 : S64x64.BroadcastsInDim S64x64x1 (![0, 1] : Fin 2 → Fin S64x64x1.rank)
  bcast_S64x64x1_S64x64x64_0_1_2 : S64x64x1.BroadcastsInDim S64x64x64 (![0, 1, 2] : Fin 3 → Fin S64x64x64.rank)
  bcast_S64x1x64_S64x64x64_0_1_2 : S64x1x64.BroadcastsInDim S64x64x64 (![0, 1, 2] : Fin 3 → Fin S64x64x64.rank)
  bcast_S64_S1x64x1_1 : S64.BroadcastsInDim S1x64x1 (![1] : Fin 1 → Fin S1x64x1.rank)
  bcast_S64_S64x1x1_0 : S64.BroadcastsInDim S64x1x1 (![0] : Fin 1 → Fin S64x1x1.rank)
  bcast_S1x64x1_S64x64x1_0_1_2 : S1x64x1.BroadcastsInDim S64x64x1 (![0, 1, 2] : Fin 3 → Fin S64x64x1.rank)
  bcast_S64x1x1_S64x64x1_0_1_2 : S64x1x1.BroadcastsInDim S64x64x1 (![0, 1, 2] : Fin 3 → Fin S64x64x1.rank)
  bcast_S64_S1x1x64_2 : S64.BroadcastsInDim S1x1x64 (![2] : Fin 1 → Fin S1x1x64.rank)
  bcast_S1x1x64_S64x1x64_0_1_2 : S1x1x64.BroadcastsInDim S64x1x64 (![0, 1, 2] : Fin 3 → Fin S64x1x64.rank)
  bcast_S64x1x1_S64x1x64_0_1_2 : S64x1x1.BroadcastsInDim S64x1x64 (![0, 1, 2] : Fin 3 → Fin S64x1x64.rank)
  bcast_S1x64x1_S1x64x64_0_1_2 : S1x64x1.BroadcastsInDim S1x64x64 (![0, 1, 2] : Fin 3 → Fin S1x64x64.rank)
  bcast_S1x1x64_S1x64x64_0_1_2 : S1x1x64.BroadcastsInDim S1x64x64 (![0, 1, 2] : Fin 3 → Fin S1x64x64.rank)
  bcast_S1x64x64_S64x64x64_0_1_2 : S1x64x64.BroadcastsInDim S64x64x64 (![0, 1, 2] : Fin 3 → Fin S64x64x64.rank)
  reducesTo_S64x64x64_S_d0_1_2 : S64x64x64.ReducesTo [0, 1, 2] S_
  dot_S64x64_S64x64_S64x64_1_0_0_1_n_n_wf : DotDims.WF S64x64 S64x64 S64x64 [1] [0] [0] [1] [] []
  dot_S16384x128_S128x256_S16384x256_1_0_0_1_n_n_wf : DotDims.WF S16384x128 S128x256 S16384x256 [1] [0] [0] [1] [] []
  dot_S16384x256_S256x64_S16384x64_1_0_0_1_n_n_wf : DotDims.WF S16384x256 S256x64 S16384x64 [1] [0] [0] [1] [] []
  dot_S2048x64_S64x256_S2048x256_1_0_0_1_n_n_wf : DotDims.WF S2048x64 S64x256 S2048x256 [1] [0] [0] [1] [] []
  dot_S2048x256_S256x128_S2048x128_1_0_0_1_n_n_wf : DotDims.WF S2048x256 S256x128 S2048x128 [1] [0] [0] [1] [] []
  gather_S16384x128_S16384x1_S16384x128_1_0_n_n_0_1_1128_wf : GatherDims.WF S16384x128 S16384x1 S16384x128 [1] [0] [] [0] [] 1 ![1, 128]
  dot_S2048x128_S128x16384_S2048x16384_1_0_0_1_n_n_wf : DotDims.WF S2048x128 S128x16384 S2048x16384 [1] [0] [0] [1] [] []
  dot_S8192x64_S64x256_S8192x256_1_0_0_1_n_n_wf : DotDims.WF S8192x64 S64x256 S8192x256 [1] [0] [0] [1] [] []
  dot_S8192x256_S256x128_S8192x128_1_0_0_1_n_n_wf : DotDims.WF S8192x256 S256x128 S8192x128 [1] [0] [0] [1] [] []
  dot_S8192x128_S128x256_S8192x256_1_0_0_1_n_n_wf : DotDims.WF S8192x128 S128x256 S8192x256 [1] [0] [0] [1] [] []
  dot_S8192x256_S256x64_S8192x64_1_0_0_1_n_n_wf : DotDims.WF S8192x256 S256x64 S8192x64 [1] [0] [0] [1] [] []
  dot_S64x8192_S8192x64_S64x64_1_0_0_1_n_n_wf : DotDims.WF S64x8192 S8192x64 S64x64 [1] [0] [0] [1] [] []
  dot_S64x8192x64_S64x8192x64_S64x64x64_1_1_2_2_0_0_wf : DotDims.WF S64x8192x64 S64x8192x64 S64x64x64 [1] [1] [2] [2] [0] [0]

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S16384x128_S16384x1_S16384x128_1_0_n_n_0_1_1128 : GatherDims S16384x128 S16384x1 S16384x128 where
  offsetDims := [1]
  collapsedSliceDims := [0]
  operandBatchingDims := []
  startIndicesBatchingDims := []
  startIndexMap := [0]
  indexVectorDim := 1
  sliceSizes := ![1, 128]
  wf := gather_S16384x128_S16384x1_S16384x128_1_0_n_n_0_1_1128_wf
def dot_S2048x128_S128x16384_S2048x16384_1_0_0_1_n_n : DotDims S2048x128 S128x16384 S2048x16384 where
  lhsContracting := [1]
  rhsContracting := [0]
  lhsNonContracting := [0]
  rhsNonContracting := [1]
  lhsBatch := []
  rhsBatch := []
  wf := dot_S2048x128_S128x16384_S2048x16384_1_0_0_1_n_n_wf
def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S64x8192_S8192x64_S64x64_1_0_0_1_n_n : DotDims S64x8192 S8192x64 S64x64 where
  lhsContracting := [1]
  rhsContracting := [0]
  lhsNonContracting := [0]
  rhsNonContracting := [1]
  lhsBatch := []
  rhsBatch := []
  wf := dot_S64x8192_S8192x64_S64x64_1_0_0_1_n_n_wf
def dot_S64x8192x64_S64x8192x64_S64x64x64_1_1_2_2_0_0 : DotDims S64x8192x64 S64x8192x64 S64x64x64 where
  lhsContracting := [1]
  rhsContracting := [1]
  lhsNonContracting := [2]
  rhsNonContracting := [2]
  lhsBatch := [0]
  rhsBatch := [0]
  wf := dot_S64x8192x64_S64x8192x64_S64x64x64_1_1_2_2_0_0_wf

class Facts : Prop extends Facts₀ where

variable [Facts]
-- ==== Proof.BRuns.lean ====
/-
  The launch side of the kernel program's run, at any float instance: the program is host operations, one
  pipelined region over a 4 × 8 grid, host operations. Stated here: the buffer contents with which the region is
  entered (the fold of the operations before it over the launch contents); that the program IS those operations,
  the region, and the later operations in sequence; that the later operations touch only unscoped buffers,
  allocate nothing and write none of the region's four arrays (the two operand matrices, the row of key norms and
  the column of running minima); each operand's block at a grid point; that an operand's staging buffer holds its
  block at every point; and that a run to the region's post leaves all sixteen argument arrays as they were
  (each is either an array the region only reads or a buffer no operation writes).
  The body's one branch tests whether the second grid coordinate is zero: at the points divisible by 8.
-/
import proofs.«130977_j54631984005498_2_alg».proof.Proof.Gen.Kernel.Launch
import proofs.«130977_j54631984005498_2_alg».proof.Proof.Gen.Kernel.Skeleton
import proofs.«130977_j54631984005498_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- the longest stretch has 51 operations, each checked against the four arrays
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host operations before the region, stretch by stretch. -/
abbrev preOpss : List (List (HloOp τ sig (Elt F))) :=
  [hostOps0, hostOps0_1, hostOps0_2, hostOps0_3, hostOps0_4, hostOps0_5, hostOps0_6, hostOps0_7, hostOps0_8]
/-- The host operations after the region, stretch by stretch. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14]

/-- Core `c`'s buffer contents when the region is entered: the earlier operations folded over the launch contents. -/
abbrev V0 (c : Dev nD) : Valuation τ sig (Elt F) := StableHlo.after (List.flatten (preOpss (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor

/-- The program is the earlier operations, the region, the later operations: it reduces to the region continued by the
    later ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main (preOpss (F := F)) (tailOpss (F := F))
    ⟨hostOps0_sub, hostOps0_1_sub, hostOps0_2_sub, hostOps0_3_sub, hostOps0_4_sub, hostOps0_5_sub, hostOps0_6_sub, hostOps0_7_sub, hostOps0_8_sub⟩
    ⟨hostOps0_fresh, hostOps0_1_fresh, hostOps0_2_fresh, hostOps0_3_fresh, hostOps0_4_fresh, hostOps0_5_fresh, hostOps0_6_fresh, hostOps0_7_fresh, hostOps0_8_fresh⟩ main_chain

/-- Each later operation writes only its own result buffer, which is none of the region's four arrays. -/
theorem hostOps1_keeps : (hostOps1 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_1_keeps : (hostOps1_1 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_2_keeps : (hostOps1_2 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_3_keeps : (hostOps1_3 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_4_keeps : (hostOps1_4 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_5_keeps : (hostOps1_5 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_6_keeps : (hostOps1_6 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_7_keeps : (hostOps1_7 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_8_keeps : (hostOps1_8 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_9_keeps : (hostOps1_9 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_10_keeps : (hostOps1_10 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_11_keeps : (hostOps1_11 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_12_keeps : (hostOps1_12 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_13_keeps : (hostOps1_13 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_14_keeps : (hostOps1_14 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))

/-- The later operations touch the region's arrays and the buffers that bypass it only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
/-- They allocate nothing. -/
theorem sfx_fresh : ∀ ops ∈ (tailOpss : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
/-- And write no array of the region. -/
theorem sfx_keeps : ∀ ops ∈ (tailOpss : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop

/-! ## The operands' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An operand's current staging buffer holds its block at every point, fetched there or not, for any proof data whose
    array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments are left as they were -/

/-- After the later operations an argument array holds its launch contents: no operation of the program writes it. -/
theorem tail_arg (dats : (p : Fin 1) → (c : Dev nD) → Dat τ (Elt F) Unit ℕ (UR sig nD τ) ℕ (cfgs p) c) (c : Dev nD)
    (b : Ref sig .tc) (hb : ∀ w, Pipeline.arrRef spec0 w ≠ b)
    (hpre : ∀ ops ∈ (preOpss : List (List (HloOp τ sig (Elt F)))), ∀ op ∈ ops, Proc.devRef (τ := τ) .tc b ∉ op.writes)
    (htail : ∀ ops ∈ (tailOpss : List (List (HloOp τ sig (Elt F)))), ∀ op ∈ ops, Proc.devRef (τ := τ) .tc b ∉ op.writes) :
    Pipeline.afterTail₀ cfgs dats 0 (V0 m) (tailOpss (F := F)) c b = m ((c.tc : Thread nD τ).loc b) := by
  unfold Pipeline.afterTail₀
  rw [StableHlo.after_of_forall_not_mem _ _ fun op hop => by
      obtain ⟨ops, hops, hop'⟩ := List.mem_flatten.mp hop
      exact htail ops hops op hop',
    Pipeline.withArrays_of_ne _ c (V0 m c) _ _ fun w e => hb w e]
  exact StableHlo.after_of_forall_not_mem _ _ fun op hop => by
    obtain ⟨ops, hops, hop'⟩ := List.mem_flatten.mp hop
    exact hpre ops hops op hop'

/-! ## The body's branch condition -/

/-- The condition of the body's one branch, from the grid coordinates. -/
abbrev cond0_0 (i : grid0.Coords) : Prop := (Scalar.cmpi .ne (Scalar.extui (Scalar.cmpi .eq (BitVec.ofNat 32 (i 1).val) 0#32)) 0#32) = 1#1
/-- It holds at the points divisible by 8: the first key tile of each row tile. -/
theorem hcond0_0 : ∀ t : Fin cfg0.N, cond0_0 (grid0.coords t) ↔ t.val % 8 = 0 :=
  (by decide +kernel : ∀ t : Fin grid0.N, cond0_0 (grid0.coords t) ↔ t.val % 8 = 0)

/-- Each window's current staging memref at point `t`, as the pipeline passes it to the body, and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)

end Cert.Kernel.Hand

end
-- ==== Proof.BRunA.lean ====
/-
  The kernel body at a grid point whose second coordinate is zero (the first key tile of a row tile), run on any
  whole staging buffers. There the body first overwrites the whole block of running minima with +∞ and then with
  the entrywise minimum of that and the tile's row minima of (key norm − 2·⟨query, key⟩); what the block held on
  entry is read once but the value is never used. Stated: from the three operand buffers at given contents and the
  output buffer at any contents, the body runs to any continuation that holds the operand buffers unchanged and the
  output buffer at its two stores written over something; the stores, last first, are the witness.
-/
import proofs.«130977_j54631984005498_2_alg».proof.Proof.BRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the branch is taken: what its stores leave in the output's buffer, as pieces (last first), with the
    proof that from the operands at `x0`, `x1`, `x2` and the output at anything it runs to the continuation. -/
noncomputable def kernelRun0_A (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .f32) (harg5 : arg5.IsWhole) (hc0 : cond0_0 i)
    (x0 : Vec F S512x128 .f32) (x1 : Vec F S2048x128 .f32) (x2 : Vec F S1x2048 .f32) :
    { L3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__nct_kernel i arg2 harg2 arg3 harg3 arg4 harg4 arg5 harg5) K } := by
  refine ⟨?_, fun E K => ?run⟩
  case run =>
    simp only [cc0__nct_kernel_eq_skeleton]; unfold cc0__nct_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.BRunB.lean ====
/-
  The kernel body at a grid point whose second coordinate is not zero (a later key tile of a row tile), run on any
  whole staging buffers. There the body overwrites the whole block of running minima with the entrywise minimum of
  what the block holds and the tile's row minima of (key norm − 2·⟨query, key⟩). Stated: from the three operand
  buffers and the output buffer at given contents, the body runs to any continuation that holds the operand buffers
  unchanged and the output buffer at its one store written over something; that store is the witness.
-/
import proofs.«130977_j54631984005498_2_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the branch is not taken: what its store leaves in the output's buffer, as pieces, with the proof
    that from the operands at `x0`, `x1`, `x2` and the output at its running contents `xo3` it runs to the continuation. -/
noncomputable def kernelRun0_B (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .f32) (harg5 : arg5.IsWhole) (hc0 : ¬cond0_0 i)
    (x0 : Vec F S512x128 .f32) (x1 : Vec F S2048x128 .f32) (x2 : Vec F S1x2048 .f32) (xo3 : Vec F S512x1 .f32) :
    { L3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__nct_kernel i arg2 harg2 arg3 harg3 arg4 harg4 arg5 harg5) K } := by
  refine ⟨?_, fun E K => ?run⟩
  case run =>
    simp only [cc0__nct_kernel_eq_skeleton]; unfold cc0__nct_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.BFrame.lean ====
/-
  The frame of the kernel program: it runs to the end without fault and leaves its sixteen argument arrays as they
  were. The program is host operations, one pipelined region over a 4 × 8 grid (row tile p, key tile s, point
  8·p + s), host operations. The region stages three operands (a 512 × 128 query tile, a 2048 × 128 key tile, a
  1 × 2048 tile of key norms) and one result, a 512 × 1 block of running minima that is reset to +∞ at the first
  key tile of a row tile, lowered at every key tile, and written back after the last one. Stated here: what the
  result's staging buffer holds after each point (by recursion on the point: at a point divisible by 8 the body's
  contents there, which do not depend on what the buffer held; elsewhere the body's contents over what the point
  before left, the buffer not having been written back in between); the pipeline's proof data with that; the body's
  triple at every point; the run of the whole program; and that no operation before or after the region writes an
  argument array, none of which is an array of the region, so that each ends at its launch contents.
-/
import proofs.«130977_j54631984005498_2_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the result's buffer -/

/-- One staging buffer of the result's window, through which its contents are stated. -/
abbrev VO0_3 : View sig .tc .vmem S512x1 .f32 := (Memref.whole cc0_stg3_0 : Memref sig .tc .vmem S512x1 .f32).view

/-- Where the branch is taken the body's two stores each span the block, so they cover it. -/
theorem cover0_A_3 (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .f32) (harg5 : arg5.IsWhole) (hc0 : cond0_0 i)
    (x0 : Vec F S512x128 .f32) (x1 : Vec F S2048x128 .f32) (x2 : Vec F S1x2048 .f32) (y : S512x1.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S512x1.size (by sl_kernel_rfl) y

/-- What the body leaves in the result's buffer where the branch is taken: its stores read back over anything. -/
def out0_A_3 (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .f32) (harg5 : arg5.IsWhole) (hc0 : cond0_0 i)
    (x0 : Vec F S512x128 .f32) (x1 : Vec F S2048x128 .f32) (x2 : Vec F S1x2048 .f32) : Vec F S512x1 .f32 :=
  VO0_3.read (Elt F) (VO0_3.writes (Elt F) VO0_3.junk (kernelRun0_A c i arg2 harg2 arg3 harg3 arg4 harg4 arg5 harg5 hc0 x0 x1 x2).1)

/-- Where the branch is not taken the body's one store spans the block, so it covers it. -/
theorem cover0_B_3 (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .f32) (harg5 : arg5.IsWhole) (hc0 : ¬cond0_0 i)
    (x0 : Vec F S512x128 .f32) (x1 : Vec F S2048x128 .f32) (x2 : Vec F S1x2048 .f32) (xo3 : Vec F S512x1 .f32) (y : S512x1.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S512x1.size (by sl_kernel_rfl) y

/-- What the body leaves in the result's buffer where the branch is not taken: its store read back over anything. -/
def out0_B_3 (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .f32) (harg5 : arg5.IsWhole) (hc0 : ¬cond0_0 i)
    (x0 : Vec F S512x128 .f32) (x1 : Vec F S2048x128 .f32) (x2 : Vec F S1x2048 .f32) (xo3 : Vec F S512x1 .f32) : Vec F S512x1 .f32 :=
  VO0_3.read (Elt F) (VO0_3.writes (Elt F) VO0_3.junk (kernelRun0_B c i arg2 harg2 arg3 harg3 arg4 harg4 arg5 harg5 hc0 x0 x1 x2 xo3).1)

/-! ## What the result's buffer holds after each point -/

/-- The running minima after the body at position `n`: at a point divisible by 8 the reset-and-lower contents at that
    point's operand blocks; elsewhere the lowering of what this gives at `n - 1`. -/
def outsAt0 (c : Dev nD) : (n : ℕ) → n < cfg0.N → Vec F S512x1 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 8 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At a point divisible by 8. -/
theorem outsAt0_A (c : Dev nD) (t : Fin cfg0.N) (h0 : t.val % 8 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At any other point: over what the point before left. -/
theorem outsAt0_B (c : Dev nD) (t : Fin cfg0.N) (h0 : ¬t.val % 8 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    operand's buffer at its block and the result's at `outsAt0`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each operand's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a point not divisible by 8 the result's current staging buffer holds what the body left at the point before:
    the point is not the first, and the buffer was not written back in between (write-backs come after the points
    ≡ 7 mod 8, and then the next point is divisible by 8). -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the operands' buffers hold their blocks; the point is divisible by 8 or not; in the second
    case the result's buffer holds what the point before left; so the matching run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 32 := lt_of_lt_of_eq t.isLt (show cfg0.N = 32 from N_0)
  by_cases h0 : t.val % 8 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run of the whole program -/

-- the launch theorem's implicit arguments are found by unifying its conclusion with this one, which takes unfolding
-- plain definitions in a metavariable's type
set_option backward.isDefEq.respectTransparency.types false in
/-- For any values, from any memory with zero counters: every weakly fair execution of the program terminates, and every
    final state has every array of the region at what the proof data give and every other unscoped buffer as the
    operations after the region leave it. -/
theorem run_main : θ_run defs (onTc (τ := τ) (main (F := F))) (s₀ m ρ) (Pipeline.FramePost cfgs (dats m) 0 (Pipeline.afterTail₀ cfgs (dats m) 0 (V0 m) (tailOpss (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss (F := F)) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-! ## No operation writes an argument array -/

/-- The sixteen argument arrays. -/
abbrev argRef : Fin 16 → Ref sig .tc :=
  ![main_arg0, main_arg1, main_arg2, main_arg3, main_arg4, main_arg5, main_arg6, main_arg7,
    main_arg8, main_arg9, main_arg10, main_arg11, main_arg12, main_arg13, main_arg14, main_arg15]

/-- A buffer that is no argument array is, on the core, none of them. -/
theorem arg_ne_result {r : Ref sig .tc} (h : ∀ k : Fin 16, argRef k ≠ r) (k : Fin 16) :
    ¬ Proc.devRef (τ := τ) .tc (argRef k) = Proc.devRef .tc r :=
  StableHlo.devRef_ne_of_ne (h k)

/-- Each host operation writes only its own result buffer, which is no argument array: stretch by stretch. -/
theorem hostOps0_keeps_args : (hostOps0 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_1_keeps_args : (hostOps0_1 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_2_keeps_args : (hostOps0_2 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_3_keeps_args : (hostOps0_3 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_4_keeps_args : (hostOps0_4 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_5_keeps_args : (hostOps0_5 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_6_keeps_args : (hostOps0_6 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_7_keeps_args : (hostOps0_7 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_8_keeps_args : (hostOps0_8 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_keeps_args : (hostOps1 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_1_keeps_args : (hostOps1_1 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_2_keeps_args : (hostOps1_2 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_3_keeps_args : (hostOps1_3 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_4_keeps_args : (hostOps1_4 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_5_keeps_args : (hostOps1_5 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_6_keeps_args : (hostOps1_6 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_7_keeps_args : (hostOps1_7 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_8_keeps_args : (hostOps1_8 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_9_keeps_args : (hostOps1_9 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_10_keeps_args : (hostOps1_10 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_11_keeps_args : (hostOps1_11 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_12_keeps_args : (hostOps1_12 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_13_keeps_args : (hostOps1_13 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_14_keeps_args : (hostOps1_14 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)

/-- No operation before the region writes an argument array. -/
theorem pre_keeps_args : ∀ ops ∈ (preOpss : List (List (HloOp τ sig (Elt F)))), ∀ op ∈ ops,
    ∀ k : Fin 16, Proc.devRef (τ := τ) .tc (argRef k) ∉ op.writes := by
  intro ops hops op hop
  simp only [List.mem_cons, List.mem_nil_iff, or_false] at hops
  rcases hops with rfl | rfl | rfl | rfl | rfl | rfl | rfl | rfl | rfl
  · exact (List.forall_iff_forall_mem.mp hostOps0_keeps_args) op hop
  · exact (List.forall_iff_forall_mem.mp hostOps0_1_keeps_args) op hop
  · exact (List.forall_iff_forall_mem.mp hostOps0_2_keeps_args) op hop
  · exact (List.forall_iff_forall_mem.mp hostOps0_3_keeps_args) op hop
  · exact (List.forall_iff_forall_mem.mp hostOps0_4_keeps_args) op hop
  · exact (List.forall_iff_forall_mem.mp hostOps0_5_keeps_args) op hop
  · exact (List.forall_iff_forall_mem.mp hostOps0_6_keeps_args) op hop
  · exact (List.forall_iff_forall_mem.mp hostOps0_7_keeps_args) op hop
  · exact (List.forall_iff_forall_mem.mp hostOps0_8_keeps_args) op hop
/-- No operation after the region writes an argument array. -/
theorem tail_keeps_args : ∀ ops ∈ (tailOpss : List (List (HloOp τ sig (Elt F)))), ∀ op ∈ ops,
    ∀ k : Fin 16, Proc.devRef (τ := τ) .tc (argRef k) ∉ op.writes := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp hostOps1_keeps_args) op hop
  · exact (List.forall_iff_forall_mem.mp hostOps1_1_keeps_args) op hop
  · exact (List.forall_iff_forall_mem.mp hostOps1_2_keeps_args) op hop
  · exact (List.forall_iff_forall_mem.mp hostOps1_3_keeps_args) op hop
  · exact (List.forall_iff_forall_mem.mp hostOps1_4_keeps_args) op hop
  · exact (List.forall_iff_forall_mem.mp hostOps1_5_keeps_args) op hop
  · exact (List.forall_iff_forall_mem.mp hostOps1_6_keeps_args) op hop
  · exact (List.forall_iff_forall_mem.mp hostOps1_7_keeps_args) op hop
  · exact (List.forall_iff_forall_mem.mp hostOps1_8_keeps_args) op hop
  · exact (List.forall_iff_forall_mem.mp hostOps1_9_keeps_args) op hop
  · exact (List.forall_iff_forall_mem.mp hostOps1_10_keeps_args) op hop
  · exact (List.forall_iff_forall_mem.mp hostOps1_11_keeps_args) op hop
  · exact (List.forall_iff_forall_mem.mp hostOps1_12_keeps_args) op hop
  · exact (List.forall_iff_forall_mem.mp hostOps1_13_keeps_args) op hop
  · exact (List.forall_iff_forall_mem.mp hostOps1_14_keeps_args) op hop

/-- No argument array is scoped, and none is an array of the region. -/
theorem arg_unscoped : ∀ k : Fin 16, (argRef k).isScoped = false := by decide
theorem arg_ne_arr : ∀ (k : Fin 16) (w : Fin 4), Pipeline.arrRef spec0 w ≠ argRef k := by decide

/-- An argument array ends at its launch contents: it bypasses the region, and no operation writes it. -/
theorem arg_kept (k : Fin 16) (r : PUnit × MemSt nD τ sig (Elt F))
    (h : Pipeline.FramePost cfgs (dats m) 0 (Pipeline.afterTail₀ cfgs (dats m) 0 (V0 m) (tailOpss (F := F))) r) (c : Dev nD) :
    r.2.mem ((c.tc : Thread nD τ).loc (argRef k)) = m ((c.tc : Thread nD τ).loc (argRef k)) :=
  ((h c).2 (argRef k) (Pipeline.mem_restRefs_of (argRef k) (arg_unscoped k) (arg_ne_arr k))).trans
    (tail_arg m (dats m) c (argRef k) (arg_ne_arr k)
      (fun ops hops op hop => pre_keeps_args ops hops op hop k) (fun ops hops op hop => tail_keeps_args ops hops op hop k))

/-! ## The frame -/

/-- THE FRAME: the program runs to the end and its sixteen argument arrays end as they were, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨arg_kept m 0 r h c, arg_kept m 1 r h c, arg_kept m 2 r h c, arg_kept m 3 r h c, arg_kept m 4 r h c, arg_kept m 5 r h c, arg_kept m 6 r h c, arg_kept m 7 r h c, arg_kept m 8 r h c, arg_kept m 9 r h c, arg_kept m 10 r h c, arg_kept m 11 r h c, arg_kept m 12 r h c, arg_kept m 13 r h c, arg_kept m 14 r h c, arg_kept m 15 r h c⟩) (run_main m ρ)

end Cert.Kernel.Hand

end
-- ==== Proof.KRuns.lean ====
/-
  The launch side of the kernel program's run, at any float instance: the program is host operations, one
  pipelined region over a 4 × 8 grid, host operations. Stated here: the buffer contents with which the region is
  entered (the fold of the operations before it over the launch contents); that the program IS those operations,
  the region, and the later operations in sequence; that the later operations touch only unscoped buffers,
  allocate nothing and write none of the region's four arrays (the two operand matrices, the row of key norms and
  the column of running minima); each operand's block at a grid point; that an operand's staging buffer holds its
  block at every point; and that a run to the region's post leaves all sixteen argument arrays as they were
  (each is either an array the region only reads or a buffer no operation writes).
  The body's one branch tests whether the second grid coordinate is zero: at the points divisible by 8.
-/
import proofs.«130977_j54631984005498_2_alg».proof.Proof.Gen.KernelIdeal.Launch
import proofs.«130977_j54631984005498_2_alg».proof.Proof.Gen.KernelIdeal.Skeleton
import proofs.«130977_j54631984005498_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- the longest stretch has 51 operations, each checked against the four arrays
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host operations before the region, stretch by stretch. -/
abbrev preOpss : List (List (HloOp τ sig (Elt F))) :=
  [hostOps0, hostOps0_1, hostOps0_2, hostOps0_3, hostOps0_4, hostOps0_5, hostOps0_6, hostOps0_7, hostOps0_8]
/-- The host operations after the region, stretch by stretch. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14]

/-- Core `c`'s buffer contents when the region is entered: the earlier operations folded over the launch contents. -/
abbrev V0 (c : Dev nD) : Valuation τ sig (Elt F) := StableHlo.after (List.flatten (preOpss (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor

/-- The program is the earlier operations, the region, the later operations: it reduces to the region continued by the
    later ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main (preOpss (F := F)) (tailOpss (F := F))
    ⟨hostOps0_sub, hostOps0_1_sub, hostOps0_2_sub, hostOps0_3_sub, hostOps0_4_sub, hostOps0_5_sub, hostOps0_6_sub, hostOps0_7_sub, hostOps0_8_sub⟩
    ⟨hostOps0_fresh, hostOps0_1_fresh, hostOps0_2_fresh, hostOps0_3_fresh, hostOps0_4_fresh, hostOps0_5_fresh, hostOps0_6_fresh, hostOps0_7_fresh, hostOps0_8_fresh⟩ main_chain

/-- Each later operation writes only its own result buffer, which is none of the region's four arrays. -/
theorem hostOps1_keeps : (hostOps1 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_1_keeps : (hostOps1_1 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_2_keeps : (hostOps1_2 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_3_keeps : (hostOps1_3 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_4_keeps : (hostOps1_4 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_5_keeps : (hostOps1_5 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_6_keeps : (hostOps1_6 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_7_keeps : (hostOps1_7 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_8_keeps : (hostOps1_8 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_9_keeps : (hostOps1_9 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_10_keeps : (hostOps1_10 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_11_keeps : (hostOps1_11 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_12_keeps : (hostOps1_12 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_13_keeps : (hostOps1_13 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))
theorem hostOps1_14_keeps : (hostOps1_14 : List (HloOp τ sig (Elt F))).Forall fun op =>
    ∀ w : Fin 4, Proc.devRef (τ := τ) .tc (Pipeline.arrRef spec0 w) ∉ op.writes := by
  simp only [List.Forall]
  repeat' constructor
  all_goals (intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide))

/-- The later operations touch the region's arrays and the buffers that bypass it only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
/-- They allocate nothing. -/
theorem sfx_fresh : ∀ ops ∈ (tailOpss : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
/-- And write no array of the region. -/
theorem sfx_keeps : ∀ ops ∈ (tailOpss : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop
  · exact (List.forall_iff_forall_mem.mp hostOps1_10_keeps) op hop
  · exact (List.forall_iff_forall_mem.mp hostOps1_11_keeps) op hop
  · exact (List.forall_iff_forall_mem.mp hostOps1_12_keeps) op hop
  · exact (List.forall_iff_forall_mem.mp hostOps1_13_keeps) op hop
  · exact (List.forall_iff_forall_mem.mp hostOps1_14_keeps) op hop

/-! ## The operands' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An operand's current staging buffer holds its block at every point, fetched there or not, for any proof data whose
    array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments are left as they were -/

/-- After the later operations an argument array holds its launch contents: no operation of the program writes it. -/
theorem tail_arg (dats : (p : Fin 1) → (c : Dev nD) → Dat τ (Elt F) Unit ℕ (UR sig nD τ) ℕ (cfgs p) c) (c : Dev nD)
    (b : Ref sig .tc) (hb : ∀ w, Pipeline.arrRef spec0 w ≠ b)
    (hpre : ∀ ops ∈ (preOpss : List (List (HloOp τ sig (Elt F)))), ∀ op ∈ ops, Proc.devRef (τ := τ) .tc b ∉ op.writes)
    (htail : ∀ ops ∈ (tailOpss : List (List (HloOp τ sig (Elt F)))), ∀ op ∈ ops, Proc.devRef (τ := τ) .tc b ∉ op.writes) :
    Pipeline.afterTail₀ cfgs dats 0 (V0 m) (tailOpss (F := F)) c b = m ((c.tc : Thread nD τ).loc b) := by
  unfold Pipeline.afterTail₀
  rw [StableHlo.after_of_forall_not_mem _ _ fun op hop => by
      obtain ⟨ops, hops, hop'⟩ := List.mem_flatten.mp hop
      exact htail ops hops op hop',
    Pipeline.withArrays_of_ne _ c (V0 m c) _ _ fun w e => hb w e]
  exact StableHlo.after_of_forall_not_mem _ _ fun op hop => by
    obtain ⟨ops, hops, hop'⟩ := List.mem_flatten.mp hop
    exact hpre ops hops op hop'

/-! ## The body's branch condition -/

/-- The condition of the body's one branch, from the grid coordinates. -/
abbrev cond0_0 (i : grid0.Coords) : Prop := (Scalar.cmpi .ne (Scalar.extui (Scalar.cmpi .eq (BitVec.ofNat 32 (i 1).val) 0#32)) 0#32) = 1#1
/-- It holds at the points divisible by 8: the first key tile of each row tile. -/
theorem hcond0_0 : ∀ t : Fin cfg0.N, cond0_0 (grid0.coords t) ↔ t.val % 8 = 0 :=
  (by decide +kernel : ∀ t : Fin grid0.N, cond0_0 (grid0.coords t) ↔ t.val % 8 = 0)

/-- Each window's current staging memref at point `t`, as the pipeline passes it to the body, and its wholeness. -/
abbrev ms0_0 (t : Fin cfg0.N) : Memref sig .tc .vmem S512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KRunA.lean ====
/-
  The kernel body at a grid point whose second coordinate is zero (the first key tile of a row tile), run on any
  whole staging buffers. There the body first overwrites the whole block of running minima with +∞ and then with
  the entrywise minimum of that and the tile's row minima of (key norm − 2·⟨query, key⟩); what the block held on
  entry is read once but the value is never used. Stated: from the three operand buffers at given contents and the
  output buffer at any contents, the body runs to any continuation that holds the operand buffers unchanged and the
  output buffer at its two stores written over something; the stores, last first, are the witness.
-/
import proofs.«130977_j54631984005498_2_alg».proof.Proof.KRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the branch is taken: what its stores leave in the output's buffer, as pieces (last first), with the
    proof that from the operands at `x0`, `x1`, `x2` and the output at anything it runs to the continuation. -/
noncomputable def kernelRun0_A (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .f32) (harg5 : arg5.IsWhole) (hc0 : cond0_0 i)
    (x0 : Vec F S512x128 .f32) (x1 : Vec F S2048x128 .f32) (x2 : Vec F S1x2048 .f32) :
    { L3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__nct_kernel i arg2 harg2 arg3 harg3 arg4 harg4 arg5 harg5) K } := by
  refine ⟨?_, fun E K => ?run⟩
  case run =>
    simp only [cc0__nct_kernel_eq_skeleton]; unfold cc0__nct_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KRunB.lean ====
/-
  The kernel body at a grid point whose second coordinate is not zero (a later key tile of a row tile), run on any
  whole staging buffers. There the body overwrites the whole block of running minima with the entrywise minimum of
  what the block holds and the tile's row minima of (key norm − 2·⟨query, key⟩). Stated: from the three operand
  buffers and the output buffer at given contents, the body runs to any continuation that holds the operand buffers
  unchanged and the output buffer at its one store written over something; that store is the witness.
-/
import proofs.«130977_j54631984005498_2_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body where the branch is not taken: what its store leaves in the output's buffer, as pieces, with the proof
    that from the operands at `x0`, `x1`, `x2` and the output at its running contents `xo3` it runs to the continuation. -/
noncomputable def kernelRun0_B (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .f32) (harg5 : arg5.IsWhole) (hc0 : ¬cond0_0 i)
    (x0 : Vec F S512x128 .f32) (x1 : Vec F S2048x128 .f32) (x2 : Vec F S1x2048 .f32) (xo3 : Vec F S512x1 .f32) :
    { L3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__nct_kernel i arg2 harg2 arg3 harg3 arg4 harg4 arg5 harg5) K } := by
  refine ⟨?_, fun E K => ?run⟩
  case run =>
    simp only [cc0__nct_kernel_eq_skeleton]; unfold cc0__nct_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KFrame.lean ====
/-
  The frame of the kernel program: it runs to the end without fault and leaves its sixteen argument arrays as they
  were. The program is host operations, one pipelined region over a 4 × 8 grid (row tile p, key tile s, point
  8·p + s), host operations. The region stages three operands (a 512 × 128 query tile, a 2048 × 128 key tile, a
  1 × 2048 tile of key norms) and one result, a 512 × 1 block of running minima that is reset to +∞ at the first
  key tile of a row tile, lowered at every key tile, and written back after the last one. Stated here: what the
  result's staging buffer holds after each point (by recursion on the point: at a point divisible by 8 the body's
  contents there, which do not depend on what the buffer held; elsewhere the body's contents over what the point
  before left, the buffer not having been written back in between); the pipeline's proof data with that; the body's
  triple at every point; the run of the whole program; and that no operation before or after the region writes an
  argument array, none of which is an array of the region, so that each ends at its launch contents.
-/
import proofs.«130977_j54631984005498_2_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the result's buffer -/

/-- One staging buffer of the result's window, through which its contents are stated. -/
abbrev VO0_3 : View sig .tc .vmem S512x1 .f32 := (Memref.whole cc0_stg3_0 : Memref sig .tc .vmem S512x1 .f32).view

/-- Where the branch is taken the body's two stores each span the block, so they cover it. -/
theorem cover0_A_3 (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .f32) (harg5 : arg5.IsWhole) (hc0 : cond0_0 i)
    (x0 : Vec F S512x128 .f32) (x1 : Vec F S2048x128 .f32) (x2 : Vec F S1x2048 .f32) (y : S512x1.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S512x1.size (by sl_kernel_rfl) y

/-- What the body leaves in the result's buffer where the branch is taken: its stores read back over anything. -/
def out0_A_3 (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .f32) (harg5 : arg5.IsWhole) (hc0 : cond0_0 i)
    (x0 : Vec F S512x128 .f32) (x1 : Vec F S2048x128 .f32) (x2 : Vec F S1x2048 .f32) : Vec F S512x1 .f32 :=
  VO0_3.read (Elt F) (VO0_3.writes (Elt F) VO0_3.junk (kernelRun0_A c i arg2 harg2 arg3 harg3 arg4 harg4 arg5 harg5 hc0 x0 x1 x2).1)

/-- Where the branch is not taken the body's one store spans the block, so it covers it. -/
theorem cover0_B_3 (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .f32) (harg5 : arg5.IsWhole) (hc0 : ¬cond0_0 i)
    (x0 : Vec F S512x128 .f32) (x1 : Vec F S2048x128 .f32) (x2 : Vec F S1x2048 .f32) (xo3 : Vec F S512x1 .f32) (y : S512x1.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S512x1.size (by sl_kernel_rfl) y

/-- What the body leaves in the result's buffer where the branch is not taken: its store read back over anything. -/
def out0_B_3 (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .f32) (harg5 : arg5.IsWhole) (hc0 : ¬cond0_0 i)
    (x0 : Vec F S512x128 .f32) (x1 : Vec F S2048x128 .f32) (x2 : Vec F S1x2048 .f32) (xo3 : Vec F S512x1 .f32) : Vec F S512x1 .f32 :=
  VO0_3.read (Elt F) (VO0_3.writes (Elt F) VO0_3.junk (kernelRun0_B c i arg2 harg2 arg3 harg3 arg4 harg4 arg5 harg5 hc0 x0 x1 x2 xo3).1)

/-! ## What the result's buffer holds after each point -/

/-- The running minima after the body at position `n`: at a point divisible by 8 the reset-and-lower contents at that
    point's operand blocks; elsewhere the lowering of what this gives at `n - 1`. -/
def outsAt0 (c : Dev nD) : (n : ℕ) → n < cfg0.N → Vec F S512x1 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 8 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At a point divisible by 8. -/
theorem outsAt0_A (c : Dev nD) (t : Fin cfg0.N) (h0 : t.val % 8 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At any other point: over what the point before left. -/
theorem outsAt0_B (c : Dev nD) (t : Fin cfg0.N) (h0 : ¬t.val % 8 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    operand's buffer at its block and the result's at `outsAt0`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

/-- Each operand's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a point not divisible by 8 the result's current staging buffer holds what the body left at the point before:
    the point is not the first, and the buffer was not written back in between (write-backs come after the points
    ≡ 7 mod 8, and then the next point is divisible by 8). -/
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)) := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the operands' buffers hold their blocks; the point is divisible by 8 or not; in the second
    case the result's buffer holds what the point before left; so the matching run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 32 := lt_of_lt_of_eq t.isLt (show cfg0.N = 32 from N_0)
  by_cases h0 : t.val % 8 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run of the whole program -/

-- the launch theorem's implicit arguments are found by unifying its conclusion with this one, which takes unfolding
-- plain definitions in a metavariable's type
set_option backward.isDefEq.respectTransparency.types false in
/-- For any values, from any memory with zero counters: every weakly fair execution of the program terminates, and every
    final state has every array of the region at what the proof data give and every other unscoped buffer as the
    operations after the region leave it. -/
theorem run_main : θ_run defs (onTc (τ := τ) (main (F := F))) (s₀ m ρ) (Pipeline.FramePost cfgs (dats m) 0 (Pipeline.afterTail₀ cfgs (dats m) 0 (V0 m) (tailOpss (F := F)))) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss (F := F)) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-! ## No operation writes an argument array -/

/-- The sixteen argument arrays. -/
abbrev argRef : Fin 16 → Ref sig .tc :=
  ![main_arg0, main_arg1, main_arg2, main_arg3, main_arg4, main_arg5, main_arg6, main_arg7,
    main_arg8, main_arg9, main_arg10, main_arg11, main_arg12, main_arg13, main_arg14, main_arg15]

/-- A buffer that is no argument array is, on the core, none of them. -/
theorem arg_ne_result {r : Ref sig .tc} (h : ∀ k : Fin 16, argRef k ≠ r) (k : Fin 16) :
    ¬ Proc.devRef (τ := τ) .tc (argRef k) = Proc.devRef .tc r :=
  StableHlo.devRef_ne_of_ne (h k)

/-- Each host operation writes only its own result buffer, which is no argument array: stretch by stretch. -/
theorem hostOps0_keeps_args : (hostOps0 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_1_keeps_args : (hostOps0_1 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_2_keeps_args : (hostOps0_2 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_3_keeps_args : (hostOps0_3 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_4_keeps_args : (hostOps0_4 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_5_keeps_args : (hostOps0_5 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_6_keeps_args : (hostOps0_6 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_7_keeps_args : (hostOps0_7 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps0_8_keeps_args : (hostOps0_8 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_keeps_args : (hostOps1 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_1_keeps_args : (hostOps1_1 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_2_keeps_args : (hostOps1_2 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_3_keeps_args : (hostOps1_3 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_4_keeps_args : (hostOps1_4 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_5_keeps_args : (hostOps1_5 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_6_keeps_args : (hostOps1_6 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_7_keeps_args : (hostOps1_7 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_8_keeps_args : (hostOps1_8 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_9_keeps_args : (hostOps1_9 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_10_keeps_args : (hostOps1_10 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_11_keeps_args : (hostOps1_11 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_12_keeps_args : (hostOps1_12 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_13_keeps_args : (hostOps1_13 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)
theorem hostOps1_14_keeps_args : (hostOps1_14 : List (HloOp τ sig (Elt F))).Forall fun op =>
    ∀ k : Fin 16, Proc.devRef (τ := τ) .tc (argRef k) ∉ op.writes := by
  simp only [List.Forall]
  repeat' constructor
  all_goals (intro k; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; exact arg_ne_result (by decide) k)

/-- No operation before the region writes an argument array. -/
theorem pre_keeps_args : ∀ ops ∈ (preOpss : List (List (HloOp τ sig (Elt F)))), ∀ op ∈ ops,
    ∀ k : Fin 16, Proc.devRef (τ := τ) .tc (argRef k) ∉ op.writes := by
  intro ops hops op hop
  simp only [List.mem_cons, List.mem_nil_iff, or_false] at hops
  rcases hops with rfl | rfl | rfl | rfl | rfl | rfl | rfl | rfl | rfl
  · exact (List.forall_iff_forall_mem.mp hostOps0_keeps_args) op hop
  · exact (List.forall_iff_forall_mem.mp hostOps0_1_keeps_args) op hop
  · exact (List.forall_iff_forall_mem.mp hostOps0_2_keeps_args) op hop
  · exact (List.forall_iff_forall_mem.mp hostOps0_3_keeps_args) op hop
  · exact (List.forall_iff_forall_mem.mp hostOps0_4_keeps_args) op hop
  · exact (List.forall_iff_forall_mem.mp hostOps0_5_keeps_args) op hop
  · exact (List.forall_iff_forall_mem.mp hostOps0_6_keeps_args) op hop
  · exact (List.forall_iff_forall_mem.mp hostOps0_7_keeps_args) op hop
  · exact (List.forall_iff_forall_mem.mp hostOps0_8_keeps_args) op hop
/-- No operation after the region writes an argument array. -/
theorem tail_keeps_args : ∀ ops ∈ (tailOpss : List (List (HloOp τ sig (Elt F)))), ∀ op ∈ ops,
    ∀ k : Fin 16, Proc.devRef (τ := τ) .tc (argRef k) ∉ op.writes := by
  intro ops hops op hop
  simp only [List.mem_cons, List.mem_nil_iff, or_false] at hops
  rcases hops with rfl | rfl | rfl | rfl | rfl | rfl | rfl | rfl | rfl | rfl | rfl | rfl | rfl | rfl | rfl
  · exact (List.forall_iff_forall_mem.mp hostOps1_keeps_args) op hop
  · exact (List.forall_iff_forall_mem.mp hostOps1_1_keeps_args) op hop
  · exact (List.forall_iff_forall_mem.mp hostOps1_2_keeps_args) op hop
  · exact (List.forall_iff_forall_mem.mp hostOps1_3_keeps_args) op hop
  · exact (List.forall_iff_forall_mem.mp hostOps1_4_keeps_args) op hop
  · exact (List.forall_iff_forall_mem.mp hostOps1_5_keeps_args) op hop
  · exact (List.forall_iff_forall_mem.mp hostOps1_6_keeps_args) op hop
  · exact (List.forall_iff_forall_mem.mp hostOps1_7_keeps_args) op hop
  · exact (List.forall_iff_forall_mem.mp hostOps1_8_keeps_args) op hop
  · exact (List.forall_iff_forall_mem.mp hostOps1_9_keeps_args) op hop
  · exact (List.forall_iff_forall_mem.mp hostOps1_10_keeps_args) op hop
  · exact (List.forall_iff_forall_mem.mp hostOps1_11_keeps_args) op hop
  · exact (List.forall_iff_forall_mem.mp hostOps1_12_keeps_args) op hop
  · exact (List.forall_iff_forall_mem.mp hostOps1_13_keeps_args) op hop
  · exact (List.forall_iff_forall_mem.mp hostOps1_14_keeps_args) op hop

/-- No argument array is scoped, and none is an array of the region. -/
theorem arg_unscoped : ∀ k : Fin 16, (argRef k).isScoped = false := by decide
theorem arg_ne_arr : ∀ (k : Fin 16) (w : Fin 4), Pipeline.arrRef spec0 w ≠ argRef k := by decide

/-- An argument array ends at its launch contents: it bypasses the region, and no operation writes it. -/
theorem arg_kept (k : Fin 16) (r : PUnit × MemSt nD τ sig (Elt F))
    (h : Pipeline.FramePost cfgs (dats m) 0 (Pipeline.afterTail₀ cfgs (dats m) 0 (V0 m) (tailOpss (F := F))) r) (c : Dev nD) :
    r.2.mem ((c.tc : Thread nD τ).loc (argRef k)) = m ((c.tc : Thread nD τ).loc (argRef k)) :=
  ((h c).2 (argRef k) (Pipeline.mem_restRefs_of (argRef k) (arg_unscoped k) (arg_ne_arr k))).trans
    (tail_arg m (dats m) c (argRef k) (arg_ne_arr k)
      (fun ops hops op hop => pre_keeps_args ops hops op hop k) (fun ops hops op hop => tail_keeps_args ops hops op hop k))

/-! ## The frame -/

/-- THE FRAME: the program runs to the end and its sixteen argument arrays end as they were, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨arg_kept m 0 r h c, arg_kept m 1 r h c, arg_kept m 2 r h c, arg_kept m 3 r h c, arg_kept m 4 r h c, arg_kept m 5 r h c, arg_kept m 6 r h c, arg_kept m 7 r h c, arg_kept m 8 r h c, arg_kept m 9 r h c, arg_kept m 10 r h c, arg_kept m 11 r h c, arg_kept m 12 r h c, arg_kept m 13 r h c, arg_kept m 14 r h c, arg_kept m 15 r h c⟩) (run_main m ρ)

end Cert.KernelIdeal.Hand

end
-- ==== Proof.RefOpsList0.lean ====
/- Window 0 of the reference program's @main as a literal list: its 81 host operations in order, each
   call of a module-local function replaced by the callee's operations over the buffers that call names
   (its arguments' and its record's), nested calls likewise. With it the table of @main's 16 argument
   references, in order. -/
import proofs.«130977_j54631984005498_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's arguments, in order. -/
abbrev argRef : Fin 16 → Ref sig .tc := ![main_arg0, main_arg1, main_arg2, main_arg3, main_arg4, main_arg5, main_arg6, main_arg7, main_arg8, main_arg9, main_arg10, main_arg11, main_arg12, main_arg13, main_arg14, main_arg15]

set_option maxHeartbeats 4000000 in
/-- Window 0's 81 operations, in order. -/
abbrev ops0 : List (HloOp τ sig (Elt F)) :=
  [ StableHlo.unary main_arg3 main_v0 ((transpose S64x64 [1, 0] · transposes_S64x64_S64x64_1_0) : (⟨S64x64, .f32⟩ : BufTy).Contents (Elt F) → (⟨S64x64, .f32⟩ : BufTy).Contents (Elt F)),
    StableHlo.binary main_arg3 main_v0 main_v1 (subf : (⟨S64x64, .f32⟩ : BufTy).Contents (Elt F) → (⟨S64x64, .f32⟩ : BufTy).Contents (Elt F) → (⟨S64x64, .f32⟩ : BufTy).Contents (Elt F)),
    StableHlo.unary main_v1 main_v2 (Host.negf : (⟨S64x64, .f32⟩ : BufTy).Contents (Elt F) → (⟨S64x64, .f32⟩ : BufTy).Contents (Elt F)),
    StableHlo.unary main_v2 main_v3 (Host.exp : (⟨S64x64, .f32⟩ : BufTy).Contents (Elt F) → (⟨S64x64, .f32⟩ : BufTy).Contents (Elt F)),
    StableHlo.nullary main_cst (constant S_ .f32 0x3F800000#32),
    StableHlo.unary main_cst main_v4 (broadcastInDim S64x64 ![] bcast_S_S64x64 : (⟨S_, .f32⟩ : BufTy).Contents (Elt F) → (⟨S64x64, .f32⟩ : BufTy).Contents (Elt F)),
    StableHlo.binary main_v4 main_v3 main_v5 (addf : (⟨S64x64, .f32⟩ : BufTy).Contents (Elt F) → (⟨S64x64, .f32⟩ : BufTy).Contents (Elt F) → (⟨S64x64, .f32⟩ : BufTy).Contents (Elt F)),
    StableHlo.nullary main_cst_0 (constant S_ .f32 0x3F800000#32),
    StableHlo.unary main_cst_0 main_v6 (broadcastInDim S64x64 ![] bcast_S_S64x64 : (⟨S_, .f32⟩ : BufTy).Contents (Elt F) → (⟨S64x64, .f32⟩ : BufTy).Contents (Elt F)),
    StableHlo.binary main_v6 main_v5 main_v7 (Host.divf : (⟨S64x64, .f32⟩ : BufTy).Contents (Elt F) → (⟨S64x64, .f32⟩ : BufTy).Contents (Elt F) → (⟨S64x64, .f32⟩ : BufTy).Contents (Elt F)),
    StableHlo.nullary main_v8 (iotaInDim S64x64 32 0),
    StableHlo.nullary main_v9 (iotaInDim S64x64 32 1),
    StableHlo.nullary main_c (constantI S_ 32 0#32),
    StableHlo.unary main_c main_v10 (broadcastInDim S64x64 ![] bcast_S_S64x64 : (⟨S_, .i32⟩ : BufTy).Contents (Elt F) → (⟨S64x64, .i32⟩ : BufTy).Contents (Elt F)),
    StableHlo.binary main_v8 main_v10 main_v11 (addi : (⟨S64x64, .i32⟩ : BufTy).Contents (Elt F) → (⟨S64x64, .i32⟩ : BufTy).Contents (Elt F) → (⟨S64x64, .i32⟩ : BufTy).Contents (Elt F)),
    StableHlo.binary main_v11 main_v9 main_v12 (cmpi .eq : (⟨S64x64, .i32⟩ : BufTy).Contents (Elt F) → (⟨S64x64, .i32⟩ : BufTy).Contents (Elt F) → (⟨S64x64, .i1⟩ : BufTy).Contents (Elt F)),
    StableHlo.unary main_v12 main_v13 (uitofp .f32 : (⟨S64x64, .i1⟩ : BufTy).Contents (Elt F) → (⟨S64x64, .f32⟩ : BufTy).Contents (Elt F)),
    StableHlo.nullary main_cst_1 (constant S_ .f32 0x3F800000#32),
    StableHlo.unary main_cst_1 main_v14 (broadcastInDim S64x64 ![] bcast_S_S64x64 : (⟨S_, .f32⟩ : BufTy).Contents (Elt F) → (⟨S64x64, .f32⟩ : BufTy).Contents (Elt F)),
    StableHlo.binary main_v14 main_v13 main_v15 (subf : (⟨S64x64, .f32⟩ : BufTy).Contents (Elt F) → (⟨S64x64, .f32⟩ : BufTy).Contents (Elt F) → (⟨S64x64, .f32⟩ : BufTy).Contents (Elt F)),
    StableHlo.binary main_v7 main_v15 main_v16 (mulf : (⟨S64x64, .f32⟩ : BufTy).Contents (Elt F) → (⟨S64x64, .f32⟩ : BufTy).Contents (Elt F) → (⟨S64x64, .f32⟩ : BufTy).Contents (Elt F)),
    StableHlo.binary main_v16 main_v16 main_v17 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.unary main_v16 main_v18 ((transpose S64x64 [1, 0] · transposes_S64x64_S64x64_1_0) : (⟨S64x64, .f32⟩ : BufTy).Contents (Elt F) → (⟨S64x64, .f32⟩ : BufTy).Contents (Elt F)),
    StableHlo.binary main_v17 main_v18 main_v19 (mulf : (⟨S64x64, .f32⟩ : BufTy).Contents (Elt F) → (⟨S64x64, .f32⟩ : BufTy).Contents (Elt F) → (⟨S64x64, .f32⟩ : BufTy).Contents (Elt F)),
    StableHlo.nullary main_cst_2 (constant S_ .f32 0x00000000#32),
    StableHlo.binary main_v19 main_cst_2 main_v20 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    StableHlo.unary main_arg5 main_v21 ((transpose S128x256 [1, 0] · transposes_S256x128_S128x256_1_0) : (⟨S256x128, .f32⟩ : BufTy).Contents (Elt F) → (⟨S128x256, .f32⟩ : BufTy).Contents (Elt F)),
    StableHlo.binary main_arg4 main_v21 main_v22 ((fun l r => Host.dotGeneral dot_S16384x128_S128x256_S16384x256_1_0_0_1_n_n none l r) : (⟨S16384x128, .f32⟩ : BufTy).Contents (Elt F) → (⟨S128x256, .f32⟩ : BufTy).Contents (Elt F) → (⟨S16384x256, .f32⟩ : BufTy).Contents (Elt F)),
    StableHlo.nullary main_cst_3 (constant S_ .f32 0x00000000#32),
    StableHlo.binary main_v22 main_cst_3 main_v23 ((fun x v => Host.reduceAdd x v reducesTo_S16384x256_S256_d0 h_S_) : (⟨S16384x256, .f32⟩ : BufTy).Contents (Elt F) → (⟨S_, .f32⟩ : BufTy).Contents (Elt F) → (⟨S256, .f32⟩ : BufTy).Contents (Elt F)),
    StableHlo.nullary main_cst_4 (constant S_ .f32 0x46800000#32),
    StableHlo.unary main_cst_4 main_v24 (broadcastInDim S256 ![] bcast_S_S256 : (⟨S_, .f32⟩ : BufTy).Contents (Elt F) → (⟨S256, .f32⟩ : BufTy).Contents (Elt F)),
    StableHlo.binary main_v23 main_v24 main_v25 (Host.divf : (⟨S256, .f32⟩ : BufTy).Contents (Elt F) → (⟨S256, .f32⟩ : BufTy).Contents (Elt F) → (⟨S256, .f32⟩ : BufTy).Contents (Elt F)),
    StableHlo.nullary main_c_5 (constantI S_ 32 0#32),
    StableHlo.TRef.nullary (.of main_call0_cst : StableHlo.TRef sig ⟨S_, .f32⟩) (constant S_ .f32 0x00000000#32),
    StableHlo.TRef.binary (.of main_v22 : StableHlo.TRef sig ⟨S16384x256, .f32⟩) (.of main_call0_cst : StableHlo.TRef sig ⟨S_, .f32⟩) (.of main_call0_v0 : StableHlo.TRef sig ⟨S256, .f32⟩) (fun x v => Host.reduceAdd x v reducesTo_S16384x256_S256_d0 h_S_),
    StableHlo.TRef.unary (.of main_call0_v0 : StableHlo.TRef sig ⟨S256, .f32⟩) (.of main_call0_v1 : StableHlo.TRef sig ⟨S1x256, .f32⟩) (broadcastInDim S1x256 ![1] bcast_S256_S1x256_1),
    StableHlo.TRef.nullary (.of main_call0_cst_0 : StableHlo.TRef sig ⟨S_, .f32⟩) (constant S_ .f32 0x46800000#32),
    StableHlo.TRef.unary (.of main_call0_cst_0 : StableHlo.TRef sig ⟨S_, .f32⟩) (.of main_call0_v2 : StableHlo.TRef sig ⟨S1x256, .f32⟩) (broadcastInDim S1x256 ![] bcast_S_S1x256),
    StableHlo.TRef.binary (.of main_call0_v1 : StableHlo.TRef sig ⟨S1x256, .f32⟩) (.of main_call0_v2 : StableHlo.TRef sig ⟨S1x256, .f32⟩) (.of main_call0_v3 : StableHlo.TRef sig ⟨S1x256, .f32⟩) Host.divf,
    StableHlo.TRef.unary (.of main_call0_v3 : StableHlo.TRef sig ⟨S1x256, .f32⟩) (.of main_call0_v4 : StableHlo.TRef sig ⟨S16384x256, .f32⟩) (broadcastInDim S16384x256 ![0, 1] bcast_S1x256_S16384x256_0_1),
    StableHlo.TRef.binary (.of main_v22 : StableHlo.TRef sig ⟨S16384x256, .f32⟩) (.of main_call0_v4 : StableHlo.TRef sig ⟨S16384x256, .f32⟩) (.of main_call0_v5 : StableHlo.TRef sig ⟨S16384x256, .f32⟩) subf,
    StableHlo.TRef.binary (.of main_call0_v5 : StableHlo.TRef sig ⟨S16384x256, .f32⟩) (.of main_call0_v5 : StableHlo.TRef sig ⟨S16384x256, .f32⟩) (.of main_call0_v6 : StableHlo.TRef sig ⟨S16384x256, .f32⟩) mulf,
    StableHlo.TRef.unary (.of main_c_5 : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x46800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S16384x256, .f32⟩) (.of main_call0_cst_2 : StableHlo.TRef sig ⟨S_, .f32⟩) (.of main_call0_v9 : StableHlo.TRef sig ⟨S256, .f32⟩) (fun x v => Host.reduceAdd x v reducesTo_S16384x256_S256_d0 h_S_),
    StableHlo.TRef.unary (.of main_call0_v8 : StableHlo.TRef sig ⟨S_, .f32⟩) (.of main_call0_v10 : StableHlo.TRef sig ⟨S256, .f32⟩) (broadcastInDim S256 ![] bcast_S_S256),
    StableHlo.TRef.binary (.of main_call0_v9 : StableHlo.TRef sig ⟨S256, .f32⟩) (.of main_call0_v10 : StableHlo.TRef sig ⟨S256, .f32⟩) (.of main_call0_v11 : StableHlo.TRef sig ⟨S256, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S256, .f32⟩) (broadcastInDim S256 ![] bcast_S_S256),
    StableHlo.TRef.ternary (.of main_call0_v12 : StableHlo.TRef sig ⟨S_, .i1⟩) (.of main_call0_v11 : StableHlo.TRef sig ⟨S256, .f32⟩) (.of main_call0_call0_v1 : StableHlo.TRef sig ⟨S256, .f32⟩) (.of main_v26 : StableHlo.TRef sig ⟨S256, .f32⟩) (fun p a b => select (broadcastInDim S256 ![] bcast_S_S256 p) a b),
    StableHlo.unary main_v25 main_v27 (broadcastInDim S1x256 ![1] bcast_S256_S1x256_1 : (⟨S256, .f32⟩ : BufTy).Contents (Elt F) → (⟨S1x256, .f32⟩ : BufTy).Contents (Elt F)),
    StableHlo.unary main_v27 main_v28 (broadcastInDim S16384x256 ![0, 1] bcast_S1x256_S16384x256_0_1 : (⟨S1x256, .f32⟩ : BufTy).Contents (Elt F) → (⟨S16384x256, .f32⟩ : BufTy).Contents (Elt F)),
    StableHlo.binary main_v22 main_v28 main_v29 (subf : (⟨S16384x256, .f32⟩ : BufTy).Contents (Elt F) → (⟨S16384x256, .f32⟩ : BufTy).Contents (Elt F) → (⟨S16384x256, .f32⟩ : BufTy).Contents (Elt F)),
    StableHlo.nullary main_cst_6 (constant S_ .f32 0x3727C5AC#32),
    StableHlo.unary main_cst_6 main_v30 (broadcastInDim S256 ![] bcast_S_S256 : (⟨S_, .f32⟩ : BufTy).Contents (Elt F) → (⟨S256, .f32⟩ : BufTy).Contents (Elt F)),
    StableHlo.binary main_v26 main_v30 main_v31 (addf : (⟨S256, .f32⟩ : BufTy).Contents (Elt F) → (⟨S256, .f32⟩ : BufTy).Contents (Elt F) → (⟨S256, .f32⟩ : BufTy).Contents (Elt F)),
    StableHlo.unary main_v31 main_v32 (Host.sqrt : (⟨S256, .f32⟩ : BufTy).Contents (Elt F) → (⟨S256, .f32⟩ : BufTy).Contents (Elt F)),
    StableHlo.unary main_v32 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S16384x256 ![0, 1] bcast_S1x256_S16384x256_0_1 : (⟨S1x256, .f32⟩ : BufTy).Contents (Elt F) → (⟨S16384x256, .f32⟩ : BufTy).Contents (Elt F)),
    StableHlo.binary main_v29 main_v34 main_v35 (Host.divf : (⟨S16384x256, .f32⟩ : BufTy).Contents (Elt F) → (⟨S16384x256, .f32⟩ : BufTy).Contents (Elt F) → (⟨S16384x256, .f32⟩ : BufTy).Contents (Elt F)),
    StableHlo.unary main_arg6 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S16384x256 ![0, 1] bcast_S1x256_S16384x256_0_1 : (⟨S1x256, .f32⟩ : BufTy).Contents (Elt F) → (⟨S16384x256, .f32⟩ : BufTy).Contents (Elt F)),
    StableHlo.binary main_v35 main_v37 main_v38 (mulf : (⟨S16384x256, .f32⟩ : BufTy).Contents (Elt F) → (⟨S16384x256, .f32⟩ : BufTy).Contents (Elt F) → (⟨S16384x256, .f32⟩ : BufTy).Contents (Elt F)),
    StableHlo.unary main_arg7 main_v39 (broadcastInDim S1x256 ![1] bcast_S256_S1x256_1 : (⟨S256, .f32⟩ : BufTy).Contents (Elt F) → (⟨S1x256, .f32⟩ : BufTy).Contents (Elt F)),
    StableHlo.unary main_v39 main_v40 (broadcastInDim S16384x256 ![0, 1] bcast_S1x256_S16384x256_0_1 : (⟨S1x256, .f32⟩ : BufTy).Contents (Elt F) → (⟨S16384x256, .f32⟩ : BufTy).Contents (Elt F)),
    StableHlo.binary main_v38 main_v40 main_v41 (addf : (⟨S16384x256, .f32⟩ : BufTy).Contents (Elt F) → (⟨S16384x256, .f32⟩ : BufTy).Contents (Elt F) → (⟨S16384x256, .f32⟩ : BufTy).Contents (Elt F)),
    StableHlo.nullary main_cst_7 (constant S_ .f32 0x00000000#32),
    StableHlo.unary main_cst_7 main_v42 (broadcastInDim S16384x256 ![] bcast_S_S16384x256 : (⟨S_, .f32⟩ : BufTy).Contents (Elt F) → (⟨S16384x256, .f32⟩ : BufTy).Contents (Elt F)),
    StableHlo.binary main_v41 main_v42 main_v43 (cmpf .oge : (⟨S16384x256, .f32⟩ : BufTy).Contents (Elt F) → (⟨S16384x256, .f32⟩ : BufTy).Contents (Elt F) → (⟨S16384x256, .i1⟩ : BufTy).Contents (Elt F)),
    StableHlo.nullary main_cst_8 (constant S_ .f32 0x3C23D70A#32),
    StableHlo.unary main_cst_8 main_v44 (broadcastInDim S16384x256 ![] bcast_S_S16384x256 : (⟨S_, .f32⟩ : BufTy).Contents (Elt F) → (⟨S16384x256, .f32⟩ : BufTy).Contents (Elt F)),
    StableHlo.binary main_v44 main_v41 main_v45 (mulf : (⟨S16384x256, .f32⟩ : BufTy).Contents (Elt F) → (⟨S16384x256, .f32⟩ : BufTy).Contents (Elt F) → (⟨S16384x256, .f32⟩ : BufTy).Contents (Elt F)),
    StableHlo.TRef.ternary (.of main_v43 : StableHlo.TRef sig ⟨S16384x256, .i1⟩) (.of main_v41 : StableHlo.TRef sig ⟨S16384x256, .f32⟩) (.of main_v45 : StableHlo.TRef sig ⟨S16384x256, .f32⟩) (.of main_v46 : StableHlo.TRef sig ⟨S16384x256, .f32⟩) select,
    StableHlo.unary main_arg8 main_v47 ((transpose S256x64 [1, 0] · transposes_S64x256_S256x64_1_0) : (⟨S64x256, .f32⟩ : BufTy).Contents (Elt F) → (⟨S256x64, .f32⟩ : BufTy).Contents (Elt F)),
    StableHlo.binary main_v46 main_v47 main_v48 ((fun l r => Host.dotGeneral dot_S16384x256_S256x64_S16384x64_1_0_0_1_n_n none l r) : (⟨S16384x256, .f32⟩ : BufTy).Contents (Elt F) → (⟨S256x64, .f32⟩ : BufTy).Contents (Elt F) → (⟨S16384x64, .f32⟩ : BufTy).Contents (Elt F)) ]

end Cert.ReferenceIdeal.Hand

end
-- ==== Proof.RefOps0.lean ====
/- Window 0 of the reference program's @main (its statements 1 … 60) read as a straight line of host
   operations. The window's program equals the sequence of the 81 operations listed in the imported list
   (each call of a module-local function standing for the callee's operations over that call's buffers);
   every operation touches TensorCore references only, determines everything it writes, and writes no
   argument of @main: an operation writes exactly its result buffer, and every result buffer's index is at
   least 16 while the sixteen arguments are the references of index 0 … 15. -/
import proofs.«130977_j54631984005498_2_alg».proof.Proof.Gen.ReferenceIdeal
import Idealize.ShloMosaic.Lib.StableHlo.Run
import proofs.«130977_j54631984005498_2_alg».proof.Proof.RefOpsList0

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Argument `k` is the reference of index `k`. -/
theorem argRef_idx (k : Fin 16) : (argRef k).idx.val = k.val := by
  fin_cases k <;> first | rfl | decide

/-- A reference whose index is at least 16 is none of the sixteen arguments. -/
theorem argRef_ne (k : Fin 16) {y : Ref sig .tc} (hy : 16 ≤ y.idx.val) : argRef k ≠ y := by
  intro e
  have h : (argRef k).idx.val = y.idx.val := congrArg (fun r : Ref sig .tc => r.idx.val) e
  rw [argRef_idx] at h
  have hk : k.val < 16 := k.isLt
  omega

/-- An operation that writes exactly one buffer, of index at least 16, writes no argument (distinct
    references are distinct device buffers). -/
theorem keeps_of_writes {op : HloOp τ sig (Elt F)} {y : Ref sig .tc}
    (hw : op.writes = {Proc.devRef (τ := τ) .tc y}) (hy : 16 ≤ y.idx.val) :
    ∀ k : Fin 16, Proc.devRef (τ := τ) .tc (argRef k) ∉ op.writes := by
  intro k h
  rw [hw, Finset.mem_singleton] at h
  exact argRef_ne k hy (Proc.devRef_injective _ h)

/-- The fact for one builder's operation: what it writes is its result by computation, and the result's
    index is a literal. -/
local macro "kp" : term => `(keeps_of_writes rfl (by decide))

set_option maxRecDepth 8192 in
set_option maxHeartbeats 4000000 in
/-- Window 0 is that straight line: unfolding the called functions at their calls and the call records at
    their fields, both sides are the same chain of operation steps once sequencing is reassociated, which the
    free monad's bind does by computation. -/
theorem main_part0_eq (c : Dev nD) :
    main_part0 (F := F) c
      = (seq ops0 : Prog (TpuEff nD τ sig (Elt F) (Pipeline.Sig Λ₀ (Fin 0) fun p => (pcfgs (F := F) p).Adm) .tc) PUnit) :=
  rfl

/-- Every operation of the window touches TensorCore references only: each builder's buffers are its operands
    and its result. -/
theorem ops0_sub : (ops0 : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub ..,
    binary_bufs_sub .., nullary_bufs_sub .., nullary_bufs_sub .., nullary_bufs_sub .., unary_bufs_sub .., binary_bufs_sub .., binary_bufs_sub .., unary_bufs_sub .., nullary_bufs_sub ..,
    unary_bufs_sub .., binary_bufs_sub .., binary_bufs_sub .., binary_bufs_sub .., unary_bufs_sub .., binary_bufs_sub .., nullary_bufs_sub .., binary_bufs_sub .., unary_bufs_sub ..,
    binary_bufs_sub .., nullary_bufs_sub .., binary_bufs_sub .., nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub .., ternary_bufs_sub .., unary_bufs_sub .., binary_bufs_sub ..⟩

/-- No operation of the window leaves a buffer undetermined: the builders mark none fresh. -/
theorem ops0_fresh : (ops0 : List (HloOp τ sig (Elt F))).Forall fun op => op.fresh = ∅ :=
  ⟨rfl, rfl, rfl, rfl, rfl, rfl, rfl, rfl, rfl,
    rfl, rfl, rfl, rfl, rfl, rfl, rfl, rfl, rfl,
    rfl, rfl, rfl, rfl, rfl, rfl, rfl, rfl, rfl,
    rfl, rfl, rfl, rfl, rfl, rfl, rfl, rfl, rfl,
    rfl, rfl, rfl, rfl, rfl, rfl, rfl, rfl, rfl,
    rfl, rfl, rfl, rfl, rfl, rfl, rfl, rfl, rfl,
    rfl, rfl, rfl, rfl, rfl, rfl, rfl, rfl, rfl,
    rfl, rfl, rfl, rfl, rfl, rfl, rfl, rfl, rfl,
    rfl, rfl, rfl, rfl, rfl, rfl, rfl, rfl, rfl⟩

/-- No operation of the window writes an argument of @main: each writes its one result buffer, whose index is
    past the arguments'. -/
theorem ops0_keeps_args :
    (ops0 : List (HloOp τ sig (Elt F))).Forall fun op => ∀ k : Fin 16, Proc.devRef (τ := τ) .tc (argRef k) ∉ op.writes :=
  ⟨kp, kp, kp, kp, kp, kp, kp, kp, kp,
    kp, kp, kp, kp, kp, kp, kp, kp, kp,
    kp, kp, kp, kp, kp, kp, kp, kp, kp,
    kp, kp, kp, kp, kp, kp, kp, kp, kp,
    kp, kp, kp, kp, kp, kp, kp, kp, kp,
    kp, kp, kp, kp, kp, kp, kp, kp, kp,
    kp, kp, kp, kp, kp, kp, kp, kp, kp,
    kp, kp, kp, kp, kp, kp, kp, kp, kp,
    kp, kp, kp, kp, kp, kp, kp, kp, kp⟩

end Cert.ReferenceIdeal.Hand

end
-- ==== Proof.RefOpsList1.lean ====
/- Window 1 of the reference program's @main as a literal list: its 81 host operations in order, each
   call of a module-local function replaced by the callee's operations over the buffers that call names
   (its arguments' and its record's), nested calls likewise. -/
import proofs.«130977_j54631984005498_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 1's 81 operations, in order. -/
abbrev ops1 : List (HloOp τ sig (Elt F)) :=
  [ StableHlo.unary main_arg9 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S16384x64 ![0, 1] bcast_S1x64_S16384x64_0_1 : (⟨S1x64, .f32⟩ : BufTy).Contents (Elt F) → (⟨S16384x64, .f32⟩ : BufTy).Contents (Elt F)),
    StableHlo.binary main_v48 main_v50 main_v51 (addf : (⟨S16384x64, .f32⟩ : BufTy).Contents (Elt F) → (⟨S16384x64, .f32⟩ : BufTy).Contents (Elt F) → (⟨S16384x64, .f32⟩ : BufTy).Contents (Elt F)),
    StableHlo.binary main_v51 main_arg0 main_v52 (subf : (⟨S16384x64, .f32⟩ : BufTy).Contents (Elt F) → (⟨S16384x64, .f32⟩ : BufTy).Contents (Elt F) → (⟨S16384x64, .f32⟩ : BufTy).Contents (Elt F)),
    StableHlo.binary main_v52 main_v52 main_v53 (mulf : (⟨S16384x64, .f32⟩ : BufTy).Contents (Elt F) → (⟨S16384x64, .f32⟩ : BufTy).Contents (Elt F) → (⟨S16384x64, .f32⟩ : BufTy).Contents (Elt F)),
    StableHlo.nullary main_cst_9 (constant S_ .f32 0x00000000#32),
    StableHlo.binary main_v53 main_cst_9 main_v54 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    StableHlo.nullary main_cst_10 (constant S_ .f32 0x49800000#32),
    StableHlo.binary main_v54 main_cst_10 main_v55 (Host.divf : (⟨S_, .f32⟩ : BufTy).Contents (Elt F) → (⟨S_, .f32⟩ : BufTy).Contents (Elt F) → (⟨S_, .f32⟩ : BufTy).Contents (Elt F)),
    StableHlo.unary main_arg10 main_v56 ((transpose S64x256 [1, 0] · transposes_S256x64_S64x256_1_0) : (⟨S256x64, .f32⟩ : BufTy).Contents (Elt F) → (⟨S64x256, .f32⟩ : BufTy).Contents (Elt F)),
    StableHlo.binary main_arg1 main_v56 main_v57 ((fun l r => Host.dotGeneral dot_S2048x64_S64x256_S2048x256_1_0_0_1_n_n none l r) : (⟨S2048x64, .f32⟩ : BufTy).Contents (Elt F) → (⟨S64x256, .f32⟩ : BufTy).Contents (Elt F) → (⟨S2048x256, .f32⟩ : BufTy).Contents (Elt F)),
    StableHlo.nullary main_cst_11 (constant S_ .f32 0x00000000#32),
    StableHlo.binary main_v57 main_cst_11 main_v58 ((fun x v => Host.reduceAdd x v reducesTo_S2048x256_S256_d0 h_S_) : (⟨S2048x256, .f32⟩ : BufTy).Contents (Elt F) → (⟨S_, .f32⟩ : BufTy).Contents (Elt F) → (⟨S256, .f32⟩ : BufTy).Contents (Elt F)),
    StableHlo.nullary main_cst_12 (constant S_ .f32 0x45000000#32),
    StableHlo.unary main_cst_12 main_v59 (broadcastInDim S256 ![] bcast_S_S256 : (⟨S_, .f32⟩ : BufTy).Contents (Elt F) → (⟨S256, .f32⟩ : BufTy).Contents (Elt F)),
    StableHlo.binary main_v58 main_v59 main_v60 (Host.divf : (⟨S256, .f32⟩ : BufTy).Contents (Elt F) → (⟨S256, .f32⟩ : BufTy).Contents (Elt F) → (⟨S256, .f32⟩ : BufTy).Contents (Elt F)),
    StableHlo.nullary main_c_13 (constantI S_ 32 0#32),
    StableHlo.TRef.nullary (.of main_call2_cst : StableHlo.TRef sig ⟨S_, .f32⟩) (constant S_ .f32 0x00000000#32),
    StableHlo.TRef.binary (.of main_v57 : StableHlo.TRef sig ⟨S2048x256, .f32⟩) (.of main_call2_cst : StableHlo.TRef sig ⟨S_, .f32⟩) (.of main_call2_v0 : StableHlo.TRef sig ⟨S256, .f32⟩) (fun x v => Host.reduceAdd x v reducesTo_S2048x256_S256_d0 h_S_),
    StableHlo.TRef.unary (.of main_call2_v0 : StableHlo.TRef sig ⟨S256, .f32⟩) (.of main_call2_v1 : StableHlo.TRef sig ⟨S1x256, .f32⟩) (broadcastInDim S1x256 ![1] bcast_S256_S1x256_1),
    StableHlo.TRef.nullary (.of main_call2_cst_0 : StableHlo.TRef sig ⟨S_, .f32⟩) (constant S_ .f32 0x45000000#32),
    StableHlo.TRef.unary (.of main_call2_cst_0 : StableHlo.TRef sig ⟨S_, .f32⟩) (.of main_call2_v2 : StableHlo.TRef sig ⟨S1x256, .f32⟩) (broadcastInDim S1x256 ![] bcast_S_S1x256),
    StableHlo.TRef.binary (.of main_call2_v1 : StableHlo.TRef sig ⟨S1x256, .f32⟩) (.of main_call2_v2 : StableHlo.TRef sig ⟨S1x256, .f32⟩) (.of main_call2_v3 : StableHlo.TRef sig ⟨S1x256, .f32⟩) Host.divf,
    StableHlo.TRef.unary (.of main_call2_v3 : StableHlo.TRef sig ⟨S1x256, .f32⟩) (.of main_call2_v4 : StableHlo.TRef sig ⟨S2048x256, .f32⟩) (broadcastInDim S2048x256 ![0, 1] bcast_S1x256_S2048x256_0_1),
    StableHlo.TRef.binary (.of main_v57 : StableHlo.TRef sig ⟨S2048x256, .f32⟩) (.of main_call2_v4 : StableHlo.TRef sig ⟨S2048x256, .f32⟩) (.of main_call2_v5 : StableHlo.TRef sig ⟨S2048x256, .f32⟩) subf,
    StableHlo.TRef.binary (.of main_call2_v5 : StableHlo.TRef sig ⟨S2048x256, .f32⟩) (.of main_call2_v5 : StableHlo.TRef sig ⟨S2048x256, .f32⟩) (.of main_call2_v6 : StableHlo.TRef sig ⟨S2048x256, .f32⟩) mulf,
    StableHlo.TRef.unary (.of main_c_13 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x45000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S2048x256, .f32⟩) (.of main_call2_cst_2 : StableHlo.TRef sig ⟨S_, .f32⟩) (.of main_call2_v9 : StableHlo.TRef sig ⟨S256, .f32⟩) (fun x v => Host.reduceAdd x v reducesTo_S2048x256_S256_d0 h_S_),
    StableHlo.TRef.unary (.of main_call2_v8 : StableHlo.TRef sig ⟨S_, .f32⟩) (.of main_call2_v10 : StableHlo.TRef sig ⟨S256, .f32⟩) (broadcastInDim S256 ![] bcast_S_S256),
    StableHlo.TRef.binary (.of main_call2_v9 : StableHlo.TRef sig ⟨S256, .f32⟩) (.of main_call2_v10 : StableHlo.TRef sig ⟨S256, .f32⟩) (.of main_call2_v11 : StableHlo.TRef sig ⟨S256, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S256, .f32⟩) (broadcastInDim S256 ![] bcast_S_S256),
    StableHlo.TRef.ternary (.of main_call2_v12 : StableHlo.TRef sig ⟨S_, .i1⟩) (.of main_call2_v11 : StableHlo.TRef sig ⟨S256, .f32⟩) (.of main_call2_call0_v1 : StableHlo.TRef sig ⟨S256, .f32⟩) (.of main_v61 : StableHlo.TRef sig ⟨S256, .f32⟩) (fun p a b => select (broadcastInDim S256 ![] bcast_S_S256 p) a b),
    StableHlo.unary main_v60 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S2048x256 ![0, 1] bcast_S1x256_S2048x256_0_1 : (⟨S1x256, .f32⟩ : BufTy).Contents (Elt F) → (⟨S2048x256, .f32⟩ : BufTy).Contents (Elt F)),
    StableHlo.binary main_v57 main_v63 main_v64 (subf : (⟨S2048x256, .f32⟩ : BufTy).Contents (Elt F) → (⟨S2048x256, .f32⟩ : BufTy).Contents (Elt F) → (⟨S2048x256, .f32⟩ : BufTy).Contents (Elt F)),
    StableHlo.nullary main_cst_14 (constant S_ .f32 0x3727C5AC#32),
    StableHlo.unary main_cst_14 main_v65 (broadcastInDim S256 ![] bcast_S_S256 : (⟨S_, .f32⟩ : BufTy).Contents (Elt F) → (⟨S256, .f32⟩ : BufTy).Contents (Elt F)),
    StableHlo.binary main_v61 main_v65 main_v66 (addf : (⟨S256, .f32⟩ : BufTy).Contents (Elt F) → (⟨S256, .f32⟩ : BufTy).Contents (Elt F) → (⟨S256, .f32⟩ : BufTy).Contents (Elt F)),
    StableHlo.unary main_v66 main_v67 (Host.sqrt : (⟨S256, .f32⟩ : BufTy).Contents (Elt F) → (⟨S256, .f32⟩ : BufTy).Contents (Elt F)),
    StableHlo.unary main_v67 main_v68 (broadcastInDim S1x256 ![1] bcast_S256_S1x256_1 : (⟨S256, .f32⟩ : BufTy).Contents (Elt F) → (⟨S1x256, .f32⟩ : BufTy).Contents (Elt F)),
    StableHlo.unary main_v68 main_v69 (broadcastInDim S2048x256 ![0, 1] bcast_S1x256_S2048x256_0_1 : (⟨S1x256, .f32⟩ : BufTy).Contents (Elt F) → (⟨S2048x256, .f32⟩ : BufTy).Contents (Elt F)),
    StableHlo.binary main_v64 main_v69 main_v70 (Host.divf : (⟨S2048x256, .f32⟩ : BufTy).Contents (Elt F) → (⟨S2048x256, .f32⟩ : BufTy).Contents (Elt F) → (⟨S2048x256, .f32⟩ : BufTy).Contents (Elt F)),
    StableHlo.unary main_arg11 main_v71 (broadcastInDim S1x256 ![1] bcast_S256_S1x256_1 : (⟨S256, .f32⟩ : BufTy).Contents (Elt F) → (⟨S1x256, .f32⟩ : BufTy).Contents (Elt F)),
    StableHlo.unary main_v71 main_v72 (broadcastInDim S2048x256 ![0, 1] bcast_S1x256_S2048x256_0_1 : (⟨S1x256, .f32⟩ : BufTy).Contents (Elt F) → (⟨S2048x256, .f32⟩ : BufTy).Contents (Elt F)),
    StableHlo.binary main_v70 main_v72 main_v73 (mulf : (⟨S2048x256, .f32⟩ : BufTy).Contents (Elt F) → (⟨S2048x256, .f32⟩ : BufTy).Contents (Elt F) → (⟨S2048x256, .f32⟩ : BufTy).Contents (Elt F)),
    StableHlo.unary main_arg12 main_v74 (broadcastInDim S1x256 ![1] bcast_S256_S1x256_1 : (⟨S256, .f32⟩ : BufTy).Contents (Elt F) → (⟨S1x256, .f32⟩ : BufTy).Contents (Elt F)),
    StableHlo.unary main_v74 main_v75 (broadcastInDim S2048x256 ![0, 1] bcast_S1x256_S2048x256_0_1 : (⟨S1x256, .f32⟩ : BufTy).Contents (Elt F) → (⟨S2048x256, .f32⟩ : BufTy).Contents (Elt F)),
    StableHlo.binary main_v73 main_v75 main_v76 (addf : (⟨S2048x256, .f32⟩ : BufTy).Contents (Elt F) → (⟨S2048x256, .f32⟩ : BufTy).Contents (Elt F) → (⟨S2048x256, .f32⟩ : BufTy).Contents (Elt F)),
    StableHlo.nullary main_cst_15 (constant S_ .f32 0x00000000#32),
    StableHlo.unary main_cst_15 main_v77 (broadcastInDim S2048x256 ![] bcast_S_S2048x256 : (⟨S_, .f32⟩ : BufTy).Contents (Elt F) → (⟨S2048x256, .f32⟩ : BufTy).Contents (Elt F)),
    StableHlo.binary main_v76 main_v77 main_v78 (cmpf .oge : (⟨S2048x256, .f32⟩ : BufTy).Contents (Elt F) → (⟨S2048x256, .f32⟩ : BufTy).Contents (Elt F) → (⟨S2048x256, .i1⟩ : BufTy).Contents (Elt F)),
    StableHlo.nullary main_cst_16 (constant S_ .f32 0x3C23D70A#32),
    StableHlo.unary main_cst_16 main_v79 (broadcastInDim S2048x256 ![] bcast_S_S2048x256 : (⟨S_, .f32⟩ : BufTy).Contents (Elt F) → (⟨S2048x256, .f32⟩ : BufTy).Contents (Elt F)),
    StableHlo.binary main_v79 main_v76 main_v80 (mulf : (⟨S2048x256, .f32⟩ : BufTy).Contents (Elt F) → (⟨S2048x256, .f32⟩ : BufTy).Contents (Elt F) → (⟨S2048x256, .f32⟩ : BufTy).Contents (Elt F)),
    StableHlo.TRef.ternary (.of main_v78 : StableHlo.TRef sig ⟨S2048x256, .i1⟩) (.of main_v76 : StableHlo.TRef sig ⟨S2048x256, .f32⟩) (.of main_v80 : StableHlo.TRef sig ⟨S2048x256, .f32⟩) (.of main_v81 : StableHlo.TRef sig ⟨S2048x256, .f32⟩) select,
    StableHlo.unary main_arg13 main_v82 ((transpose S256x128 [1, 0] · transposes_S128x256_S256x128_1_0) : (⟨S128x256, .f32⟩ : BufTy).Contents (Elt F) → (⟨S256x128, .f32⟩ : BufTy).Contents (Elt F)),
    StableHlo.binary main_v81 main_v82 main_v83 ((fun l r => Host.dotGeneral dot_S2048x256_S256x128_S2048x128_1_0_0_1_n_n none l r) : (⟨S2048x256, .f32⟩ : BufTy).Contents (Elt F) → (⟨S256x128, .f32⟩ : BufTy).Contents (Elt F) → (⟨S2048x128, .f32⟩ : BufTy).Contents (Elt F)),
    StableHlo.unary main_arg14 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S2048x128 ![0, 1] bcast_S1x128_S2048x128_0_1 : (⟨S1x128, .f32⟩ : BufTy).Contents (Elt F) → (⟨S2048x128, .f32⟩ : BufTy).Contents (Elt F)),
    StableHlo.binary main_v83 main_v85 main_v86 (addf : (⟨S2048x128, .f32⟩ : BufTy).Contents (Elt F) → (⟨S2048x128, .f32⟩ : BufTy).Contents (Elt F) → (⟨S2048x128, .f32⟩ : BufTy).Contents (Elt F)),
    StableHlo.nullary main_c_17 (constantI S_ 32 0#32),
    StableHlo.unary main_c_17 main_v87 (broadcastInDim S16384 ![] bcast_S_S16384 : (⟨S_, .i32⟩ : BufTy).Contents (Elt F) → (⟨S16384, .i32⟩ : BufTy).Contents (Elt F)),
    StableHlo.binary main_arg15 main_v87 main_v88 (cmpi .slt : (⟨S16384, .i32⟩ : BufTy).Contents (Elt F) → (⟨S16384, .i32⟩ : BufTy).Contents (Elt F) → (⟨S16384, .i1⟩ : BufTy).Contents (Elt F)),
    StableHlo.nullary main_c_18 (constantI S_ 32 16384#32),
    StableHlo.unary main_c_18 main_v89 (broadcastInDim S16384 ![] bcast_S_S16384 : (⟨S_, .i32⟩ : BufTy).Contents (Elt F) → (⟨S16384, .i32⟩ : BufTy).Contents (Elt F)),
    StableHlo.binary main_arg15 main_v89 main_v90 (addi : (⟨S16384, .i32⟩ : BufTy).Contents (Elt F) → (⟨S16384, .i32⟩ : BufTy).Contents (Elt F) → (⟨S16384, .i32⟩ : BufTy).Contents (Elt F)),
    StableHlo.ternary main_v88 main_v90 main_arg15 main_v91 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v91 main_v92 (broadcastInDim S16384x1 ![0] bcast_S16384_S16384x1_0 : (⟨S16384, .i32⟩ : BufTy).Contents (Elt F) → (⟨S16384x1, .i32⟩ : BufTy).Contents (Elt F)),
    StableHlo.binary main_arg4 main_v92 main_v93 ((fun x i => Host.gather gather_S16384x128_S16384x1_S16384x128_1_0_n_n_0_1_1128 x i) : (⟨S16384x128, .f32⟩ : BufTy).Contents (Elt F) → (⟨S16384x1, .i32⟩ : BufTy).Contents (Elt F) → (⟨S16384x128, .f32⟩ : BufTy).Contents (Elt F)),
    StableHlo.binary main_v86 main_v86 main_v94 (mulf : (⟨S2048x128, .f32⟩ : BufTy).Contents (Elt F) → (⟨S2048x128, .f32⟩ : BufTy).Contents (Elt F) → (⟨S2048x128, .f32⟩ : BufTy).Contents (Elt F)),
    StableHlo.nullary main_cst_19 (constant S_ .f32 0x00000000#32),
    StableHlo.binary main_v94 main_cst_19 main_v95 ((fun x v => Host.reduceAdd x v reducesTo_S2048x128_S2048_d1 h_S_) : (⟨S2048x128, .f32⟩ : BufTy).Contents (Elt F) → (⟨S_, .f32⟩ : BufTy).Contents (Elt F) → (⟨S2048, .f32⟩ : BufTy).Contents (Elt F)),
    StableHlo.unary main_v95 main_v96 (broadcastInDim S2048x1 ![0] bcast_S2048_S2048x1_0 : (⟨S2048, .f32⟩ : BufTy).Contents (Elt F) → (⟨S2048x1, .f32⟩ : BufTy).Contents (Elt F)),
    StableHlo.binary main_v93 main_v93 main_v97 (mulf : (⟨S16384x128, .f32⟩ : BufTy).Contents (Elt F) → (⟨S16384x128, .f32⟩ : BufTy).Contents (Elt F) → (⟨S16384x128, .f32⟩ : BufTy).Contents (Elt F)) ]

end Cert.ReferenceIdeal.Hand

end
-- ==== Proof.RefOps1.lean ====
/- Window 1 of the reference program's @main (its statements 61 … 120) read as a straight line of host
   operations. The window's program equals the sequence of the 81 operations listed in the imported list
   (each call of a module-local function standing for the callee's operations over that call's buffers);
   every operation touches TensorCore references only, determines everything it writes, and writes no
   argument of @main: an operation writes exactly its result buffer, and every result buffer's index is at
   least 16 while the sixteen arguments are the references of index 0 … 15. -/
import proofs.«130977_j54631984005498_2_alg».proof.Proof.Gen.ReferenceIdeal
import Idealize.ShloMosaic.Lib.StableHlo.Run
import proofs.«130977_j54631984005498_2_alg».proof.Proof.RefOpsList1
import proofs.«130977_j54631984005498_2_alg».proof.Proof.RefOps0

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fact for one builder's operation: what it writes is its result by computation, and the result's
    index is a literal. -/
local macro "kp" : term => `(keeps_of_writes rfl (by decide))

set_option maxRecDepth 8192 in
set_option maxHeartbeats 4000000 in
/-- Window 1 is that straight line: unfolding the called functions at their calls and the call records at
    their fields, both sides are the same chain of operation steps once sequencing is reassociated, which the
    free monad's bind does by computation. -/
theorem main_part1_eq (c : Dev nD) :
    main_part1 (F := F) c
      = (seq ops1 : Prog (TpuEff nD τ sig (Elt F) (Pipeline.Sig Λ₀ (Fin 0) fun p => (pcfgs (F := F) p).Adm) .tc) PUnit) :=
  rfl

/-- Every operation of the window touches TensorCore references only: each builder's buffers are its operands
    and its result. -/
theorem ops1_sub : (ops1 : List (HloOp τ sig (Elt F))).Forall fun op => op.bufs ⊆ tcRefs τ sig :=
  ⟨unary_bufs_sub .., unary_bufs_sub .., binary_bufs_sub .., binary_bufs_sub .., binary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub .., binary_bufs_sub .., unary_bufs_sub .., binary_bufs_sub ..⟩

/-- No operation of the window leaves a buffer undetermined: the builders mark none fresh. -/
theorem ops1_fresh : (ops1 : List (HloOp τ sig (Elt F))).Forall fun op => op.fresh = ∅ :=
  ⟨rfl, rfl, rfl, rfl, rfl, rfl, rfl, rfl, rfl,
    rfl, rfl, rfl, rfl, rfl, rfl, rfl, rfl, rfl,
    rfl, rfl, rfl, rfl, rfl, rfl, rfl, rfl, rfl,
    rfl, rfl, rfl, rfl, rfl, rfl, rfl, rfl, rfl,
    rfl, rfl, rfl, rfl, rfl, rfl, rfl, rfl, rfl,
    rfl, rfl, rfl, rfl, rfl, rfl, rfl, rfl, rfl,
    rfl, rfl, rfl, rfl, rfl, rfl, rfl, rfl, rfl,
    rfl, rfl, rfl, rfl, rfl, rfl, rfl, rfl, rfl,
    rfl, rfl, rfl, rfl, rfl, rfl, rfl, rfl, rfl⟩

/-- No operation of the window writes an argument of @main: each writes its one result buffer, whose index is
    past the arguments'. -/
theorem ops1_keeps_args :
    (ops1 : List (HloOp τ sig (Elt F))).Forall fun op => ∀ k : Fin 16, Proc.devRef (τ := τ) .tc (argRef k) ∉ op.writes :=
  ⟨kp, kp, kp, kp, kp, kp, kp, kp, kp,
    kp, kp, kp, kp, kp, kp, kp, kp, kp,
    kp, kp, kp, kp, kp, kp, kp, kp, kp,
    kp, kp, kp, kp, kp, kp, kp, kp, kp,
    kp, kp, kp, kp, kp, kp, kp, kp, kp,
    kp, kp, kp, kp, kp, kp, kp, kp, kp,
    kp, kp, kp, kp, kp, kp, kp, kp, kp,
    kp, kp, kp, kp, kp, kp, kp, kp, kp,
    kp, kp, kp, kp, kp, kp, kp, kp, kp⟩

end Cert.ReferenceIdeal.Hand

end
-- ==== Proof.RefOpsList2.lean ====
/- Window 2 of the reference program's @main as a literal list: its 81 host operations in order, each
   call of a module-local function replaced by the callee's operations over the buffers that call names
   (its arguments' and its record's), nested calls likewise. -/
import proofs.«130977_j54631984005498_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 2's 81 operations, in order. -/
abbrev ops2 : List (HloOp τ sig (Elt F)) :=
  [ StableHlo.nullary main_cst_20 (constant S_ .f32 0x00000000#32),
    StableHlo.binary main_v97 main_cst_20 main_v98 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_v98 main_v99 (broadcastInDim S1x16384 ![1] bcast_S16384_S1x16384_1 : (⟨S16384, .f32⟩ : BufTy).Contents (Elt F) → (⟨S1x16384, .f32⟩ : BufTy).Contents (Elt F)),
    StableHlo.unary main_v96 main_v100 (broadcastInDim S2048x16384 ![0, 1] bcast_S2048x1_S2048x16384_0_1 : (⟨S2048x1, .f32⟩ : BufTy).Contents (Elt F) → (⟨S2048x16384, .f32⟩ : BufTy).Contents (Elt F)),
    StableHlo.unary main_v99 main_v101 (broadcastInDim S2048x16384 ![0, 1] bcast_S1x16384_S2048x16384_0_1 : (⟨S1x16384, .f32⟩ : BufTy).Contents (Elt F) → (⟨S2048x16384, .f32⟩ : BufTy).Contents (Elt F)),
    StableHlo.binary main_v100 main_v101 main_v102 (addf : (⟨S2048x16384, .f32⟩ : BufTy).Contents (Elt F) → (⟨S2048x16384, .f32⟩ : BufTy).Contents (Elt F) → (⟨S2048x16384, .f32⟩ : BufTy).Contents (Elt F)),
    StableHlo.unary main_v93 main_v103 ((transpose S128x16384 [1, 0] · transposes_S16384x128_S128x16384_1_0) : (⟨S16384x128, .f32⟩ : BufTy).Contents (Elt F) → (⟨S128x16384, .f32⟩ : BufTy).Contents (Elt F)),
    StableHlo.binary main_v86 main_v103 main_v104 ((fun l r => Host.dotGeneral dot_S2048x128_S128x16384_S2048x16384_1_0_0_1_n_n none l r) : (⟨S2048x128, .f32⟩ : BufTy).Contents (Elt F) → (⟨S128x16384, .f32⟩ : BufTy).Contents (Elt F) → (⟨S2048x16384, .f32⟩ : BufTy).Contents (Elt F)),
    StableHlo.nullary main_cst_21 (constant S_ .f32 0x40000000#32),
    StableHlo.unary main_cst_21 main_v105 (broadcastInDim S2048x16384 ![] bcast_S_S2048x16384 : (⟨S_, .f32⟩ : BufTy).Contents (Elt F) → (⟨S2048x16384, .f32⟩ : BufTy).Contents (Elt F)),
    StableHlo.binary main_v105 main_v104 main_v106 (mulf : (⟨S2048x16384, .f32⟩ : BufTy).Contents (Elt F) → (⟨S2048x16384, .f32⟩ : BufTy).Contents (Elt F) → (⟨S2048x16384, .f32⟩ : BufTy).Contents (Elt F)),
    StableHlo.binary main_v102 main_v106 main_v107 (subf : (⟨S2048x16384, .f32⟩ : BufTy).Contents (Elt F) → (⟨S2048x16384, .f32⟩ : BufTy).Contents (Elt F) → (⟨S2048x16384, .f32⟩ : BufTy).Contents (Elt F)),
    StableHlo.nullary main_cst_22 (constant S_ .f32 0x43000000#32),
    StableHlo.unary main_cst_22 main_v108 (broadcastInDim S2048x16384 ![] bcast_S_S2048x16384 : (⟨S_, .f32⟩ : BufTy).Contents (Elt F) → (⟨S2048x16384, .f32⟩ : BufTy).Contents (Elt F)),
    StableHlo.binary main_v107 main_v108 main_v109 (Host.divf : (⟨S2048x16384, .f32⟩ : BufTy).Contents (Elt F) → (⟨S2048x16384, .f32⟩ : BufTy).Contents (Elt F) → (⟨S2048x16384, .f32⟩ : BufTy).Contents (Elt F)),
    StableHlo.nullary main_cst_23 (constant S_ .f32 0x7F800000#32),
    StableHlo.binary main_v109 main_cst_23 main_v110 ((fun x v => Host.reduce FloatOps.minimumf x v reducesTo_S2048x16384_S2048_d1 h_S_) : (⟨S2048x16384, .f32⟩ : BufTy).Contents (Elt F) → (⟨S_, .f32⟩ : BufTy).Contents (Elt F) → (⟨S2048, .f32⟩ : BufTy).Contents (Elt F)),
    StableHlo.nullary main_cst_24 (constant S_ .f32 0x00000000#32),
    StableHlo.binary main_v110 main_cst_24 main_v111 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    StableHlo.nullary main_cst_25 (constant S_ .f32 0x45000000#32),
    StableHlo.binary main_v111 main_cst_25 main_v112 (Host.divf : (⟨S_, .f32⟩ : BufTy).Contents (Elt F) → (⟨S_, .f32⟩ : BufTy).Contents (Elt F) → (⟨S_, .f32⟩ : BufTy).Contents (Elt F)),
    StableHlo.unary main_arg10 main_v113 ((transpose S64x256 [1, 0] · transposes_S256x64_S64x256_1_0) : (⟨S256x64, .f32⟩ : BufTy).Contents (Elt F) → (⟨S64x256, .f32⟩ : BufTy).Contents (Elt F)),
    StableHlo.binary main_arg2 main_v113 main_v114 ((fun l r => Host.dotGeneral dot_S8192x64_S64x256_S8192x256_1_0_0_1_n_n none l r) : (⟨S8192x64, .f32⟩ : BufTy).Contents (Elt F) → (⟨S64x256, .f32⟩ : BufTy).Contents (Elt F) → (⟨S8192x256, .f32⟩ : BufTy).Contents (Elt F)),
    StableHlo.nullary main_cst_26 (constant S_ .f32 0x00000000#32),
    StableHlo.binary main_v114 main_cst_26 main_v115 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_27 (constant S_ .f32 0x46000000#32),
    StableHlo.unary main_cst_27 main_v116 (broadcastInDim S256 ![] bcast_S_S256 : (⟨S_, .f32⟩ : BufTy).Contents (Elt F) → (⟨S256, .f32⟩ : BufTy).Contents (Elt F)),
    StableHlo.binary main_v115 main_v116 main_v117 (Host.divf : (⟨S256, .f32⟩ : BufTy).Contents (Elt F) → (⟨S256, .f32⟩ : BufTy).Contents (Elt F) → (⟨S256, .f32⟩ : BufTy).Contents (Elt F)),
    StableHlo.nullary main_c_28 (constantI S_ 32 0#32),
    StableHlo.TRef.nullary (.of main_call4_cst : StableHlo.TRef sig ⟨S_, .f32⟩) (constant S_ .f32 0x00000000#32),
    StableHlo.TRef.binary (.of main_v114 : StableHlo.TRef sig ⟨S8192x256, .f32⟩) (.of main_call4_cst : StableHlo.TRef sig ⟨S_, .f32⟩) (.of main_call4_v0 : StableHlo.TRef sig ⟨S256, .f32⟩) (fun x v => Host.reduceAdd x v reducesTo_S8192x256_S256_d0 h_S_),
    StableHlo.TRef.unary (.of main_call4_v0 : StableHlo.TRef sig ⟨S256, .f32⟩) (.of main_call4_v1 : StableHlo.TRef sig ⟨S1x256, .f32⟩) (broadcastInDim S1x256 ![1] bcast_S256_S1x256_1),
    StableHlo.TRef.nullary (.of main_call4_cst_0 : StableHlo.TRef sig ⟨S_, .f32⟩) (constant S_ .f32 0x46000000#32),
    StableHlo.TRef.unary (.of main_call4_cst_0 : StableHlo.TRef sig ⟨S_, .f32⟩) (.of main_call4_v2 : StableHlo.TRef sig ⟨S1x256, .f32⟩) (broadcastInDim S1x256 ![] bcast_S_S1x256),
    StableHlo.TRef.binary (.of main_call4_v1 : StableHlo.TRef sig ⟨S1x256, .f32⟩) (.of main_call4_v2 : StableHlo.TRef sig ⟨S1x256, .f32⟩) (.of main_call4_v3 : StableHlo.TRef sig ⟨S1x256, .f32⟩) Host.divf,
    StableHlo.TRef.unary (.of main_call4_v3 : StableHlo.TRef sig ⟨S1x256, .f32⟩) (.of main_call4_v4 : StableHlo.TRef sig ⟨S8192x256, .f32⟩) (broadcastInDim S8192x256 ![0, 1] bcast_S1x256_S8192x256_0_1),
    StableHlo.TRef.binary (.of main_v114 : StableHlo.TRef sig ⟨S8192x256, .f32⟩) (.of main_call4_v4 : StableHlo.TRef sig ⟨S8192x256, .f32⟩) (.of main_call4_v5 : StableHlo.TRef sig ⟨S8192x256, .f32⟩) subf,
    StableHlo.TRef.binary (.of main_call4_v5 : StableHlo.TRef sig ⟨S8192x256, .f32⟩) (.of main_call4_v5 : StableHlo.TRef sig ⟨S8192x256, .f32⟩) (.of main_call4_v6 : StableHlo.TRef sig ⟨S8192x256, .f32⟩) mulf,
    StableHlo.TRef.unary (.of main_c_28 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x46000000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S8192x256, .f32⟩) (.of main_call4_cst_2 : StableHlo.TRef sig ⟨S_, .f32⟩) (.of main_call4_v9 : StableHlo.TRef sig ⟨S256, .f32⟩) (fun x v => Host.reduceAdd x v reducesTo_S8192x256_S256_d0 h_S_),
    StableHlo.TRef.unary (.of main_call4_v8 : StableHlo.TRef sig ⟨S_, .f32⟩) (.of main_call4_v10 : StableHlo.TRef sig ⟨S256, .f32⟩) (broadcastInDim S256 ![] bcast_S_S256),
    StableHlo.TRef.binary (.of main_call4_v9 : StableHlo.TRef sig ⟨S256, .f32⟩) (.of main_call4_v10 : StableHlo.TRef sig ⟨S256, .f32⟩) (.of main_call4_v11 : StableHlo.TRef sig ⟨S256, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S256, .f32⟩) (broadcastInDim S256 ![] bcast_S_S256),
    StableHlo.TRef.ternary (.of main_call4_v12 : StableHlo.TRef sig ⟨S_, .i1⟩) (.of main_call4_v11 : StableHlo.TRef sig ⟨S256, .f32⟩) (.of main_call4_call0_v1 : StableHlo.TRef sig ⟨S256, .f32⟩) (.of main_v118 : StableHlo.TRef sig ⟨S256, .f32⟩) (fun p a b => select (broadcastInDim S256 ![] bcast_S_S256 p) a b),
    StableHlo.unary main_v117 main_v119 (broadcastInDim S1x256 ![1] bcast_S256_S1x256_1 : (⟨S256, .f32⟩ : BufTy).Contents (Elt F) → (⟨S1x256, .f32⟩ : BufTy).Contents (Elt F)),
    StableHlo.unary main_v119 main_v120 (broadcastInDim S8192x256 ![0, 1] bcast_S1x256_S8192x256_0_1 : (⟨S1x256, .f32⟩ : BufTy).Contents (Elt F) → (⟨S8192x256, .f32⟩ : BufTy).Contents (Elt F)),
    StableHlo.binary main_v114 main_v120 main_v121 (subf : (⟨S8192x256, .f32⟩ : BufTy).Contents (Elt F) → (⟨S8192x256, .f32⟩ : BufTy).Contents (Elt F) → (⟨S8192x256, .f32⟩ : BufTy).Contents (Elt F)),
    StableHlo.nullary main_cst_29 (constant S_ .f32 0x3727C5AC#32),
    StableHlo.unary main_cst_29 main_v122 (broadcastInDim S256 ![] bcast_S_S256 : (⟨S_, .f32⟩ : BufTy).Contents (Elt F) → (⟨S256, .f32⟩ : BufTy).Contents (Elt F)),
    StableHlo.binary main_v118 main_v122 main_v123 (addf : (⟨S256, .f32⟩ : BufTy).Contents (Elt F) → (⟨S256, .f32⟩ : BufTy).Contents (Elt F) → (⟨S256, .f32⟩ : BufTy).Contents (Elt F)),
    StableHlo.unary main_v123 main_v124 (Host.sqrt : (⟨S256, .f32⟩ : BufTy).Contents (Elt F) → (⟨S256, .f32⟩ : BufTy).Contents (Elt F)),
    StableHlo.unary main_v124 main_v125 (broadcastInDim S1x256 ![1] bcast_S256_S1x256_1 : (⟨S256, .f32⟩ : BufTy).Contents (Elt F) → (⟨S1x256, .f32⟩ : BufTy).Contents (Elt F)),
    StableHlo.unary main_v125 main_v126 (broadcastInDim S8192x256 ![0, 1] bcast_S1x256_S8192x256_0_1 : (⟨S1x256, .f32⟩ : BufTy).Contents (Elt F) → (⟨S8192x256, .f32⟩ : BufTy).Contents (Elt F)),
    StableHlo.binary main_v121 main_v126 main_v127 (Host.divf : (⟨S8192x256, .f32⟩ : BufTy).Contents (Elt F) → (⟨S8192x256, .f32⟩ : BufTy).Contents (Elt F) → (⟨S8192x256, .f32⟩ : BufTy).Contents (Elt F)),
    StableHlo.unary main_arg11 main_v128 (broadcastInDim S1x256 ![1] bcast_S256_S1x256_1 : (⟨S256, .f32⟩ : BufTy).Contents (Elt F) → (⟨S1x256, .f32⟩ : BufTy).Contents (Elt F)),
    StableHlo.unary main_v128 main_v129 (broadcastInDim S8192x256 ![0, 1] bcast_S1x256_S8192x256_0_1 : (⟨S1x256, .f32⟩ : BufTy).Contents (Elt F) → (⟨S8192x256, .f32⟩ : BufTy).Contents (Elt F)),
    StableHlo.binary main_v127 main_v129 main_v130 (mulf : (⟨S8192x256, .f32⟩ : BufTy).Contents (Elt F) → (⟨S8192x256, .f32⟩ : BufTy).Contents (Elt F) → (⟨S8192x256, .f32⟩ : BufTy).Contents (Elt F)),
    StableHlo.unary main_arg12 main_v131 (broadcastInDim S1x256 ![1] bcast_S256_S1x256_1 : (⟨S256, .f32⟩ : BufTy).Contents (Elt F) → (⟨S1x256, .f32⟩ : BufTy).Contents (Elt F)),
    StableHlo.unary main_v131 main_v132 (broadcastInDim S8192x256 ![0, 1] bcast_S1x256_S8192x256_0_1 : (⟨S1x256, .f32⟩ : BufTy).Contents (Elt F) → (⟨S8192x256, .f32⟩ : BufTy).Contents (Elt F)),
    StableHlo.binary main_v130 main_v132 main_v133 (addf : (⟨S8192x256, .f32⟩ : BufTy).Contents (Elt F) → (⟨S8192x256, .f32⟩ : BufTy).Contents (Elt F) → (⟨S8192x256, .f32⟩ : BufTy).Contents (Elt F)),
    StableHlo.nullary main_cst_30 (constant S_ .f32 0x00000000#32),
    StableHlo.unary main_cst_30 main_v134 (broadcastInDim S8192x256 ![] bcast_S_S8192x256 : (⟨S_, .f32⟩ : BufTy).Contents (Elt F) → (⟨S8192x256, .f32⟩ : BufTy).Contents (Elt F)),
    StableHlo.binary main_v133 main_v134 main_v135 (cmpf .oge : (⟨S8192x256, .f32⟩ : BufTy).Contents (Elt F) → (⟨S8192x256, .f32⟩ : BufTy).Contents (Elt F) → (⟨S8192x256, .i1⟩ : BufTy).Contents (Elt F)),
    StableHlo.nullary main_cst_31 (constant S_ .f32 0x3C23D70A#32),
    StableHlo.unary main_cst_31 main_v136 (broadcastInDim S8192x256 ![] bcast_S_S8192x256 : (⟨S_, .f32⟩ : BufTy).Contents (Elt F) → (⟨S8192x256, .f32⟩ : BufTy).Contents (Elt F)),
    StableHlo.binary main_v136 main_v133 main_v137 (mulf : (⟨S8192x256, .f32⟩ : BufTy).Contents (Elt F) → (⟨S8192x256, .f32⟩ : BufTy).Contents (Elt F) → (⟨S8192x256, .f32⟩ : BufTy).Contents (Elt F)),
    StableHlo.TRef.ternary (.of main_v135 : StableHlo.TRef sig ⟨S8192x256, .i1⟩) (.of main_v133 : StableHlo.TRef sig ⟨S8192x256, .f32⟩) (.of main_v137 : StableHlo.TRef sig ⟨S8192x256, .f32⟩) (.of main_v138 : StableHlo.TRef sig ⟨S8192x256, .f32⟩) select,
    StableHlo.unary main_arg13 main_v139 ((transpose S256x128 [1, 0] · transposes_S128x256_S256x128_1_0) : (⟨S128x256, .f32⟩ : BufTy).Contents (Elt F) → (⟨S256x128, .f32⟩ : BufTy).Contents (Elt F)),
    StableHlo.binary main_v138 main_v139 main_v140 ((fun l r => Host.dotGeneral dot_S8192x256_S256x128_S8192x128_1_0_0_1_n_n none l r) : (⟨S8192x256, .f32⟩ : BufTy).Contents (Elt F) → (⟨S256x128, .f32⟩ : BufTy).Contents (Elt F) → (⟨S8192x128, .f32⟩ : BufTy).Contents (Elt F)),
    StableHlo.unary main_arg14 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S8192x128 ![0, 1] bcast_S1x128_S8192x128_0_1 : (⟨S1x128, .f32⟩ : BufTy).Contents (Elt F) → (⟨S8192x128, .f32⟩ : BufTy).Contents (Elt F)),
    StableHlo.binary main_v140 main_v142 main_v143 (addf : (⟨S8192x128, .f32⟩ : BufTy).Contents (Elt F) → (⟨S8192x128, .f32⟩ : BufTy).Contents (Elt F) → (⟨S8192x128, .f32⟩ : BufTy).Contents (Elt F)),
    StableHlo.unary main_arg5 main_v144 ((transpose S128x256 [1, 0] · transposes_S256x128_S128x256_1_0) : (⟨S256x128, .f32⟩ : BufTy).Contents (Elt F) → (⟨S128x256, .f32⟩ : BufTy).Contents (Elt F)),
    StableHlo.binary main_v143 main_v144 main_v145 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)) ]

end Cert.ReferenceIdeal.Hand

end
-- ==== Proof.RefOps2.lean ====
/- Statements 121 to 180 of the reference program form a straight line of host tensor operations:
   fifty-eight of the program's own and two calls, a per-column variance (mean, centred squares, their
   sum over the rows divided by the corrected row count, and a guarded select keeping the quotient where
   the divisor is positive) and an elementwise select. Both callees are straight lines, so with each
   callee's operations standing at its call site, over the buffers of that call, the window is ONE list
   of eighty-one operations (the list imported here). This module proves four facts about that list.
   The window equals the sequential composition of the list, because sequencing is associative and the
   empty return is its unit. Every operation of the list touches TensorCore buffers only, determines
   everything it writes, and writes exactly its own result buffer, which is never one of the sixteen
   argument buffers. -/
import proofs.«130977_j54631984005498_2_alg».proof.Proof.Gen.ReferenceIdeal
import proofs.«130977_j54631984005498_2_alg».proof.Proof.RefOpsList0
import proofs.«130977_j54631984005498_2_alg».proof.Proof.RefOpsList2
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- eighty-one steps re-associated: the rewrite under the chain recurses once per step
set_option maxRecDepth 4096 in
set_option maxHeartbeats 4000000 in
/-- The window is that straight line: the callees unfolded at their calls and the call records at their
    fields, both sides are one chain of steps once sequencing is re-associated. -/
theorem main_part2_eq (c : Dev nD) : main_part2 (F := F) c = (seq ops2 : Prog (TpuEff nD τ sig (Elt F) (Pipeline.Sig Λ₀ (Fin 0) fun p => (pcfgs (F := F) p).Adm) .tc) PUnit) := by
  simp only [main_part2, fn_var_3.body, fn_where.body, fn_where_4.body, seq, bind_assoc, pure_bind]
  rfl

/-- Each operation touches TensorCore references only. -/
theorem ops2_sub : (ops2 : List (HloOp τ sig (Elt F))).Forall fun op => op.bufs ⊆ tcRefs τ sig :=
  ⟨nullary_bufs_sub .., binary_bufs_sub .., unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub .., binary_bufs_sub .., nullary_bufs_sub ..,
    binary_bufs_sub .., nullary_bufs_sub .., binary_bufs_sub .., nullary_bufs_sub .., binary_bufs_sub .., unary_bufs_sub .., binary_bufs_sub .., nullary_bufs_sub ..,
    binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub .., unary_bufs_sub .., binary_bufs_sub ..,
    nullary_bufs_sub .., binary_bufs_sub .., nullary_bufs_sub ..,
    unary_bufs_sub .., unary_bufs_sub .., ternary_bufs_sub ..,
    unary_bufs_sub .., unary_bufs_sub .., binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub ..,
    unary_bufs_sub .., binary_bufs_sub .., unary_bufs_sub .., unary_bufs_sub .., binary_bufs_sub .., unary_bufs_sub .., binary_bufs_sub ..⟩

/-- Each operation determines everything it writes. -/
theorem ops2_fresh : (ops2 : List (HloOp τ sig (Elt F))).Forall fun op => op.fresh = ∅ := by
  simp only [List.Forall]
  repeat' constructor

/-- If a reference differs from every argument, the set holding only its device buffer holds no
    argument's device buffer: distinct references are distinct device buffers. -/
private theorem arg_not_mem_single {y : Ref sig .tc} (h : ∀ k : Fin 16, argRef k ≠ y) (k : Fin 16) :
    Proc.devRef (τ := τ) .tc (argRef k) ∉ ({Proc.devRef .tc y} : Finset (DevRef τ sig)) :=
  fun hk => devRef_ne_of_ne (h k) (Finset.mem_singleton.mp hk)

/-- No operation writes an argument buffer: each writes its result buffer only, and a result buffer
    is a different reference from every argument. -/
theorem ops2_keeps_args : (ops2 : List (HloOp τ sig (Elt F))).Forall fun op => ∀ k : Fin 16, Proc.devRef (τ := τ) .tc (argRef k) ∉ op.writes := by
  simp only [List.Forall]
  repeat' constructor
  all_goals exact arg_not_mem_single (by decide)

end Cert.ReferenceIdeal.Hand

end
-- ==== Proof.RefOpsList3.lean ====
/- Window 3 of the reference program's @main as a literal list: its 81 host operations in order, each
   call of a module-local function replaced by the callee's operations over the buffers that call names
   (its arguments' and its record's), nested calls likewise. -/
import proofs.«130977_j54631984005498_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 3's 81 operations, in order. -/
abbrev ops3 : List (HloOp τ sig (Elt F)) :=
  [ StableHlo.nullary main_cst_32 (constant S_ .f32 0x00000000#32),
    StableHlo.binary main_v145 main_cst_32 main_v146 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_33 (constant S_ .f32 0x46000000#32),
    StableHlo.unary main_cst_33 main_v147 (broadcastInDim S256 ![] bcast_S_S256 : (⟨S_, .f32⟩ : BufTy).Contents (Elt F) → (⟨S256, .f32⟩ : BufTy).Contents (Elt F)),
    StableHlo.binary main_v146 main_v147 main_v148 (Host.divf : (⟨S256, .f32⟩ : BufTy).Contents (Elt F) → (⟨S256, .f32⟩ : BufTy).Contents (Elt F) → (⟨S256, .f32⟩ : BufTy).Contents (Elt F)),
    StableHlo.nullary main_c_34 (constantI S_ 32 0#32),
    StableHlo.TRef.nullary (.of main_call6_cst : StableHlo.TRef sig ⟨S_, .f32⟩) (constant S_ .f32 0x00000000#32),
    StableHlo.TRef.binary (.of main_v145 : StableHlo.TRef sig ⟨S8192x256, .f32⟩) (.of main_call6_cst : StableHlo.TRef sig ⟨S_, .f32⟩) (.of main_call6_v0 : StableHlo.TRef sig ⟨S256, .f32⟩) (fun x v => Host.reduceAdd x v reducesTo_S8192x256_S256_d0 h_S_),
    StableHlo.TRef.unary (.of main_call6_v0 : StableHlo.TRef sig ⟨S256, .f32⟩) (.of main_call6_v1 : StableHlo.TRef sig ⟨S1x256, .f32⟩) (broadcastInDim S1x256 ![1] bcast_S256_S1x256_1),
    StableHlo.TRef.nullary (.of main_call6_cst_0 : StableHlo.TRef sig ⟨S_, .f32⟩) (constant S_ .f32 0x46000000#32),
    StableHlo.TRef.unary (.of main_call6_cst_0 : StableHlo.TRef sig ⟨S_, .f32⟩) (.of main_call6_v2 : StableHlo.TRef sig ⟨S1x256, .f32⟩) (broadcastInDim S1x256 ![] bcast_S_S1x256),
    StableHlo.TRef.binary (.of main_call6_v1 : StableHlo.TRef sig ⟨S1x256, .f32⟩) (.of main_call6_v2 : StableHlo.TRef sig ⟨S1x256, .f32⟩) (.of main_call6_v3 : StableHlo.TRef sig ⟨S1x256, .f32⟩) Host.divf,
    StableHlo.TRef.unary (.of main_call6_v3 : StableHlo.TRef sig ⟨S1x256, .f32⟩) (.of main_call6_v4 : StableHlo.TRef sig ⟨S8192x256, .f32⟩) (broadcastInDim S8192x256 ![0, 1] bcast_S1x256_S8192x256_0_1),
    StableHlo.TRef.binary (.of main_v145 : StableHlo.TRef sig ⟨S8192x256, .f32⟩) (.of main_call6_v4 : StableHlo.TRef sig ⟨S8192x256, .f32⟩) (.of main_call6_v5 : StableHlo.TRef sig ⟨S8192x256, .f32⟩) subf,
    StableHlo.TRef.binary (.of main_call6_v5 : StableHlo.TRef sig ⟨S8192x256, .f32⟩) (.of main_call6_v5 : StableHlo.TRef sig ⟨S8192x256, .f32⟩) (.of main_call6_v6 : StableHlo.TRef sig ⟨S8192x256, .f32⟩) mulf,
    StableHlo.TRef.unary (.of main_c_34 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x46000000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S8192x256, .f32⟩) (.of main_call6_cst_2 : StableHlo.TRef sig ⟨S_, .f32⟩) (.of main_call6_v9 : StableHlo.TRef sig ⟨S256, .f32⟩) (fun x v => Host.reduceAdd x v reducesTo_S8192x256_S256_d0 h_S_),
    StableHlo.TRef.unary (.of main_call6_v8 : StableHlo.TRef sig ⟨S_, .f32⟩) (.of main_call6_v10 : StableHlo.TRef sig ⟨S256, .f32⟩) (broadcastInDim S256 ![] bcast_S_S256),
    StableHlo.TRef.binary (.of main_call6_v9 : StableHlo.TRef sig ⟨S256, .f32⟩) (.of main_call6_v10 : StableHlo.TRef sig ⟨S256, .f32⟩) (.of main_call6_v11 : StableHlo.TRef sig ⟨S256, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S256, .f32⟩) (broadcastInDim S256 ![] bcast_S_S256),
    StableHlo.TRef.ternary (.of main_call6_v12 : StableHlo.TRef sig ⟨S_, .i1⟩) (.of main_call6_v11 : StableHlo.TRef sig ⟨S256, .f32⟩) (.of main_call6_call0_v1 : StableHlo.TRef sig ⟨S256, .f32⟩) (.of main_v149 : StableHlo.TRef sig ⟨S256, .f32⟩) (fun p a b => select (broadcastInDim S256 ![] bcast_S_S256 p) a b),
    StableHlo.unary main_v148 main_v150 (broadcastInDim S1x256 ![1] bcast_S256_S1x256_1 : (⟨S256, .f32⟩ : BufTy).Contents (Elt F) → (⟨S1x256, .f32⟩ : BufTy).Contents (Elt F)),
    StableHlo.unary main_v150 main_v151 (broadcastInDim S8192x256 ![0, 1] bcast_S1x256_S8192x256_0_1 : (⟨S1x256, .f32⟩ : BufTy).Contents (Elt F) → (⟨S8192x256, .f32⟩ : BufTy).Contents (Elt F)),
    StableHlo.binary main_v145 main_v151 main_v152 (subf : (⟨S8192x256, .f32⟩ : BufTy).Contents (Elt F) → (⟨S8192x256, .f32⟩ : BufTy).Contents (Elt F) → (⟨S8192x256, .f32⟩ : BufTy).Contents (Elt F)),
    StableHlo.nullary main_cst_35 (constant S_ .f32 0x3727C5AC#32),
    StableHlo.unary main_cst_35 main_v153 (broadcastInDim S256 ![] bcast_S_S256 : (⟨S_, .f32⟩ : BufTy).Contents (Elt F) → (⟨S256, .f32⟩ : BufTy).Contents (Elt F)),
    StableHlo.binary main_v149 main_v153 main_v154 (addf : (⟨S256, .f32⟩ : BufTy).Contents (Elt F) → (⟨S256, .f32⟩ : BufTy).Contents (Elt F) → (⟨S256, .f32⟩ : BufTy).Contents (Elt F)),
    StableHlo.unary main_v154 main_v155 (Host.sqrt : (⟨S256, .f32⟩ : BufTy).Contents (Elt F) → (⟨S256, .f32⟩ : BufTy).Contents (Elt F)),
    StableHlo.unary main_v155 main_v156 (broadcastInDim S1x256 ![1] bcast_S256_S1x256_1 : (⟨S256, .f32⟩ : BufTy).Contents (Elt F) → (⟨S1x256, .f32⟩ : BufTy).Contents (Elt F)),
    StableHlo.unary main_v156 main_v157 (broadcastInDim S8192x256 ![0, 1] bcast_S1x256_S8192x256_0_1 : (⟨S1x256, .f32⟩ : BufTy).Contents (Elt F) → (⟨S8192x256, .f32⟩ : BufTy).Contents (Elt F)),
    StableHlo.binary main_v152 main_v157 main_v158 (Host.divf : (⟨S8192x256, .f32⟩ : BufTy).Contents (Elt F) → (⟨S8192x256, .f32⟩ : BufTy).Contents (Elt F) → (⟨S8192x256, .f32⟩ : BufTy).Contents (Elt F)),
    StableHlo.unary main_arg6 main_v159 (broadcastInDim S1x256 ![1] bcast_S256_S1x256_1 : (⟨S256, .f32⟩ : BufTy).Contents (Elt F) → (⟨S1x256, .f32⟩ : BufTy).Contents (Elt F)),
    StableHlo.unary main_v159 main_v160 (broadcastInDim S8192x256 ![0, 1] bcast_S1x256_S8192x256_0_1 : (⟨S1x256, .f32⟩ : BufTy).Contents (Elt F) → (⟨S8192x256, .f32⟩ : BufTy).Contents (Elt F)),
    StableHlo.binary main_v158 main_v160 main_v161 (mulf : (⟨S8192x256, .f32⟩ : BufTy).Contents (Elt F) → (⟨S8192x256, .f32⟩ : BufTy).Contents (Elt F) → (⟨S8192x256, .f32⟩ : BufTy).Contents (Elt F)),
    StableHlo.unary main_arg7 main_v162 (broadcastInDim S1x256 ![1] bcast_S256_S1x256_1 : (⟨S256, .f32⟩ : BufTy).Contents (Elt F) → (⟨S1x256, .f32⟩ : BufTy).Contents (Elt F)),
    StableHlo.unary main_v162 main_v163 (broadcastInDim S8192x256 ![0, 1] bcast_S1x256_S8192x256_0_1 : (⟨S1x256, .f32⟩ : BufTy).Contents (Elt F) → (⟨S8192x256, .f32⟩ : BufTy).Contents (Elt F)),
    StableHlo.binary main_v161 main_v163 main_v164 (addf : (⟨S8192x256, .f32⟩ : BufTy).Contents (Elt F) → (⟨S8192x256, .f32⟩ : BufTy).Contents (Elt F) → (⟨S8192x256, .f32⟩ : BufTy).Contents (Elt F)),
    StableHlo.nullary main_cst_36 (constant S_ .f32 0x00000000#32),
    StableHlo.unary main_cst_36 main_v165 (broadcastInDim S8192x256 ![] bcast_S_S8192x256 : (⟨S_, .f32⟩ : BufTy).Contents (Elt F) → (⟨S8192x256, .f32⟩ : BufTy).Contents (Elt F)),
    StableHlo.binary main_v164 main_v165 main_v166 (cmpf .oge : (⟨S8192x256, .f32⟩ : BufTy).Contents (Elt F) → (⟨S8192x256, .f32⟩ : BufTy).Contents (Elt F) → (⟨S8192x256, .i1⟩ : BufTy).Contents (Elt F)),
    StableHlo.nullary main_cst_37 (constant S_ .f32 0x3C23D70A#32),
    StableHlo.unary main_cst_37 main_v167 (broadcastInDim S8192x256 ![] bcast_S_S8192x256 : (⟨S_, .f32⟩ : BufTy).Contents (Elt F) → (⟨S8192x256, .f32⟩ : BufTy).Contents (Elt F)),
    StableHlo.binary main_v167 main_v164 main_v168 (mulf : (⟨S8192x256, .f32⟩ : BufTy).Contents (Elt F) → (⟨S8192x256, .f32⟩ : BufTy).Contents (Elt F) → (⟨S8192x256, .f32⟩ : BufTy).Contents (Elt F)),
    StableHlo.TRef.ternary (.of main_v166 : StableHlo.TRef sig ⟨S8192x256, .i1⟩) (.of main_v164 : StableHlo.TRef sig ⟨S8192x256, .f32⟩) (.of main_v168 : StableHlo.TRef sig ⟨S8192x256, .f32⟩) (.of main_v169 : StableHlo.TRef sig ⟨S8192x256, .f32⟩) select,
    StableHlo.unary main_arg8 main_v170 ((transpose S256x64 [1, 0] · transposes_S64x256_S256x64_1_0) : (⟨S64x256, .f32⟩ : BufTy).Contents (Elt F) → (⟨S256x64, .f32⟩ : BufTy).Contents (Elt F)),
    StableHlo.binary main_v169 main_v170 main_v171 ((fun l r => Host.dotGeneral dot_S8192x256_S256x64_S8192x64_1_0_0_1_n_n none l r) : (⟨S8192x256, .f32⟩ : BufTy).Contents (Elt F) → (⟨S256x64, .f32⟩ : BufTy).Contents (Elt F) → (⟨S8192x64, .f32⟩ : BufTy).Contents (Elt F)),
    StableHlo.unary main_arg9 main_v172 (broadcastInDim S1x64 ![1] bcast_S64_S1x64_1 : (⟨S64, .f32⟩ : BufTy).Contents (Elt F) → (⟨S1x64, .f32⟩ : BufTy).Contents (Elt F)),
    StableHlo.unary main_v172 main_v173 (broadcastInDim S8192x64 ![0, 1] bcast_S1x64_S8192x64_0_1 : (⟨S1x64, .f32⟩ : BufTy).Contents (Elt F) → (⟨S8192x64, .f32⟩ : BufTy).Contents (Elt F)),
    StableHlo.binary main_v171 main_v173 main_v174 (addf : (⟨S8192x64, .f32⟩ : BufTy).Contents (Elt F) → (⟨S8192x64, .f32⟩ : BufTy).Contents (Elt F) → (⟨S8192x64, .f32⟩ : BufTy).Contents (Elt F)),
    StableHlo.nullary main_cst_38 (constant S_ .f32 0x00000000#32),
    StableHlo.binary main_v174 main_cst_38 main_v175 ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)),
    StableHlo.nullary main_cst_39 (constant S_ .f32 0x46000000#32),
    StableHlo.unary main_cst_39 main_v176 (broadcastInDim S64 ![] bcast_S_S64 : (⟨S_, .f32⟩ : BufTy).Contents (Elt F) → (⟨S64, .f32⟩ : BufTy).Contents (Elt F)),
    StableHlo.binary main_v175 main_v176 main_v177 (Host.divf : (⟨S64, .f32⟩ : BufTy).Contents (Elt F) → (⟨S64, .f32⟩ : BufTy).Contents (Elt F) → (⟨S64, .f32⟩ : BufTy).Contents (Elt F)),
    StableHlo.unary main_v177 main_v178 (broadcastInDim S1x64 ![1] bcast_S64_S1x64_1 : (⟨S64, .f32⟩ : BufTy).Contents (Elt F) → (⟨S1x64, .f32⟩ : BufTy).Contents (Elt F)),
    StableHlo.unary main_v178 main_v179 (broadcastInDim S8192x64 ![0, 1] bcast_S1x64_S8192x64_0_1 : (⟨S1x64, .f32⟩ : BufTy).Contents (Elt F) → (⟨S8192x64, .f32⟩ : BufTy).Contents (Elt F)),
    StableHlo.binary main_v174 main_v179 main_v180 (subf : (⟨S8192x64, .f32⟩ : BufTy).Contents (Elt F) → (⟨S8192x64, .f32⟩ : BufTy).Contents (Elt F) → (⟨S8192x64, .f32⟩ : BufTy).Contents (Elt F)),
    StableHlo.binary main_v180 main_v180 main_v181 (mulf : (⟨S8192x64, .f32⟩ : BufTy).Contents (Elt F) → (⟨S8192x64, .f32⟩ : BufTy).Contents (Elt F) → (⟨S8192x64, .f32⟩ : BufTy).Contents (Elt F)),
    StableHlo.nullary main_cst_40 (constant S_ .f32 0x00000000#32),
    StableHlo.binary main_v181 main_cst_40 main_v182 ((fun x v => Host.reduceAdd x v reducesTo_S8192x64_S64_d0 h_S_) : (⟨S8192x64, .f32⟩ : BufTy).Contents (Elt F) → (⟨S_, .f32⟩ : BufTy).Contents (Elt F) → (⟨S64, .f32⟩ : BufTy).Contents (Elt F)),
    StableHlo.unary main_v180 main_v183 ((transpose S64x8192 [1, 0] · transposes_S8192x64_S64x8192_1_0) : (⟨S8192x64, .f32⟩ : BufTy).Contents (Elt F) → (⟨S64x8192, .f32⟩ : BufTy).Contents (Elt F)),
    StableHlo.binary main_v183 main_v180 main_v184 ((fun l r => Host.dotGeneral dot_S64x8192_S8192x64_S64x64_1_0_0_1_n_n none l r) : (⟨S64x8192, .f32⟩ : BufTy).Contents (Elt F) → (⟨S8192x64, .f32⟩ : BufTy).Contents (Elt F) → (⟨S64x64, .f32⟩ : BufTy).Contents (Elt F)),
    StableHlo.binary main_v184 main_v184 main_v185 (mulf : (⟨S64x64, .f32⟩ : BufTy).Contents (Elt F) → (⟨S64x64, .f32⟩ : BufTy).Contents (Elt F) → (⟨S64x64, .f32⟩ : BufTy).Contents (Elt F)),
    StableHlo.unary main_v182 main_v186 (broadcastInDim S64x1 ![0] bcast_S64_S64x1_0 : (⟨S64, .f32⟩ : BufTy).Contents (Elt F) → (⟨S64x1, .f32⟩ : BufTy).Contents (Elt F)),
    StableHlo.unary main_v182 main_v187 (broadcastInDim S1x64 ![1] bcast_S64_S1x64_1 : (⟨S64, .f32⟩ : BufTy).Contents (Elt F) → (⟨S1x64, .f32⟩ : BufTy).Contents (Elt F)),
    StableHlo.unary main_v186 main_v188 (broadcastInDim S64x64 ![0, 1] bcast_S64x1_S64x64_0_1 : (⟨S64x1, .f32⟩ : BufTy).Contents (Elt F) → (⟨S64x64, .f32⟩ : BufTy).Contents (Elt F)),
    StableHlo.unary main_v187 main_v189 (broadcastInDim S64x64 ![0, 1] bcast_S1x64_S64x64_0_1 : (⟨S1x64, .f32⟩ : BufTy).Contents (Elt F) → (⟨S64x64, .f32⟩ : BufTy).Contents (Elt F)),
    StableHlo.binary main_v188 main_v189 main_v190 (mulf : (⟨S64x64, .f32⟩ : BufTy).Contents (Elt F) → (⟨S64x64, .f32⟩ : BufTy).Contents (Elt F) → (⟨S64x64, .f32⟩ : BufTy).Contents (Elt F)),
    StableHlo.binary main_v185 main_v190 main_v191 (Host.divf : (⟨S64x64, .f32⟩ : BufTy).Contents (Elt F) → (⟨S64x64, .f32⟩ : BufTy).Contents (Elt F) → (⟨S64x64, .f32⟩ : BufTy).Contents (Elt F)),
    StableHlo.nullary main_v192 (iotaInDim S64x64 32 0),
    StableHlo.nullary main_v193 (iotaInDim S64x64 32 1),
    StableHlo.nullary main_c_41 (constantI S_ 32 0#32),
    StableHlo.unary main_c_41 main_v194 (broadcastInDim S64x64 ![] bcast_S_S64x64 : (⟨S_, .i32⟩ : BufTy).Contents (Elt F) → (⟨S64x64, .i32⟩ : BufTy).Contents (Elt F)),
    StableHlo.binary main_v192 main_v194 main_v195 (addi : (⟨S64x64, .i32⟩ : BufTy).Contents (Elt F) → (⟨S64x64, .i32⟩ : BufTy).Contents (Elt F) → (⟨S64x64, .i32⟩ : BufTy).Contents (Elt F)) ]

end Cert.ReferenceIdeal.Hand

end
-- ==== Proof.RefOps3.lean ====
/- Statements 181 to 240 of the reference program form a straight line of host tensor operations:
   fifty-eight of the program's own and two calls, a per-column variance (mean, centred squares, their
   sum over the rows divided by the corrected row count, and a guarded select keeping the quotient where
   the divisor is positive) and an elementwise select. Both callees are straight lines, so with each
   callee's operations standing at its call site, over the buffers of that call, the window is ONE list
   of eighty-one operations (the list imported here). This module proves four facts about that list.
   The window equals the sequential composition of the list, because sequencing is associative and the
   empty return is its unit. Every operation of the list touches TensorCore buffers only, determines
   everything it writes, and writes exactly its own result buffer, which is never one of the sixteen
   argument buffers. -/
import proofs.«130977_j54631984005498_2_alg».proof.Proof.Gen.ReferenceIdeal
import proofs.«130977_j54631984005498_2_alg».proof.Proof.RefOpsList0
import proofs.«130977_j54631984005498_2_alg».proof.Proof.RefOpsList3
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- eighty-one steps re-associated: the rewrite under the chain recurses once per step
set_option maxRecDepth 4096 in
set_option maxHeartbeats 4000000 in
/-- The window is that straight line: the callees unfolded at their calls and the call records at their
    fields, both sides are one chain of steps once sequencing is re-associated. -/
theorem main_part3_eq (c : Dev nD) : main_part3 (F := F) c = (seq ops3 : Prog (TpuEff nD τ sig (Elt F) (Pipeline.Sig Λ₀ (Fin 0) fun p => (pcfgs (F := F) p).Adm) .tc) PUnit) := by
  simp only [main_part3, fn_var_3.body, fn_where.body, fn_where_4.body, seq, bind_assoc, pure_bind]
  rfl

/-- Each operation touches TensorCore references only. -/
theorem ops3_sub : (ops3 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub .., unary_bufs_sub .., binary_bufs_sub ..,
    nullary_bufs_sub .., binary_bufs_sub .., nullary_bufs_sub ..,
    unary_bufs_sub .., unary_bufs_sub .., ternary_bufs_sub ..,
    unary_bufs_sub .., unary_bufs_sub .., binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub ..,
    unary_bufs_sub .., binary_bufs_sub .., unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., binary_bufs_sub .., nullary_bufs_sub .., binary_bufs_sub ..,
    unary_bufs_sub .., binary_bufs_sub .., binary_bufs_sub .., unary_bufs_sub .., unary_bufs_sub .., unary_bufs_sub .., unary_bufs_sub .., binary_bufs_sub ..,
    binary_bufs_sub .., nullary_bufs_sub .., nullary_bufs_sub .., nullary_bufs_sub .., unary_bufs_sub .., binary_bufs_sub ..⟩

/-- Each operation determines everything it writes. -/
theorem ops3_fresh : (ops3 : List (HloOp τ sig (Elt F))).Forall fun op => op.fresh = ∅ := by
  simp only [List.Forall]
  repeat' constructor

/-- If a reference differs from every argument, the set holding only its device buffer holds no
    argument's device buffer: distinct references are distinct device buffers. -/
private theorem arg_not_mem_single {y : Ref sig .tc} (h : ∀ k : Fin 16, argRef k ≠ y) (k : Fin 16) :
    Proc.devRef (τ := τ) .tc (argRef k) ∉ ({Proc.devRef .tc y} : Finset (DevRef τ sig)) :=
  fun hk => devRef_ne_of_ne (h k) (Finset.mem_singleton.mp hk)

/-- No operation writes an argument buffer: each writes its result buffer only, and a result buffer
    is a different reference from every argument. -/
theorem ops3_keeps_args : (ops3 : List (HloOp τ sig (Elt F))).Forall fun op => ∀ k : Fin 16, Proc.devRef (τ := τ) .tc (argRef k) ∉ op.writes := by
  simp only [List.Forall]
  repeat' constructor
  all_goals exact arg_not_mem_single (by decide)

end Cert.ReferenceIdeal.Hand

end
-- ==== Proof.RefOpsList4.lean ====
/- Window 4 of the reference program's @main as a literal list: its 60 host operations in order, each
   call of a module-local function replaced by the callee's operations over the buffers that call names
   (its arguments' and its record's), nested calls likewise. -/
import proofs.«130977_j54631984005498_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 4's 60 operations, in order. -/
abbrev ops4 : List (HloOp τ sig (Elt F)) :=
  [ StableHlo.binary main_v195 main_v193 main_v196 (cmpi .eq : (⟨S64x64, .i32⟩ : BufTy).Contents (Elt F) → (⟨S64x64, .i32⟩ : BufTy).Contents (Elt F) → (⟨S64x64, .i1⟩ : BufTy).Contents (Elt F)),
    StableHlo.unary main_v196 main_v197 (uitofp .f32 : (⟨S64x64, .i1⟩ : BufTy).Contents (Elt F) → (⟨S64x64, .f32⟩ : BufTy).Contents (Elt F)),
    StableHlo.nullary main_cst_42 (constant S_ .f32 0x3F800000#32),
    StableHlo.unary main_cst_42 main_v198 (broadcastInDim S64x64 ![] bcast_S_S64x64 : (⟨S_, .f32⟩ : BufTy).Contents (Elt F) → (⟨S64x64, .f32⟩ : BufTy).Contents (Elt F)),
    StableHlo.binary main_v198 main_v197 main_v199 (subf : (⟨S64x64, .f32⟩ : BufTy).Contents (Elt F) → (⟨S64x64, .f32⟩ : BufTy).Contents (Elt F) → (⟨S64x64, .f32⟩ : BufTy).Contents (Elt F)),
    StableHlo.binary main_v191 main_v199 main_v200 (mulf : (⟨S64x64, .f32⟩ : BufTy).Contents (Elt F) → (⟨S64x64, .f32⟩ : BufTy).Contents (Elt F) → (⟨S64x64, .f32⟩ : BufTy).Contents (Elt F)),
    StableHlo.nullary main_cst_43 (constant S_ .f32 0x00000000#32),
    StableHlo.binary main_v200 main_cst_43 main_v201 ((fun x v => Host.reduceAdd x v reducesTo_S64x64_S_d0_1 h_S_) : (⟨S64x64, .f32⟩ : BufTy).Contents (Elt F) → (⟨S_, .f32⟩ : BufTy).Contents (Elt F) → (⟨S_, .f32⟩ : BufTy).Contents (Elt F)),
    StableHlo.nullary main_cst_44 (constant S_ .f32 0x42780000#32),
    StableHlo.binary main_cst_44 main_v201 main_v202 (mulf : (⟨S_, .f32⟩ : BufTy).Contents (Elt F) → (⟨S_, .f32⟩ : BufTy).Contents (Elt F) → (⟨S_, .f32⟩ : BufTy).Contents (Elt F)),
    StableHlo.unary main_v182 main_v203 (broadcastInDim S64x1 ![0] bcast_S64_S64x1_0 : (⟨S64, .f32⟩ : BufTy).Contents (Elt F) → (⟨S64x1, .f32⟩ : BufTy).Contents (Elt F)),
    StableHlo.unary main_v203 main_v204 (broadcastInDim S64x64 ![0, 1] bcast_S64x1_S64x64_0_1 : (⟨S64x1, .f32⟩ : BufTy).Contents (Elt F) → (⟨S64x64, .f32⟩ : BufTy).Contents (Elt F)),
    StableHlo.binary main_v184 main_v204 main_v205 (Host.divf : (⟨S64x64, .f32⟩ : BufTy).Contents (Elt F) → (⟨S64x64, .f32⟩ : BufTy).Contents (Elt F) → (⟨S64x64, .f32⟩ : BufTy).Contents (Elt F)),
    StableHlo.unary main_v177 main_v206 (broadcastInDim S1x64 ![1] bcast_S64_S1x64_1 : (⟨S64, .f32⟩ : BufTy).Contents (Elt F) → (⟨S1x64, .f32⟩ : BufTy).Contents (Elt F)),
    StableHlo.unary main_v177 main_v207 (broadcastInDim S64x1 ![0] bcast_S64_S64x1_0 : (⟨S64, .f32⟩ : BufTy).Contents (Elt F) → (⟨S64x1, .f32⟩ : BufTy).Contents (Elt F)),
    StableHlo.unary main_v207 main_v208 (broadcastInDim S64x64 ![0, 1] bcast_S64x1_S64x64_0_1 : (⟨S64x1, .f32⟩ : BufTy).Contents (Elt F) → (⟨S64x64, .f32⟩ : BufTy).Contents (Elt F)),
    StableHlo.binary main_v205 main_v208 main_v209 (mulf : (⟨S64x64, .f32⟩ : BufTy).Contents (Elt F) → (⟨S64x64, .f32⟩ : BufTy).Contents (Elt F) → (⟨S64x64, .f32⟩ : BufTy).Contents (Elt F)),
    StableHlo.unary main_v206 main_v210 (broadcastInDim S64x64 ![0, 1] bcast_S1x64_S64x64_0_1 : (⟨S1x64, .f32⟩ : BufTy).Contents (Elt F) → (⟨S64x64, .f32⟩ : BufTy).Contents (Elt F)),
    StableHlo.binary main_v210 main_v209 main_v211 (subf : (⟨S64x64, .f32⟩ : BufTy).Contents (Elt F) → (⟨S64x64, .f32⟩ : BufTy).Contents (Elt F) → (⟨S64x64, .f32⟩ : BufTy).Contents (Elt F)),
    StableHlo.unary main_v174 main_v212 (broadcastInDim S1x8192x64 ![1, 2] bcast_S8192x64_S1x8192x64_1_2 : (⟨S8192x64, .f32⟩ : BufTy).Contents (Elt F) → (⟨S1x8192x64, .f32⟩ : BufTy).Contents (Elt F)),
    StableHlo.unary main_v174 main_v213 ((transpose S64x8192 [1, 0] · transposes_S8192x64_S64x8192_1_0) : (⟨S8192x64, .f32⟩ : BufTy).Contents (Elt F) → (⟨S64x8192, .f32⟩ : BufTy).Contents (Elt F)),
    StableHlo.unary main_v213 main_v214 (broadcastInDim S64x8192x1 ![0, 1] bcast_S64x8192_S64x8192x1_0_1 : (⟨S64x8192, .f32⟩ : BufTy).Contents (Elt F) → (⟨S64x8192x1, .f32⟩ : BufTy).Contents (Elt F)),
    StableHlo.unary main_v205 main_v215 (broadcastInDim S64x1x64 ![0, 2] bcast_S64x64_S64x1x64_0_2 : (⟨S64x64, .f32⟩ : BufTy).Contents (Elt F) → (⟨S64x1x64, .f32⟩ : BufTy).Contents (Elt F)),
    StableHlo.unary main_v214 main_v216 (broadcastInDim S64x8192x64 ![0, 1, 2] bcast_S64x8192x1_S64x8192x64_0_1_2 : (⟨S64x8192x1, .f32⟩ : BufTy).Contents (Elt F) → (⟨S64x8192x64, .f32⟩ : BufTy).Contents (Elt F)),
    StableHlo.unary main_v215 main_v217 (broadcastInDim S64x8192x64 ![0, 1, 2] bcast_S64x1x64_S64x8192x64_0_1_2 : (⟨S64x1x64, .f32⟩ : BufTy).Contents (Elt F) → (⟨S64x8192x64, .f32⟩ : BufTy).Contents (Elt F)),
    StableHlo.binary main_v216 main_v217 main_v218 (mulf : (⟨S64x8192x64, .f32⟩ : BufTy).Contents (Elt F) → (⟨S64x8192x64, .f32⟩ : BufTy).Contents (Elt F) → (⟨S64x8192x64, .f32⟩ : BufTy).Contents (Elt F)),
    StableHlo.unary main_v211 main_v219 (broadcastInDim S64x1x64 ![0, 2] bcast_S64x64_S64x1x64_0_2 : (⟨S64x64, .f32⟩ : BufTy).Contents (Elt F) → (⟨S64x1x64, .f32⟩ : BufTy).Contents (Elt F)),
    StableHlo.unary main_v219 main_v220 (broadcastInDim S64x8192x64 ![0, 1, 2] bcast_S64x1x64_S64x8192x64_0_1_2 : (⟨S64x1x64, .f32⟩ : BufTy).Contents (Elt F) → (⟨S64x8192x64, .f32⟩ : BufTy).Contents (Elt F)),
    StableHlo.binary main_v218 main_v220 main_v221 (addf : (⟨S64x8192x64, .f32⟩ : BufTy).Contents (Elt F) → (⟨S64x8192x64, .f32⟩ : BufTy).Contents (Elt F) → (⟨S64x8192x64, .f32⟩ : BufTy).Contents (Elt F)),
    StableHlo.unary main_v212 main_v222 (broadcastInDim S64x8192x64 ![0, 1, 2] bcast_S1x8192x64_S64x8192x64_0_1_2 : (⟨S1x8192x64, .f32⟩ : BufTy).Contents (Elt F) → (⟨S64x8192x64, .f32⟩ : BufTy).Contents (Elt F)),
    StableHlo.binary main_v222 main_v221 main_v223 (subf : (⟨S64x8192x64, .f32⟩ : BufTy).Contents (Elt F) → (⟨S64x8192x64, .f32⟩ : BufTy).Contents (Elt F) → (⟨S64x8192x64, .f32⟩ : BufTy).Contents (Elt F)),
    StableHlo.nullary main_cst_45 (constant S_ .f32 0x00000000#32),
    StableHlo.binary main_v223 main_cst_45 main_v224 ((fun x v => Host.reduceAdd x v reducesTo_S64x8192x64_S64x64_d1 h_S_) : (⟨S64x8192x64, .f32⟩ : BufTy).Contents (Elt F) → (⟨S_, .f32⟩ : BufTy).Contents (Elt F) → (⟨S64x64, .f32⟩ : BufTy).Contents (Elt F)),
    StableHlo.unary main_v224 main_v225 (broadcastInDim S64x1x64 ![0, 2] bcast_S64x64_S64x1x64_0_2 : (⟨S64x64, .f32⟩ : BufTy).Contents (Elt F) → (⟨S64x1x64, .f32⟩ : BufTy).Contents (Elt F)),
    StableHlo.nullary main_cst_46 (constant S_ .f32 0x46000000#32),
    StableHlo.unary main_cst_46 main_v226 (broadcastInDim S64x1x64 ![] bcast_S_S64x1x64 : (⟨S_, .f32⟩ : BufTy).Contents (Elt F) → (⟨S64x1x64, .f32⟩ : BufTy).Contents (Elt F)),
    StableHlo.binary main_v225 main_v226 main_v227 (Host.divf : (⟨S64x1x64, .f32⟩ : BufTy).Contents (Elt F) → (⟨S64x1x64, .f32⟩ : BufTy).Contents (Elt F) → (⟨S64x1x64, .f32⟩ : BufTy).Contents (Elt F)),
    StableHlo.unary main_v227 main_v228 (broadcastInDim S64x8192x64 ![0, 1, 2] bcast_S64x1x64_S64x8192x64_0_1_2 : (⟨S64x1x64, .f32⟩ : BufTy).Contents (Elt F) → (⟨S64x8192x64, .f32⟩ : BufTy).Contents (Elt F)),
    StableHlo.binary main_v223 main_v228 main_v229 (subf : (⟨S64x8192x64, .f32⟩ : BufTy).Contents (Elt F) → (⟨S64x8192x64, .f32⟩ : BufTy).Contents (Elt F) → (⟨S64x8192x64, .f32⟩ : BufTy).Contents (Elt F)),
    StableHlo.binary main_v229 main_v229 main_v230 ((fun l r => Host.dotGeneral dot_S64x8192x64_S64x8192x64_S64x64x64_1_1_2_2_0_0 none l r) : (⟨S64x8192x64, .f32⟩ : BufTy).Contents (Elt F) → (⟨S64x8192x64, .f32⟩ : BufTy).Contents (Elt F) → (⟨S64x64x64, .f32⟩ : BufTy).Contents (Elt F)),
    StableHlo.nullary main_v231 (iotaInDim S64x64 32 0),
    StableHlo.nullary main_v232 (iotaInDim S64x64 32 1),
    StableHlo.binary main_v231 main_v232 main_v233 (cmpi .eq : (⟨S64x64, .i32⟩ : BufTy).Contents (Elt F) → (⟨S64x64, .i32⟩ : BufTy).Contents (Elt F) → (⟨S64x64, .i1⟩ : BufTy).Contents (Elt F)),
    StableHlo.unary main_v233 main_v234 (broadcastInDim S64x64x64 ![1, 2] bcast_S64x64_S64x64x64_1_2 : (⟨S64x64, .i1⟩ : BufTy).Contents (Elt F) → (⟨S64x64x64, .i1⟩ : BufTy).Contents (Elt F)),
    StableHlo.nullary main_cst_47 (constant S_ .f32 0x00000000#32),
    StableHlo.unary main_cst_47 main_v235 (broadcastInDim S64x64x64 ![] bcast_S_S64x64x64 : (⟨S_, .f32⟩ : BufTy).Contents (Elt F) → (⟨S64x64x64, .f32⟩ : BufTy).Contents (Elt F)),
    StableHlo.ternary main_v234 main_v230 main_v235 main_v236 (select : (⟨S64x64x64, .i1⟩ : BufTy).Contents (Elt F) → (⟨S64x64x64, .f32⟩ : BufTy).Contents (Elt F) → (⟨S64x64x64, .f32⟩ : BufTy).Contents (Elt F) → (⟨S64x64x64, .f32⟩ : BufTy).Contents (Elt F)),
    StableHlo.nullary main_cst_48 (constant S_ .f32 0x00000000#32),
    StableHlo.binary main_v236 main_cst_48 main_v237 ((fun x v => Host.reduceAdd x v reducesTo_S64x64x64_S64x64_d1 h_S_) : (⟨S64x64x64, .f32⟩ : BufTy).Contents (Elt F) → (⟨S_, .f32⟩ : BufTy).Contents (Elt F) → (⟨S64x64, .f32⟩ : BufTy).Contents (Elt F)),
    StableHlo.unary main_v237 main_v238 (broadcastInDim S64x64x1 ![0, 1] bcast_S64x64_S64x64x1_0_1 : (⟨S64x64, .f32⟩ : BufTy).Contents (Elt F) → (⟨S64x64x1, .f32⟩ : BufTy).Contents (Elt F)),
    StableHlo.unary main_v237 main_v239 (broadcastInDim S64x1x64 ![0, 2] bcast_S64x64_S64x1x64_0_2 : (⟨S64x64, .f32⟩ : BufTy).Contents (Elt F) → (⟨S64x1x64, .f32⟩ : BufTy).Contents (Elt F)),
    StableHlo.unary main_v238 main_v240 (broadcastInDim S64x64x64 ![0, 1, 2] bcast_S64x64x1_S64x64x64_0_1_2 : (⟨S64x64x1, .f32⟩ : BufTy).Contents (Elt F) → (⟨S64x64x64, .f32⟩ : BufTy).Contents (Elt F)),
    StableHlo.unary main_v239 main_v241 (broadcastInDim S64x64x64 ![0, 1, 2] bcast_S64x1x64_S64x64x64_0_1_2 : (⟨S64x1x64, .f32⟩ : BufTy).Contents (Elt F) → (⟨S64x64x64, .f32⟩ : BufTy).Contents (Elt F)),
    StableHlo.binary main_v240 main_v241 main_v242 (mulf : (⟨S64x64x64, .f32⟩ : BufTy).Contents (Elt F) → (⟨S64x64x64, .f32⟩ : BufTy).Contents (Elt F) → (⟨S64x64x64, .f32⟩ : BufTy).Contents (Elt F)),
    StableHlo.nullary main_v243 (iotaInDim S64 32 0),
    StableHlo.unary main_v243 main_v244 (broadcastInDim S1x64x1 ![1] bcast_S64_S1x64x1_1 : (⟨S64, .i32⟩ : BufTy).Contents (Elt F) → (⟨S1x64x1, .i32⟩ : BufTy).Contents (Elt F)),
    StableHlo.unary main_v243 main_v245 (broadcastInDim S64x1x1 ![0] bcast_S64_S64x1x1_0 : (⟨S64, .i32⟩ : BufTy).Contents (Elt F) → (⟨S64x1x1, .i32⟩ : BufTy).Contents (Elt F)),
    StableHlo.unary main_v244 main_v246 (broadcastInDim S64x64x1 ![0, 1, 2] bcast_S1x64x1_S64x64x1_0_1_2 : (⟨S1x64x1, .i32⟩ : BufTy).Contents (Elt F) → (⟨S64x64x1, .i32⟩ : BufTy).Contents (Elt F)),
    StableHlo.unary main_v245 main_v247 (broadcastInDim S64x64x1 ![0, 1, 2] bcast_S64x1x1_S64x64x1_0_1_2 : (⟨S64x1x1, .i32⟩ : BufTy).Contents (Elt F) → (⟨S64x64x1, .i32⟩ : BufTy).Contents (Elt F)),
    StableHlo.binary main_v246 main_v247 main_v248 (cmpi .ne : (⟨S64x64x1, .i32⟩ : BufTy).Contents (Elt F) → (⟨S64x64x1, .i32⟩ : BufTy).Contents (Elt F) → (⟨S64x64x1, .i1⟩ : BufTy).Contents (Elt F)) ]

end Cert.ReferenceIdeal.Hand

end
-- ==== Proof.RefOps4.lean ====
/- Statements 241 to 300 of the reference program are a straight line of sixty host tensor operations and
   no call: the mask of the off-diagonal entries of a 64 by 64 matrix and the sum of the masked entries,
   a per-row rescaling of a 64 by 64 matrix and its shift, the residuals of 8192 rows against the 64
   affine maps these give (a 64 by 8192 by 64 tensor), their centring over the 8192 rows, the 64 Gram
   matrices of the centred residuals, each Gram matrix's diagonal and the outer product of the diagonal
   with itself, and the first of the index masks of the next window.
   The window therefore IS the sequential composition of the list of its operations: both sides are the
   same chain of operation steps, the window ending in its last step and the composition of the list in
   the empty return after it, which is the unit of sequencing. Every operation of the list touches
   TensorCore buffers only, determines everything it writes, and writes exactly one buffer, its result;
   a result buffer has an index of at least sixteen among the HBM buffers, while the sixteen argument
   buffers are the first sixteen, so no operation writes an argument. -/
import proofs.«130977_j54631984005498_2_alg».proof.Proof.Gen.ReferenceIdeal
import proofs.«130977_j54631984005498_2_alg».proof.Proof.RefOpsList0
import proofs.«130977_j54631984005498_2_alg».proof.Proof.RefOpsList4
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window is that straight line. Unfolding both sides gives the same chain of operation steps, one
    per entry of the list; at the end the window stops at its last step where the composition of the
    list binds the empty return to it, and binding a return is the identity. The equation holds by
    computation, which is left to the kernel's check of the reflexivity proof. -/
theorem main_part4_eq (c : Dev nD) : main_part4 (F := F) c = (seq ops4 : Prog (TpuEff nD τ sig (Elt F) (Pipeline.Sig Λ₀ (Fin 0) fun p => (pcfgs (F := F) p).Adm) .tc) PUnit) := by
  chain_rfl

/-- Each operation touches TensorCore references only. -/
theorem ops4_sub : (ops4 : List (HloOp τ sig (Elt F))).Forall fun op => op.bufs ⊆ tcRefs τ sig :=
  ⟨binary_bufs_sub .., unary_bufs_sub .., nullary_bufs_sub .., unary_bufs_sub .., binary_bufs_sub ..,
    binary_bufs_sub .., nullary_bufs_sub .., binary_bufs_sub .., nullary_bufs_sub .., binary_bufs_sub ..,
    unary_bufs_sub .., unary_bufs_sub .., binary_bufs_sub .., unary_bufs_sub .., unary_bufs_sub ..,
    unary_bufs_sub .., binary_bufs_sub .., unary_bufs_sub .., binary_bufs_sub .., unary_bufs_sub ..,
    unary_bufs_sub .., unary_bufs_sub .., unary_bufs_sub .., unary_bufs_sub .., unary_bufs_sub ..,
    binary_bufs_sub .., unary_bufs_sub .., unary_bufs_sub .., binary_bufs_sub .., unary_bufs_sub ..,
    binary_bufs_sub .., nullary_bufs_sub .., binary_bufs_sub .., unary_bufs_sub .., nullary_bufs_sub ..,
    unary_bufs_sub .., binary_bufs_sub .., unary_bufs_sub .., binary_bufs_sub .., binary_bufs_sub ..,
    nullary_bufs_sub .., nullary_bufs_sub .., binary_bufs_sub .., unary_bufs_sub .., nullary_bufs_sub ..,
    unary_bufs_sub .., ternary_bufs_sub .., nullary_bufs_sub .., binary_bufs_sub .., unary_bufs_sub ..,
    unary_bufs_sub .., unary_bufs_sub .., unary_bufs_sub .., binary_bufs_sub .., nullary_bufs_sub ..,
    unary_bufs_sub .., unary_bufs_sub .., unary_bufs_sub .., unary_bufs_sub .., binary_bufs_sub ..⟩

/-- Each operation determines everything it writes: none leaves a buffer at contents not chosen. -/
theorem ops4_fresh : (ops4 : List (HloOp τ sig (Elt F))).Forall fun op => op.fresh = ∅ :=
  ⟨rfl, rfl, rfl, rfl, rfl, rfl, rfl, rfl, rfl, rfl,
    rfl, rfl, rfl, rfl, rfl, rfl, rfl, rfl, rfl, rfl,
    rfl, rfl, rfl, rfl, rfl, rfl, rfl, rfl, rfl, rfl,
    rfl, rfl, rfl, rfl, rfl, rfl, rfl, rfl, rfl, rfl,
    rfl, rfl, rfl, rfl, rfl, rfl, rfl, rfl, rfl, rfl,
    rfl, rfl, rfl, rfl, rfl, rfl, rfl, rfl, rfl, rfl⟩

/-- The sixteen argument references are the first sixteen HBM buffers. -/
private theorem argRef_idx_lt : ∀ k : Fin 16, (argRef k).idx.val < 16 := by decide

/-- A set of buffers that is one buffer whose index is at least sixteen holds no argument buffer: an
    argument reference equal to that buffer's would have its index, which is below sixteen. -/
private theorem keeps {W : Finset (DevRef τ sig)} (y : Ref sig .tc) (hw : W = {Proc.devRef (τ := τ) .tc y})
    (hy : 16 ≤ y.idx.val) : ∀ k : Fin 16, Proc.devRef (τ := τ) .tc (argRef k) ∉ W := by
  intro k h
  rw [hw, Finset.mem_singleton] at h
  have e : argRef k = y := Proc.devRef_injective _ h
  have hk : y.idx.val < 16 := e ▸ argRef_idx_lt k
  exact Nat.not_lt.2 hy hk

/-- No operation writes an argument buffer: each writes its result buffer only, and the result buffers
    of this window are HBM buffers 340 to 399. -/
theorem ops4_keeps_args : (ops4 : List (HloOp τ sig (Elt F))).Forall fun op => ∀ k : Fin 16, Proc.devRef (τ := τ) .tc (argRef k) ∉ op.writes :=
  ⟨keeps main_v196 (by rfl) (by decide), keeps main_v197 (by rfl) (by decide), keeps main_cst_42 (by rfl) (by decide),
    keeps main_v198 (by rfl) (by decide), keeps main_v199 (by rfl) (by decide), keeps main_v200 (by rfl) (by decide),
    keeps main_cst_43 (by rfl) (by decide), keeps main_v201 (by rfl) (by decide), keeps main_cst_44 (by rfl) (by decide),
    keeps main_v202 (by rfl) (by decide), keeps main_v203 (by rfl) (by decide), keeps main_v204 (by rfl) (by decide),
    keeps main_v205 (by rfl) (by decide), keeps main_v206 (by rfl) (by decide), keeps main_v207 (by rfl) (by decide),
    keeps main_v208 (by rfl) (by decide), keeps main_v209 (by rfl) (by decide), keeps main_v210 (by rfl) (by decide),
    keeps main_v211 (by rfl) (by decide), keeps main_v212 (by rfl) (by decide), keeps main_v213 (by rfl) (by decide),
    keeps main_v214 (by rfl) (by decide), keeps main_v215 (by rfl) (by decide), keeps main_v216 (by rfl) (by decide),
    keeps main_v217 (by rfl) (by decide), keeps main_v218 (by rfl) (by decide), keeps main_v219 (by rfl) (by decide),
    keeps main_v220 (by rfl) (by decide), keeps main_v221 (by rfl) (by decide), keeps main_v222 (by rfl) (by decide),
    keeps main_v223 (by rfl) (by decide), keeps main_cst_45 (by rfl) (by decide), keeps main_v224 (by rfl) (by decide),
    keeps main_v225 (by rfl) (by decide), keeps main_cst_46 (by rfl) (by decide), keeps main_v226 (by rfl) (by decide),
    keeps main_v227 (by rfl) (by decide), keeps main_v228 (by rfl) (by decide), keeps main_v229 (by rfl) (by decide),
    keeps main_v230 (by rfl) (by decide), keeps main_v231 (by rfl) (by decide), keeps main_v232 (by rfl) (by decide),
    keeps main_v233 (by rfl) (by decide), keeps main_v234 (by rfl) (by decide), keeps main_cst_47 (by rfl) (by decide),
    keeps main_v235 (by rfl) (by decide), keeps main_v236 (by rfl) (by decide), keeps main_cst_48 (by rfl) (by decide),
    keeps main_v237 (by rfl) (by decide), keeps main_v238 (by rfl) (by decide), keeps main_v239 (by rfl) (by decide),
    keeps main_v240 (by rfl) (by decide), keeps main_v241 (by rfl) (by decide), keeps main_v242 (by rfl) (by decide),
    keeps main_v243 (by rfl) (by decide), keeps main_v244 (by rfl) (by decide), keeps main_v245 (by rfl) (by decide),
    keeps main_v246 (by rfl) (by decide), keeps main_v247 (by rfl) (by decide), keeps main_v248 (by rfl) (by decide)⟩

end Cert.ReferenceIdeal.Hand

end
-- ==== Proof.RefOpsList5.lean ====
/- Window 5 of the reference program's @main as a literal list: its 39 host operations in order, each
   call of a module-local function replaced by the callee's operations over the buffers that call names
   (its arguments' and its record's), nested calls likewise. -/
import proofs.«130977_j54631984005498_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 5's 39 operations, in order. -/
abbrev ops5 : List (HloOp τ sig (Elt F)) :=
  [ StableHlo.unary main_v243 main_v249 (broadcastInDim S1x1x64 ![2] bcast_S64_S1x1x64_2 : (⟨S64, .i32⟩ : BufTy).Contents (Elt F) → (⟨S1x1x64, .i32⟩ : BufTy).Contents (Elt F)),
    StableHlo.unary main_v243 main_v250 (broadcastInDim S64x1x1 ![0] bcast_S64_S64x1x1_0 : (⟨S64, .i32⟩ : BufTy).Contents (Elt F) → (⟨S64x1x1, .i32⟩ : BufTy).Contents (Elt F)),
    StableHlo.unary main_v249 main_v251 (broadcastInDim S64x1x64 ![0, 1, 2] bcast_S1x1x64_S64x1x64_0_1_2 : (⟨S1x1x64, .i32⟩ : BufTy).Contents (Elt F) → (⟨S64x1x64, .i32⟩ : BufTy).Contents (Elt F)),
    StableHlo.unary main_v250 main_v252 (broadcastInDim S64x1x64 ![0, 1, 2] bcast_S64x1x1_S64x1x64_0_1_2 : (⟨S64x1x1, .i32⟩ : BufTy).Contents (Elt F) → (⟨S64x1x64, .i32⟩ : BufTy).Contents (Elt F)),
    StableHlo.binary main_v251 main_v252 main_v253 (cmpi .ne : (⟨S64x1x64, .i32⟩ : BufTy).Contents (Elt F) → (⟨S64x1x64, .i32⟩ : BufTy).Contents (Elt F) → (⟨S64x1x64, .i1⟩ : BufTy).Contents (Elt F)),
    StableHlo.unary main_v248 main_v254 (broadcastInDim S64x64x64 ![0, 1, 2] bcast_S64x64x1_S64x64x64_0_1_2 : (⟨S64x64x1, .i1⟩ : BufTy).Contents (Elt F) → (⟨S64x64x64, .i1⟩ : BufTy).Contents (Elt F)),
    StableHlo.unary main_v253 main_v255 (broadcastInDim S64x64x64 ![0, 1, 2] bcast_S64x1x64_S64x64x64_0_1_2 : (⟨S64x1x64, .i1⟩ : BufTy).Contents (Elt F) → (⟨S64x64x64, .i1⟩ : BufTy).Contents (Elt F)),
    StableHlo.binary main_v254 main_v255 main_v256 (andi : (⟨S64x64x64, .i1⟩ : BufTy).Contents (Elt F) → (⟨S64x64x64, .i1⟩ : BufTy).Contents (Elt F) → (⟨S64x64x64, .i1⟩ : BufTy).Contents (Elt F)),
    StableHlo.unary main_v243 main_v257 (broadcastInDim S1x64x1 ![1] bcast_S64_S1x64x1_1 : (⟨S64, .i32⟩ : BufTy).Contents (Elt F) → (⟨S1x64x1, .i32⟩ : BufTy).Contents (Elt F)),
    StableHlo.unary main_v243 main_v258 (broadcastInDim S1x1x64 ![2] bcast_S64_S1x1x64_2 : (⟨S64, .i32⟩ : BufTy).Contents (Elt F) → (⟨S1x1x64, .i32⟩ : BufTy).Contents (Elt F)),
    StableHlo.unary main_v257 main_v259 (broadcastInDim S1x64x64 ![0, 1, 2] bcast_S1x64x1_S1x64x64_0_1_2 : (⟨S1x64x1, .i32⟩ : BufTy).Contents (Elt F) → (⟨S1x64x64, .i32⟩ : BufTy).Contents (Elt F)),
    StableHlo.unary main_v258 main_v260 (broadcastInDim S1x64x64 ![0, 1, 2] bcast_S1x1x64_S1x64x64_0_1_2 : (⟨S1x1x64, .i32⟩ : BufTy).Contents (Elt F) → (⟨S1x64x64, .i32⟩ : BufTy).Contents (Elt F)),
    StableHlo.binary main_v259 main_v260 main_v261 (cmpi .ne : (⟨S1x64x64, .i32⟩ : BufTy).Contents (Elt F) → (⟨S1x64x64, .i32⟩ : BufTy).Contents (Elt F) → (⟨S1x64x64, .i1⟩ : BufTy).Contents (Elt F)),
    StableHlo.unary main_v261 main_v262 (broadcastInDim S64x64x64 ![0, 1, 2] bcast_S1x64x64_S64x64x64_0_1_2 : (⟨S1x64x64, .i1⟩ : BufTy).Contents (Elt F) → (⟨S64x64x64, .i1⟩ : BufTy).Contents (Elt F)),
    StableHlo.binary main_v256 main_v262 main_v263 (andi : (⟨S64x64x64, .i1⟩ : BufTy).Contents (Elt F) → (⟨S64x64x64, .i1⟩ : BufTy).Contents (Elt F) → (⟨S64x64x64, .i1⟩ : BufTy).Contents (Elt F)),
    StableHlo.binary main_v230 main_v230 main_v264 (mulf : (⟨S64x64x64, .f32⟩ : BufTy).Contents (Elt F) → (⟨S64x64x64, .f32⟩ : BufTy).Contents (Elt F) → (⟨S64x64x64, .f32⟩ : BufTy).Contents (Elt F)),
    StableHlo.nullary main_cst_49 (constant S_ .f32 0x3F800000#32),
    StableHlo.TRef.unary (.of main_cst_49 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S64x64x64, .f32⟩) (broadcastInDim S64x64x64 ![] bcast_S_S64x64x64),
    StableHlo.TRef.ternary (.of main_v263 : StableHlo.TRef sig ⟨S64x64x64, .i1⟩) (.of main_v242 : StableHlo.TRef sig ⟨S64x64x64, .f32⟩) (.of main_call8_v1 : StableHlo.TRef sig ⟨S64x64x64, .f32⟩) (.of main_v265 : StableHlo.TRef sig ⟨S64x64x64, .f32⟩) select,
    StableHlo.binary main_v264 main_v265 main_v266 (Host.divf : (⟨S64x64x64, .f32⟩ : BufTy).Contents (Elt F) → (⟨S64x64x64, .f32⟩ : BufTy).Contents (Elt F) → (⟨S64x64x64, .f32⟩ : BufTy).Contents (Elt F)),
    StableHlo.nullary main_cst_50 (constant S_ .f32 0x00000000#32),
    StableHlo.TRef.unary (.of main_cst_50 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S64x64x64, .f32⟩) (broadcastInDim S64x64x64 ![] bcast_S_S64x64x64),
    StableHlo.TRef.ternary (.of main_v263 : StableHlo.TRef sig ⟨S64x64x64, .i1⟩) (.of main_v266 : StableHlo.TRef sig ⟨S64x64x64, .f32⟩) (.of main_call9_v1 : StableHlo.TRef sig ⟨S64x64x64, .f32⟩) (.of main_v267 : StableHlo.TRef sig ⟨S64x64x64, .f32⟩) select,
    StableHlo.unary main_v16 main_v268 ((transpose S64x64 [1, 0] · transposes_S64x64_S64x64_1_0) : (⟨S64x64, .f32⟩ : BufTy).Contents (Elt F) → (⟨S64x64, .f32⟩ : BufTy).Contents (Elt F)),
    StableHlo.binary main_v268 main_v16 main_v269 (addf : (⟨S64x64, .f32⟩ : BufTy).Contents (Elt F) → (⟨S64x64, .f32⟩ : BufTy).Contents (Elt F) → (⟨S64x64, .f32⟩ : BufTy).Contents (Elt F)),
    StableHlo.unary main_v269 main_v270 (broadcastInDim S64x64x1 ![0, 1] bcast_S64x64_S64x64x1_0_1 : (⟨S64x64, .f32⟩ : BufTy).Contents (Elt F) → (⟨S64x64x1, .f32⟩ : BufTy).Contents (Elt F)),
    StableHlo.unary main_v16 main_v271 (broadcastInDim S64x1x64 ![0, 2] bcast_S64x64_S64x1x64_0_2 : (⟨S64x64, .f32⟩ : BufTy).Contents (Elt F) → (⟨S64x1x64, .f32⟩ : BufTy).Contents (Elt F)),
    StableHlo.unary main_v270 main_v272 (broadcastInDim S64x64x64 ![0, 1, 2] bcast_S64x64x1_S64x64x64_0_1_2 : (⟨S64x64x1, .f32⟩ : BufTy).Contents (Elt F) → (⟨S64x64x64, .f32⟩ : BufTy).Contents (Elt F)),
    StableHlo.unary main_v271 main_v273 (broadcastInDim S64x64x64 ![0, 1, 2] bcast_S64x1x64_S64x64x64_0_1_2 : (⟨S64x1x64, .f32⟩ : BufTy).Contents (Elt F) → (⟨S64x64x64, .f32⟩ : BufTy).Contents (Elt F)),
    StableHlo.binary main_v272 main_v273 main_v274 (mulf : (⟨S64x64x64, .f32⟩ : BufTy).Contents (Elt F) → (⟨S64x64x64, .f32⟩ : BufTy).Contents (Elt F) → (⟨S64x64x64, .f32⟩ : BufTy).Contents (Elt F)),
    StableHlo.binary main_v274 main_v267 main_v275 (mulf : (⟨S64x64x64, .f32⟩ : BufTy).Contents (Elt F) → (⟨S64x64x64, .f32⟩ : BufTy).Contents (Elt F) → (⟨S64x64x64, .f32⟩ : BufTy).Contents (Elt F)),
    StableHlo.nullary main_cst_51 (constant S_ .f32 0x00000000#32),
    StableHlo.binary main_v275 main_cst_51 main_v276 ((fun x v => Host.reduceAdd x v reducesTo_S64x64x64_S_d0_1_2 h_S_) : (⟨S64x64x64, .f32⟩ : BufTy).Contents (Elt F) → (⟨S_, .f32⟩ : BufTy).Contents (Elt F) → (⟨S_, .f32⟩ : BufTy).Contents (Elt F)),
    StableHlo.binary main_v276 main_v202 main_v277 (addf : (⟨S_, .f32⟩ : BufTy).Contents (Elt F) → (⟨S_, .f32⟩ : BufTy).Contents (Elt F) → (⟨S_, .f32⟩ : BufTy).Contents (Elt F)),
    StableHlo.binary main_v55 main_v112 main_v278 (addf : (⟨S_, .f32⟩ : BufTy).Contents (Elt F) → (⟨S_, .f32⟩ : BufTy).Contents (Elt F) → (⟨S_, .f32⟩ : BufTy).Contents (Elt F)),
    StableHlo.binary main_v20 main_v278 main_v279 (addf : (⟨S_, .f32⟩ : BufTy).Contents (Elt F) → (⟨S_, .f32⟩ : BufTy).Contents (Elt F) → (⟨S_, .f32⟩ : BufTy).Contents (Elt F)),
    StableHlo.binary main_v279 main_v277 main_v280 (addf : (⟨S_, .f32⟩ : BufTy).Contents (Elt F) → (⟨S_, .f32⟩ : BufTy).Contents (Elt F) → (⟨S_, .f32⟩ : BufTy).Contents (Elt F)) ]

end Cert.ReferenceIdeal.Hand

end
-- ==== Proof.RefOps5.lean ====
/- Statements 301 to 336 of the reference program are a straight line of host tensor operations: thirty-three
   of the program's own, two calls of one module-local function, and the return. The window finishes the
   mask of the index triples with three different entries, squares the 64 Gram matrices entrywise,
   divides the squares by the outer products of the diagonals where the mask holds (the first call
   replaces the divisor by one elsewhere, the second replaces the quotient by zero elsewhere), weights the
   result by products of entries of an earlier 64 by 64 matrix and of its sum with its transpose, sums
   everything to a scalar, and adds the scalars the earlier windows left. The callee is itself a straight line of three
   operations (a conversion that is the identity, a broadcast of the scalar, an elementwise select), so
   writing its three operations at each call, over the buffers of that call, turns the window into ONE
   list of thirty-nine operations.
   The window IS the sequential composition of that list: unfolding the two calls and the list, both
   sides are the same chain of operation steps ending in the empty return, up to the associativity of
   sequencing and a return being its unit. Every operation of the list touches TensorCore buffers only,
   determines everything it writes, and writes exactly one buffer, its result; a result buffer has an
   index of at least sixteen among the HBM buffers, while the sixteen argument buffers are the first
   sixteen, so no operation writes an argument. -/
import proofs.«130977_j54631984005498_2_alg».proof.Proof.Gen.ReferenceIdeal
import proofs.«130977_j54631984005498_2_alg».proof.Proof.RefOpsList0
import proofs.«130977_j54631984005498_2_alg».proof.Proof.RefOpsList5
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The window is that straight line. Unfolding the window, the callee at its two calls (its record's
    fields are the typed references the list names) and the composition of the list gives the same
    chain of operation steps on both sides: a call's three steps bound to the rest re-associate to
    three steps of the chain, and the callee's own return disappears against the step that follows it.
    The equation holds by computation, which is left to the kernel's check of the reflexivity proof. -/
theorem main_part5_eq (c : Dev nD) : main_part5 (F := F) c = (seq ops5 : Prog (TpuEff nD τ sig (Elt F) (Pipeline.Sig Λ₀ (Fin 0) fun p => (pcfgs (F := F) p).Adm) .tc) PUnit) := by
  chain_rfl

/-- Each operation touches TensorCore references only (a callee's operation, over typed references, is
    the plain operation at the references they carry). -/
theorem ops5_sub : (ops5 : List (HloOp τ sig (Elt F))).Forall fun op => op.bufs ⊆ tcRefs τ sig :=
  ⟨unary_bufs_sub .., unary_bufs_sub .., unary_bufs_sub .., unary_bufs_sub .., binary_bufs_sub ..,
    unary_bufs_sub .., unary_bufs_sub .., binary_bufs_sub .., unary_bufs_sub .., unary_bufs_sub ..,
    unary_bufs_sub .., unary_bufs_sub .., binary_bufs_sub .., unary_bufs_sub .., binary_bufs_sub ..,
    binary_bufs_sub .., nullary_bufs_sub ..,
    unary_bufs_sub .., unary_bufs_sub .., ternary_bufs_sub ..,
    binary_bufs_sub .., nullary_bufs_sub ..,
    unary_bufs_sub .., unary_bufs_sub .., ternary_bufs_sub ..,
    unary_bufs_sub .., binary_bufs_sub .., unary_bufs_sub .., unary_bufs_sub .., unary_bufs_sub ..,
    unary_bufs_sub .., binary_bufs_sub .., binary_bufs_sub .., nullary_bufs_sub .., binary_bufs_sub ..,
    binary_bufs_sub .., binary_bufs_sub .., binary_bufs_sub .., binary_bufs_sub ..⟩

/-- Each operation determines everything it writes: none leaves a buffer at contents not chosen. -/
theorem ops5_fresh : (ops5 : List (HloOp τ sig (Elt F))).Forall fun op => op.fresh = ∅ :=
  ⟨rfl, rfl, rfl, rfl, rfl, rfl, rfl, rfl, rfl, rfl,
    rfl, rfl, rfl, rfl, rfl, rfl, rfl, rfl, rfl, rfl,
    rfl, rfl, rfl, rfl, rfl, rfl, rfl, rfl, rfl, rfl,
    rfl, rfl, rfl, rfl, rfl, rfl, rfl, rfl, rfl⟩

/-- The sixteen argument references are the first sixteen HBM buffers. -/
private theorem argRef_idx_lt : ∀ k : Fin 16, (argRef k).idx.val < 16 := by decide

/-- A set of buffers that is one buffer whose index is at least sixteen holds no argument buffer: an
    argument reference equal to that buffer's would have its index, which is below sixteen. -/
private theorem keeps {W : Finset (DevRef τ sig)} (y : Ref sig .tc) (hw : W = {Proc.devRef (τ := τ) .tc y})
    (hy : 16 ≤ y.idx.val) : ∀ k : Fin 16, Proc.devRef (τ := τ) .tc (argRef k) ∉ W := by
  intro k h
  rw [hw, Finset.mem_singleton] at h
  have e : argRef k = y := Proc.devRef_injective _ h
  have hk : y.idx.val < 16 := e ▸ argRef_idx_lt k
  exact Nat.not_lt.2 hy hk

/-- No operation writes an argument buffer: each writes its result buffer only, and the result buffers
    of this window are HBM buffers 400 to 438. -/
theorem ops5_keeps_args : (ops5 : List (HloOp τ sig (Elt F))).Forall fun op => ∀ k : Fin 16, Proc.devRef (τ := τ) .tc (argRef k) ∉ op.writes :=
  ⟨keeps main_v249 (by rfl) (by decide), keeps main_v250 (by rfl) (by decide), keeps main_v251 (by rfl) (by decide),
    keeps main_v252 (by rfl) (by decide), keeps main_v253 (by rfl) (by decide), keeps main_v254 (by rfl) (by decide),
    keeps main_v255 (by rfl) (by decide), keeps main_v256 (by rfl) (by decide), keeps main_v257 (by rfl) (by decide),
    keeps main_v258 (by rfl) (by decide), keeps main_v259 (by rfl) (by decide), keeps main_v260 (by rfl) (by decide),
    keeps main_v261 (by rfl) (by decide), keeps main_v262 (by rfl) (by decide), keeps main_v263 (by rfl) (by decide),
    keeps main_v264 (by rfl) (by decide), keeps main_cst_49 (by rfl) (by decide),
    keeps main_call8_v0 (by rfl) (by decide), keeps main_call8_v1 (by rfl) (by decide), keeps main_v265 (by rfl) (by decide),
    keeps main_v266 (by rfl) (by decide), keeps main_cst_50 (by rfl) (by decide),
    keeps main_call9_v0 (by rfl) (by decide), keeps main_call9_v1 (by rfl) (by decide), keeps main_v267 (by rfl) (by decide),
    keeps main_v268 (by rfl) (by decide), keeps main_v269 (by rfl) (by decide), keeps main_v270 (by rfl) (by decide),
    keeps main_v271 (by rfl) (by decide), keeps main_v272 (by rfl) (by decide), keeps main_v273 (by rfl) (by decide),
    keeps main_v274 (by rfl) (by decide), keeps main_v275 (by rfl) (by decide), keeps main_cst_51 (by rfl) (by decide),
    keeps main_v276 (by rfl) (by decide), keeps main_v277 (by rfl) (by decide), keeps main_v278 (by rfl) (by decide),
    keeps main_v279 (by rfl) (by decide), keeps main_v280 (by rfl) (by decide)⟩

end Cert.ReferenceIdeal.Hand

end
-- ==== Proof.RefRun.lean ====
/- The reference program runs, and its sixteen arguments end as they began.
   The program's @main is six windows run one after the other; each window is the sequential composition
   of the list of its host operations (the six window modules), and running two lists one after the
   other is running their concatenation, so @main is the sequential composition of ONE list, the six
   concatenated. The signature scopes no TensorCore buffer and no semaphore, and every operation of the
   list touches TensorCore buffers only and determines everything it writes; so, on every device, from
   any memory with zero counters, every weakly fair execution terminates and leaves each TensorCore
   buffer at the fold of the operations' results over its launch contents. No operation of any window
   writes an argument buffer, so the fold leaves the sixteen argument buffers at their launch contents:
   the arguments are unchanged. -/
import proofs.«130977_j54631984005498_2_alg».proof.Proof.Gen.ReferenceIdeal
import proofs.«130977_j54631984005498_2_alg».proof.Proof.RefOps0
import proofs.«130977_j54631984005498_2_alg».proof.Proof.RefOps1
import proofs.«130977_j54631984005498_2_alg».proof.Proof.RefOps2
import proofs.«130977_j54631984005498_2_alg».proof.Proof.RefOps3
import proofs.«130977_j54631984005498_2_alg».proof.Proof.RefOps4
import proofs.«130977_j54631984005498_2_alg».proof.Proof.RefOps5
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the six windows' lists, concatenated. -/
abbrev ops : List (HloOp τ sig (Elt F)) := ops0 ++ ops1 ++ ops2 ++ ops3 ++ ops4 ++ ops5

/-- @main is that straight line: it runs its six windows in order, each window is the composition of
    its list, and the composition of a concatenation is the compositions one after the other
    (re-associated, sequencing being associative). -/
theorem main_eq (c : Dev nD) : main (F := F) c = seq ops := by
  have h : main (F := F) c
      = (main_part0 c >>= fun _ => main_part1 c >>= fun _ => main_part2 c >>= fun _ => main_part3 c >>= fun _ =>
          main_part4 c >>= fun _ => main_part5 c) := rfl
  rw [h, main_part0_eq, main_part1_eq, main_part2_eq, main_part3_eq, main_part4_eq, main_part5_eq]
  simp only [ops, seq_append, bind_assoc]

-- the enumeration of the signature's 439 references recurses past the default depth and takes a while
set_option maxRecDepth 8192 in
set_option maxHeartbeats 4000000 in
/-- The signature scopes no TensorCore buffer. -/
theorem scopedRefs_eq : (Finset.univ.filter fun b : Ref sig .tc => b.isScoped) = ∅ := by decide
/-- The signature has no semaphore, so it scopes none. -/
theorem scopedSems_eq : (Finset.univ.filter fun sm : SemLoc sig => sm.isScoped .tc) = ∅ := by decide

/-- A property every operation of each of the six windows has, every operation of @main has: a list
    concatenated from six has it throughout exactly when each of the six has. -/
private theorem forall_ops {p : HloOp τ sig (Elt F) → Prop}
    (h0 : (ops0 : List (HloOp τ sig (Elt F))).Forall p) (h1 : (ops1 : List (HloOp τ sig (Elt F))).Forall p)
    (h2 : (ops2 : List (HloOp τ sig (Elt F))).Forall p) (h3 : (ops3 : List (HloOp τ sig (Elt F))).Forall p)
    (h4 : (ops4 : List (HloOp τ sig (Elt F))).Forall p) (h5 : (ops5 : List (HloOp τ sig (Elt F))).Forall p) :
    (ops : List (HloOp τ sig (Elt F))).Forall p :=
  List.forall_append.2 ⟨List.forall_append.2 ⟨List.forall_append.2 ⟨List.forall_append.2 ⟨List.forall_append.2
    ⟨h0, h1⟩, h2⟩, h3⟩, h4⟩, h5⟩

/-- Each operation of @main touches TensorCore references only. -/
theorem ops_sub : (ops : List (HloOp τ sig (Elt F))).Forall fun op => op.bufs ⊆ tcRefs τ sig :=
  forall_ops ops0_sub ops1_sub ops2_sub ops3_sub ops4_sub ops5_sub

/-- Each operation of @main determines everything it writes. -/
private theorem ops_fresh : (ops : List (HloOp τ sig (Elt F))).Forall fun op => op.fresh = ∅ :=
  forall_ops ops0_fresh ops1_fresh ops2_fresh ops3_fresh ops4_fresh ops5_fresh

/-- No operation of @main writes an argument buffer. -/
private theorem ops_keeps_args : (ops : List (HloOp τ sig (Elt F))).Forall fun op =>
    ∀ k : Fin 16, Proc.devRef (τ := τ) .tc (argRef k) ∉ op.writes :=
  forall_ops ops0_keeps_args ops1_keeps_args ops2_keeps_args ops3_keeps_args ops4_keeps_args ops5_keeps_args

/-- On every device, for any float values, from any memory with zero counters: every weakly fair execution of
    @main on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op hop => List.forall_iff_forall_mem.1 ops_fresh op hop)

/-- The fold leaves an argument buffer at what it held: no operation of the list writes it. -/
theorem arg_kept (V : Valuation τ sig (Elt F)) (k : Fin 16) :
    after ops V (Proc.devRef .tc (argRef k)) = V (Proc.devRef .tc (argRef k)) :=
  after_of_forall_not_mem ops V fun op hop => List.forall_iff_forall_mem.1 ops_keeps_args op hop k

/-- The reference program runs (terminates, no fault) and its sixteen argument arrays end unchanged: each
    ends at the fold over its launch contents, which is its launch contents. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) := by
  refine (θ_run defs _ _).mono (fun r h c => ?_) (run_main m ρ)
  have hk : ∀ k : Fin 16, r.2.mem ((c.tc : Thread nD τ).loc (argRef k)) = m ((c.tc : Thread nD τ).loc (argRef k)) :=
    fun k => (h c (argRef k)).trans (arg_kept (launchContents m c) k)
  exact ⟨hk 0, hk 1, hk 2, hk 3, hk 4, hk 5, hk 6, hk 7, hk 8, hk 9, hk 10, hk 11, hk 12, hk 13, hk 14, hk 15⟩

end Cert.ReferenceIdeal.Hand

end
-- ==== Proof.KValue.lean ====
/-
  What the kernel program leaves in its result buffer, at any float instance: the later host operations folded over
  the contents with which they start, which are the region-entry contents with the region's four arrays (the queries,
  the gathered keys, the row of key norms, the column of minima) at what the region leaves in them. The three operand
  arrays are only read by the region, so they hold their entry contents; the fourth holds the column of minima.
  One run gives both the result and the sixteen untouched argument arrays.
-/
import proofs.«130977_j54631984005498_2_alg».proof.Proof.KFrame

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)

/-- The contents with which the later operations start. -/
abbrev V1 (c : Dev nD) : Valuation τ sig (Elt F) :=
  Pipeline.withArrays spec0 c (V0 m c) fun w => (dats m 0 c).arrAt w cfg0.N
/-- The contents when the program ends. -/
abbrev VT (c : Dev nD) : Valuation τ sig (Elt F) :=
  StableHlo.after (List.flatten (tailOpss (F := F))) (V1 m c)

/-- A buffer that is none of the region's arrays is found by the later operations as the region found it. -/
theorem V1_of_ne (c : Dev nD) (b : Ref sig .tc) (hb : ∀ w, Pipeline.arrRef spec0 w ≠ b) :
    V1 m c (Proc.devRef .tc b) = V0 m c (Proc.devRef .tc b) :=
  Pipeline.withArrays_of_ne spec0 c (V0 m c) _ b hb
/-- An array of the region is found at what the region leaves in it. -/
theorem V1_arr (c : Dev nD) (w : Fin 4) :
    V1 m c (Proc.devRef .tc (Pipeline.arrRef spec0 w)) = (dats m 0 c).arrAt w cfg0.N :=
  Pipeline.withArrays_arr spec0 launch0.win.arr_inj c (V0 m c) _ w
/-- The three operand arrays are only read: they hold their entry contents. -/
theorem V1_in0 (c : Dev nD) : V1 m c (Proc.devRef .tc (Pipeline.arrRef spec0 0)) = V m c (Pipeline.arrRef spec0 0) :=
  (V1_arr m c 0).trans (((dats m 0 c).arrAt_in 0 rfl _).trans (A_eq m c 0))
theorem V1_in1 (c : Dev nD) : V1 m c (Proc.devRef .tc (Pipeline.arrRef spec0 1)) = V m c (Pipeline.arrRef spec0 1) :=
  (V1_arr m c 1).trans (((dats m 0 c).arrAt_in 1 rfl _).trans (A_eq m c 1))
theorem V1_in2 (c : Dev nD) : V1 m c (Proc.devRef .tc (Pipeline.arrRef spec0 2)) = V m c (Pipeline.arrRef spec0 2) :=
  (V1_arr m c 2).trans (((dats m 0 c).arrAt_in 2 rfl _).trans (A_eq m c 2))

theorem res_unscoped : (main_v250 : Ref sig .tc).isScoped = false := by decide
theorem res_ne_arr : ∀ w : Fin 4, Pipeline.arrRef spec0 w ≠ main_v250 := by decide

/-- The run with the result named: it ends at the later operations' fold, the arguments as they were. -/
theorem run_value : θ_run defs (onTc (τ := τ) (main (F := F))) ⟨m, fun _ => 0, ρ⟩ (fun r => ∀ c : Dev nD,
      r.2.mem ((c.tc : Thread nD τ).loc main_v250) = VT m c (Proc.devRef .tc main_v250)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c).2 main_v250 (Pipeline.mem_restRefs_of main_v250 res_unscoped res_ne_arr),
      arg_kept m 0 r h c, arg_kept m 1 r h c, arg_kept m 2 r h c, arg_kept m 3 r h c, arg_kept m 4 r h c, arg_kept m 5 r h c, arg_kept m 6 r h c, arg_kept m 7 r h c, arg_kept m 8 r h c, arg_kept m 9 r h c, arg_kept m 10 r h c, arg_kept m 11 r h c, arg_kept m 12 r h c, arg_kept m 13 r h c, arg_kept m 14 r h c, arg_kept m 15 r h c⟩) (run_main m ρ)

end Cert.KernelIdeal.Hand

end
-- ==== Proof.LibAfterCut.lean ====
/-
  Folding a list of host operations over buffer contents, cut in two: the fold over a concatenation is the fold over the
  second part of the fold over the first; a buffer that no operation of the second part writes holds, after the
  whole list, what the first part left in it; and a buffer that no operation of the first part writes is read
  by the second part at its starting contents.
-/
import Idealize.ShloMosaic.Lib.StableHlo.Run

noncomputable section

namespace AfterCut

open Idealize.ShloMosaic Idealize.ShloMosaic.StableHlo

variable {τ : Topo} {sig : RefSig} {Val : EltTy → Type}

/-- The fold over a concatenation: first the first list, then the second from what it leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer the second part never writes holds, after both, what the first part left. -/
theorem after_append_of_not_written (l₁ l₂ : List (HloOp τ sig Val)) (V : Valuation τ sig Val) {b : DevRef τ sig}
    (h : ∀ op ∈ l₂, b ∉ op.writes) : after (l₁ ++ l₂) V b = after l₁ V b := by
  rw [after_append, after_of_forall_not_mem l₂ _ h]

/-- Cutting a list at position `n`. -/
theorem after_take_drop (l : List (HloOp τ sig Val)) (n : Nat) (V : Valuation τ sig Val) :
    after l V = after (l.drop n) (after (l.take n) V) := by
  conv_lhs => rw [← List.take_append_drop n l]
  exact after_append _ _ _

/-- A buffer no operation after position `n` writes is read after the first `n` operations alone. -/
theorem after_eq_take (l : List (HloOp τ sig Val)) (n : Nat) (V : Valuation τ sig Val) {b : DevRef τ sig}
    (h : ∀ op ∈ l.drop n, b ∉ op.writes) : after l V b = after (l.take n) V b := by
  rw [after_take_drop l n V, after_of_forall_not_mem _ _ h]

/-- The fold over a list of lists, flattened: one list after the other. -/
theorem after_flatten_cons (l : List (HloOp τ sig Val)) (ls : List (List (HloOp τ sig Val))) (V : Valuation τ sig Val) :
    after (List.flatten (l :: ls)) V = after (List.flatten ls) (after l V) := by
  rw [List.flatten_cons, after_append]

/-- Two valuations that agree on a buffer no operation writes agree on it after any operations. -/
theorem after_congr_of_not_written (l : List (HloOp τ sig Val)) (V : Valuation τ sig Val) {b : DevRef τ sig}
    (h : ∀ op ∈ l, b ∉ op.writes) : after l V b = V b :=
  after_of_forall_not_mem l V h

end AfterCut

end
-- ==== Proof.KBlocks.lean ====
/-
  The kernel program's host operations after the region, cut into blocks by what they compute: the nearest-neighbour
  loss from the column of minima (11 operations); the two generator networks that make the independence samples (116); their
  column statistics, the correlation sum and the closed-form residual Gram array (46); its diagonal (20); the weighted
  triple sum (46); the last four additions.
-/
import proofs.«130977_j54631984005498_2_alg».proof.Proof.KRuns
import proofs.«130977_j54631984005498_2_alg».proof.Proof.LibAfterCut

set_option maxRecDepth 16384

noncomputable section

namespace Cert.KernelIdeal.Blocks

open Cert.KernelIdeal Cert.KernelIdeal.Gen Idealize.ShloMosaic Idealize.ShloMosaic.TcCoe Idealize.ShloMosaic.StableHlo

variable {F : FTy → Type} [FloatOps F]

/-- The operations, as one list. -/
abbrev L : List (HloOp τ sig (Elt F)) := List.flatten (Cert.KernelIdeal.Hand.tailOpss (F := F))

abbrev kB1 : List (HloOp τ sig (Elt F)) := (L (F := F)).take 11
abbrev kB2 : List (HloOp τ sig (Elt F)) := ((L (F := F)).drop 11).take 116
abbrev kB3 : List (HloOp τ sig (Elt F)) := ((L (F := F)).drop 127).take 46
abbrev kB4 : List (HloOp τ sig (Elt F)) := ((L (F := F)).drop 173).take 20
abbrev kB5 : List (HloOp τ sig (Elt F)) := ((L (F := F)).drop 193).take 46
abbrev kB6 : List (HloOp τ sig (Elt F)) := (L (F := F)).drop 239

/-- The fold over the whole list is the folds over the blocks, one after the other. -/
theorem after_blocks (V : Valuation τ sig (Elt F)) :
    after (L (F := F)) V = after (kB6 (F := F)) (after (kB5 (F := F)) (after (kB4 (F := F)) (after (kB3 (F := F)) (after (kB2 (F := F)) (after (kB1 (F := F)) (V)))))) := by
  rw [AfterCut.after_take_drop (L (F := F)) 11 V]
  rw [AfterCut.after_take_drop ((L (F := F)).drop 11) 116 _, List.drop_drop]
  rw [AfterCut.after_take_drop ((L (F := F)).drop 127) 46 _, List.drop_drop]
  rw [AfterCut.after_take_drop ((L (F := F)).drop 173) 20 _, List.drop_drop]
  rw [AfterCut.after_take_drop ((L (F := F)).drop 193) 46 _, List.drop_drop]

end Cert.KernelIdeal.Blocks

end
-- ==== Proof.LibWriteOrder.lean ====
/-
  Host operations that each write exactly one buffer, the written buffers' indices counting up by one along the list
  (a program in single-assignment form whose values are numbered in the order they are made). Such a list keeps that
  shape under concatenation and under dropping a prefix; every operation of it writes a buffer whose index is at least
  the list's first; hence a stretch that starts at position `a` writes no buffer whose index is below the first plus `a`:
  the buffers made before the stretch are not written by it.
-/
import Idealize.ShloMosaic.Lib.StableHlo.Run

noncomputable section

namespace WriteOrder

open Idealize.ShloMosaic Idealize.ShloMosaic.StableHlo

variable {τ : Topo} {sig : RefSig} {Val : EltTy → Type}

/-- Each operation of the list writes exactly one buffer, and those buffers' indices are `s`, `s + 1`, … in order. -/
def WritesFrom : Nat → List (HloOp τ sig Val) → Prop
  | _, [] => True
  | s, op :: ops =>
    (∃ y : Ref sig .tc, op.writes = {Proc.devRef (τ := τ) .tc y} ∧ y.idx.val = s) ∧ WritesFrom (s + 1) ops

/-- Two such lists, the second starting where the first ends, make one. -/
theorem WritesFrom.append : ∀ {s : Nat} {l₁ l₂ : List (HloOp τ sig Val)},
    WritesFrom s l₁ → WritesFrom (s + l₁.length) l₂ → WritesFrom s (l₁ ++ l₂)
  | _, [], _, _, h₂ => h₂
  | s, _ :: l, l₂, ⟨h, hl⟩, h₂ => by
    have e : s + (l.length + 1) = s + 1 + l.length := by omega
    exact ⟨h, WritesFrom.append hl (e ▸ h₂)⟩

/-- The same with the first list's length named. -/
theorem WritesFrom.append' {s n : Nat} {l₁ l₂ : List (HloOp τ sig Val)}
    (h₁ : WritesFrom s l₁) (hn : l₁.length = n) (h₂ : WritesFrom (s + n) l₂) : WritesFrom s (l₁ ++ l₂) :=
  h₁.append (hn ▸ h₂)

/-- Without its first `a` operations the list starts `a` indices later. -/
theorem WritesFrom.drop : ∀ {s : Nat} (a : Nat) {l : List (HloOp τ sig Val)},
    WritesFrom s l → WritesFrom (s + a) (l.drop a)
  | _, 0, _, h => h
  | _, _ + 1, [], _ => trivial
  | s, a + 1, _ :: l, ⟨_, hl⟩ => by
    have e : s + (a + 1) = s + 1 + a := by omega
    rw [e]
    exact WritesFrom.drop a hl

/-- Every operation of the list writes one buffer, of index at least the list's first. -/
theorem WritesFrom.ge : ∀ {s : Nat} {l : List (HloOp τ sig Val)}, WritesFrom s l →
    ∀ op ∈ l, ∃ y : Ref sig .tc, op.writes = {Proc.devRef (τ := τ) .tc y} ∧ s ≤ y.idx.val
  | _, [], _, _, hop => absurd hop List.not_mem_nil
  | s, _ :: l, ⟨⟨y, hw, hy⟩, hl⟩, op, hop => by
    rcases List.mem_cons.mp hop with rfl | hop
    · exact ⟨y, hw, by omega⟩
    · obtain ⟨y', hw', hy'⟩ := WritesFrom.ge hl op hop
      exact ⟨y', hw', by omega⟩

/-- A reference of smaller index is another reference. -/
theorem ne_of_idx_lt {b y : Ref sig .tc} (h : b.idx.val < y.idx.val) : b ≠ y := by
  intro e
  have h' : b.idx.val = y.idx.val := congrArg (fun r : Ref sig .tc => r.idx.val) e
  omega

/-- The stretch of `n` operations from position `a` writes none of the buffers whose index is below the list's first
    plus `a`: none of those made before it. -/
theorem keeps_of_writesFrom {s : Nat} {l : List (HloOp τ sig Val)} (h : WritesFrom s l) (a n : Nat)
    {keep : List (Ref sig .tc)} (hk : ∀ b ∈ keep, b.idx.val < s + a) :
    ∀ op ∈ (l.drop a).take n, ∀ b ∈ keep, Proc.devRef (τ := τ) .tc b ∉ op.writes := by
  intro op hop b hb hmem
  obtain ⟨y, hw, hy⟩ := (h.drop a).ge op (List.mem_of_mem_take hop)
  rw [hw, Finset.mem_singleton] at hmem
  have hlt : b.idx.val < y.idx.val := Nat.lt_of_lt_of_le (hk b hb) hy
  exact ne_of_idx_lt hlt (Proc.devRef_injective _ hmem)

/-- No operation of the list writes a buffer whose index is below the list's first. -/
theorem keeps_below {s : Nat} {l : List (HloOp τ sig Val)} (h : WritesFrom s l) {b : Ref sig .tc} (hb : b.idx.val < s) :
    ∀ op ∈ l, Proc.devRef (τ := τ) .tc b ∉ op.writes := by
  intro op hop hmem
  obtain ⟨y, hw, hy⟩ := h.ge op hop
  rw [hw, Finset.mem_singleton] at hmem
  exact ne_of_idx_lt (Nat.lt_of_lt_of_le hb hy) (Proc.devRef_injective _ hmem)

end WriteOrder

end
-- ==== Proof.KKeeps.lean ====
/-
  The kernel program's blocks after the region keep the live values: a block writes none of the buffers made before
  it, and no operation writes an argument array. The program is in single-assignment form with its values numbered in
  the order they are made: operation number i of the list after the region writes exactly the buffer of index 179 + i.
  So the block that starts at position a writes only buffers of index at least 179 + a, while each value it must keep
  was made earlier and has a smaller index.
-/
import proofs.«130977_j54631984005498_2_alg».proof.Proof.KBlocks
import proofs.«130977_j54631984005498_2_alg».proof.Proof.KFrame
import proofs.«130977_j54631984005498_2_alg».proof.Proof.LibWriteOrder

set_option maxRecDepth 16384

noncomputable section

namespace Cert.KernelIdeal.Blocks

open Cert.KernelIdeal Cert.KernelIdeal.Gen Idealize.ShloMosaic Idealize.ShloMosaic.TcCoe Idealize.ShloMosaic.StableHlo
open Cert.KernelIdeal.Hand (argRef)
open WriteOrder

variable {F : FTy → Type} [FloatOps F]

/-- One operation's fact: what it writes is its result buffer by computation, and that buffer's index is a literal. -/
local macro "wr" : term => `(⟨_, rfl, by decide⟩)

/-- Stretch 0 after the region writes the buffers 179, … in order. -/
theorem hostOps1_writesFrom : WritesFrom 179 (hostOps1 : List (HloOp τ sig (Elt F))) :=
  ⟨wr, wr, wr, wr, wr, wr, wr, wr, wr, wr, wr, wr, wr, wr, wr, wr, wr, wr, wr, trivial⟩

theorem hostOps1_length : (hostOps1 : List (HloOp τ sig (Elt F))).length = 19 := rfl

/-- Stretch 1 after the region writes the buffers 198, … in order. -/
theorem hostOps1_1_writesFrom : WritesFrom 198 (hostOps1_1 : List (HloOp τ sig (Elt F))) :=
  ⟨wr, wr, wr, wr, wr, wr, wr, wr, wr, wr, wr, wr, wr, wr, wr, wr, wr, wr, wr, wr,
    wr, wr, trivial⟩

theorem hostOps1_1_length : (hostOps1_1 : List (HloOp τ sig (Elt F))).length = 22 := rfl

/-- Stretch 2 after the region writes the buffers 220, … in order. -/
theorem hostOps1_2_writesFrom : WritesFrom 220 (hostOps1_2 : List (HloOp τ sig (Elt F))) :=
  ⟨wr, wr, wr, wr, wr, wr, wr, wr, wr, wr, wr, wr, wr, wr, wr, wr, wr, wr, wr, wr,
    wr, wr, trivial⟩

theorem hostOps1_2_length : (hostOps1_2 : List (HloOp τ sig (Elt F))).length = 22 := rfl

/-- Stretch 3 after the region writes the buffers 242, … in order. -/
theorem hostOps1_3_writesFrom : WritesFrom 242 (hostOps1_3 : List (HloOp τ sig (Elt F))) :=
  ⟨wr, trivial⟩

theorem hostOps1_3_length : (hostOps1_3 : List (HloOp τ sig (Elt F))).length = 1 := rfl

/-- Stretch 4 after the region writes the buffers 243, … in order. -/
theorem hostOps1_4_writesFrom : WritesFrom 243 (hostOps1_4 : List (HloOp τ sig (Elt F))) :=
  ⟨wr, wr, wr, wr, wr, wr, wr, wr, wr, wr, wr, wr, wr, trivial⟩

theorem hostOps1_4_length : (hostOps1_4 : List (HloOp τ sig (Elt F))).length = 13 := rfl

/-- Stretch 5 after the region writes the buffers 256, … in order. -/
theorem hostOps1_5_writesFrom : WritesFrom 256 (hostOps1_5 : List (HloOp τ sig (Elt F))) :=
  ⟨wr, wr, wr, wr, wr, wr, wr, wr, wr, wr, wr, wr, wr, wr, wr, wr, wr, wr, wr, wr,
    wr, wr, trivial⟩

theorem hostOps1_5_length : (hostOps1_5 : List (HloOp τ sig (Elt F))).length = 22 := rfl

/-- Stretch 6 after the region writes the buffers 278, … in order. -/
theorem hostOps1_6_writesFrom : WritesFrom 278 (hostOps1_6 : List (HloOp τ sig (Elt F))) :=
  ⟨wr, wr, wr, wr, wr, wr, wr, wr, wr, wr, wr, wr, wr, wr, wr, wr, wr, wr, wr, wr,
    wr, wr, trivial⟩

theorem hostOps1_6_length : (hostOps1_6 : List (HloOp τ sig (Elt F))).length = 22 := rfl

/-- Stretch 7 after the region writes the buffers 300, … in order. -/
theorem hostOps1_7_writesFrom : WritesFrom 300 (hostOps1_7 : List (HloOp τ sig (Elt F))) :=
  ⟨wr, trivial⟩

theorem hostOps1_7_length : (hostOps1_7 : List (HloOp τ sig (Elt F))).length = 1 := rfl

/-- Stretch 8 after the region writes the buffers 301, … in order. -/
theorem hostOps1_8_writesFrom : WritesFrom 301 (hostOps1_8 : List (HloOp τ sig (Elt F))) :=
  ⟨wr, wr, wr, wr, wr, wr, wr, wr, wr, wr, wr, wr, wr, wr, wr, wr, wr, wr, wr, wr,
    wr, wr, wr, wr, wr, wr, wr, wr, wr, wr, wr, wr, wr, wr, wr, wr, wr, wr, wr, wr,
    wr, wr, wr, wr, wr, wr, wr, wr, wr, wr, wr, trivial⟩

theorem hostOps1_8_length : (hostOps1_8 : List (HloOp τ sig (Elt F))).length = 51 := rfl

/-- Stretch 9 after the region writes the buffers 352, … in order. -/
theorem hostOps1_9_writesFrom : WritesFrom 352 (hostOps1_9 : List (HloOp τ sig (Elt F))) :=
  ⟨wr, wr, wr, wr, wr, wr, wr, wr, wr, wr, wr, wr, wr, wr, wr, wr, wr, wr, wr, wr,
    trivial⟩

theorem hostOps1_9_length : (hostOps1_9 : List (HloOp τ sig (Elt F))).length = 20 := rfl

/-- Stretch 10 after the region writes the buffers 372, … in order. -/
theorem hostOps1_10_writesFrom : WritesFrom 372 (hostOps1_10 : List (HloOp τ sig (Elt F))) :=
  ⟨wr, wr, wr, wr, wr, wr, wr, wr, wr, wr, wr, wr, wr, wr, wr, wr, wr, wr, wr, wr,
    wr, wr, wr, wr, wr, wr, wr, trivial⟩

theorem hostOps1_10_length : (hostOps1_10 : List (HloOp τ sig (Elt F))).length = 27 := rfl

/-- Stretch 11 after the region writes the buffers 399, … in order. -/
theorem hostOps1_11_writesFrom : WritesFrom 399 (hostOps1_11 : List (HloOp τ sig (Elt F))) :=
  ⟨wr, wr, wr, trivial⟩

theorem hostOps1_11_length : (hostOps1_11 : List (HloOp τ sig (Elt F))).length = 3 := rfl

/-- Stretch 12 after the region writes the buffers 402, … in order. -/
theorem hostOps1_12_writesFrom : WritesFrom 402 (hostOps1_12 : List (HloOp τ sig (Elt F))) :=
  ⟨wr, wr, wr, trivial⟩

theorem hostOps1_12_length : (hostOps1_12 : List (HloOp τ sig (Elt F))).length = 3 := rfl

/-- Stretch 13 after the region writes the buffers 405, … in order. -/
theorem hostOps1_13_writesFrom : WritesFrom 405 (hostOps1_13 : List (HloOp τ sig (Elt F))) :=
  ⟨wr, wr, wr, trivial⟩

theorem hostOps1_13_length : (hostOps1_13 : List (HloOp τ sig (Elt F))).length = 3 := rfl

/-- Stretch 14 after the region writes the buffers 408, … in order. -/
theorem hostOps1_14_writesFrom : WritesFrom 408 (hostOps1_14 : List (HloOp τ sig (Elt F))) :=
  ⟨wr, wr, wr, wr, wr, wr, wr, wr, wr, wr, wr, wr, wr, wr, trivial⟩

theorem hostOps1_14_length : (hostOps1_14 : List (HloOp τ sig (Elt F))).length = 14 := rfl

/-- The whole list after the region writes the buffers 179, 180, … in order. -/
theorem L_writesFrom : WritesFrom 179 (L : List (HloOp τ sig (Elt F))) := by
  show WritesFrom 179
    (hostOps1 ++ (hostOps1_1 ++ (hostOps1_2 ++ (hostOps1_3 ++ (hostOps1_4 ++ (hostOps1_5 ++ (hostOps1_6 ++ (hostOps1_7 ++ (hostOps1_8 ++ (hostOps1_9 ++ (hostOps1_10 ++ (hostOps1_11 ++ (hostOps1_12 ++ (hostOps1_13 ++ (hostOps1_14 ++ ([]))))))))))))))) : List (HloOp τ sig (Elt F)))
  exact
    hostOps1_writesFrom.append' hostOps1_length <|
    hostOps1_1_writesFrom.append' hostOps1_1_length <|
    hostOps1_2_writesFrom.append' hostOps1_2_length <|
    hostOps1_3_writesFrom.append' hostOps1_3_length <|
    hostOps1_4_writesFrom.append' hostOps1_4_length <|
    hostOps1_5_writesFrom.append' hostOps1_5_length <|
    hostOps1_6_writesFrom.append' hostOps1_6_length <|
    hostOps1_7_writesFrom.append' hostOps1_7_length <|
    hostOps1_8_writesFrom.append' hostOps1_8_length <|
    hostOps1_9_writesFrom.append' hostOps1_9_length <|
    hostOps1_10_writesFrom.append' hostOps1_10_length <|
    hostOps1_11_writesFrom.append' hostOps1_11_length <|
    hostOps1_12_writesFrom.append' hostOps1_12_length <|
    hostOps1_13_writesFrom.append' hostOps1_13_length <|
    hostOps1_14_writesFrom.append' hostOps1_14_length <|
    trivial

theorem kB1_keeps : ∀ op ∈ (kB1 : List (HloOp τ sig (Elt F))), ∀ b ∈ ([main_v16, main_v20, main_v55] : List (Ref sig .tc)),
    Proc.devRef (τ := τ) .tc b ∉ op.writes :=
  keeps_of_writesFrom L_writesFrom 0 11 (by decide)

theorem kB2_keeps : ∀ op ∈ (kB2 : List (HloOp τ sig (Elt F))), ∀ b ∈ ([main_v16, main_v20, main_v55, main_v105] : List (Ref sig .tc)),
    Proc.devRef (τ := τ) .tc b ∉ op.writes :=
  keeps_of_writesFrom L_writesFrom 11 116 (by decide)

theorem kB3_keeps : ∀ op ∈ (kB3 : List (HloOp τ sig (Elt F))), ∀ b ∈ ([main_v16, main_v20, main_v55, main_v105] : List (Ref sig .tc)),
    Proc.devRef (τ := τ) .tc b ∉ op.writes :=
  keeps_of_writesFrom L_writesFrom 127 46 (by decide)

theorem kB4_keeps : ∀ op ∈ (kB4 : List (HloOp τ sig (Elt F))),
    ∀ b ∈ ([main_v16, main_v20, main_v55, main_v105, main_v195, main_v206] : List (Ref sig .tc)),
    Proc.devRef (τ := τ) .tc b ∉ op.writes :=
  keeps_of_writesFrom L_writesFrom 173 20 (by decide)

theorem kB5_keeps : ∀ op ∈ (kB5 : List (HloOp τ sig (Elt F))), ∀ b ∈ ([main_v20, main_v55, main_v105, main_v195] : List (Ref sig .tc)),
    Proc.devRef (τ := τ) .tc b ∉ op.writes :=
  keeps_of_writesFrom L_writesFrom 193 46 (by decide)

/-- No operation after the region writes an argument array: stretch by stretch, each operation's one written buffer
    is none of them. -/
theorem blocks_keep_args : ∀ op ∈ (L : List (HloOp τ sig (Elt F))), ∀ k : Fin 16,
    Proc.devRef (τ := τ) .tc (argRef k) ∉ op.writes := by
  intro op hop k
  obtain ⟨ops, hops, hop'⟩ := List.mem_flatten.mp hop
  exact Hand.tail_keeps_args ops hops op hop' k

end Cert.KernelIdeal.Blocks

end
-- ==== Proof.KChain.lean ====
/-
  The kernel program's later host operations, block by block, at the ideal instance: the contents after each block, the
  end contents as their composition, and each live value carried from the block that produces it to the block that
  consumes it (no operation in between writes its buffer): the connectivity matrix, the transitivity loss and the
  reconstruction loss from before the region; the nearest-neighbour loss; the correlation sum; the residual Gram array.
  The argument arrays are carried through everything.
-/
import proofs.«130977_j54631984005498_2_alg».proof.Proof.KValue
import proofs.«130977_j54631984005498_2_alg».proof.Proof.KBlocks
import proofs.«130977_j54631984005498_2_alg».proof.Proof.KKeeps
import Idealize.ShloMosaic.PureOps.Ideal

set_option maxRecDepth 16384

noncomputable section

namespace Cert.KernelIdeal.Chain

open Cert.KernelIdeal Cert.KernelIdeal.Gen Cert.KernelIdeal.Hand Cert.KernelIdeal.Blocks
open Idealize.ShloMosaic Idealize.ShloMosaic.TcCoe Idealize.ShloMosaic.StableHlo

variable (m : (ℓ : Loc nD τ sig) → Buf (Elt Ideal) ℓ) (c : Dev nD)

/-- The contents with which the later operations start, and after each block. -/
abbrev A0 : Valuation τ sig (Elt Ideal) := V1 (F := Ideal) m c
abbrev A1 : Valuation τ sig (Elt Ideal) := after (kB1 (F := Ideal)) (A0 m c)
abbrev A2 : Valuation τ sig (Elt Ideal) := after (kB2 (F := Ideal)) (A1 m c)
abbrev A3 : Valuation τ sig (Elt Ideal) := after (kB3 (F := Ideal)) (A2 m c)
abbrev A4 : Valuation τ sig (Elt Ideal) := after (kB4 (F := Ideal)) (A3 m c)
abbrev A5 : Valuation τ sig (Elt Ideal) := after (kB5 (F := Ideal)) (A4 m c)
abbrev A6 : Valuation τ sig (Elt Ideal) := after (kB6 (F := Ideal)) (A5 m c)

/-- The end contents are the blocks' composition. -/
theorem VT_eq : VT (F := Ideal) m c = A6 m c := after_blocks (A0 m c)

/-- A block that writes none of the listed buffers leaves each of them as it found it. -/
theorem keep (l : List (HloOp τ sig (Elt Ideal))) (V : Valuation τ sig (Elt Ideal)) (bs : List (Ref sig .tc))
    (h : ∀ op ∈ l, ∀ b ∈ bs, Proc.devRef (τ := τ) .tc b ∉ op.writes) (b : Ref sig .tc) (hb : b ∈ bs) :
    after l V (Proc.devRef .tc b) = V (Proc.devRef .tc b) :=
  AfterCut.after_congr_of_not_written l V fun op hop => h op hop b hb

/-- What was computed before the region and is no array of it reaches the later operations unchanged. -/
theorem A0_pre (b : Ref sig .tc) (hb : ∀ w, Pipeline.arrRef spec0 w ≠ b) :
    A0 m c (Proc.devRef .tc b) = V0 (F := Ideal) m c (Proc.devRef .tc b) := V1_of_ne m c b hb

theorem ne_arr_v16 : ∀ w : Fin 4, Pipeline.arrRef spec0 w ≠ main_v16 := by decide
theorem ne_arr_v20 : ∀ w : Fin 4, Pipeline.arrRef spec0 w ≠ main_v20 := by decide
theorem ne_arr_v55 : ∀ w : Fin 4, Pipeline.arrRef spec0 w ≠ main_v55 := by decide

/-- The connectivity matrix at the block that consumes it (the weighted triple sum). -/
theorem A4_v16 : A4 m c (Proc.devRef .tc main_v16) = V0 (F := Ideal) m c (Proc.devRef .tc main_v16) :=
  (keep _ _ _ kB4_keeps main_v16 (by simp)).trans ((keep _ _ _ kB3_keeps main_v16 (by simp)).trans
    ((keep _ _ _ kB2_keeps main_v16 (by simp)).trans ((keep _ _ _ kB1_keeps main_v16 (by simp)).trans (A0_pre m c main_v16 ne_arr_v16))))
/-- The transitivity loss and the reconstruction loss at the last additions. -/
theorem A5_v20 : A5 m c (Proc.devRef .tc main_v20) = V0 (F := Ideal) m c (Proc.devRef .tc main_v20) :=
  (keep _ _ _ kB5_keeps main_v20 (by simp)).trans ((keep _ _ _ kB4_keeps main_v20 (by simp)).trans ((keep _ _ _ kB3_keeps main_v20 (by simp)).trans
    ((keep _ _ _ kB2_keeps main_v20 (by simp)).trans ((keep _ _ _ kB1_keeps main_v20 (by simp)).trans (A0_pre m c main_v20 ne_arr_v20)))))
theorem A5_v55 : A5 m c (Proc.devRef .tc main_v55) = V0 (F := Ideal) m c (Proc.devRef .tc main_v55) :=
  (keep _ _ _ kB5_keeps main_v55 (by simp)).trans ((keep _ _ _ kB4_keeps main_v55 (by simp)).trans ((keep _ _ _ kB3_keeps main_v55 (by simp)).trans
    ((keep _ _ _ kB2_keeps main_v55 (by simp)).trans ((keep _ _ _ kB1_keeps main_v55 (by simp)).trans (A0_pre m c main_v55 ne_arr_v55)))))
/-- The nearest-neighbour loss at the last additions. -/
theorem A5_v105 : A5 m c (Proc.devRef .tc main_v105) = A1 m c (Proc.devRef .tc main_v105) :=
  (keep _ _ _ kB5_keeps main_v105 (by simp)).trans ((keep _ _ _ kB4_keeps main_v105 (by simp)).trans
    ((keep _ _ _ kB3_keeps main_v105 (by simp)).trans (keep _ _ _ kB2_keeps main_v105 (by simp))))
/-- The correlation sum at the last additions. -/
theorem A5_v195 : A5 m c (Proc.devRef .tc main_v195) = A3 m c (Proc.devRef .tc main_v195) :=
  (keep _ _ _ kB5_keeps main_v195 (by simp)).trans (keep _ _ _ kB4_keeps main_v195 (by simp))
/-- The residual Gram array at the block after its diagonal is taken. -/
theorem A4_v206 : A4 m c (Proc.devRef .tc main_v206) = A3 m c (Proc.devRef .tc main_v206) :=
  keep _ _ _ kB4_keeps main_v206 (by simp)

/-- An argument array is found by every block at its launch contents. -/
theorem blocks_arg (l : List (HloOp τ sig (Elt Ideal))) (hl : ∀ op ∈ l, op ∈ (L (F := Ideal))) (V : Valuation τ sig (Elt Ideal)) (k : Fin 16) :
    after l V (Proc.devRef .tc (argRef k)) = V (Proc.devRef .tc (argRef k)) :=
  AfterCut.after_congr_of_not_written l V fun op hop => blocks_keep_args op (hl op hop) k
theorem A0_arg (k : Fin 16) : A0 m c (Proc.devRef .tc (argRef k)) = m ((c.tc : Thread nD τ).loc (argRef k)) :=
  (V1_of_ne m c (argRef k) (arg_ne_arr k)).trans
    (after_of_forall_not_mem _ _ fun op hop => by
      obtain ⟨ops, hops, hop'⟩ := List.mem_flatten.mp hop
      exact pre_keeps_args ops hops op hop' k)
theorem A1_arg (k : Fin 16) : A1 m c (Proc.devRef .tc (argRef k)) = m ((c.tc : Thread nD τ).loc (argRef k)) :=
  (blocks_arg (kB1 (F := Ideal)) (fun op h => List.mem_of_mem_take h) _ k).trans (A0_arg m c k)

/-- The same values where the comparison of the remaining blocks starts (after the generator block). -/
theorem A2_v16 : A2 m c (Proc.devRef .tc main_v16) = V0 (F := Ideal) m c (Proc.devRef .tc main_v16) :=
  (keep _ _ _ kB2_keeps main_v16 (by simp)).trans ((keep _ _ _ kB1_keeps main_v16 (by simp)).trans (A0_pre m c main_v16 ne_arr_v16))
theorem A2_v20 : A2 m c (Proc.devRef .tc main_v20) = V0 (F := Ideal) m c (Proc.devRef .tc main_v20) :=
  (keep _ _ _ kB2_keeps main_v20 (by simp)).trans ((keep _ _ _ kB1_keeps main_v20 (by simp)).trans (A0_pre m c main_v20 ne_arr_v20))
theorem A2_v55 : A2 m c (Proc.devRef .tc main_v55) = V0 (F := Ideal) m c (Proc.devRef .tc main_v55) :=
  (keep _ _ _ kB2_keeps main_v55 (by simp)).trans ((keep _ _ _ kB1_keeps main_v55 (by simp)).trans (A0_pre m c main_v55 ne_arr_v55))
theorem A2_v105 : A2 m c (Proc.devRef .tc main_v105) = A1 m c (Proc.devRef .tc main_v105) :=
  keep _ _ _ kB2_keeps main_v105 (by simp)

end Cert.KernelIdeal.Chain

end
-- ==== Proof.RValue.lean ====
/-
  What the reference program leaves in its result buffer, at any float instance: its host operations folded over the
  launch contents. One run gives both the result and the sixteen untouched argument arrays.
-/
import proofs.«130977_j54631984005498_2_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The contents when the program ends. -/
abbrev WT (c : Dev nD) : Valuation τ sig (Elt F) := after (ops (F := F)) (launchContents m c)

/-- An argument array read at the end is its launch contents. -/
theorem WT_arg (c : Dev nD) (k : Fin 16) :
    WT m c (Proc.devRef .tc (argRef k)) = launchContents m c (Proc.devRef .tc (argRef k)) :=
  arg_kept (launchContents m c) k

/-- The run with the result named: it ends at the operations' fold, the arguments as they were. -/
theorem run_value : θ_run defs (onTc (τ := τ) (main (F := F))) ⟨m, fun _ => 0, ρ⟩ (fun r => ∀ c : Dev nD,
      r.2.mem ((c.tc : Thread nD τ).loc main_v280) = WT m c (Proc.devRef .tc main_v280)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c main_v280,
      (h c main_arg0).trans (WT_arg m c 0),
      (h c main_arg1).trans (WT_arg m c 1),
      (h c main_arg2).trans (WT_arg m c 2),
      (h c main_arg3).trans (WT_arg m c 3),
      (h c main_arg4).trans (WT_arg m c 4),
      (h c main_arg5).trans (WT_arg m c 5),
      (h c main_arg6).trans (WT_arg m c 6),
      (h c main_arg7).trans (WT_arg m c 7),
      (h c main_arg8).trans (WT_arg m c 8),
      (h c main_arg9).trans (WT_arg m c 9),
      (h c main_arg10).trans (WT_arg m c 10),
      (h c main_arg11).trans (WT_arg m c 11),
      (h c main_arg12).trans (WT_arg m c 12),
      (h c main_arg13).trans (WT_arg m c 13),
      (h c main_arg14).trans (WT_arg m c 14),
      (h c main_arg15).trans (WT_arg m c 15)⟩) (run_main m ρ)

end Cert.ReferenceIdeal.Hand

end
-- ==== Proof.RBlocks.lean ====
/-
  The reference program's host operations, cut into blocks by what they compute: everything through the gathered keys (157
  operations); the nearest-neighbour loss (26); the two generator networks that make the independence samples (116); their
  column statistics, the correlation sum and the residual Gram array (65); its diagonal (9); the weighted triple sum (46); the
  last four additions.
-/
import proofs.«130977_j54631984005498_2_alg».proof.Proof.RefOpsList0
import proofs.«130977_j54631984005498_2_alg».proof.Proof.RefOpsList1
import proofs.«130977_j54631984005498_2_alg».proof.Proof.RefOpsList2
import proofs.«130977_j54631984005498_2_alg».proof.Proof.RefOpsList3
import proofs.«130977_j54631984005498_2_alg».proof.Proof.RefOpsList4
import proofs.«130977_j54631984005498_2_alg».proof.Proof.RefOpsList5
import proofs.«130977_j54631984005498_2_alg».proof.Proof.LibAfterCut

set_option maxRecDepth 16384

noncomputable section

namespace Cert.ReferenceIdeal.Blocks

open Cert.ReferenceIdeal Cert.ReferenceIdeal.Gen Idealize.ShloMosaic Idealize.ShloMosaic.TcCoe Idealize.ShloMosaic.StableHlo

variable {F : FTy → Type} [FloatOps F]

/-- The operations, as one list. -/
abbrev L : List (HloOp τ sig (Elt F)) := Cert.ReferenceIdeal.Hand.ops0 ++ Cert.ReferenceIdeal.Hand.ops1 ++ Cert.ReferenceIdeal.Hand.ops2 ++ Cert.ReferenceIdeal.Hand.ops3 ++ Cert.ReferenceIdeal.Hand.ops4 ++ Cert.ReferenceIdeal.Hand.ops5

abbrev rB0 : List (HloOp τ sig (Elt F)) := (L (F := F)).take 157
abbrev rB1 : List (HloOp τ sig (Elt F)) := ((L (F := F)).drop 157).take 26
abbrev rB2 : List (HloOp τ sig (Elt F)) := ((L (F := F)).drop 183).take 116
abbrev rB3 : List (HloOp τ sig (Elt F)) := ((L (F := F)).drop 299).take 65
abbrev rB4 : List (HloOp τ sig (Elt F)) := ((L (F := F)).drop 364).take 9
abbrev rB5 : List (HloOp τ sig (Elt F)) := ((L (F := F)).drop 373).take 46
abbrev rB6 : List (HloOp τ sig (Elt F)) := (L (F := F)).drop 419

/-- The fold over the whole list is the folds over the blocks, one after the other. -/
theorem after_blocks (V : Valuation τ sig (Elt F)) :
    after (L (F := F)) V = after (rB6 (F := F)) (after (rB5 (F := F)) (after (rB4 (F := F)) (after (rB3 (F := F)) (after (rB2 (F := F)) (after (rB1 (F := F)) (after (rB0 (F := F)) (V))))))) := by
  rw [AfterCut.after_take_drop (L (F := F)) 157 V]
  rw [AfterCut.after_take_drop ((L (F := F)).drop 157) 26 _, List.drop_drop]
  rw [AfterCut.after_take_drop ((L (F := F)).drop 183) 116 _, List.drop_drop]
  rw [AfterCut.after_take_drop ((L (F := F)).drop 299) 65 _, List.drop_drop]
  rw [AfterCut.after_take_drop ((L (F := F)).drop 364) 9 _, List.drop_drop]
  rw [AfterCut.after_take_drop ((L (F := F)).drop 373) 46 _, List.drop_drop]

end Cert.ReferenceIdeal.Blocks

end
-- ==== Proof.RKeeps.lean ====
/-
  The reference program's blocks keep the live values: a block writes none of the buffers made before it, and no
  operation writes an argument array. The program is in single-assignment form with its values numbered in the order
  they are made: operation number i of the whole list writes exactly the buffer of index 16 + i (the sixteen arguments
  are the buffers 0 … 15). So the block that starts at position a writes only buffers of index at least 16 + a, while
  each value it must keep was made earlier and has a smaller index.
-/
import proofs.«130977_j54631984005498_2_alg».proof.Proof.RBlocks
import proofs.«130977_j54631984005498_2_alg».proof.Proof.RefOps0
import proofs.«130977_j54631984005498_2_alg».proof.Proof.LibWriteOrder

set_option maxRecDepth 16384

noncomputable section

namespace Cert.ReferenceIdeal.Blocks

open Cert.ReferenceIdeal Cert.ReferenceIdeal.Gen Idealize.ShloMosaic Idealize.ShloMosaic.TcCoe Idealize.ShloMosaic.StableHlo
open Cert.ReferenceIdeal.Hand (argRef ops0 ops1 ops2 ops3 ops4 ops5)
open WriteOrder

variable {F : FTy → Type} [FloatOps F]

/-- One operation's fact: what it writes is its result buffer by computation, and that buffer's index is a literal. -/
local macro "wr" : term => `(⟨_, rfl, by decide⟩)

/-- Window 0's operations write the buffers 16, 17, … in order. -/
theorem ops0_writesFrom : WritesFrom 16 (ops0 : List (HloOp τ sig (Elt F))) :=
  ⟨wr, wr, wr, wr, wr, wr, wr, wr, wr, wr, wr, wr, wr, wr, wr, wr, wr, wr, wr, wr,
    wr, wr, wr, wr, wr, wr, wr, wr, wr, wr, wr, wr, wr, wr, wr, wr, wr, wr, wr, wr,
    wr, wr, wr, wr, wr, wr, wr, wr, wr, wr, wr, wr, wr, wr, wr, wr, wr, wr, wr, wr,
    wr, wr, wr, wr, wr, wr, wr, wr, wr, wr, wr, wr, wr, wr, wr, wr, wr, wr, wr, wr,
    wr, trivial⟩

theorem ops0_length : (ops0 : List (HloOp τ sig (Elt F))).length = 81 := rfl

/-- Window 1's operations write the buffers 97, 98, … in order. -/
theorem ops1_writesFrom : WritesFrom 97 (ops1 : List (HloOp τ sig (Elt F))) :=
  ⟨wr, wr, wr, wr, wr, wr, wr, wr, wr, wr, wr, wr, wr, wr, wr, wr, wr, wr, wr, wr,
    wr, wr, wr, wr, wr, wr, wr, wr, wr, wr, wr, wr, wr, wr, wr, wr, wr, wr, wr, wr,
    wr, wr, wr, wr, wr, wr, wr, wr, wr, wr, wr, wr, wr, wr, wr, wr, wr, wr, wr, wr,
    wr, wr, wr, wr, wr, wr, wr, wr, wr, wr, wr, wr, wr, wr, wr, wr, wr, wr, wr, wr,
    wr, trivial⟩

theorem ops1_length : (ops1 : List (HloOp τ sig (Elt F))).length = 81 := rfl

/-- Window 2's operations write the buffers 178, 179, … in order. -/
theorem ops2_writesFrom : WritesFrom 178 (ops2 : List (HloOp τ sig (Elt F))) :=
  ⟨wr, wr, wr, wr, wr, wr, wr, wr, wr, wr, wr, wr, wr, wr, wr, wr, wr, wr, wr, wr,
    wr, wr, wr, wr, wr, wr, wr, wr, wr, wr, wr, wr, wr, wr, wr, wr, wr, wr, wr, wr,
    wr, wr, wr, wr, wr, wr, wr, wr, wr, wr, wr, wr, wr, wr, wr, wr, wr, wr, wr, wr,
    wr, wr, wr, wr, wr, wr, wr, wr, wr, wr, wr, wr, wr, wr, wr, wr, wr, wr, wr, wr,
    wr, trivial⟩

theorem ops2_length : (ops2 : List (HloOp τ sig (Elt F))).length = 81 := rfl

/-- Window 3's operations write the buffers 259, 260, … in order. -/
theorem ops3_writesFrom : WritesFrom 259 (ops3 : List (HloOp τ sig (Elt F))) :=
  ⟨wr, wr, wr, wr, wr, wr, wr, wr, wr, wr, wr, wr, wr, wr, wr, wr, wr, wr, wr, wr,
    wr, wr, wr, wr, wr, wr, wr, wr, wr, wr, wr, wr, wr, wr, wr, wr, wr, wr, wr, wr,
    wr, wr, wr, wr, wr, wr, wr, wr, wr, wr, wr, wr, wr, wr, wr, wr, wr, wr, wr, wr,
    wr, wr, wr, wr, wr, wr, wr, wr, wr, wr, wr, wr, wr, wr, wr, wr, wr, wr, wr, wr,
    wr, trivial⟩

theorem ops3_length : (ops3 : List (HloOp τ sig (Elt F))).length = 81 := rfl

/-- Window 4's operations write the buffers 340, 341, … in order. -/
theorem ops4_writesFrom : WritesFrom 340 (ops4 : List (HloOp τ sig (Elt F))) :=
  ⟨wr, wr, wr, wr, wr, wr, wr, wr, wr, wr, wr, wr, wr, wr, wr, wr, wr, wr, wr, wr,
    wr, wr, wr, wr, wr, wr, wr, wr, wr, wr, wr, wr, wr, wr, wr, wr, wr, wr, wr, wr,
    wr, wr, wr, wr, wr, wr, wr, wr, wr, wr, wr, wr, wr, wr, wr, wr, wr, wr, wr, wr,
    trivial⟩

theorem ops4_length : (ops4 : List (HloOp τ sig (Elt F))).length = 60 := rfl

/-- Window 5's operations write the buffers 400, 401, … in order. -/
theorem ops5_writesFrom : WritesFrom 400 (ops5 : List (HloOp τ sig (Elt F))) :=
  ⟨wr, wr, wr, wr, wr, wr, wr, wr, wr, wr, wr, wr, wr, wr, wr, wr, wr, wr, wr, wr,
    wr, wr, wr, wr, wr, wr, wr, wr, wr, wr, wr, wr, wr, wr, wr, wr, wr, wr, wr, trivial⟩

theorem ops5_length : (ops5 : List (HloOp τ sig (Elt F))).length = 39 := rfl

/-- The whole list writes the buffers 16, 17, … in order. -/
theorem L_writesFrom : WritesFrom 16 (L : List (HloOp τ sig (Elt F))) :=
  ((((ops0_writesFrom.append' ops0_length ops1_writesFrom).append'
        (by rw [List.length_append, ops0_length, ops1_length]) ops2_writesFrom).append'
      (by rw [List.length_append, List.length_append, ops0_length, ops1_length, ops2_length]) ops3_writesFrom).append'
    (by rw [List.length_append, List.length_append, List.length_append, ops0_length, ops1_length, ops2_length, ops3_length])
    ops4_writesFrom).append'
  (by rw [List.length_append, List.length_append, List.length_append, List.length_append, ops0_length, ops1_length,
    ops2_length, ops3_length, ops4_length])
  ops5_writesFrom

theorem rB1_keeps : ∀ op ∈ (rB1 : List (HloOp τ sig (Elt F))), ∀ b ∈ ([main_v16, main_v20, main_v55] : List (Ref sig .tc)),
    Proc.devRef (τ := τ) .tc b ∉ op.writes :=
  keeps_of_writesFrom L_writesFrom 157 26 (by decide)

theorem rB2_keeps : ∀ op ∈ (rB2 : List (HloOp τ sig (Elt F))), ∀ b ∈ ([main_v16, main_v20, main_v55, main_v112] : List (Ref sig .tc)),
    Proc.devRef (τ := τ) .tc b ∉ op.writes :=
  keeps_of_writesFrom L_writesFrom 183 116 (by decide)

theorem rB3_keeps : ∀ op ∈ (rB3 : List (HloOp τ sig (Elt F))), ∀ b ∈ ([main_v16, main_v20, main_v55, main_v112] : List (Ref sig .tc)),
    Proc.devRef (τ := τ) .tc b ∉ op.writes :=
  keeps_of_writesFrom L_writesFrom 299 65 (by decide)

theorem rB4_keeps : ∀ op ∈ (rB4 : List (HloOp τ sig (Elt F))),
    ∀ b ∈ ([main_v16, main_v20, main_v55, main_v112, main_v202, main_v230] : List (Ref sig .tc)),
    Proc.devRef (τ := τ) .tc b ∉ op.writes :=
  keeps_of_writesFrom L_writesFrom 364 9 (by decide)

theorem rB5_keeps : ∀ op ∈ (rB5 : List (HloOp τ sig (Elt F))), ∀ b ∈ ([main_v20, main_v55, main_v112, main_v202] : List (Ref sig .tc)),
    Proc.devRef (τ := τ) .tc b ∉ op.writes :=
  keeps_of_writesFrom L_writesFrom 373 46 (by decide)

/-- No operation writes an argument array: every written buffer has index at least 16. -/
theorem blocks_keep_args : ∀ op ∈ (L : List (HloOp τ sig (Elt F))), ∀ k : Fin 16,
    Proc.devRef (τ := τ) .tc (argRef k) ∉ op.writes := by
  intro op hop k hmem
  obtain ⟨y, hw, hy⟩ := (L_writesFrom (F := F)).ge op hop
  rw [hw, Finset.mem_singleton] at hmem
  exact Hand.argRef_ne k hy (Proc.devRef_injective _ hmem)

end Cert.ReferenceIdeal.Blocks

end
-- ==== Proof.RChain.lean ====
/-
  The reference program's host operations, block by block, at the ideal instance: the contents after each block, the
  end contents as their composition, and each live value carried from the block that produces it to the block that
  consumes it (no operation in between writes its buffer): the connectivity matrix, the transitivity loss and the
  reconstruction loss from the first block; the nearest-neighbour loss; the correlation sum; the residual Gram array.
  The argument arrays are carried through everything.
-/
import proofs.«130977_j54631984005498_2_alg».proof.Proof.RValue
import proofs.«130977_j54631984005498_2_alg».proof.Proof.RBlocks
import proofs.«130977_j54631984005498_2_alg».proof.Proof.RKeeps
import Idealize.ShloMosaic.PureOps.Ideal

set_option maxRecDepth 16384

noncomputable section
namespace Cert.ReferenceIdeal.Chain

open Cert.ReferenceIdeal Cert.ReferenceIdeal.Gen Cert.ReferenceIdeal.Hand Cert.ReferenceIdeal.Blocks
open Idealize.ShloMosaic Idealize.ShloMosaic.TcCoe Idealize.ShloMosaic.StableHlo

variable (m : (ℓ : Loc nD τ sig) → Buf (Elt Ideal) ℓ) (c : Dev nD)

/-- The contents after each block, from the launch contents. -/
abbrev R0 : Valuation τ sig (Elt Ideal) := after (rB0 (F := Ideal)) (launchContents m c)
abbrev R1 : Valuation τ sig (Elt Ideal) := after (rB1 (F := Ideal)) (R0 m c)
abbrev R2 : Valuation τ sig (Elt Ideal) := after (rB2 (F := Ideal)) (R1 m c)
abbrev R3 : Valuation τ sig (Elt Ideal) := after (rB3 (F := Ideal)) (R2 m c)
abbrev R4 : Valuation τ sig (Elt Ideal) := after (rB4 (F := Ideal)) (R3 m c)
abbrev R5 : Valuation τ sig (Elt Ideal) := after (rB5 (F := Ideal)) (R4 m c)
abbrev R6 : Valuation τ sig (Elt Ideal) := after (rB6 (F := Ideal)) (R5 m c)

/-- The end contents are the blocks' composition. -/
theorem WT_eq : WT (F := Ideal) m c = R6 m c := after_blocks (launchContents m c)

/-- A block that writes none of the listed buffers leaves each of them as it found it. -/
theorem keep (l : List (HloOp τ sig (Elt Ideal))) (V : Valuation τ sig (Elt Ideal)) (bs : List (Ref sig .tc))
    (h : ∀ op ∈ l, ∀ b ∈ bs, Proc.devRef (τ := τ) .tc b ∉ op.writes) (b : Ref sig .tc) (hb : b ∈ bs) :
    after l V (Proc.devRef .tc b) = V (Proc.devRef .tc b) :=
  AfterCut.after_congr_of_not_written l V fun op hop => h op hop b hb

/-- The connectivity matrix at the block that consumes it (the weighted triple sum). -/
theorem R4_v16 : R4 m c (Proc.devRef .tc main_v16) = R0 m c (Proc.devRef .tc main_v16) :=
  (keep _ _ _ rB4_keeps main_v16 (by simp)).trans ((keep _ _ _ rB3_keeps main_v16 (by simp)).trans
    ((keep _ _ _ rB2_keeps main_v16 (by simp)).trans (keep _ _ _ rB1_keeps main_v16 (by simp))))
/-- The transitivity loss and the reconstruction loss at the last additions. -/
theorem R5_v20 : R5 m c (Proc.devRef .tc main_v20) = R0 m c (Proc.devRef .tc main_v20) :=
  (keep _ _ _ rB5_keeps main_v20 (by simp)).trans ((keep _ _ _ rB4_keeps main_v20 (by simp)).trans ((keep _ _ _ rB3_keeps main_v20 (by simp)).trans
    ((keep _ _ _ rB2_keeps main_v20 (by simp)).trans (keep _ _ _ rB1_keeps main_v20 (by simp)))))
theorem R5_v55 : R5 m c (Proc.devRef .tc main_v55) = R0 m c (Proc.devRef .tc main_v55) :=
  (keep _ _ _ rB5_keeps main_v55 (by simp)).trans ((keep _ _ _ rB4_keeps main_v55 (by simp)).trans ((keep _ _ _ rB3_keeps main_v55 (by simp)).trans
    ((keep _ _ _ rB2_keeps main_v55 (by simp)).trans (keep _ _ _ rB1_keeps main_v55 (by simp)))))
/-- The nearest-neighbour loss at the last additions. -/
theorem R5_v112 : R5 m c (Proc.devRef .tc main_v112) = R1 m c (Proc.devRef .tc main_v112) :=
  (keep _ _ _ rB5_keeps main_v112 (by simp)).trans ((keep _ _ _ rB4_keeps main_v112 (by simp)).trans
    ((keep _ _ _ rB3_keeps main_v112 (by simp)).trans (keep _ _ _ rB2_keeps main_v112 (by simp))))
/-- The correlation sum at the last additions. -/
theorem R5_v202 : R5 m c (Proc.devRef .tc main_v202) = R3 m c (Proc.devRef .tc main_v202) :=
  (keep _ _ _ rB5_keeps main_v202 (by simp)).trans (keep _ _ _ rB4_keeps main_v202 (by simp))
/-- The residual Gram array at the block after its diagonal is taken. -/
theorem R4_v230 : R4 m c (Proc.devRef .tc main_v230) = R3 m c (Proc.devRef .tc main_v230) :=
  keep _ _ _ rB4_keeps main_v230 (by simp)

/-- An argument array is found by every block at what the block started from. -/
theorem blocks_arg (l : List (HloOp τ sig (Elt Ideal))) (hl : ∀ op ∈ l, op ∈ (L (F := Ideal))) (V : Valuation τ sig (Elt Ideal)) (k : Fin 16) :
    after l V (Proc.devRef .tc (argRef k)) = V (Proc.devRef .tc (argRef k)) :=
  AfterCut.after_congr_of_not_written l V fun op hop => blocks_keep_args op (hl op hop) k

/-- After each block an argument array holds its launch contents. -/
theorem R0_arg (k : Fin 16) : R0 m c (Proc.devRef .tc (argRef k)) = launchContents m c (Proc.devRef .tc (argRef k)) :=
  blocks_arg (rB0 (F := Ideal)) (fun op h => List.mem_of_mem_take h) _ k
theorem R1_arg (k : Fin 16) : R1 m c (Proc.devRef .tc (argRef k)) = launchContents m c (Proc.devRef .tc (argRef k)) :=
  (blocks_arg (rB1 (F := Ideal)) (fun op h => List.mem_of_mem_drop (List.mem_of_mem_take h)) _ k).trans (R0_arg m c k)
theorem R2_arg (k : Fin 16) : R2 m c (Proc.devRef .tc (argRef k)) = launchContents m c (Proc.devRef .tc (argRef k)) :=
  (blocks_arg (rB2 (F := Ideal)) (fun op h => List.mem_of_mem_drop (List.mem_of_mem_take h)) _ k).trans (R1_arg m c k)
theorem R3_arg (k : Fin 16) : R3 m c (Proc.devRef .tc (argRef k)) = launchContents m c (Proc.devRef .tc (argRef k)) :=
  (blocks_arg (rB3 (F := Ideal)) (fun op h => List.mem_of_mem_drop (List.mem_of_mem_take h)) _ k).trans (R2_arg m c k)
theorem R4_arg (k : Fin 16) : R4 m c (Proc.devRef .tc (argRef k)) = launchContents m c (Proc.devRef .tc (argRef k)) :=
  (blocks_arg (rB4 (F := Ideal)) (fun op h => List.mem_of_mem_drop (List.mem_of_mem_take h)) _ k).trans (R3_arg m c k)
theorem R5_arg (k : Fin 16) : R5 m c (Proc.devRef .tc (argRef k)) = launchContents m c (Proc.devRef .tc (argRef k)) :=
  (blocks_arg (rB5 (F := Ideal)) (fun op h => List.mem_of_mem_drop (List.mem_of_mem_take h)) _ k).trans (R4_arg m c k)

/-- The same values where the comparison of the remaining blocks starts (after the generator block). -/
theorem R2_v16 : R2 m c (Proc.devRef .tc main_v16) = R0 m c (Proc.devRef .tc main_v16) :=
  (keep _ _ _ rB2_keeps main_v16 (by simp)).trans (keep _ _ _ rB1_keeps main_v16 (by simp))
theorem R2_v20 : R2 m c (Proc.devRef .tc main_v20) = R0 m c (Proc.devRef .tc main_v20) :=
  (keep _ _ _ rB2_keeps main_v20 (by simp)).trans (keep _ _ _ rB1_keeps main_v20 (by simp))
theorem R2_v55 : R2 m c (Proc.devRef .tc main_v55) = R0 m c (Proc.devRef .tc main_v55) :=
  (keep _ _ _ rB2_keeps main_v55 (by simp)).trans (keep _ _ _ rB1_keeps main_v55 (by simp))
theorem R2_v112 : R2 m c (Proc.devRef .tc main_v112) = R1 m c (Proc.devRef .tc main_v112) :=
  keep _ _ _ rB2_keeps main_v112 (by simp)

end Cert.ReferenceIdeal.Chain

end
-- ==== Proof.LibMinShift.lean ====
/-
  Minima of shifted values on the extended reals, and a mean nearest-neighbour squared distance
  computed in two orders.

  For real data — squared norms q i of the queries, squared norms c j of the keys, inner products
  d i j — the squared distance from query i to key j is q i + c j - 2 d i j. Its minimum over the keys
  can be taken before the query's norm is added (the norm does not depend on j, and adding a constant
  or dividing by a positive constant is monotone, so both commute with a minimum over a nonempty finite
  set), and the two divisions of the mean, by the number of queries M and by the dimension D, may be
  applied in either order, inside or outside the sum. All values stay finite, so the computation on the
  extended reals is the coercion of the one on the reals: a minimum over a nonempty finite family of
  coerced reals is the coerced real minimum (inf_coe), a finite sum of coerced reals is the coerced
  real sum (coe_sum), and the quotient by a nonzero real is the coerced real quotient (div_coe_coe).
  That is K_eq_R.

  Then the shape of a minimum: the minimum of a family indexed by T * L positions is the minimum over
  the T tiles of the minimum inside each tile of length L (inf_tiles, by j = (j / L) * L + j % L); a
  running minimum that starts at +∞ and takes one more entry at each step ends at the minimum of all of
  them (runMin_eq_inf); and a fold of min from a start value b, over a finite set or down a list, is
  min b (the infimum of the folded values) — at b = +∞ the infimum itself (fold_eq_min_inf,
  fold_top_eq_inf, foldl_eq_min_inf, foldl_ofFn_eq_inf).
-/
import Mathlib.Data.EReal.Operations
import Mathlib.Data.EReal.Inv
import Mathlib.Data.Finset.Fold
import Mathlib.Data.Finset.Lattice.Fold
import Mathlib.Data.Fintype.Basic
import Mathlib.Data.List.FinRange
import Mathlib.Algebra.BigOperators.Field
import Mathlib.Order.MinMax
import Idealize.ShloMosaic.PureOps.Ideal

noncomputable section

namespace MinShift

open Idealize.ShloMosaic
open scoped BigOperators

/-! ## Coercion of the reals into the extended reals: minima, sums, quotients -/

/-- The literal two of the extended reals is the real two. -/
theorem two_eq_coe : (2 : EReal) = ((2 : ℝ) : EReal) := rfl

/-- The embedding of the reals preserves a binary minimum (it is monotone). -/
theorem coe_min (x y : ℝ) : ((min x y : ℝ) : EReal) = min (x : EReal) (y : EReal) :=
  EReal.coe_strictMono.monotone.map_min

/-- (i), over any nonempty finite set: the infimum (from +∞) of coerced reals is the coerced minimum. -/
theorem inf_coe_finset {ι : Type*} (s : Finset ι) (hs : s.Nonempty) (g : ι → ℝ) :
    s.inf (fun j => (g j : EReal)) = ((s.inf' hs g : ℝ) : EReal) := by
  rw [← Finset.inf'_eq_inf hs]
  exact (Finset.apply_inf'_eq_inf'_comp hs (fun x : ℝ => (x : EReal)) coe_min).symm

/-- Fin B has an element when 0 < B. -/
theorem univ_nonempty_fin {B : ℕ} (hB : 0 < B) : (Finset.univ : Finset (Fin B)).Nonempty :=
  ⟨⟨0, hB⟩, Finset.mem_univ _⟩

/-- (i): over Fin B with 0 < B, the infimum of coerced reals is the coerced minimum. -/
theorem inf_coe {B : ℕ} (hB : 0 < B) (g : Fin B → ℝ) :
    (Finset.univ : Finset (Fin B)).inf (fun j => (g j : EReal))
      = ((Finset.univ.inf' (univ_nonempty_fin hB) g : ℝ) : EReal) :=
  inf_coe_finset _ _ g

/-- (ii), general form: the map x ↦ (a + x) / D is monotone for 0 < D, so it commutes with a finite minimum. -/
theorem inf'_add_div {ι : Type*} (s : Finset ι) (hs : s.Nonempty) (a D : ℝ) (hD : 0 < D) (y : ι → ℝ) :
    s.inf' hs (fun j => (a + y j) / D) = (a + s.inf' hs y) / D := by
  have hm : Monotone fun x : ℝ => (a + x) / D := fun u v h => by
    show (a + u) / D ≤ (a + v) / D
    gcongr
  exact (Finset.apply_inf'_eq_inf'_comp hs (fun x : ℝ => (a + x) / D) fun u v => hm.map_min).symm

/-- (ii): the minimum over the keys of the scaled squared distances is the scaled sum of the query's
    norm and the minimum of the part that depends on the key. -/
theorem inf'_shift_div {B : ℕ} (hB : 0 < B) (a D : ℝ) (hD : 0 < D) (c e : Fin B → ℝ) :
    Finset.univ.inf' (univ_nonempty_fin hB) (fun j => (a + c j - 2 * e j) / D)
      = (a + Finset.univ.inf' (univ_nonempty_fin hB) (fun j => c j - 2 * e j)) / D := by
  have h : (fun j => (a + c j - 2 * e j) / D) = fun j => (a + (c j - 2 * e j)) / D := by
    funext j; rw [add_sub_assoc]
  rw [h, inf'_add_div _ _ a D hD]

/-- (iii): a finite sum of coerced reals is the coerced real sum. -/
theorem coe_sum {ι : Type*} (s : Finset ι) (f : ι → ℝ) :
    ∑ i ∈ s, (f i : EReal) = ((∑ i ∈ s, f i : ℝ) : EReal) := by
  induction s using Finset.cons_induction with
  | empty => rw [Finset.sum_empty, Finset.sum_empty, EReal.coe_zero]
  | cons a s ha ih => rw [Finset.sum_cons, Finset.sum_cons, ih, EReal.coe_add]

/-- (iv): over the reals the two divisions of a mean may be applied in either order, one of them inside the sum. -/
theorem sum_div_div {ι : Type*} (s : Finset ι) (y : ι → ℝ) (D M : ℝ) :
    (∑ i ∈ s, y i / D) / M = ((∑ i ∈ s, y i) / M) / D := by
  rw [← Finset.sum_div, div_div, div_div, mul_comm]

/-- The instance's quotient of two reals, the divisor not zero, is the coerced real quotient. -/
theorem div_coe_coe (x : ℝ) {y : ℝ} (hy : y ≠ 0) :
    Ideal.div (x : EReal) (y : EReal) = ((x / y : ℝ) : EReal) := by
  rw [Ideal.div, if_neg (by exact_mod_cast hy), ← EReal.coe_inv, ← EReal.coe_mul, div_eq_mul_inv]

/-! ## Theorem 1: the two orders of the mean nearest-neighbour squared distance -/

/-- The minimum over the keys first, the query's norm added afterwards, then the division by M and by D;
    against everything inside the minimum, divided by D there, the sum divided by M. On real data they agree. -/
theorem K_eq_R {A B : ℕ} (hB : 0 < B) (q : Fin A → ℝ) (c : Fin B → ℝ) (d : Fin A → Fin B → ℝ)
    {M D : ℝ} (hM : 0 < M) (hD : 0 < D) :
    Ideal.div (Ideal.div (∑ i, ((Finset.univ.inf fun j => ((c j : EReal) - 2 * (d i j : EReal))) + (q i : EReal)))
        (M : EReal)) (D : EReal)
      = Ideal.div (∑ i, Finset.univ.inf fun j =>
          Ideal.div (((q i : EReal) + (c j : EReal)) - 2 * (d i j : EReal)) (D : EReal)) (M : EReal) := by
  have hL : ∀ i, (Finset.univ.inf fun j => ((c j : EReal) - 2 * (d i j : EReal))) + (q i : EReal)
      = ((q i + Finset.univ.inf' (univ_nonempty_fin hB) (fun j => c j - 2 * d i j) : ℝ) : EReal) := by
    intro i
    have h : (fun j => ((c j : EReal) - 2 * (d i j : EReal))) = fun j => ((c j - 2 * d i j : ℝ) : EReal) := by
      funext j; rw [EReal.coe_sub, EReal.coe_mul, two_eq_coe]
    rw [h, inf_coe hB, ← EReal.coe_add, add_comm]
  have hR : ∀ i, (Finset.univ.inf fun j => Ideal.div (((q i : EReal) + (c j : EReal)) - 2 * (d i j : EReal)) (D : EReal))
      = (((q i + Finset.univ.inf' (univ_nonempty_fin hB) (fun j => c j - 2 * d i j)) / D : ℝ) : EReal) := by
    intro i
    have h : (fun j => Ideal.div (((q i : EReal) + (c j : EReal)) - 2 * (d i j : EReal)) (D : EReal))
        = fun j => (((q i + c j - 2 * d i j) / D : ℝ) : EReal) := by
      funext j; rw [← div_coe_coe _ hD.ne', EReal.coe_sub, EReal.coe_add, EReal.coe_mul, two_eq_coe]
    rw [h, inf_coe hB, inf'_shift_div hB _ _ hD]
  rw [Finset.sum_congr rfl fun i _ => hL i, Finset.sum_congr rfl fun i _ => hR i, coe_sum, coe_sum,
    div_coe_coe _ hM.ne', div_coe_coe _ hD.ne', div_coe_coe _ hM.ne', sum_div_div]

/-! ## Theorem 2: a minimum by tiles, and as a running minimum -/

/-- Position r of tile s, tiles of length L, lies among the T * L positions. -/
theorem tile_lt {T L : ℕ} (s : Fin T) (r : Fin L) : s.val * L + r.val < T * L :=
  calc s.val * L + r.val < s.val * L + L := Nat.add_lt_add_left r.isLt _
    _ = (s.val + 1) * L := (Nat.succ_mul _ _).symm
    _ ≤ T * L := Nat.mul_le_mul_right L s.isLt

/-- The minimum over all T * L positions is the minimum over the tiles of the minimum inside each tile. -/
theorem inf_tiles (T L : ℕ) (f : Fin (T * L) → EReal) :
    (Finset.univ : Finset (Fin T)).inf (fun s => (Finset.univ : Finset (Fin L)).inf fun r =>
        f ⟨s.val * L + r.val, tile_lt s r⟩)
      = Finset.univ.inf f := by
  apply le_antisymm
  · refine Finset.le_inf fun j _ => ?_
    have hL : 0 < L := Nat.pos_of_ne_zero (by rintro rfl; exact absurd j.isLt (by simp))
    have hs : j.val / L < T := Nat.div_lt_of_lt_mul (lt_of_lt_of_eq j.isLt (Nat.mul_comm T L))
    have hr : j.val % L < L := Nat.mod_lt _ hL
    have hj : (⟨(⟨j.val / L, hs⟩ : Fin T).val * L + (⟨j.val % L, hr⟩ : Fin L).val, tile_lt _ _⟩ : Fin (T * L)) = j :=
      Fin.ext (Nat.div_add_mod' j.val L)
    calc (Finset.univ : Finset (Fin T)).inf (fun s => (Finset.univ : Finset (Fin L)).inf fun r =>
            f ⟨s.val * L + r.val, tile_lt s r⟩)
        ≤ (Finset.univ : Finset (Fin L)).inf fun r => f ⟨(⟨j.val / L, hs⟩ : Fin T).val * L + r.val, tile_lt _ r⟩ :=
          Finset.inf_le (f := fun s : Fin T => (Finset.univ : Finset (Fin L)).inf fun r =>
            f ⟨s.val * L + r.val, tile_lt s r⟩) (Finset.mem_univ (⟨j.val / L, hs⟩ : Fin T))
      _ ≤ f ⟨(⟨j.val / L, hs⟩ : Fin T).val * L + (⟨j.val % L, hr⟩ : Fin L).val, tile_lt _ _⟩ :=
          Finset.inf_le (f := fun r : Fin L => f ⟨(⟨j.val / L, hs⟩ : Fin T).val * L + r.val, tile_lt _ r⟩)
            (Finset.mem_univ (⟨j.val % L, hr⟩ : Fin L))
      _ = f j := by rw [hj]
  · exact Finset.le_inf fun s _ => Finset.le_inf fun r _ => Finset.inf_le (Finset.mem_univ _)

/-- The running minimum of the first k entries of f, from +∞; past the range an entry counts as +∞. -/
def runMin {T : ℕ} (f : Fin T → EReal) : ℕ → EReal
  | 0 => ⊤
  | k + 1 => min (runMin f k) (if h : k < T then f ⟨k, h⟩ else ⊤)

@[simp] theorem runMin_zero {T : ℕ} (f : Fin T → EReal) : runMin f 0 = ⊤ := rfl

theorem runMin_succ {T : ℕ} (f : Fin T → EReal) {k : ℕ} (h : k < T) :
    runMin f (k + 1) = min (runMin f k) (f ⟨k, h⟩) := by
  rw [runMin, dif_pos h]

/-- +∞ is neutral for min: the first step of a running minimum returns the entry. -/
theorem top_min (x : EReal) : min ⊤ x = x := top_inf_eq x

/-- What lies below the running minimum after k steps is what lies below each of the first k entries. -/
theorem le_runMin_iff {T : ℕ} (f : Fin T → EReal) (x : EReal) :
    ∀ k, k ≤ T → (x ≤ runMin f k ↔ ∀ i : Fin T, i.val < k → x ≤ f i)
  | 0, _ => by
    rw [runMin_zero]
    exact ⟨fun _ i hi => absurd hi (Nat.not_lt_zero _), fun _ => le_top⟩
  | k + 1, hk => by
    have h : k < T := hk
    rw [runMin_succ f h, le_min_iff, le_runMin_iff f x k h.le]
    constructor
    · rintro ⟨h1, h2⟩ i hi
      rcases Nat.lt_succ_iff_lt_or_eq.mp hi with hlt | heq
      · exact h1 i hlt
      · have hi' : i = ⟨k, h⟩ := Fin.ext heq
        rw [hi']; exact h2
    · intro H
      exact ⟨fun i hi => H i (Nat.lt_succ_of_lt hi), H ⟨k, h⟩ (Nat.lt_succ_self k)⟩

/-- After all T steps the running minimum is the minimum of the family. -/
theorem runMin_eq_inf {T : ℕ} (f : Fin T → EReal) : runMin f T = Finset.univ.inf f :=
  eq_of_forall_le_iff fun x => by
    rw [le_runMin_iff f x T le_rfl, Finset.le_inf_iff]
    exact ⟨fun H i _ => H i i.isLt, fun H i _ => H i (Finset.mem_univ i)⟩

/-! ## Theorem 3: a fold of min is an infimum -/

/-- A fold over a finite set of an operation that is min, from a start value b: min b of the infimum. -/
theorem fold_eq_min_inf {ι : Type*} (op : EReal → EReal → EReal) [Std.Commutative op] [Std.Associative op]
    (hop : ∀ a b, op a b = min a b) (b : EReal) (g : ι → EReal) (s : Finset ι) :
    s.fold op b g = min b (s.inf g) := by
  induction s using Finset.cons_induction with
  | empty => rw [Finset.fold_empty, Finset.inf_empty, inf_top_eq]
  | cons a s ha ih => rw [Finset.fold_cons, Finset.inf_cons, ih, hop, min_left_comm]

/-- From +∞ the fold is the infimum itself. -/
theorem fold_top_eq_inf {ι : Type*} (op : EReal → EReal → EReal) [Std.Commutative op] [Std.Associative op]
    (hop : ∀ a b, op a b = min a b) (g : ι → EReal) (s : Finset ι) :
    s.fold op ⊤ g = s.inf g := by
  rw [fold_eq_min_inf op hop, top_min]

/-- The same for min itself. -/
theorem fold_min_eq_inf {ι : Type*} (g : ι → EReal) (s : Finset ι) : s.fold min ⊤ g = s.inf g :=
  fold_top_eq_inf min (fun _ _ => rfl) g s

/-- The instance's minimum of two float values is min on the extended reals, so a fold of it over a finite set
    (what a minimum reduction along one axis is read as) is min of the start value and the infimum. -/
theorem fold_minimumf_eq_min_inf {φ : FTy} {ι : Type*}
    [Std.Commutative (FloatOps.minimumf (F := Ideal) (φ := φ))] [Std.Associative (FloatOps.minimumf (F := Ideal) (φ := φ))]
    (b : EReal) (g : ι → EReal) (s : Finset ι) :
    s.fold (FloatOps.minimumf (F := Ideal) (φ := φ)) b g = min b (s.inf g) :=
  fold_eq_min_inf (FloatOps.minimumf (F := Ideal) (φ := φ)) (fun _ _ => rfl) b g s

/-- From +∞ that fold is the infimum. -/
theorem fold_minimumf_top_eq_inf {φ : FTy} {ι : Type*}
    [Std.Commutative (FloatOps.minimumf (F := Ideal) (φ := φ))] [Std.Associative (FloatOps.minimumf (F := Ideal) (φ := φ))]
    (g : ι → EReal) (s : Finset ι) :
    s.fold (FloatOps.minimumf (F := Ideal) (φ := φ)) ⊤ g = s.inf g :=
  fold_top_eq_inf (FloatOps.minimumf (F := Ideal) (φ := φ)) (fun _ _ => rfl) g s

/-- The single-precision pattern of +∞ (a minimum reduction's start value) denotes the top of the extended reals. -/
theorem ofBits_f32_inf : Ideal.ofBits .f32 0x7F800000#32 = ⊤ := by simp [Ideal.ofBits, Ideal.ieee]

/-- A left fold down a list of an operation that is min, reading x at each entry, from a start value b. -/
theorem foldl_eq_min_inf {ι : Type*} [DecidableEq ι] (op : EReal → EReal → EReal) (hop : ∀ a b, op a b = min a b)
    (x : ι → EReal) : ∀ (l : List ι) (b : EReal), l.foldl (fun r i => op r (x i)) b = min b (l.toFinset.inf x)
  | [], b => by rw [List.foldl_nil, List.toFinset_nil, Finset.inf_empty, inf_top_eq]
  | a :: l, b => by
    rw [List.foldl_cons, foldl_eq_min_inf op hop x l, List.toFinset_cons, Finset.inf_insert, hop, min_assoc]

/-- A left fold of min from +∞ down the list of a family's values is the family's infimum. -/
theorem foldl_ofFn_eq_inf {n : ℕ} (g : Fin n → EReal) : (List.ofFn g).foldl min ⊤ = Finset.univ.inf g := by
  rw [List.ofFn_eq_map, List.foldl_map, foldl_eq_min_inf min (fun _ _ => rfl) g, List.toFinset_finRange, top_min]

end MinShift
-- ==== Proof.KPayload.lean ====
/-
  The arithmetic of one grid step of the kernel, read entry by entry over the extended reals.

  A step combines a tile of 512 queries (the rows of a 512 × 128 matrix Q), a tile of 2048 keys (the rows of a
  2048 × 128 matrix K), the keys' squared norms n (a row of 2048 numbers) and the running column p of 512 minima.
  It leaves the column whose entry at row r is
        min (p r) (inf over the 2048 keys c of  n c − 2 · ∑ k < 128, Q r k · K c k).
  At the ideal reading of floats every operation of the printed body is exact: narrowing a value to a shorter
  format changes nothing; the matrix product onto the zero accumulator is the plain sum of the products; the two
  literal words denote the numbers 2 and +∞; a reduction by minimum along the key axis that starts from +∞ is the
  infimum of the row; the reshapes and the broadcast of the norms' row only rename indices. The column the step
  writes first when a row tile begins is +∞ at every row.
-/
import proofs.«130977_j54631984005498_2_alg».proof.Proof.Gen.KernelIdeal.Skeleton
import proofs.«130977_j54631984005498_2_alg».proof.Proof.LibMinShift
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

/-! ## The two literal words -/

/-- The word 0x40000000 denotes the number two. -/
theorem ofBits_two_f32 : Ideal.ofBits .f32 0x40000000#32 = (2 : EReal) := by
  rw [MinShift.two_eq_coe]
  simp [Ideal.ofBits, Ideal.ieee, -EReal.coe_mul]; norm_num

/-- The word 0x7F800000 denotes +∞. -/
theorem ofBits_top_f32 : Ideal.ofBits .f32 0x7F800000#32 = (⊤ : EReal) := by
  simp [Ideal.ofBits, Ideal.ieee]

/-! ## A reduction by minimum along one axis is the infimum over that axis -/

/-- A float reduction by minimum over one axis, at the ideal values: the fold of min, from the accumulator's
    value, over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Row r of a 512 × 2048 tile with column c inserted on the reduced axis is the entry (r, c). -/
theorem lift_row (r : Fin 512) (cc : Fin 2048) :
    reduces_S512x2048_S512.lift (ix1 r) cc = ix2 r cc := by
  funext a
  match a with
  | ⟨0, _⟩ => rfl
  | ⟨1, _⟩ => rfl

/-- The minimum along the key axis of a 512 × 2048 tile, from +∞: at row r the infimum of the row. -/
theorem rowMin_at (T : FVec Ideal S512x2048 .f32) (hφ : FKind.Formats .f32)
    (hacc : (0x7F800000#32 : BitVec FTy.f32.bits) = FKind.minimumf.neutral .f32 hφ) (r : Fin 512) :
    multiReduction (F := Ideal) .minimumf [1] S512 T 0x7F800000#32 reduces_S512x2048_S512 hφ hacc (ix1 r)
      = (Finset.univ : Finset (Fin 2048)).inf fun cc => T (ix2 r cc) := by
  refine (multiReduction_minimumf_single T _ reduces_S512x2048_S512 hφ hacc (ix1 r)).trans ?_
  refine (congrArg (fun b : EReal => (Finset.univ : Finset (Fin 2048)).fold min b (T ∘ reduces_S512x2048_S512.lift (ix1 r)))
    ofBits_top_f32).trans ?_
  refine (MinShift.fold_min_eq_inf _ _).trans ?_
  exact congrArg (Finset.univ : Finset (Fin 2048)).inf (funext fun cc => congrArg T (lift_row r cc))

/-! ## A vector viewed as a column -/

/-- An array of a entries cast to a × 1 reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The matrix product of a query tile and a key tile, contracted along the 128 features -/

theorem lhs_mm_0 (i : S512x2048.Idx) (q : dot_S512x128_S2048x128_S512x2048_1_1_0_0_n_n.contr.Idx) :
    (dot_S512x128_S2048x128_S512x2048_1_1_0_0_n_n.lhsIdx i q 0).val = (i 0).val := by
  unfold DotDims.lhsIdx
  rw [dif_neg (show ¬(0 : Fin S512x128.rank) ∈ dot_S512x128_S2048x128_S512x2048_1_1_0_0_n_n.lhsBatch by decide), dif_pos (show (0 : Fin S512x128.rank) ∈ dot_S512x128_S2048x128_S512x2048_1_1_0_0_n_n.lhsNonContracting by decide)]
  rfl
theorem lhs_mm_1 (i : S512x2048.Idx) (q : dot_S512x128_S2048x128_S512x2048_1_1_0_0_n_n.contr.Idx) :
    (dot_S512x128_S2048x128_S512x2048_1_1_0_0_n_n.lhsIdx i q 1).val = (q ⟨0, by decide⟩).val :=
  dot_S512x128_S2048x128_S512x2048_1_1_0_0_n_n.lhsIdx_val_of_single rfl i q
theorem rhs_mm_0 (i : S512x2048.Idx) (q : dot_S512x128_S2048x128_S512x2048_1_1_0_0_n_n.contr.Idx) :
    (dot_S512x128_S2048x128_S512x2048_1_1_0_0_n_n.rhsIdx i q 0).val = (i 1).val := by
  unfold DotDims.rhsIdx
  rw [dif_neg (show ¬(0 : Fin S2048x128.rank) ∈ dot_S512x128_S2048x128_S512x2048_1_1_0_0_n_n.rhsBatch by decide), dif_pos (show (0 : Fin S2048x128.rank) ∈ dot_S512x128_S2048x128_S512x2048_1_1_0_0_n_n.rhsNonContracting by decide)]
  rfl
theorem rhs_mm_1 (i : S512x2048.Idx) (q : dot_S512x128_S2048x128_S512x2048_1_1_0_0_n_n.contr.Idx) :
    (dot_S512x128_S2048x128_S512x2048_1_1_0_0_n_n.rhsIdx i q 1).val = (q ⟨0, by decide⟩).val :=
  dot_S512x128_S2048x128_S512x2048_1_1_0_0_n_n.rhsIdx_val_of_single rfl i q

/-- The product onto the zero accumulator at (r, c): the sum over the features of query r times key c. -/
theorem matmul_at (a : FVec Ideal S512x128 .bf16) (b : FVec Ideal S2048x128 .bf16) (r : Fin 512) (cc : Fin 2048) :
    FloatOps.matmul dot_S512x128_S2048x128_S512x2048_1_1_0_0_n_n none a b (constant (F := Ideal) S512x2048 .f32 0x00000000#32) (ix2 r cc)
      = ∑ k : Fin 128, a (ix2 r k) * b (ix2 cc k) := by
  rw [Ideal.matmul_constant_zero_apply, ← Equiv.sum_comp (ValueIdx.contrEquiv1 dot_S512x128_S2048x128_S512x2048_1_1_0_0_n_n 128 rfl rfl).symm]
  refine Finset.sum_congr rfl fun k _ => ?_
  have hk := ValueIdx.contrEquiv1_symm_val dot_S512x128_S2048x128_S512x2048_1_1_0_0_n_n 128 rfl rfl k
  have el : dot_S512x128_S2048x128_S512x2048_1_1_0_0_n_n.lhsIdx (ix2 r cc) ((ValueIdx.contrEquiv1 dot_S512x128_S2048x128_S512x2048_1_1_0_0_n_n 128 rfl rfl).symm k) = ix2 r k := funext fun a => Fin.ext (by
    match a with
    | ⟨0, _⟩ => exact lhs_mm_0 _ _
    | ⟨1, _⟩ => exact (lhs_mm_1 _ _).trans hk)
  have er : dot_S512x128_S2048x128_S512x2048_1_1_0_0_n_n.rhsIdx (ix2 r cc) ((ValueIdx.contrEquiv1 dot_S512x128_S2048x128_S512x2048_1_1_0_0_n_n 128 rfl rfl).symm k) = ix2 cc k := funext fun a => Fin.ext (by
    match a with
    | ⟨0, _⟩ => exact rhs_mm_0 _ _
    | ⟨1, _⟩ => exact (rhs_mm_1 _ _).trans hk)
  rw [el, er]

/-! ## The tile of shifted products, and the step's column -/

/-- The 512 × 2048 tile the body reduces: the keys' norms spread over the rows, less twice the product of the
    narrowed query tile and the narrowed key tile. -/
def scoreTile (x0 : Vec Ideal S512x128 .f32) (x1 : Vec Ideal S2048x128 .f32) (x2 : Vec Ideal S1x2048 .f32) :
    FVec Ideal S512x2048 .f32 :=
  subf (broadcastTo S512x2048 (shapeCast S1x2048 x2 shapeCasts_S1x2048_S1x2048) broadcasts_S1x2048_S512x2048)
    (mulf (broadcast S512x2048 (Scalar.ofBits (F := Ideal) .f32 0x40000000#32))
      (matmul dot_S512x128_S2048x128_S512x2048_1_1_0_0_n_n none
        (truncf .bf16 (shapeCast S512x128 x0 shapeCasts_S512x128_S512x128) bitsLt_bf16_f32)
        (truncf .bf16 (shapeCast S2048x128 x1 shapeCasts_S2048x128_S2048x128) bitsLt_bf16_f32)
        (constant S512x2048 .f32 0x00000000#32)))

/-- Its entry at (r, c): the norm of key c less twice the inner product of query r and key c. -/
theorem scoreTile_at (x0 : Vec Ideal S512x128 .f32) (x1 : Vec Ideal S2048x128 .f32) (x2 : Vec Ideal S1x2048 .f32)
    (r : Fin 512) (cc : Fin 2048) :
    scoreTile x0 x1 x2 (ix2 r cc)
      = x2 (ix2 (0 : Fin 1) cc) - (2 : EReal) * ∑ k : Fin 128, x0 (ix2 r k) * x1 (ix2 cc k) := by
  unfold scoreTile
  rw [shapeCast_self, shapeCast_self, shapeCast_self]
  show broadcastTo S512x2048 x2 broadcasts_S1x2048_S512x2048 (ix2 r cc)
      - Ideal.ofBits .f32 0x40000000#32
        * FloatOps.matmul dot_S512x128_S2048x128_S512x2048_1_1_0_0_n_n none (x0 : FVec Ideal S512x128 .bf16) (x1 : FVec Ideal S2048x128 .bf16)
            (constant (F := Ideal) S512x2048 .f32 0x00000000#32) (ix2 r cc) = _
  rw [broadcastTo_1b_ab_apply, matmul_at, ofBits_two_f32]

/-- The body's payload is the entrywise minimum of the running column and the column of the tile's row minima. -/
theorem pay2_eq (x0 : Vec Ideal S512x128 .f32) (x1 : Vec Ideal S2048x128 .f32) (x2 : Vec Ideal S1x2048 .f32)
    (prev : Vec Ideal S512x1 .f32) :
    k0_pay2 (F := Ideal) x0 x1 x2 prev
      = minimumf (shapeCast S512x1 prev shapeCasts_S512x1_S512x1)
          (shapeCast S512x1 (multiReduction (F := Ideal) .minimumf [1] S512 (scoreTile x0 x1 x2) 0x7F800000#32
            reduces_S512x2048_S512 (.inl rfl) rfl) shapeCasts_S512_S512x1) := rfl

/-- THE STEP AT A ROW: the running minimum at row r, lowered by the least shifted product against the tile's keys. -/
theorem pay2_at (x0 : Vec Ideal S512x128 .f32) (x1 : Vec Ideal S2048x128 .f32) (x2 : Vec Ideal S1x2048 .f32)
    (prev : Vec Ideal S512x1 .f32) (r : Fin 512) :
    k0_pay2 (F := Ideal) x0 x1 x2 prev (ix2 r (0 : Fin 1))
      = min (prev (ix2 r (0 : Fin 1)))
          ((Finset.univ : Finset (Fin 2048)).inf fun cc =>
            x2 (ix2 (0 : Fin 1) cc) - (2 : EReal) * ∑ k : Fin 128, x0 (ix2 r k) * x1 (ix2 cc k)) := by
  rw [pay2_eq]
  show min (shapeCast S512x1 prev shapeCasts_S512x1_S512x1 (ix2 r (0 : Fin 1)))
      (shapeCast S512x1 (multiReduction (F := Ideal) .minimumf [1] S512 (scoreTile x0 x1 x2) 0x7F800000#32
        reduces_S512x2048_S512 (.inl rfl) rfl) shapeCasts_S512_S512x1 (ix2 r (0 : Fin 1))) = _
  rw [shapeCast_self, shapeCast_a_a1_apply]
  refine congrArg (min (prev (ix2 r (0 : Fin 1)))) ((rowMin_at (scoreTile x0 x1 x2) _ _ r).trans ?_)
  exact congrArg (Finset.univ : Finset (Fin 2048)).inf (funext fun cc => scoreTile_at x0 x1 x2 r cc)

/-- The column written when a row tile begins is +∞ at every row. -/
theorem pay1_at (r : Fin 512) : k0_pay1 (F := Ideal) (ix2 r (0 : Fin 1)) = (⊤ : EReal) := by
  show Ideal.ofBits .f32 0x7F800000#32 = ⊤
  exact ofBits_top_f32

end Cert.KernelIdeal.Hand

end
-- ==== Proof.KRegion.lean ====
/-
  The value the pipelined region leaves in the column of minima, at the ideal reading of floats.

  The region walks a 4 × 8 grid, point 8·p + s: row tile p holds the queries 512·p … 512·p + 511, key tile s the keys
  2048·s … 2048·s + 2047. Write  d i j = n j − 2 · ∑ k < 128, Q i k · K j k  for query i and key j, n the row of the keys'
  squared norms. At a point with s = 0 the block of running minima is set to +∞ and then lowered; at every point it is
  lowered, at row r, by the least d (512·p + r) j over the keys j of tile s. So after point 8·p + s row r of the block is
  the running minimum, started at +∞, of the first s + 1 tile minima of query 512·p + r (by induction on the point:
  the points of one row tile are consecutive, and between them the block is not written back). After s = 7 that is the
  minimum of all eight tile minima, which is the minimum of d (512·p + r) j over all 16384 keys: a minimum over
  8 · 2048 positions is the minimum over the tiles of the minima inside the tiles. The block is written back at the
  points with s = 7, to rows 512·p … 512·p + 511 of the column; the four row tiles cover the 2048 rows; so the column
  ends holding, at row i, the minimum over all keys j of d i j.
-/
import proofs.«130977_j54631984005498_2_alg».proof.Proof.KFrame
import proofs.«130977_j54631984005498_2_alg».proof.Proof.KPayload
import proofs.«130977_j54631984005498_2_alg».proof.Proof.LibMinShift
import Idealize.ShloMosaic.Lib.Pipeline.Value
import Idealize.ShloMosaic.Lib.ValueIdx
import Idealize.ShloMosaic.PureOps.Ideal.Laws
import Idealize.ShloMosaic.Lib.Tactic

set_option maxRecDepth 65536

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.ValueIdx
open Idealize.ShloMosaic.Pipeline (Dat)
open scoped BigOperators

/-! ## What each control case leaves in the block of minima, as the payload of its last store -/

section Pieces
variable {F : FTy → Type} [FloatOps F]

theorem zero_offsets : (![0, 0] : Fin 2 → Nat) = fun _ => 0 := funext fun a => by fin_cases a <;> rfl

/-- At a later key tile the body's one store spans the block: it leaves the lowering of what the block held. -/
theorem out_B (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .f32) (harg5 : arg5.IsWhole) (hc0 : ¬cond0_0 i)
    (x0 : Vec F S512x128 .f32) (x1 : Vec F S2048x128 .f32) (x2 : Vec F S1x2048 .f32) (xo3 : Vec F S512x1 .f32) :
    out0_B_3 c i arg2 harg2 arg3 harg3 arg4 harg4 arg5 harg5 hc0 x0 x1 x2 xo3 = k0_pay2 x0 x1 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero zero_offsets]
  simp only [View.readAt_eq_ld, harg2.read_unread, harg3.read_unread, harg4.read_unread, harg5.read_unread,
    View.ld_unit_zero (S := S512x128) zero_offsets, View.ld_unit_zero (S := S2048x128) zero_offsets,
    View.ld_unit_zero (S := S1x2048) zero_offsets, View.ld_unit_zero (S := S512x1) zero_offsets]

/-- At the first key tile of a row tile the body stores the column of +∞ and then, over it, the lowering of that
    column read back: the later store spans the block, so the block holds its payload. -/
theorem out_A (c : Dev nD) (i : grid0.Coords) (arg2 : Memref sig .tc .vmem S512x128 .f32) (harg2 : arg2.IsWhole) (arg3 : Memref sig .tc .vmem S2048x128 .f32) (harg3 : arg3.IsWhole) (arg4 : Memref sig .tc .vmem S1x2048 .f32) (harg4 : arg4.IsWhole) (arg5 : Memref sig .tc .vmem S512x1 .f32) (harg5 : arg5.IsWhole) (hc0 : cond0_0 i)
    (x0 : Vec F S512x128 .f32) (x1 : Vec F S2048x128 .f32) (x2 : Vec F S1x2048 .f32) :
    out0_A_3 c i arg2 harg2 arg3 harg3 arg4 harg4 arg5 harg5 hc0 x0 x1 x2 = k0_pay2 x0 x1 x2 (k0_pay1 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S512x1) zero_offsets, View.readCov_unit_zero (S := S512x1) _ zero_offsets]
  simp only [View.readAt_eq_ld, harg2.read_unread, harg3.read_unread, harg4.read_unread,
    View.ld_unit_zero (S := S512x128) zero_offsets, View.ld_unit_zero (S := S2048x128) zero_offsets,
    View.ld_unit_zero (S := S1x2048) zero_offsets]

end Pieces

/-! ## The arrays and the blocks, at their literal types -/

section Ideal
variable (m : (ℓ : Loc nD τ sig) → Buf (Elt Ideal) ℓ)

/-- The queries, the keys and the keys' squared norms as the region finds them. -/
abbrev Zq (c : Dev nD) : Vec Ideal S2048x128 .f32 := V m c main_v86
abbrev Zk (c : Dev nD) : Vec Ideal S16384x128 .f32 := V m c main_v93
abbrev Nk (c : Dev nD) : Vec Ideal S1x16384 .f32 := V m c main_v97
/-- The three operand blocks at a grid point. -/
abbrev qblk (c : Dev nD) (t : Fin cfg0.N) : Vec Ideal S512x128 .f32 := iblk m c 0 t
abbrev kblk (c : Dev nD) (t : Fin cfg0.N) : Vec Ideal S2048x128 .f32 := iblk m c 1 t
abbrev nblk (c : Dev nD) (t : Fin cfg0.N) : Vec Ideal S1x2048 .f32 := iblk m c 2 t
/-- The block of running minima after a point. -/
abbrev oblk (c : Dev nD) (n : ℕ) (h : n < cfg0.N) : Vec Ideal S512x1 .f32 := outsAt0 m c n h

/-- The shifted product of query i and key j: the key's squared norm less twice the inner product. -/
def dist (c : Dev nD) (i : Fin 2048) (j : Fin 16384) : EReal :=
  Nk m c (ix2 (0 : Fin 1) j) - (2 : EReal) * ∑ k : Fin 128, Zq m c (ix2 i k) * Zk m c (ix2 j k)

/-- The least shifted product of query i against the keys of tile s. -/
def tileMin (c : Dev nD) (i : Fin 2048) (s : Fin 8) : EReal :=
  (Finset.univ : Finset (Fin 2048)).inf fun cc => dist m c i ⟨s.val * 2048 + cc.val, MinShift.tile_lt s cc⟩

/-- The query in row r of the block at point n (the point's row tile is n / 8). -/
def rowOf (n : ℕ) (r : Fin 512) : Fin 2048 := ⟨(512 * (n / 8) + r.val) % 2048, Nat.mod_lt _ (by decide)⟩
/-- The key tile of point n. -/
def tileOf (n : ℕ) : Fin 8 := ⟨n % 8, Nat.mod_lt _ (by decide)⟩

/-! ## Where the grid puts the blocks -/

/-- The block indices of the four windows at point t, decided over the grid. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = 0 :=
  (by decide +kernel : ∀ t : Fin grid0.N, _)

theorem lt32 (t : Fin cfg0.N) : t.val < 32 := lt_of_lt_of_eq t.isLt (show cfg0.N = 32 from N_0)

/-- The query block at point t reads the queries at rows 512·(t / 8) + r. -/
theorem qblk_at (c : Dev nD) (t : Fin cfg0.N) (r : Fin 512) (k : Fin 128) :
    qblk m c t (ix2 r k) = Zq m c (ix2 (rowOf t.val r) k) := by
  obtain ⟨e0, e1, -⟩ := idx_facts t
  have ht := lt32 t
  have hr := r.isLt
  unfold qblk iblk
  rw [View.read_apply]
  refine congrArg (Zq m c) (funext fun a => Fin.ext ?_)
  match a with
  | ⟨0, _⟩ => show win0_0.index t (0 : Fin 2) * 512 + 1 * r.val = (512 * (t.val / 8) + r.val) % 2048; omega
  | ⟨1, _⟩ => show win0_0.index t (1 : Fin 2) * 128 + 1 * k.val = k.val; omega

/-- The key block at point t reads the keys at rows 2048·(t % 8) + c. -/
theorem kblk_at (c : Dev nD) (t : Fin cfg0.N) (cc : Fin 2048) (k : Fin 128) :
    kblk m c t (ix2 cc k) = Zk m c (ix2 (⟨(tileOf t.val).val * 2048 + cc.val, MinShift.tile_lt (tileOf t.val) cc⟩ : Fin 16384) k) := by
  obtain ⟨-, -, e0, e1, -⟩ := idx_facts t
  unfold kblk iblk
  rw [View.read_apply]
  refine congrArg (Zk m c) (funext fun a => Fin.ext ?_)
  match a with
  | ⟨0, _⟩ => show win0_1.index t (0 : Fin 2) * 2048 + 1 * cc.val = t.val % 8 * 2048 + cc.val; omega
  | ⟨1, _⟩ => show win0_1.index t (1 : Fin 2) * 128 + 1 * k.val = k.val; omega

/-- The block of norms at point t reads the norms at columns 2048·(t % 8) + c. -/
theorem nblk_at (c : Dev nD) (t : Fin cfg0.N) (cc : Fin 2048) :
    nblk m c t (ix2 (0 : Fin 1) cc) = Nk m c (ix2 (0 : Fin 1) (⟨(tileOf t.val).val * 2048 + cc.val, MinShift.tile_lt (tileOf t.val) cc⟩ : Fin 16384)) := by
  obtain ⟨-, -, -, -, e0, e1, -⟩ := idx_facts t
  unfold nblk iblk
  rw [View.read_apply]
  refine congrArg (Nk m c) (funext fun a => Fin.ext ?_)
  match a with
  | ⟨0, _⟩ => show win0_2.index t (0 : Fin 2) * 1 + 1 * 0 = 0; omega
  | ⟨1, _⟩ => show win0_2.index t (1 : Fin 2) * 2048 + 1 * cc.val = t.val % 8 * 2048 + cc.val; omega

/-- So the least shifted product the step computes from its blocks, at row r, is the tile minimum of that row's query. -/
theorem step_tile (c : Dev nD) (t : Fin cfg0.N) (r : Fin 512) :
    ((Finset.univ : Finset (Fin 2048)).inf fun cc =>
        nblk m c t (ix2 (0 : Fin 1) cc) - (2 : EReal) * ∑ k : Fin 128, qblk m c t (ix2 r k) * kblk m c t (ix2 cc k))
      = tileMin m c (rowOf t.val r) (tileOf t.val) := by
  unfold tileMin dist
  refine congrArg (Finset.univ : Finset (Fin 2048)).inf (funext fun cc => ?_)
  rw [nblk_at m c t cc]
  refine congrArg (fun z : EReal => Nk m c (ix2 (0 : Fin 1) (⟨(tileOf t.val).val * 2048 + cc.val, MinShift.tile_lt (tileOf t.val) cc⟩ : Fin 16384)) - (2 : EReal) * z)
    (Finset.sum_congr rfl fun k _ => ?_)
  rw [qblk_at m c t r k, kblk_at m c t cc k]

/-! ## One step of the block, at a row -/

/-- At the first key tile of a row tile: +∞ lowered by the tile minimum. -/
theorem oblk_A (c : Dev nD) (t : Fin cfg0.N) (h0 : t.val % 8 = 0) (r : Fin 512) :
    oblk m c t.val t.isLt (ix2 r (0 : Fin 1)) = min ⊤ (tileMin m c (rowOf t.val r) (tileOf t.val)) := by
  refine (congrFun (outsAt0_A m c t h0) (ix2 r (0 : Fin 1))).trans ?_
  refine (congrFun (out_A (F := Ideal) c (grid0.coords t) (ms0_0 t) (hs0_0 t) (ms0_1 t) (hs0_1 t) (ms0_2 t) (hs0_2 t) (ms0_3 t) (hs0_3 t)
    ((hcond0_0 t).mpr h0) (iblk m c 0 t) (iblk m c 1 t) (iblk m c 2 t)) (ix2 r (0 : Fin 1))).trans ?_
  refine (pay2_at (qblk m c t) (kblk m c t) (nblk m c t) (k0_pay1 (F := Ideal)) r).trans ?_
  rw [pay1_at r]
  exact congrArg (min (⊤ : EReal)) (step_tile m c t r)

/-- At a later key tile: what the point before left, lowered by the tile minimum. -/
theorem oblk_B (c : Dev nD) (t : Fin cfg0.N) (h0 : ¬t.val % 8 = 0) (r : Fin 512) :
    oblk m c t.val t.isLt (ix2 r (0 : Fin 1))
      = min (oblk m c (t.val - 1) (Nat.lt_of_le_of_lt (Nat.sub_le _ _) t.isLt) (ix2 r (0 : Fin 1)))
          (tileMin m c (rowOf t.val r) (tileOf t.val)) := by
  refine (congrFun (outsAt0_B m c t h0) (ix2 r (0 : Fin 1))).trans ?_
  refine (congrFun (out_B (F := Ideal) c (grid0.coords t) (ms0_0 t) (hs0_0 t) (ms0_1 t) (hs0_1 t) (ms0_2 t) (hs0_2 t) (ms0_3 t) (hs0_3 t)
    (fun h => h0 ((hcond0_0 t).mp h)) (iblk m c 0 t) (iblk m c 1 t) (iblk m c 2 t)
    (outsAt0 m c (t.val - 1) (Nat.lt_of_le_of_lt (Nat.sub_le _ _) t.isLt))) (ix2 r (0 : Fin 1))).trans ?_
  refine (pay2_at (qblk m c t) (kblk m c t) (nblk m c t) (oblk m c (t.val - 1) (Nat.lt_of_le_of_lt (Nat.sub_le _ _) t.isLt)) r).trans ?_
  exact congrArg (min (oblk m c (t.val - 1) (Nat.lt_of_le_of_lt (Nat.sub_le _ _) t.isLt) (ix2 r (0 : Fin 1)))) (step_tile m c t r)

/-! ## The invariant: the running minimum of the tile minima -/

/-- One more step of a running minimum over the eight tiles, at the tile of point n. -/
theorem runMin_tile (f : Fin 8 → EReal) (n : ℕ) :
    MinShift.runMin f (n % 8 + 1) = min (MinShift.runMin f (n % 8)) (f (tileOf n)) :=
  MinShift.runMin_succ f (Nat.mod_lt n (by decide))

/-- After point n, row r of the block is the running minimum, from +∞, of the first n % 8 + 1 tile minima of the
    row's query. -/
theorem oblk_inv (c : Dev nD) (n : ℕ) : ∀ (h : n < cfg0.N) (r : Fin 512),
    oblk m c n h (ix2 r (0 : Fin 1)) = MinShift.runMin (tileMin m c (rowOf n r)) (n % 8 + 1) := by
  induction n with
  | zero =>
    intro h r
    refine (oblk_A m c ⟨0, h⟩ rfl r).trans ?_
    rw [runMin_tile]
    rfl
  | succ n ih =>
    intro h r
    by_cases h0 : (n + 1) % 8 = 0
    · refine (oblk_A m c ⟨n + 1, h⟩ h0 r).trans ?_
      rw [runMin_tile, h0]
      rfl
    · refine (oblk_B m c ⟨n + 1, h⟩ h0 r).trans ?_
      show min (oblk m c n _ (ix2 r (0 : Fin 1))) (tileMin m c (rowOf (n + 1) r) (tileOf (n + 1))) = _
      rw [ih (Nat.lt_of_succ_lt h) r]
      have hrow : rowOf n r = rowOf (n + 1) r := Fin.ext (by
        show (512 * (n / 8) + r.val) % 2048 = (512 * ((n + 1) / 8) + r.val) % 2048
        have : n / 8 = (n + 1) / 8 := by omega
        rw [this])
      have hstep : n % 8 + 1 = (n + 1) % 8 := by omega
      rw [hrow, hstep]
      exact (runMin_tile (tileMin m c (rowOf (n + 1) r)) (n + 1)).symm

/-- After the last key tile of a row tile, row r of the block is the least shifted product of the row's query over all
    the keys. -/
theorem oblk_last (c : Dev nD) (t : Fin cfg0.N) (h7 : t.val % 8 = 7) (r : Fin 512) :
    oblk m c t.val t.isLt (ix2 r (0 : Fin 1)) = (Finset.univ : Finset (Fin 16384)).inf fun j => dist m c (rowOf t.val r) j := by
  rw [oblk_inv m c t.val t.isLt r, h7]
  show MinShift.runMin (tileMin m c (rowOf t.val r)) 8 = _
  rw [MinShift.runMin_eq_inf]
  exact MinShift.inf_tiles 8 2048 (fun j => dist m c (rowOf t.val r) j)

/-! ## From the blocks to the column -/

/-- The column the region leaves: at row i the least shifted product of query i over all the keys. -/
abbrev column (c : Dev nD) : Vec Ideal S2048x1 .f32 :=
  fun i => (Finset.univ : Finset (Fin 16384)).inf fun j => dist m c (i 0) j

/-- What a point with s = 7 writes back is its block of that column. -/
theorem flushed_eq (c : Dev nD) (t : Fin cfg0.N) (hf : (cfg0.win 3).flush t = true) :
    (dats m 0 c).flushed 3 t = ((cfg0.win 3).blk t).view.read (Elt Ideal) (column m c) := by
  have h7 : t.val % 8 = 7 := (flush0_3 t).mp hf
  obtain ⟨-, -, -, -, -, -, e0, e1⟩ := idx_facts t
  have ht := lt32 t
  show (cfg0.win 3).cut (grid0.coords t) ((dats m 0 c).after 3 t) = _
  rw [after0_3]
  funext y
  obtain ⟨r, u, rfl⟩ : ∃ (r : Fin 512) (u : Fin 1), y = ix2 r u := ⟨y 0, y 1, eq_ix2 y⟩
  obtain rfl : u = 0 := Subsingleton.elim _ _
  rw [View.read_apply]
  show oblk m c t.val t.isLt (ix2 r (0 : Fin 1)) = column m c (((cfg0.win 3).blk t).view.emb (ix2 r (0 : Fin 1)))
  rw [oblk_last m c t h7 r]
  show _ = (Finset.univ : Finset (Fin 16384)).inf fun j => dist m c ((((cfg0.win 3).blk t).view.emb (ix2 r (0 : Fin 1))) 0) j
  have hrow : rowOf t.val r = (((cfg0.win 3).blk t).view.emb (ix2 r (0 : Fin 1))) 0 := Fin.ext (by
    have hr := r.isLt
    show (512 * (t.val / 8) + r.val) % 2048 = win0_3.index t (0 : Fin 2) * 512 + 1 * r.val
    omega)
  rw [hrow]

/-- An index of the column is in point t's block iff each coordinate is in the block's range on its axis. -/
theorem mem_blk (t : Fin cfg0.N) (i : S2048x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v98).slice (win0_3.rect t)).set ↔ _
  rw [View.set_slice_whole, Rect.mem_set_unit]
  exact Iff.rfl

/-- Every row of the column is in the block some point with s = 7 writes back: row i in row tile i / 512. -/
theorem covered (i : S2048x1.Idx) : ∃ t : Fin cfg0.N, (cfg0.win 3).flush t = true ∧ i ∈ ((cfg0.win 3).blk t).view.set := by
  have hi0 : (i 0).val < 2048 := (i 0).isLt
  have hi1 : (i 1).val < 1 := (i 1).isLt
  have hN : cfg0.N = 32 := N_0
  obtain ⟨t, ht⟩ : ∃ t : Fin cfg0.N, t.val = 8 * ((i 0).val / 512) + 7 := ⟨⟨8 * ((i 0).val / 512) + 7, by rw [hN]; omega⟩, rfl⟩
  obtain ⟨-, -, -, -, -, -, e0, e1⟩ := idx_facts t
  refine ⟨t, (flush0_3 t).mpr (by omega), ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1 ≤ (i 1).val ∧ (i 1).val < win0_3.index t (1 : Fin 2) * 1 + 1; omega

/-- The column after the region. -/
theorem region_column (c : Dev nD) : (dats (F := Ideal) m 0 c).arrAt 3 cfg0.N = column m c :=
  (dats m 0 c).arrAt_eq_of_cover 3 (column m c) (flushed_eq m c) covered

/-- THE REGION'S VALUE: row i of the column of minima ends at the least, over all 16384 keys j, of the squared norm of
    key j less twice the inner product of query i and key j. -/
theorem region_value (c : Dev nD) (i : Fin 2048) :
    (dats (F := Ideal) m 0 c).arrAt 3 cfg0.N (ValueIdx.ix2 i (0 : Fin 1))
      = (Finset.univ : Finset (Fin 16384)).inf fun j =>
          (Nk m c (ValueIdx.ix2 (0 : Fin 1) j) - (2 : EReal) * ∑ k : Fin 128, Zq m c (ValueIdx.ix2 i k) * Zk m c (ValueIdx.ix2 j k) : EReal) :=
  congrFun (region_column m c) (ix2 i (0 : Fin 1))

end Ideal

end Cert.KernelIdeal.Hand

end
-- ==== Proof.LibIdealFinite.lean ====
/-
  Finiteness of host computations over the extended reals.

  At the ideal reading of floats every value is an extended real, an element of [-∞, +∞]. This module
  is about arrays whose every entry is an honest REAL number (neither infinity), and about the two
  sharper properties "every entry is a real number ≥ 0" and "every entry is a real number > 0". It
  proves that the elementary array operations preserve these properties:

  • sums, differences, products and negations of real entries are real; the exponential of a real is a
    positive real; a lane-by-lane choice between two arrays of reals is an array of reals;
  • an operation that only RE-INDEXES its operand (a broadcast along new axes, a permutation of the
    axes, a gather of slices at integer positions) has each output entry equal to some input entry, so
    it preserves all three properties;
  • a contraction (a matrix product: a finite sum of products) and a sum along axes added to an initial
    value are finite sums of reals, hence real — the coercion ℝ → [-∞, +∞] commutes with finite sums;
    such a sum of entries ≥ 0 is ≥ 0;
  • a quotient whose divisor is a positive real is the real quotient; the square root of a real > 0
    (≥ 0) is a real > 0 (≥ 0); a square is ≥ 0; a sum of a real ≥ 0 and a real > 0 is > 0;
  • the binary32 bit patterns listed at the end denote the real numbers stated there (and the pattern
    0x7F800000 denotes +∞), so a constant array of one of them has the corresponding property;
  • an integer converted to a float, signed or unsigned, is that integer as a real number.
-/
import Idealize.ShloMosaic.PureOps.Ideal
import Idealize.ShloMosaic.PureOps.Ideal.Laws
import Mathlib.Data.EReal.Operations
import Mathlib.Data.EReal.Inv
import Mathlib.Analysis.SpecialFunctions.Exp
import Mathlib.Analysis.SpecialFunctions.Sqrt
import Mathlib.Algebra.BigOperators.Group.Finset.Basic

noncomputable section

namespace IdealFinite

open Idealize.ShloMosaic
open scoped BigOperators

/-! ### The three properties -/

/-- An extended real that is a real number. -/
def IsFin (x : EReal) : Prop := ∃ r : ℝ, x = (r : EReal)

/-- Every entry of the array is a real number. -/
def AllFin {S : Shape} (v : S.Idx → EReal) : Prop := ∀ i, IsFin (v i)

/-- Every entry of the array is a real number that is not negative. -/
def AllNonneg {S : Shape} (v : S.Idx → EReal) : Prop := ∀ i, ∃ r : ℝ, 0 ≤ r ∧ v i = (r : EReal)

/-- Every entry of the array is a positive real number. -/
def AllPos {S : Shape} (v : S.Idx → EReal) : Prop := ∀ i, ∃ r : ℝ, 0 < r ∧ v i = (r : EReal)

theorem AllPos.allNonneg {S : Shape} {v : S.Idx → EReal} (h : AllPos v) : AllNonneg v := fun i => by
  obtain ⟨r, hr, e⟩ := h i
  exact ⟨r, hr.le, e⟩

theorem AllNonneg.allFin {S : Shape} {v : S.Idx → EReal} (h : AllNonneg v) : AllFin v := fun i => by
  obtain ⟨r, _, e⟩ := h i
  exact ⟨r, e⟩

theorem AllPos.allFin {S : Shape} {v : S.Idx → EReal} (h : AllPos v) : AllFin v := h.allNonneg.allFin

/-! ### Finite sums of reals -/

/-- The coercion of the reals into the extended reals commutes with finite sums. -/
theorem coe_finset_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem isFin_sum {ι : Type} (s : Finset ι) (f : ι → EReal) (h : ∀ i ∈ s, IsFin (f i)) :
    IsFin (∑ i ∈ s, f i) := by
  classical
  induction s using Finset.induction_on with
  | empty => exact ⟨0, by simp⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

/-- A finite sum of real numbers that are not negative is a real number that is not negative. -/
theorem nonneg_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl _, by simp⟩
  | insert a s ha ih =>
    obtain ⟨r, hr0, hr⟩ := h a (Finset.mem_insert_self a s)
    obtain ⟨t, ht0, ht⟩ := ih fun i hi => h i (Finset.mem_insert_of_mem hi)
    exact ⟨r + t, add_nonneg hr0 ht0, by rw [Finset.sum_insert ha, hr, ht, EReal.coe_add]⟩

/-! ### Pointwise operations -/

theorem AllFin.addf {S : Shape} {φ : FTy} {x y : FVec Ideal S φ} (hx : AllFin x) (hy : AllFin y) :
    AllFin (Idealize.ShloMosaic.addf (F := Ideal) x y) := fun i => by
  obtain ⟨a, ha⟩ := hx i
  obtain ⟨b, hb⟩ := hy i
  exact ⟨a + b, by show x i + y i = _; rw [ha, hb, EReal.coe_add]⟩

theorem AllFin.subf {S : Shape} {φ : FTy} {x y : FVec Ideal S φ} (hx : AllFin x) (hy : AllFin y) :
    AllFin (Idealize.ShloMosaic.subf (F := Ideal) x y) := fun i => by
  obtain ⟨a, ha⟩ := hx i
  obtain ⟨b, hb⟩ := hy i
  exact ⟨a - b, by show x i - y i = _; rw [ha, hb, EReal.coe_sub]⟩

theorem AllFin.mulf {S : Shape} {φ : FTy} {x y : FVec Ideal S φ} (hx : AllFin x) (hy : AllFin y) :
    AllFin (Idealize.ShloMosaic.mulf (F := Ideal) x y) := fun i => by
  obtain ⟨a, ha⟩ := hx i
  obtain ⟨b, hb⟩ := hy i
  exact ⟨a * b, by show x i * y i = _; rw [ha, hb, EReal.coe_mul]⟩

theorem AllFin.negf {S : Shape} {φ : FTy} {x : FVec Ideal S φ} (hx : AllFin x) :
    AllFin (Idealize.ShloMosaic.Host.negf (F := Ideal) x) := fun i => by
  obtain ⟨a, ha⟩ := hx i
  exact ⟨-a, by show -(x i) = _; rw [ha, EReal.coe_neg]⟩

/-- The exponential of a real number is a positive real number. -/
theorem AllPos.exp {S : Shape} {φ : FTy} {x : FVec Ideal S φ} (hx : AllFin x) :
    AllPos (Idealize.ShloMosaic.Host.exp (F := Ideal) x) := fun i => by
  obtain ⟨a, ha⟩ := hx i
  exact ⟨Real.exp a, Real.exp_pos a, by show Ideal.exp (x i) = _; rw [ha, Ideal.exp_coe]⟩

theorem AllFin.exp {S : Shape} {φ : FTy} {x : FVec Ideal S φ} (hx : AllFin x) :
    AllFin (Idealize.ShloMosaic.Host.exp (F := Ideal) x) := (AllPos.exp hx).allFin

/-- A lane-by-lane choice between two arrays of reals, whatever the mask. -/
theorem AllFin.select {S : Shape} {p : IVec S 1} {a b : S.Idx → EReal} (ha : AllFin a) (hb : AllFin b) :
    AllFin (Idealize.ShloMosaic.select p a b) := fun i => by
  show IsFin (Scalar.select (p i) (a i) (b i))
  unfold Scalar.select
  split
  · exact ha i
  · exact hb i

theorem AllNonneg.select {S : Shape} {p : IVec S 1} {a b : S.Idx → EReal} (ha : AllNonneg a) (hb : AllNonneg b) :
    AllNonneg (Idealize.ShloMosaic.select p a b) := fun i => by
  show ∃ r : ℝ, 0 ≤ r ∧ Scalar.select (p i) (a i) (b i) = (r : EReal)
  unfold Scalar.select
  split
  · exact ha i
  · exact hb i

theorem AllPos.select {S : Shape} {p : IVec S 1} {a b : S.Idx → EReal} (ha : AllPos a) (hb : AllPos b) :
    AllPos (Idealize.ShloMosaic.select p a b) := fun i => by
  show ∃ r : ℝ, 0 < r ∧ Scalar.select (p i) (a i) (b i) = (r : EReal)
  unfold Scalar.select
  split
  · exact ha i
  · exact hb i

/-! ### Re-indexing operations: every output entry is an input entry -/

theorem AllFin.broadcastInDim {S T : Shape} {dims : Fin S.rank → Fin T.rank} {h : S.BroadcastsInDim T dims}
    {x : S.Idx → EReal} (hx : AllFin x) : AllFin (Idealize.ShloMosaic.broadcastInDim T dims h x) :=
  fun _ => hx _

theorem AllNonneg.broadcastInDim {S T : Shape} {dims : Fin S.rank → Fin T.rank} {h : S.BroadcastsInDim T dims}
    {x : S.Idx → EReal} (hx : AllNonneg x) : AllNonneg (Idealize.ShloMosaic.broadcastInDim T dims h x) :=
  fun _ => hx _

theorem AllPos.broadcastInDim {S T : Shape} {dims : Fin S.rank → Fin T.rank} {h : S.BroadcastsInDim T dims}
    {x : S.Idx → EReal} (hx : AllPos x) : AllPos (Idealize.ShloMosaic.broadcastInDim T dims h x) :=
  fun _ => hx _

theorem AllFin.transpose {S T : Shape} {perm : List (Fin S.rank)} {x : S.Idx → EReal} {h : S.Transposes perm T}
    (hx : AllFin x) : AllFin (Idealize.ShloMosaic.transpose T perm x h) :=
  fun _ => hx _

theorem AllNonneg.transpose {S T : Shape} {perm : List (Fin S.rank)} {x : S.Idx → EReal} {h : S.Transposes perm T}
    (hx : AllNonneg x) : AllNonneg (Idealize.ShloMosaic.transpose T perm x h) :=
  fun _ => hx _

theorem AllPos.transpose {S T : Shape} {perm : List (Fin S.rank)} {x : S.Idx → EReal} {h : S.Transposes perm T}
    (hx : AllPos x) : AllPos (Idealize.ShloMosaic.transpose T perm x h) :=
  fun _ => hx _

theorem AllFin.gather {S SI T : Shape} {w : Nat} {d : GatherDims S SI T} {x : S.Idx → EReal} {idx : IVec SI w}
    (hx : AllFin x) : AllFin (Idealize.ShloMosaic.Host.gather d x idx) :=
  fun _ => hx _

theorem AllNonneg.gather {S SI T : Shape} {w : Nat} {d : GatherDims S SI T} {x : S.Idx → EReal} {idx : IVec SI w}
    (hx : AllNonneg x) : AllNonneg (Idealize.ShloMosaic.Host.gather d x idx) :=
  fun _ => hx _

theorem AllPos.gather {S SI T : Shape} {w : Nat} {d : GatherDims S SI T} {x : S.Idx → EReal} {idx : IVec SI w}
    (hx : AllPos x) : AllPos (Idealize.ShloMosaic.Host.gather d x idx) :=
  fun _ => hx _

/-! ### Contractions and sums -/

/-- A matrix product of arrays of reals: each entry is a finite sum of products of reals. -/
theorem AllFin.dotGeneral {sl sr so : Shape} {φ₁ φ₂ : FTy} {d : DotDims sl sr so} {prec : Option ContractPrecision}
    {l : FVec Ideal sl φ₁} {r : FVec Ideal sr φ₂} (hl : AllFin l) (hr : AllFin r) :
    AllFin (Idealize.ShloMosaic.Host.dotGeneral (F := Ideal) d prec l r) := fun j => by
  show IsFin (FloatOps.dotGeneral d prec .single l r j)
  rw [Ideal.dotGeneral_apply]
  refine isFin_sum _ _ fun k _ => ?_
  obtain ⟨a, ha⟩ := hl (d.lhsIdx j k)
  obtain ⟨b, hb⟩ := hr (d.rhsIdx j k)
  exact ⟨a * b, by rw [ha, hb, EReal.coe_mul]⟩

/-- The sum of an array of reals along axes, added to a real initial value. -/
theorem AllFin.reduceAdd {S T U : Shape} {φ : FTy} {axes : List (Fin S.rank)} {x : FVec Ideal S φ}
    {v : U.Idx → Ideal φ} {red : S.ReducesTo axes T} {hu : 0 < U.numel} (hx : AllFin x) (hv : AllFin (S := U) v) :
    AllFin (Idealize.ShloMosaic.Host.reduceAdd (F := Ideal) x v red hu) := fun j => by
  show IsFin (Ideal.hostReduceAdd red x (v (Shape.Idx.first hu)) j)
  unfold Ideal.hostReduceAdd
  obtain ⟨a, ha⟩ := hv (Shape.Idx.first hu)
  obtain ⟨b, hb⟩ := isFin_sum (Finset.univ.filter fun i => red.drop i = j) x fun i _ => hx i
  exact ⟨a + b, by rw [ha, hb, EReal.coe_add]⟩

theorem AllNonneg.reduceAdd {S T U : Shape} {φ : FTy} {axes : List (Fin S.rank)} {x : FVec Ideal S φ}
    {v : U.Idx → Ideal φ} {red : S.ReducesTo axes T} {hu : 0 < U.numel} (hx : AllNonneg x)
    (hv : AllNonneg (S := U) v) :
    AllNonneg (Idealize.ShloMosaic.Host.reduceAdd (F := Ideal) x v red hu) := fun j => by
  show ∃ r : ℝ, 0 ≤ r ∧ Ideal.hostReduceAdd red x (v (Shape.Idx.first hu)) j = (r : EReal)
  unfold Ideal.hostReduceAdd
  obtain ⟨a, ha0, ha⟩ := hv (Shape.Idx.first hu)
  obtain ⟨b, hb0, hb⟩ := nonneg_sum (Finset.univ.filter fun i => red.drop i = j) x fun i _ => hx i
  exact ⟨a + b, add_nonneg ha0 hb0, by rw [ha, hb, EReal.coe_add]⟩

/-! ### Division by a positive real -/

/-- A real divided by a positive real, as extended reals, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem AllFin.divf {S : Shape} {φ : FTy} {x y : FVec Ideal S φ} (hx : AllFin x) (hy : AllPos y) :
    AllFin (Idealize.ShloMosaic.Host.divf (F := Ideal) x y) := fun i => by
  obtain ⟨a, ha⟩ := hx i
  obtain ⟨b, hb0, hb⟩ := hy i
  exact ⟨a / b, by show Ideal.div (x i) (y i) = _; rw [ha, hb, div_coe_coe a hb0.ne']⟩

theorem AllNonneg.divf {S : Shape} {φ : FTy} {x y : FVec Ideal S φ} (hx : AllNonneg x) (hy : AllPos y) :
    AllNonneg (Idealize.ShloMosaic.Host.divf (F := Ideal) x y) := fun i => by
  obtain ⟨a, ha0, ha⟩ := hx i
  obtain ⟨b, hb0, hb⟩ := hy i
  exact ⟨a / b, div_nonneg ha0 hb0.le, by show Ideal.div (x i) (y i) = _; rw [ha, hb, div_coe_coe a hb0.ne']⟩

theorem AllPos.divf {S : Shape} {φ : FTy} {x y : FVec Ideal S φ} (hx : AllPos x) (hy : AllPos y) :
    AllPos (Idealize.ShloMosaic.Host.divf (F := Ideal) x y) := fun i => by
  obtain ⟨a, ha0, ha⟩ := hx i
  obtain ⟨b, hb0, hb⟩ := hy i
  exact ⟨a / b, div_pos ha0 hb0, by show Ideal.div (x i) (y i) = _; rw [ha, hb, div_coe_coe a hb0.ne']⟩

/-! ### Square roots -/

/-- The square root of a positive real is a positive real. -/
theorem AllPos.sqrt {S : Shape} {φ : FTy} {x : FVec Ideal S φ} (hx : AllPos x) :
    AllPos (Idealize.ShloMosaic.Host.sqrt (F := Ideal) x) := fun i => by
  obtain ⟨a, ha0, ha⟩ := hx i
  exact ⟨Real.sqrt a, Real.sqrt_pos.mpr ha0, by
    show Ideal.sqrt (x i) = _
    rw [ha, Ideal.sqrt_coe, if_neg (not_lt.mpr ha0.le)]⟩

/-- The square root of a real that is not negative is a real that is not negative. -/
theorem AllNonneg.sqrt {S : Shape} {φ : FTy} {x : FVec Ideal S φ} (hx : AllNonneg x) :
    AllNonneg (Idealize.ShloMosaic.Host.sqrt (F := Ideal) x) := fun i => by
  obtain ⟨a, ha0, ha⟩ := hx i
  exact ⟨Real.sqrt a, Real.sqrt_nonneg a, by
    show Ideal.sqrt (x i) = _
    rw [ha, Ideal.sqrt_coe, if_neg (not_lt.mpr ha0)]⟩

/-! ### Signs of sums and products -/

/-- A square of a real is not negative. -/
theorem AllNonneg.mulf_self {S : Shape} {φ : FTy} {x : FVec Ideal S φ} (hx : AllFin x) :
    AllNonneg (Idealize.ShloMosaic.mulf (F := Ideal) x x) := fun i => by
  obtain ⟨a, ha⟩ := hx i
  exact ⟨a * a, mul_self_nonneg a, by show x i * x i = _; rw [ha, EReal.coe_mul]⟩

theorem AllNonneg.mulf {S : Shape} {φ : FTy} {x y : FVec Ideal S φ} (hx : AllNonneg x) (hy : AllNonneg y) :
    AllNonneg (Idealize.ShloMosaic.mulf (F := Ideal) x y) := fun i => by
  obtain ⟨a, ha0, ha⟩ := hx i
  obtain ⟨b, hb0, hb⟩ := hy i
  exact ⟨a * b, mul_nonneg ha0 hb0, by show x i * y i = _; rw [ha, hb, EReal.coe_mul]⟩

theorem AllPos.mulf {S : Shape} {φ : FTy} {x y : FVec Ideal S φ} (hx : AllPos x) (hy : AllPos y) :
    AllPos (Idealize.ShloMosaic.mulf (F := Ideal) x y) := fun i => by
  obtain ⟨a, ha0, ha⟩ := hx i
  obtain ⟨b, hb0, hb⟩ := hy i
  exact ⟨a * b, mul_pos ha0 hb0, by show x i * y i = _; rw [ha, hb, EReal.coe_mul]⟩

theorem AllNonneg.addf {S : Shape} {φ : FTy} {x y : FVec Ideal S φ} (hx : AllNonneg x) (hy : AllNonneg y) :
    AllNonneg (Idealize.ShloMosaic.addf (F := Ideal) x y) := fun i => by
  obtain ⟨a, ha0, ha⟩ := hx i
  obtain ⟨b, hb0, hb⟩ := hy i
  exact ⟨a + b, add_nonneg ha0 hb0, by show x i + y i = _; rw [ha, hb, EReal.coe_add]⟩

theorem AllPos.addf_nonneg_pos {S : Shape} {φ : FTy} {x y : FVec Ideal S φ} (hx : AllNonneg x) (hy : AllPos y) :
    AllPos (Idealize.ShloMosaic.addf (F := Ideal) x y) := fun i => by
  obtain ⟨a, ha0, ha⟩ := hx i
  obtain ⟨b, hb0, hb⟩ := hy i
  exact ⟨a + b, add_pos_of_nonneg_of_pos ha0 hb0, by show x i + y i = _; rw [ha, hb, EReal.coe_add]⟩

theorem AllPos.addf_pos_nonneg {S : Shape} {φ : FTy} {x y : FVec Ideal S φ} (hx : AllPos x) (hy : AllNonneg y) :
    AllPos (Idealize.ShloMosaic.addf (F := Ideal) x y) := fun i => by
  obtain ⟨a, ha0, ha⟩ := hx i
  obtain ⟨b, hb0, hb⟩ := hy i
  exact ⟨a + b, add_pos_of_pos_of_nonneg ha0 hb0, by show x i + y i = _; rw [ha, hb, EReal.coe_add]⟩

theorem AllPos.addf {S : Shape} {φ : FTy} {x y : FVec Ideal S φ} (hx : AllPos x) (hy : AllPos y) :
    AllPos (Idealize.ShloMosaic.addf (F := Ideal) x y) := AllPos.addf_pos_nonneg hx hy.allNonneg

/-! ### Constants: binary32 bit patterns as real numbers

Each pattern is read as sign, eight exponent bits and twenty-three fraction bits; a normal number is
(2^23 + fraction) · 2^(exponent − 150). -/

/-- The pattern of +0.0 denotes 0. -/
theorem ofBits_00000000 : Ideal.ofBits .f32 0x00000000#32 = ((0 : ℝ) : EReal) := by
  simp [Ideal.ofBits, Ideal.ieee]

/-- The pattern of 1.0 denotes 1. -/
theorem ofBits_3F800000 : Ideal.ofBits .f32 0x3F800000#32 = ((1 : ℝ) : EReal) := by
  simp [Ideal.ofBits, Ideal.ieee, -EReal.coe_mul]; norm_num

/-- The binary32 number nearest 0.01: 10737418 · 2^(-30). -/
theorem ofBits_3C23D70A : Ideal.ofBits .f32 0x3C23D70A#32 = ((10737418 / 1073741824 : ℝ) : EReal) := by
  simp [Ideal.ofBits, Ideal.ieee, -EReal.coe_mul]; norm_num

/-- The binary32 number nearest 1e-5: 10995116 · 2^(-40). -/
theorem ofBits_3727C5AC : Ideal.ofBits .f32 0x3727C5AC#32 = ((10995116 / 1099511627776 : ℝ) : EReal) := by
  simp [Ideal.ofBits, Ideal.ieee, -EReal.coe_mul]; norm_num

/-- The pattern of 16384.0 = 2^14. -/
theorem ofBits_46800000 : Ideal.ofBits .f32 0x46800000#32 = ((16384 : ℝ) : EReal) := by
  simp [Ideal.ofBits, Ideal.ieee, -EReal.coe_mul]; norm_num

/-- The pattern of 8192.0 = 2^13. -/
theorem ofBits_46000000 : Ideal.ofBits .f32 0x46000000#32 = ((8192 : ℝ) : EReal) := by
  simp [Ideal.ofBits, Ideal.ieee, -EReal.coe_mul]; norm_num

/-- The pattern of 2048.0 = 2^11. -/
theorem ofBits_45000000 : Ideal.ofBits .f32 0x45000000#32 = ((2048 : ℝ) : EReal) := by
  simp [Ideal.ofBits, Ideal.ieee, -EReal.coe_mul]; norm_num

/-- The pattern of 128.0 = 2^7. -/
theorem ofBits_43000000 : Ideal.ofBits .f32 0x43000000#32 = ((128 : ℝ) : EReal) := by
  simp [Ideal.ofBits, Ideal.ieee, -EReal.coe_mul]; norm_num

/-- The pattern of 2.0. -/
theorem ofBits_40000000 : Ideal.ofBits .f32 0x40000000#32 = ((2 : ℝ) : EReal) := by
  simp [Ideal.ofBits, Ideal.ieee, -EReal.coe_mul]; norm_num

/-- The pattern of 62.0 = 31 · 2. -/
theorem ofBits_42780000 : Ideal.ofBits .f32 0x42780000#32 = ((62 : ℝ) : EReal) := by
  simp [Ideal.ofBits, Ideal.ieee, -EReal.coe_mul]; norm_num

/-- The pattern with all exponent bits set and no fraction bit denotes +∞. -/
theorem ofBits_7F800000 : Ideal.ofBits .f32 0x7F800000#32 = ⊤ := by
  simp [Ideal.ofBits, Ideal.ieee]

/-- An extended real equal to a real is a real; equal to a real ≥ 0 (> 0), it is such a real. -/
theorem isFin_of_eq {x : EReal} {r : ℝ} (h : x = (r : EReal)) : IsFin x := ⟨r, h⟩
theorem nonneg_of_eq {x : EReal} {r : ℝ} (h : x = (r : EReal)) (hr : 0 ≤ r) : ∃ r : ℝ, 0 ≤ r ∧ x = (r : EReal) :=
  ⟨r, hr, h⟩
theorem pos_of_eq {x : EReal} {r : ℝ} (h : x = (r : EReal)) (hr : 0 < r) : ∃ r : ℝ, 0 < r ∧ x = (r : EReal) :=
  ⟨r, hr, h⟩

theorem ofBits_00000000_nonneg : ∃ r : ℝ, 0 ≤ r ∧ Ideal.ofBits .f32 0x00000000#32 = (r : EReal) :=
  nonneg_of_eq ofBits_00000000 (le_refl _)
theorem ofBits_3F800000_pos : ∃ r : ℝ, 0 < r ∧ Ideal.ofBits .f32 0x3F800000#32 = (r : EReal) :=
  pos_of_eq ofBits_3F800000 (by norm_num)
theorem ofBits_3C23D70A_pos : ∃ r : ℝ, 0 < r ∧ Ideal.ofBits .f32 0x3C23D70A#32 = (r : EReal) :=
  pos_of_eq ofBits_3C23D70A (by norm_num)
theorem ofBits_3727C5AC_pos : ∃ r : ℝ, 0 < r ∧ Ideal.ofBits .f32 0x3727C5AC#32 = (r : EReal) :=
  pos_of_eq ofBits_3727C5AC (by norm_num)
theorem ofBits_46800000_pos : ∃ r : ℝ, 0 < r ∧ Ideal.ofBits .f32 0x46800000#32 = (r : EReal) :=
  pos_of_eq ofBits_46800000 (by norm_num)
theorem ofBits_46000000_pos : ∃ r : ℝ, 0 < r ∧ Ideal.ofBits .f32 0x46000000#32 = (r : EReal) :=
  pos_of_eq ofBits_46000000 (by norm_num)
theorem ofBits_45000000_pos : ∃ r : ℝ, 0 < r ∧ Ideal.ofBits .f32 0x45000000#32 = (r : EReal) :=
  pos_of_eq ofBits_45000000 (by norm_num)
theorem ofBits_43000000_pos : ∃ r : ℝ, 0 < r ∧ Ideal.ofBits .f32 0x43000000#32 = (r : EReal) :=
  pos_of_eq ofBits_43000000 (by norm_num)
theorem ofBits_40000000_pos : ∃ r : ℝ, 0 < r ∧ Ideal.ofBits .f32 0x40000000#32 = (r : EReal) :=
  pos_of_eq ofBits_40000000 (by norm_num)
theorem ofBits_42780000_pos : ∃ r : ℝ, 0 < r ∧ Ideal.ofBits .f32 0x42780000#32 = (r : EReal) :=
  pos_of_eq ofBits_42780000 (by norm_num)

/-- A constant array has the property its one value has. -/
theorem AllFin.constant {S : Shape} {φ : FTy} {b : BitVec φ.bits} (h : IsFin (Ideal.ofBits φ b)) :
    AllFin (Idealize.ShloMosaic.constant (F := Ideal) S φ b) := fun _ => h

theorem AllNonneg.constant {S : Shape} {φ : FTy} {b : BitVec φ.bits}
    (h : ∃ r : ℝ, 0 ≤ r ∧ Ideal.ofBits φ b = (r : EReal)) :
    AllNonneg (Idealize.ShloMosaic.constant (F := Ideal) S φ b) := fun _ => h

theorem AllPos.constant {S : Shape} {φ : FTy} {b : BitVec φ.bits}
    (h : ∃ r : ℝ, 0 < r ∧ Ideal.ofBits φ b = (r : EReal)) :
    AllPos (Idealize.ShloMosaic.constant (F := Ideal) S φ b) := fun _ => h

/-! ### Integers converted to floats -/

/-- An unsigned integer as a float is that natural number, a real that is not negative. -/
theorem AllNonneg.uitofp {S : Shape} {w : Nat} {φ : FTy} {x : IVec S w} :
    AllNonneg (Idealize.ShloMosaic.uitofp (F := Ideal) φ x) :=
  fun i => ⟨((x i).toNat : ℝ), Nat.cast_nonneg _, rfl⟩

theorem AllFin.uitofp {S : Shape} {w : Nat} {φ : FTy} {x : IVec S w} :
    AllFin (Idealize.ShloMosaic.uitofp (F := Ideal) φ x) :=
  fun i => ⟨((x i).toNat : ℝ), rfl⟩

/-- A signed integer as a float is that integer, a real. -/
theorem AllFin.sitofp {S : Shape} {w : Nat} {φ : FTy} {x : IVec S w} :
    AllFin (Idealize.ShloMosaic.sitofp (F := Ideal) φ x) :=
  fun i => ⟨((x i).toInt : ℝ), rfl⟩

/-! ### Each closure lemma applies to the operation's own term, with nothing unfolded by hand -/

section Examples
variable {S T : Shape} (x y : FVec Ideal S .f32) (hx : AllFin x) (hy : AllFin y) (hp : AllPos y) (hn : AllNonneg x)

example : AllFin (addf (F := Ideal) x y) := AllFin.addf hx hy
example : AllFin (subf (F := Ideal) x y) := AllFin.subf hx hy
example : AllFin (mulf (F := Ideal) x y) := AllFin.mulf hx hy
example : AllFin (Host.negf (F := Ideal) x) := AllFin.negf hx
example : AllFin (Host.exp (F := Ideal) x) := AllFin.exp hx
example : AllPos (Host.exp (F := Ideal) x) := AllPos.exp hx
example : AllFin (Host.divf (F := Ideal) x y) := AllFin.divf hx hp
example : AllNonneg (Host.divf (F := Ideal) x y) := AllNonneg.divf hn hp
example : AllPos (Host.sqrt (F := Ideal) y) := AllPos.sqrt hp
example : AllNonneg (mulf (F := Ideal) x x) := AllNonneg.mulf_self hx
example : AllPos (addf (F := Ideal) x y) := AllPos.addf_nonneg_pos hn hp
example (p : IVec S 1) : AllFin (select p x y) := AllFin.select hx hy
example : AllFin (select (cmpf (F := Ideal) .oge x (constant S .f32 0x00000000#32)) x
    (mulf x (constant S .f32 0x3C23D70A#32))) :=
  AllFin.select hx (AllFin.mulf hx (AllFin.constant (isFin_of_eq ofBits_3C23D70A)))
example : AllPos (constant (F := Ideal) S .f32 0x3727C5AC#32) := AllPos.constant ofBits_3727C5AC_pos
example (dims : Fin S.rank → Fin T.rank) (h : S.BroadcastsInDim T dims) : AllFin (broadcastInDim T dims h x) :=
  AllFin.broadcastInDim hx
example (perm : List (Fin S.rank)) (h : S.Transposes perm T) : AllFin (transpose T perm x h) :=
  AllFin.transpose hx
example {SI : Shape} (d : GatherDims S SI T) (idx : IVec SI 32) : AllFin (Host.gather d x idx) :=
  AllFin.gather hx
example {sr so : Shape} (d : DotDims S sr so) (r : FVec Ideal sr .f32) (hr : AllFin r) :
    AllFin (Host.dotGeneral (F := Ideal) d none x r) := AllFin.dotGeneral hx hr
example {axes : List (Fin S.rank)} {U : Shape} (v : FVec Ideal U .f32) (hv : AllFin v) (red : S.ReducesTo axes T)
    (hu : 0 < U.numel) : AllFin (Host.reduceAdd (F := Ideal) x v red hu) := AllFin.reduceAdd hx hv
example {axes : List (Fin S.rank)} {U : Shape} (v : FVec Ideal U .f32) (hv : AllNonneg v) (red : S.ReducesTo axes T)
    (hu : 0 < U.numel) : AllNonneg (Host.reduceAdd (F := Ideal) x v red hu) := AllNonneg.reduceAdd hn hv
example (n : IVec S 32) : AllFin (uitofp (F := Ideal) .f32 n) := AllFin.uitofp
example (n : IVec S 32) : AllFin (sitofp (F := Ideal) .f32 n) := AllFin.sitofp
-- at a concrete shape: x / √(y + ε) is real when x is real, y > 0 and ε > 0
example (a : FVec Ideal ⟨2, ![8, 16]⟩ .f32) (b : FVec Ideal ⟨2, ![8, 16]⟩ .f32) (ha : AllFin a) (hb : AllPos b) :
    AllFin (Host.divf a (Host.sqrt (addf b (constant ⟨2, ![8, 16]⟩ .f32 0x3727C5AC#32)))) :=
  AllFin.divf ha (AllPos.sqrt (AllPos.addf hb (AllPos.constant ofBits_3727C5AC_pos)))

end Examples

end IdealFinite

end
-- ==== Proof.NctBridge.lean ====
/-
  The nearest-neighbour term of the loss, computed by the two programs, is one extended real.

  Write zp for the 2048 × 128 array of projected queries and zs for the 16384 × 128 array of gathered keys, and, for
  a query i and a key j,  q i = ∑ k zp(i,k)²,  c j = ∑ k zs(j,k)²,  d i j = ∑ k zp(i,k) · zs(j,k),  so that the squared
  distance between them is q i + c j − 2 d i j.

  The reference forms the whole 2048 × 16384 table of squared distances divided by 128, takes the minimum of each
  row (a reduction by minimum from +∞), sums the 2048 minima and divides by 2048 (nct_reference).

  The kernel's program first lays the keys' norms c out as a row (nct_sqk); a pipelined region then leaves, for each
  query, the running minimum over the keys of c j − 2 d i j; afterwards the program adds the query's norm q i to that
  minimum, sums over the queries and divides by 2048 and then by 128 (nct_kernel).

  Each host operation is read at an index: a sum along an axis is the initial value plus the sum of the entries, a
  broadcast or a transpose only renames indices, a product of matrices at an entry is the sum over the contracted
  index, a quotient is entrywise, and the literal words denote 0, 2, 128, 2048 and +∞. On finite data the two values
  agree, because a minimum over a nonempty finite set commutes with adding a constant and with dividing by a
  positive one, and the two divisions of the mean may be taken in either order (MinShift.K_eq_R): nct_eq.
-/
import proofs.«130977_j54631984005498_2_alg».proof.Proof.Gen.KernelIdeal.Launch
import proofs.«130977_j54631984005498_2_alg».proof.Proof.RefOpsList1
import proofs.«130977_j54631984005498_2_alg».proof.Proof.RefOpsList2
import proofs.«130977_j54631984005498_2_alg».proof.Proof.LibMinShift
import proofs.«130977_j54631984005498_2_alg».proof.Proof.LibIdealFinite
import proofs.«130977_j54631984005498_2_alg».proof.Proof.LibAfterCut
import Idealize.ShloMosaic.Lib.StableHlo.Run
import Idealize.ShloMosaic.Lib.ValueIdx
import Idealize.ShloMosaic.Lib.ValueIdxRank1
import Idealize.ShloMosaic.Lib.ValueLayout
import Idealize.ShloMosaic.Lib.IdealHost
import Idealize.ShloMosaic.Lib.Pipeline.Value
import Idealize.ShloMosaic.PureOps.Ideal.Laws
import Idealize.ShloMosaic.PureOps.Reduce

noncomputable section

namespace Cert.NctBridge

open Idealize.ShloMosaic Idealize.ShloMosaic.ValueIdx Idealize.ShloMosaic.StableHlo Idealize.SL.Sem
open scoped BigOperators

/-! ## Host operations read at an index -/

/-- A sum along the second axis of a matrix, from an initial scalar: at row i, the scalar plus the sum of the row. -/
theorem reduceAdd_axis1 {n m : ℕ} {φ : FTy} (x : FVec Ideal ⟨2, ![n, m]⟩ φ) (init : (⟨0, ![]⟩ : Shape).Idx → EReal)
    (h' : (⟨2, ![n, m]⟩ : Shape).ReducesTo [1] ⟨1, ![n]⟩) (hu : 0 < (⟨0, ![]⟩ : Shape).numel) (i : Fin n) :
    Host.reduceAdd x init h' hu (ix1 i) = init ix0 + ∑ k : Fin m, x (ix2 i k) := by
  have h : (⟨2, ![n, m]⟩ : Shape).Reduces [1] ⟨1, ![n]⟩ := ⟨h'.1, Nat.one_pos, h'.2⟩
  have hl : ∀ k : Fin m, h.lift (ix1 i) k = ix2 i k := fun k => funext fun c => Fin.ext (by
    match c with
    | ⟨0, _⟩ => rfl
    | ⟨1, _⟩ => rfl)
  rw [hostReduceAdd_apply, Ideal.hostReduceAdd_single h' h, eq_ix0 (Shape.Idx.first hu)]
  exact congrArg (init ix0 + ·) (Finset.sum_congr rfl fun k _ => by rw [hl k])

/-- The sum of all entries of a vector, from an initial scalar. -/
theorem reduceAdd_total_vec {n : ℕ} {φ : FTy} (x : FVec Ideal ⟨1, ![n]⟩ φ) (init : (⟨0, ![]⟩ : Shape).Idx → EReal)
    (h' : (⟨1, ![n]⟩ : Shape).ReducesTo [0] ⟨0, ![]⟩) (hu : 0 < (⟨0, ![]⟩ : Shape).numel) (j : (⟨0, ![]⟩ : Shape).Idx) :
    Host.reduceAdd x init h' hu j = init ix0 + ∑ i : Fin n, x (ix1 i) := by
  rw [hostReduceAdd_apply, Ideal.hostReduceAdd_total h' (fun b => b.elim0), eq_ix0 (Shape.Idx.first hu),
    ← Equiv.sum_comp (idxEquiv1 (n := n)).symm]
  rfl

/-- A minimum along the second axis of a matrix, from an initial scalar: at row i, the minimum of the scalar and the
    infimum of the row. -/
theorem reduceMin_axis1 {n m : ℕ} {φ : FTy} (x : FVec Ideal ⟨2, ![n, m]⟩ φ) (init : (⟨0, ![]⟩ : Shape).Idx → EReal)
    (h' : (⟨2, ![n, m]⟩ : Shape).ReducesTo [1] ⟨1, ![n]⟩) (hu : 0 < (⟨0, ![]⟩ : Shape).numel) (i : Fin n) :
    Host.reduce (FloatOps.minimumf (F := Ideal) (φ := φ)) x init h' hu (ix1 i)
      = min (init ix0) ((Finset.univ : Finset (Fin m)).inf fun j => x (ix2 i j)) := by
  have h : (⟨2, ![n, m]⟩ : Shape).Reduces [1] ⟨1, ![n]⟩ := ⟨h'.1, Nat.one_pos, h'.2⟩
  have hl : ∀ k : Fin m, h.lift (ix1 i) k = ix2 i k := fun k => funext fun c => Fin.ext (by
    match c with
    | ⟨0, _⟩ => rfl
    | ⟨1, _⟩ => rfl)
  rw [Host.reduce_eq_fold_single (FloatOps.minimumf (F := Ideal) (φ := φ)) x init h' h hu, MinShift.fold_minimumf_eq_min_inf,
    eq_ix0 (Shape.Idx.first hu)]
  exact congrArg (min (init ix0)) (Finset.inf_congr rfl fun k _ => by rw [Function.comp_apply, hl k])

/-- A column made of a vector: entry (i, 0) is entry i. -/
theorem bcast_col_apply {n : ℕ} {α : Type} (hn : n ≠ 1) (h : (⟨1, ![n]⟩ : Shape).BroadcastsInDim ⟨2, ![n, 1]⟩ ![0])
    (x : (⟨1, ![n]⟩ : Shape).Idx → α) (i : Fin n) (z : Fin 1) :
    broadcastInDim ⟨2, ![n, 1]⟩ ![0] h x (ix2 i z) = x (ix1 i) :=
  broadcastInDim_apply _ h x _ (ix1 i) fun a => by
    match a with
    | ⟨0, _⟩ => show i.val = if n = 1 then 0 else i.val; rw [if_neg hn]

/-- A row made of a vector: entry (0, j) is entry j. -/
theorem bcast_row_apply {n : ℕ} {α : Type} (hn : n ≠ 1) (h : (⟨1, ![n]⟩ : Shape).BroadcastsInDim ⟨2, ![1, n]⟩ ![1])
    (x : (⟨1, ![n]⟩ : Shape).Idx → α) (z : Fin 1) (j : Fin n) :
    broadcastInDim ⟨2, ![1, n]⟩ ![1] h x (ix2 z j) = x (ix1 j) :=
  broadcastInDim_apply _ h x _ (ix1 j) fun a => by
    match a with
    | ⟨0, _⟩ => show j.val = if n = 1 then 0 else j.val; rw [if_neg hn]

/-- A column spread over the columns of a matrix: entry (i, j) is the column's entry i. -/
theorem bcast_colmat_apply {n m : ℕ} {α : Type} (hn : n ≠ 1) (h : (⟨2, ![n, 1]⟩ : Shape).BroadcastsInDim ⟨2, ![n, m]⟩ ![0, 1])
    (x : (⟨2, ![n, 1]⟩ : Shape).Idx → α) (i : Fin n) (j : Fin m) :
    broadcastInDim ⟨2, ![n, m]⟩ ![0, 1] h x (ix2 i j) = x (ix2 i 0) :=
  broadcastInDim_apply _ h x _ (ix2 i 0) fun a => by
    match a with
    | ⟨0, _⟩ => show i.val = if n = 1 then 0 else i.val; rw [if_neg hn]
    | ⟨1, _⟩ => rfl

/-- A row spread over the rows of a matrix: entry (i, j) is the row's entry j. -/
theorem bcast_rowmat_apply {n m : ℕ} {α : Type} (hm : m ≠ 1) (h : (⟨2, ![1, m]⟩ : Shape).BroadcastsInDim ⟨2, ![n, m]⟩ ![0, 1])
    (x : (⟨2, ![1, m]⟩ : Shape).Idx → α) (i : Fin n) (j : Fin m) :
    broadcastInDim ⟨2, ![n, m]⟩ ![0, 1] h x (ix2 i j) = x (ix2 0 j) :=
  broadcastInDim_apply _ h x _ (ix2 0 j) fun a => by
    match a with
    | ⟨0, _⟩ => rfl
    | ⟨1, _⟩ => show j.val = if m = 1 then 0 else j.val; rw [if_neg hm]

/-! ## The kernel program's side -/

section Kernel
open Cert.KernelIdeal Cert.KernelIdeal.Gen

/-- Buffer contents of the kernel program at the ideal reading of floats. -/
abbrev KVal := Valuation Cert.KernelIdeal.τ Cert.KernelIdeal.sig (Elt Ideal)

/-- The kernel program's buffers that the nearest-neighbour term reads, as float arrays: the projected queries, the
    gathered keys, the keys' squared norms as a row, the column of running minima the region leaves, and the term. -/
abbrev kv86 (V : KVal) : FVec Ideal S2048x128 .f32 := V (Proc.devRef .tc main_v86)
abbrev kv93 (V : KVal) : FVec Ideal S16384x128 .f32 := V (Proc.devRef .tc main_v93)
abbrev kv97 (V : KVal) : FVec Ideal S1x16384 .f32 := V (Proc.devRef .tc main_v97)
abbrev kv98 (V : KVal) : FVec Ideal S2048x1 .f32 := V (Proc.devRef .tc main_v98)
abbrev kv105 (V : KVal) : FVec Ideal S_ .f32 := V (Proc.devRef .tc main_v105)

theorem sqk_tail_v93 (W : KVal) :
    after ((hostOps0_8 (F := Ideal)).drop 14) W (Proc.devRef .tc main_v93) = W (Proc.devRef .tc main_v93) := by
  simp only [hostOps0_8, List.drop]; after_results_simp

theorem sqk_tail_v97 (W : KVal) :
    after ((hostOps0_8 (F := Ideal)).drop 14) W (Proc.devRef .tc main_v97)
      = transpose S1x16384 [1, 0] (broadcastInDim S16384x1 ![0] bcast_S16384_S16384x1_0
          (Host.reduceAdd (F := Ideal) (φ := .f32)
            (mulf (F := Ideal) (s := S16384x128) (φ := .f32) (W (Proc.devRef .tc main_v93)) (W (Proc.devRef .tc main_v93)))
            (constant (F := Ideal) S_ .f32 0x00000000#32) reducesTo_S16384x128_S16384_d1 h_S_))
          transposes_S16384x1_S1x16384_1_0 := by
  simp only [hostOps0_8, List.drop]; after_results_simp

/-- The keys' squared norms as a row: entry (0, j) of the row the first stretch leaves is the sum of the squares of
    row j of the gathered keys. -/
theorem nct_sqk (V : KVal) (j : Fin 16384) :
    kv97 (after (hostOps0_8 (F := Ideal)) V) (ix2 0 j)
      = ∑ k : Fin 128, kv93 (after (hostOps0_8 (F := Ideal)) V) (ix2 j k) * kv93 (after (hostOps0_8 (F := Ideal)) V) (ix2 j k) := by
  rw [AfterCut.after_take_drop (hostOps0_8 (F := Ideal)) 14 V]
  generalize after ((hostOps0_8 (F := Ideal)).take 14) V = W
  dsimp only [kv97, kv93]
  rw [sqk_tail_v97 W, sqk_tail_v93 W, transpose_ix2_apply, bcast_col_apply (by decide), reduceAdd_axis1, constant_apply,
    IdealFinite.ofBits_00000000, EReal.coe_zero, zero_add]
  rfl

theorem kernel_tail_v105 (V1 : KVal) :
    after (hostOps1 (F := Ideal)) V1 (Proc.devRef .tc main_v105)
      = Host.divf (F := Ideal) (s := S_) (φ := .f32)
          (Host.divf (F := Ideal) (s := S_) (φ := .f32)
            (Host.reduceAdd (F := Ideal) (φ := .f32)
              (addf (F := Ideal) (s := S2048x1) (φ := .f32) (V1 (Proc.devRef .tc main_v98))
                (broadcastInDim S2048x1 ![0] bcast_S2048_S2048x1_0
                  (Host.reduceAdd (F := Ideal) (φ := .f32)
                    (mulf (F := Ideal) (s := S2048x128) (φ := .f32) (V1 (Proc.devRef .tc main_v86)) (V1 (Proc.devRef .tc main_v86)))
                    (constant (F := Ideal) S_ .f32 0x00000000#32) reducesTo_S2048x128_S2048_d1 h_S_)))
              (constant (F := Ideal) S_ .f32 0x00000000#32) reducesTo_S2048x1_S_d0_1 h_S_)
            (constant (F := Ideal) S_ .f32 0x45000000#32))
          (constant (F := Ideal) S_ .f32 0x43000000#32) := by
  simp only [hostOps1]; after_results_simp

/-- The sum of all entries of a one-column matrix, from an initial scalar. -/
theorem reduceAdd_total_col {n : ℕ} {φ : FTy} (x : FVec Ideal ⟨2, ![n, 1]⟩ φ) (init : (⟨0, ![]⟩ : Shape).Idx → EReal)
    (h' : (⟨2, ![n, 1]⟩ : Shape).ReducesTo [0, 1] ⟨0, ![]⟩) (hu : 0 < (⟨0, ![]⟩ : Shape).numel) (j : (⟨0, ![]⟩ : Shape).Idx) :
    Host.reduceAdd x init h' hu j = init ix0 + ∑ i : Fin n, x (ix2 i 0) := by
  rw [hostReduceAdd_apply, Ideal.hostReduceAdd_total h' (fun b => b.elim0), eq_ix0 (Shape.Idx.first hu), sum_idx2]
  exact congrArg (init ix0 + ·) (Finset.sum_congr rfl fun i _ => Fin.sum_univ_one _)

/-- The kernel program's loss from the running minima the region leaves: the minima plus the queries' squared
    norms, summed, divided by 2048 and by 128. -/
theorem nct_kernel (V1 : KVal) :
    kv105 (after (hostOps1 (F := Ideal)) V1)
      = fun _ => Ideal.div (Ideal.div (∑ i : Fin 2048, (kv98 V1 (ix2 i 0)
          + ∑ k : Fin 128, kv86 V1 (ix2 i k) * kv86 V1 (ix2 i k))) ((2048 : ℝ) : EReal)) ((128 : ℝ) : EReal) := by
  dsimp only [kv105]
  rw [kernel_tail_v105]
  funext j
  rw [hostDivf_apply, hostDivf_apply, constant_apply, constant_apply, IdealFinite.ofBits_45000000, IdealFinite.ofBits_43000000,
    reduceAdd_total_col, constant_apply, IdealFinite.ofBits_00000000, EReal.coe_zero, zero_add]
  refine congrArg (fun s => Ideal.div (Ideal.div s ((2048 : ℝ) : EReal)) ((128 : ℝ) : EReal)) (Finset.sum_congr rfl fun i _ => ?_)
  rw [addf_apply, bcast_col_apply (by decide), reduceAdd_axis1, constant_apply, IdealFinite.ofBits_00000000, EReal.coe_zero, zero_add]
  rfl

end Kernel

/-! ## The reference program's side -/

section Reference
open Cert.ReferenceIdeal Cert.ReferenceIdeal.Gen Cert.ReferenceIdeal.Hand

/-- Buffer contents of the reference program at the ideal reading of floats. -/
abbrev RVal := Valuation Cert.ReferenceIdeal.τ Cert.ReferenceIdeal.sig (Elt Ideal)

abbrev rv86 (V : RVal) : FVec Ideal S2048x128 .f32 := V (Proc.devRef .tc main_v86)
abbrev rv93 (V : RVal) : FVec Ideal S16384x128 .f32 := V (Proc.devRef .tc main_v93)
abbrev rv112 (V : RVal) : FVec Ideal S_ .f32 := V (Proc.devRef .tc main_v112)

/-- The reference's operations from the queries' squares to the mean of the nearest-neighbour distances. -/
abbrev segNctR : List (HloOp Cert.ReferenceIdeal.τ Cert.ReferenceIdeal.sig (Elt Ideal)) :=
  (ops1 (F := Ideal)).drop 76 ++ (ops2 (F := Ideal)).take 21

set_option maxHeartbeats 1000000 in
theorem ref_tail_v112 (V' : RVal) :
    after segNctR V' (Proc.devRef .tc main_v112)
      = Host.divf (F := Ideal) (s := S_) (φ := .f32)
          (Host.reduceAdd (F := Ideal) (φ := .f32)
            (Host.reduce (FloatOps.minimumf (F := Ideal) (φ := .f32))
              (Host.divf (F := Ideal) (s := S2048x16384) (φ := .f32)
                (subf (F := Ideal) (s := S2048x16384) (φ := .f32)
                  (addf (F := Ideal) (s := S2048x16384) (φ := .f32)
                    (broadcastInDim S2048x16384 ![0, 1] bcast_S2048x1_S2048x16384_0_1
                      (broadcastInDim S2048x1 ![0] bcast_S2048_S2048x1_0
                        (Host.reduceAdd (F := Ideal) (φ := .f32)
                          (mulf (F := Ideal) (s := S2048x128) (φ := .f32) (V' (Proc.devRef .tc main_v86)) (V' (Proc.devRef .tc main_v86)))
                          (constant (F := Ideal) S_ .f32 0x00000000#32) reducesTo_S2048x128_S2048_d1 h_S_)))
                    (broadcastInDim S2048x16384 ![0, 1] bcast_S1x16384_S2048x16384_0_1
                      (broadcastInDim S1x16384 ![1] bcast_S16384_S1x16384_1
                        (Host.reduceAdd (F := Ideal) (φ := .f32)
                          (mulf (F := Ideal) (s := S16384x128) (φ := .f32) (V' (Proc.devRef .tc main_v93)) (V' (Proc.devRef .tc main_v93)))
                          (constant (F := Ideal) S_ .f32 0x00000000#32) reducesTo_S16384x128_S16384_d1 h_S_))))
                  (mulf (F := Ideal) (s := S2048x16384) (φ := .f32)
                    (broadcastInDim S2048x16384 ![] bcast_S_S2048x16384 (constant (F := Ideal) S_ .f32 0x40000000#32))
                    (Host.dotGeneral (F := Ideal) (φ₁ := .f32) (φ₂ := .f32) dot_S2048x128_S128x16384_S2048x16384_1_0_0_1_n_n none
                      (V' (Proc.devRef .tc main_v86))
                      (transpose S128x16384 [1, 0] (V' (Proc.devRef .tc main_v93)) transposes_S16384x128_S128x16384_1_0))))
                (broadcastInDim S2048x16384 ![] bcast_S_S2048x16384 (constant (F := Ideal) S_ .f32 0x43000000#32)))
              (constant (F := Ideal) S_ .f32 0x7F800000#32) reducesTo_S2048x16384_S2048_d1 h_S_)
            (constant (F := Ideal) S_ .f32 0x00000000#32) reducesTo_S2048_S_d0 h_S_)
          (constant (F := Ideal) S_ .f32 0x45000000#32) := by
  simp only [segNctR, ops1, ops2, List.drop, List.take, List.cons_append, List.nil_append]; after_results_simp

/-! The product of the queries with the transposed keys, read at an entry. -/

theorem ref_dot_lhs0 (i : S2048x16384.Idx) (q : dot_S2048x128_S128x16384_S2048x16384_1_0_0_1_n_n.contr.Idx) :
    (dot_S2048x128_S128x16384_S2048x16384_1_0_0_1_n_n.lhsIdx i q 0).val = (i 0).val := by
  unfold DotDims.lhsIdx
  rw [dif_neg (show ¬(0 : Fin S2048x128.rank) ∈ dot_S2048x128_S128x16384_S2048x16384_1_0_0_1_n_n.lhsBatch by decide),
    dif_pos (show (0 : Fin S2048x128.rank) ∈ dot_S2048x128_S128x16384_S2048x16384_1_0_0_1_n_n.lhsNonContracting by decide)]
  rfl
theorem ref_dot_lhs1 (i : S2048x16384.Idx) (q : dot_S2048x128_S128x16384_S2048x16384_1_0_0_1_n_n.contr.Idx) :
    (dot_S2048x128_S128x16384_S2048x16384_1_0_0_1_n_n.lhsIdx i q 1).val = (q ⟨0, by decide⟩).val :=
  dot_S2048x128_S128x16384_S2048x16384_1_0_0_1_n_n.lhsIdx_val_of_single rfl i q
theorem ref_dot_rhs0 (i : S2048x16384.Idx) (q : dot_S2048x128_S128x16384_S2048x16384_1_0_0_1_n_n.contr.Idx) :
    (dot_S2048x128_S128x16384_S2048x16384_1_0_0_1_n_n.rhsIdx i q 0).val = (q ⟨0, by decide⟩).val :=
  dot_S2048x128_S128x16384_S2048x16384_1_0_0_1_n_n.rhsIdx_val_of_single rfl i q
theorem ref_dot_rhs1 (i : S2048x16384.Idx) (q : dot_S2048x128_S128x16384_S2048x16384_1_0_0_1_n_n.contr.Idx) :
    (dot_S2048x128_S128x16384_S2048x16384_1_0_0_1_n_n.rhsIdx i q 1).val = (i 1).val := by
  unfold DotDims.rhsIdx
  rw [dif_neg (show ¬(1 : Fin S128x16384.rank) ∈ dot_S2048x128_S128x16384_S2048x16384_1_0_0_1_n_n.rhsBatch by decide),
    dif_pos (show (1 : Fin S128x16384.rank) ∈ dot_S2048x128_S128x16384_S2048x16384_1_0_0_1_n_n.rhsNonContracting by decide)]
  rfl

/-- Entry (i, j) of the product: the sum over the 128 features of query i's entry times the right factor's entry (k, j). -/
theorem ref_dot_apply (l : FVec Ideal S2048x128 .f32) (r : FVec Ideal S128x16384 .f32) (i : Fin 2048) (j : Fin 16384) :
    Host.dotGeneral (F := Ideal) dot_S2048x128_S128x16384_S2048x16384_1_0_0_1_n_n none l r (ix2 i j)
      = ∑ k : Fin 128, l (ix2 i k) * r (ix2 k j) := by
  simp only [Host.dotGeneral]
  rw [Ideal.dotGeneral_apply, ← Equiv.sum_comp (contrEquiv1 dot_S2048x128_S128x16384_S2048x16384_1_0_0_1_n_n 128 rfl rfl).symm]
  refine Finset.sum_congr rfl fun k _ => ?_
  have hk := contrEquiv1_symm_val dot_S2048x128_S128x16384_S2048x16384_1_0_0_1_n_n 128 rfl rfl k
  have el : dot_S2048x128_S128x16384_S2048x16384_1_0_0_1_n_n.lhsIdx (ix2 i j)
      ((contrEquiv1 dot_S2048x128_S128x16384_S2048x16384_1_0_0_1_n_n 128 rfl rfl).symm k) = ix2 i k :=
    funext fun a => Fin.ext (by
      match a with
      | ⟨0, _⟩ => exact ref_dot_lhs0 _ _
      | ⟨1, _⟩ => exact (ref_dot_lhs1 _ _).trans hk)
  have er : dot_S2048x128_S128x16384_S2048x16384_1_0_0_1_n_n.rhsIdx (ix2 i j)
      ((contrEquiv1 dot_S2048x128_S128x16384_S2048x16384_1_0_0_1_n_n 128 rfl rfl).symm k) = ix2 k j :=
    funext fun a => Fin.ext (by
      match a with
      | ⟨0, _⟩ => exact (ref_dot_rhs0 _ _).trans hk
      | ⟨1, _⟩ => exact ref_dot_rhs1 _ _)
  rw [el, er]

/-- The reference's loss: for each query the minimum over the keys of the squared distance divided by 128, summed
    over the queries and divided by 2048. -/
theorem nct_reference (V' : RVal) :
    rv112 (after segNctR V')
      = fun _ => Ideal.div (∑ i : Fin 2048, (Finset.univ : Finset (Fin 16384)).inf fun j =>
          Ideal.div (((∑ k : Fin 128, rv86 V' (ix2 i k) * rv86 V' (ix2 i k)) + (∑ k : Fin 128, rv93 V' (ix2 j k) * rv93 V' (ix2 j k)))
            - 2 * ∑ k : Fin 128, rv86 V' (ix2 i k) * rv93 V' (ix2 j k)) ((128 : ℝ) : EReal)) ((2048 : ℝ) : EReal) := by
  dsimp only [rv112]
  rw [ref_tail_v112]
  funext j0
  rw [hostDivf_apply, constant_apply, IdealFinite.ofBits_45000000, reduceAdd_total_vec, constant_apply, IdealFinite.ofBits_00000000,
    EReal.coe_zero, zero_add]
  refine congrArg (fun s => Ideal.div s ((2048 : ℝ) : EReal)) (Finset.sum_congr rfl fun i _ => ?_)
  rw [reduceMin_axis1, constant_apply, IdealFinite.ofBits_7F800000, MinShift.top_min]
  refine Finset.inf_congr rfl fun j _ => ?_
  rw [hostDivf_apply, broadcastInDim_scalar_apply, constant_apply, IdealFinite.ofBits_43000000, subf_apply, addf_apply,
    bcast_colmat_apply (by decide), bcast_col_apply (by decide), reduceAdd_axis1,
    bcast_rowmat_apply (by decide), bcast_row_apply (by decide), reduceAdd_axis1,
    mulf_apply, broadcastInDim_scalar_apply, ref_dot_apply]
  have ht : ∀ k : Fin 128, transpose S128x16384 [1, 0] (V' (Proc.devRef .tc main_v93)) transposes_S16384x128_S128x16384_1_0 (ix2 k j)
      = rv93 V' (ix2 j k) := fun k => transpose_ix2_apply (rv93 V') transposes_S16384x128_S128x16384_1_0 k j
  simp only [constant_apply, IdealFinite.ofBits_00000000, IdealFinite.ofBits_40000000, EReal.coe_zero, zero_add, mulf_apply,
    ht, ← MinShift.two_eq_coe] <;> rfl

end Reference

/-! ## The two values agree -/

/-- On finite queries and keys, the keys' norms laid out as the row the first stretch leaves, and the region's column
    holding for each query the minimum over the keys of (key norm − 2 · inner product): the reference's term is the
    kernel program's term. -/
theorem nct_eq (V1 : KVal) (V' : RVal)
    (hzp : rv86 V' = kv86 V1) (hzs : rv93 V' = kv93 V1)
    (hfp : IdealFinite.AllFin (kv86 V1)) (hfs : IdealFinite.AllFin (kv93 V1))
    (hsqk : ∀ j : Fin 16384, kv97 V1 (ix2 0 j) = ∑ k : Fin 128, kv93 V1 (ix2 j k) * kv93 V1 (ix2 j k))
    (hreg : ∀ i : Fin 2048, kv98 V1 (ix2 i 0) = (Finset.univ : Finset (Fin 16384)).inf fun j =>
        (kv97 V1 (ix2 0 j) - 2 * ∑ k : Fin 128, kv86 V1 (ix2 i k) * kv93 V1 (ix2 j k))) :
    rv112 (after segNctR V') = kv105 (after (Cert.KernelIdeal.Gen.hostOps1 (F := Ideal)) V1) := by
  rw [nct_reference, nct_kernel, hzp, hzs]
  have hfp' : ∀ i, ∃ r : ℝ, kv86 V1 i = (r : EReal) := hfp
  have hfs' : ∀ i, ∃ r : ℝ, kv93 V1 i = (r : EReal) := hfs
  choose zp hzp' using hfp'
  choose zs hzs' using hfs'
  have hq : ∀ i : Fin 2048, ∑ k : Fin 128, kv86 V1 (ix2 i k) * kv86 V1 (ix2 i k)
      = ((∑ k : Fin 128, zp (ix2 i k) * zp (ix2 i k) : ℝ) : EReal) := fun i => by
    rw [← MinShift.coe_sum]
    exact Finset.sum_congr rfl fun k _ => by rw [hzp', EReal.coe_mul]
  have hc : ∀ j : Fin 16384, ∑ k : Fin 128, kv93 V1 (ix2 j k) * kv93 V1 (ix2 j k)
      = ((∑ k : Fin 128, zs (ix2 j k) * zs (ix2 j k) : ℝ) : EReal) := fun j => by
    rw [← MinShift.coe_sum]
    exact Finset.sum_congr rfl fun k _ => by rw [hzs', EReal.coe_mul]
  have hd : ∀ (i : Fin 2048) (j : Fin 16384), ∑ k : Fin 128, kv86 V1 (ix2 i k) * kv93 V1 (ix2 j k)
      = ((∑ k : Fin 128, zp (ix2 i k) * zs (ix2 j k) : ℝ) : EReal) := fun i j => by
    rw [← MinShift.coe_sum]
    exact Finset.sum_congr rfl fun k _ => by rw [hzp', hzs', EReal.coe_mul]
  funext _
  simp only [hreg, hsqk, hq, hc, hd]
  exact (MinShift.K_eq_R (A := 2048) (B := 16384) (by norm_num)
    (fun i => ∑ k : Fin 128, zp (ix2 i k) * zp (ix2 i k)) (fun j => ∑ k : Fin 128, zs (ix2 j k) * zs (ix2 j k))
    (fun i j => ∑ k : Fin 128, zp (ix2 i k) * zs (ix2 j k)) (M := 2048) (D := 128) (by norm_num) (by norm_num)).symm

end Cert.NctBridge
-- ==== Proof.AsmNct.lean ====
/-
  The nearest-neighbour step of the comparison. The kernel's later operations start from contents in which the query
  array and the gathered keys are as the region found them, the row of key norms holds each key's squared norm, and the
  region's result holds, in row i, the least over all keys j of (squared norm of key j) − 2 · (query i · key j).
  The reference computes the mean of min_j (‖q_i‖² + ‖k_j‖² − 2 q_i·k_j) / 128 directly. On real-valued queries and
  keys that agree on the two sides the two losses are equal.
-/
import proofs.«130977_j54631984005498_2_alg».proof.Proof.KValue
import proofs.«130977_j54631984005498_2_alg».proof.Proof.KRegion
import proofs.«130977_j54631984005498_2_alg».proof.Proof.NctBridge
import proofs.«130977_j54631984005498_2_alg».proof.Proof.KBlocks
import proofs.«130977_j54631984005498_2_alg».proof.Proof.RBlocks

set_option maxRecDepth 65536

noncomputable section

namespace Cert.Asm

open Idealize.ShloMosaic Idealize.ShloMosaic.TcCoe Idealize.ShloMosaic.StableHlo
open Cert.NctBridge ValueIdx

section
open Cert.KernelIdeal Cert.KernelIdeal.Gen Cert.KernelIdeal.Hand

variable (m : (ℓ : Loc nD τ sig) → Buf (Elt Ideal) ℓ) (c : Dev nD)

/-- The region-entry contents and the contents with which the later operations start, as kernel valuations. -/
abbrev E0 : KVal := V0 (F := Ideal) m c
abbrev S0 : KVal := V1 (F := Ideal) m c

theorem S0_v86 : kv86 (S0 m c) = kv86 (E0 m c) := V1_in0 m c
theorem S0_v93 : kv93 (S0 m c) = kv93 (E0 m c) := V1_in1 m c
theorem S0_v97 : kv97 (S0 m c) = kv97 (E0 m c) := V1_in2 m c
theorem S0_v98 : kv98 (S0 m c) = (dats (F := Ideal) m 0 c).arrAt 3 cfg0.N := V1_arr m c 3

/-- The region-entry contents are the last stretch before the region folded over what came before it. -/
theorem E0_split : E0 m c = after (hostOps0_8 (F := Ideal))
    (after (List.flatten [hostOps0 (F := Ideal), hostOps0_1, hostOps0_2, hostOps0_3, hostOps0_4, hostOps0_5, hostOps0_6, hostOps0_7]) (fun b => m (c, b))) := by
  show after (List.flatten ([hostOps0 (F := Ideal), hostOps0_1, hostOps0_2, hostOps0_3, hostOps0_4, hostOps0_5, hostOps0_6, hostOps0_7] ++ [hostOps0_8])) _ = _
  rw [List.flatten_append, AfterCut.after_append]
  simp only [List.flatten_cons, List.flatten_nil, List.append_nil]

/-- The row of key norms holds each gathered key's squared norm. -/
theorem S0_sqk (j : Fin 16384) :
    kv97 (S0 m c) (ix2 0 j) = ∑ k : Fin 128, kv93 (S0 m c) (ix2 j k) * kv93 (S0 m c) (ix2 j k) := by
  rw [S0_v97, S0_v93, E0_split]
  exact nct_sqk _ j

/-- The region's result holds the row minima. -/
theorem S0_reg (i : Fin 2048) :
    kv98 (S0 m c) (ix2 i 0) = (Finset.univ : Finset (Fin 16384)).inf fun j =>
      (kv97 (S0 m c) (ix2 0 j) - 2 * ∑ k : Fin 128, kv86 (S0 m c) (ix2 i k) * kv93 (S0 m c) (ix2 j k)) := by
  rw [S0_v98, S0_v97, S0_v93, S0_v86]
  exact region_value m c i

/-- After the stretch that holds the nearest-neighbour operations, only its first eleven matter for the loss. -/
theorem hostOps1_tail_keeps : ∀ op ∈ (hostOps1 (F := Ideal)).drop 11, Proc.devRef (τ := τ) .tc main_v105 ∉ op.writes := by
  simp only [hostOps1, List.drop, List.mem_cons, List.mem_nil_iff, or_false, forall_eq_or_imp, forall_eq]
  repeat' constructor
  all_goals (simp only [StableHlo.nullary_writes, StableHlo.unary_writes, StableHlo.binary_writes, StableHlo.ternary_writes, Finset.mem_singleton]; exact StableHlo.devRef_ne_of_ne (by decide))

theorem kB1_eq : Cert.KernelIdeal.Blocks.kB1 (F := Ideal) = (hostOps1 (F := Ideal)).take 11 := rfl

theorem kernel_loss_at_block (V : KVal) :
    kv105 (after (Cert.KernelIdeal.Blocks.kB1 (F := Ideal)) V) = kv105 (after (hostOps1 (F := Ideal)) V) := by
  rw [kB1_eq]
  exact (AfterCut.after_eq_take (hostOps1 (F := Ideal)) 11 V hostOps1_tail_keeps).symm

end

theorem rB1_eq : Cert.ReferenceIdeal.Blocks.rB1 (F := Ideal) = segNctR := rfl

/-- THE STEP: the reference's loss after its nearest-neighbour block is the kernel's after its own. -/
theorem nct_step (m : (ℓ : Loc Cert.KernelIdeal.nD Cert.KernelIdeal.τ Cert.KernelIdeal.sig) → Buf (Elt Ideal) ℓ) (c : Dev Cert.KernelIdeal.nD)
    (R0 : RVal) (hzp : rv86 R0 = kv86 (E0 m c)) (hzs : rv93 R0 = kv93 (E0 m c))
    (hfp : IdealFinite.AllFin (kv86 (E0 m c))) (hfs : IdealFinite.AllFin (kv93 (E0 m c))) :
    rv112 (after (Cert.ReferenceIdeal.Blocks.rB1 (F := Ideal)) R0) = kv105 (after (Cert.KernelIdeal.Blocks.kB1 (F := Ideal)) (S0 m c)) := by
  rw [rB1_eq, kernel_loss_at_block]
  exact nct_eq (S0 m c) R0 (hzp.trans (S0_v86 m c).symm) (hzs.trans (S0_v93 m c).symm)
    (by rw [S0_v86]; exact hfp) (by rw [S0_v93]; exact hfs) (S0_sqk m c) (S0_reg m c)

end Cert.Asm

end
-- ==== Proof.LibGramResidual.lean ====
/-
  The Gram matrix of centred least-squares residuals, in closed form.

  Data: a real matrix x with N rows (samples) and d columns (variables).  Centre every
  column (xc), form the Gram matrix  S i j = ∑ₙ xc n i · xc n j  of the centred data and the
  column energies  s2 i = S i i.  Regress every column i on one chosen column j by least
  squares: slope  a j i = S j i / s2 j,  intercept  b j i = mean i - a j i · mean j,  residual
  R j n i = x n i - (x n j · a j i + b j i).

  THEOREM 1.  The residual is  xc n i - a j i · xc n j;  its mean over the samples is zero
  (a centred column sums to zero), so centring it once more changes nothing, and the Gram
  matrix of the centred residuals is the Schur complement
        GR j i k = S i k - S j i · S j k / s2 j            (whenever s2 j ≠ 0).

  THEOREM 2.  If s2 j = 0 then the centred column j vanishes identically (a sum of real
  squares is zero only when every square is), hence the whole row  S j ·  vanishes.

  THEOREM 3.  The same quantities written in the extended reals, with the quotient that is
  x · y⁻¹ off a zero divisor and ⊤ / ⊥ / ⊥ at a zero divisor for a positive / negative / zero
  dividend.  On finite data (every entry a coerced real) each extended quantity is the
  coercion of its real namesake as long as no zero divisor is met, so Theorem 1 carries
  over; at a degenerate column (s2 j = 0) the correlation entry  (S j i)² / (s2 j · s2 i)  is
  0 / 0,  which that quotient reads as ⊥.  Last, the absorption laws of ⊥ in the extended
  reals: a finite sum with a ⊥ term is ⊥, and a positive finite multiple of ⊥ is ⊥.
-/
import Mathlib.Data.Real.Basic
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Group.Finset
import Mathlib.Tactic.Ring
import Mathlib.Tactic.FieldSimp
import Idealize.ShloMosaic.PureOps.Ideal

noncomputable section

namespace GramResidual

open scoped BigOperators

/-- The extended-real quotient with its zero-divisor corners. -/
local notation "ediv" => Idealize.ShloMosaic.Ideal.div

variable {N d : ℕ}

/-! ### The real quantities -/

/-- Column mean. -/
def mean (x : Fin N → Fin d → ℝ) (i : Fin d) : ℝ := (∑ n, x n i) / (N : ℝ)

/-- Centred data. -/
def xc (x : Fin N → Fin d → ℝ) (n : Fin N) (i : Fin d) : ℝ := x n i - mean x i

/-- Column energy: the sum of squares of a centred column. -/
def s2 (x : Fin N → Fin d → ℝ) (i : Fin d) : ℝ := ∑ n, xc x n i * xc x n i

/-- Gram matrix of the centred data. -/
def S (x : Fin N → Fin d → ℝ) (i j : Fin d) : ℝ := ∑ n, xc x n i * xc x n j

/-- Least-squares slope of column i on column j. -/
def a (x : Fin N → Fin d → ℝ) (j i : Fin d) : ℝ := S x j i / s2 x j

/-- Least-squares intercept of column i on column j. -/
def b (x : Fin N → Fin d → ℝ) (j i : Fin d) : ℝ := mean x i - a x j i * mean x j

/-- Residual of column i after regressing on column j. -/
def R (x : Fin N → Fin d → ℝ) (j : Fin d) (n : Fin N) (i : Fin d) : ℝ :=
  x n i - (x n j * a x j i + b x j i)

/-- Mean of the residual. -/
def Rm (x : Fin N → Fin d → ℝ) (j i : Fin d) : ℝ := (∑ n, R x j n i) / (N : ℝ)

/-- Centred residual. -/
def Rc (x : Fin N → Fin d → ℝ) (j : Fin d) (n : Fin N) (i : Fin d) : ℝ := R x j n i - Rm x j i

/-- Gram matrix of the centred residuals. -/
def GR (x : Fin N → Fin d → ℝ) (j i k : Fin d) : ℝ := ∑ n, Rc x j n i * Rc x j n k

/-- The closed form: the Schur complement of the entry (j, j) in the Gram matrix. -/
def GK (x : Fin N → Fin d → ℝ) (j i k : Fin d) : ℝ := S x i k - (S x j i * S x j k) / s2 x j

/-! ### Theorem 1 -/

theorem s2_eq_S (x : Fin N → Fin d → ℝ) (i : Fin d) : s2 x i = S x i i := rfl

theorem S_symm (x : Fin N → Fin d → ℝ) (i j : Fin d) : S x i j = S x j i :=
  Finset.sum_congr rfl (fun n _ => mul_comm _ _)

/-- A centred column sums to zero. -/
theorem sum_xc_eq_zero (hN : 0 < N) (x : Fin N → Fin d → ℝ) (i : Fin d) :
    ∑ n, xc x n i = 0 := by
  have hN' : (N : ℝ) ≠ 0 := Nat.cast_ne_zero.mpr hN.ne'
  have hm : (N : ℝ) * mean x i = ∑ n, x n i := by
    unfold mean
    field_simp
  unfold xc
  rw [Finset.sum_sub_distrib, Finset.sum_const, Finset.card_univ, Fintype.card_fin,
    nsmul_eq_mul, hm, sub_self]

/-- The residual in centred coordinates: the intercept absorbs both means. -/
theorem R_eq (x : Fin N → Fin d → ℝ) (j : Fin d) (n : Fin N) (i : Fin d) :
    R x j n i = xc x n i - a x j i * xc x n j := by
  unfold R b xc
  ring

/-- The residual has mean zero. -/
theorem Rm_eq_zero (hN : 0 < N) (x : Fin N → Fin d → ℝ) (j i : Fin d) : Rm x j i = 0 := by
  unfold Rm
  simp_rw [R_eq]
  rw [Finset.sum_sub_distrib, ← Finset.mul_sum, sum_xc_eq_zero hN, sum_xc_eq_zero hN,
    mul_zero, sub_zero, zero_div]

/-- Centring the residual changes nothing. -/
theorem Rc_eq (hN : 0 < N) (x : Fin N → Fin d → ℝ) (j : Fin d) (n : Fin N) (i : Fin d) :
    Rc x j n i = xc x n i - a x j i * xc x n j := by
  unfold Rc
  rw [Rm_eq_zero hN, sub_zero, R_eq]

/-- The residual Gram matrix as a bilinear expansion in the slopes. -/
theorem GR_expand (hN : 0 < N) (x : Fin N → Fin d → ℝ) (j i k : Fin d) :
    GR x j i k
      = S x i k - a x j k * S x i j - a x j i * S x j k + a x j i * a x j k * s2 x j := by
  have hpt : ∀ n, Rc x j n i * Rc x j n k
      = xc x n i * xc x n k - a x j k * (xc x n i * xc x n j)
        - a x j i * (xc x n j * xc x n k) + a x j i * a x j k * (xc x n j * xc x n j) := by
    intro n
    rw [Rc_eq hN, Rc_eq hN]
    ring
  unfold GR
  simp_rw [hpt]
  rw [Finset.sum_add_distrib, Finset.sum_sub_distrib, Finset.sum_sub_distrib,
    ← Finset.mul_sum, ← Finset.mul_sum, ← Finset.mul_sum]
  rfl

/-- THEOREM 1: the Gram matrix of the centred residuals is the Schur complement. -/
theorem GR_eq_GK (hN : 0 < N) (x : Fin N → Fin d → ℝ) (j i k : Fin d) (hs : s2 x j ≠ 0) :
    GR x j i k = GK x j i k := by
  rw [GR_expand hN, S_symm x i j]
  unfold GK a
  field_simp
  ring

/-! ### Theorem 2 -/

theorem xc_eq_zero_of_s2_eq_zero (x : Fin N → Fin d → ℝ) (j : Fin d) (hs : s2 x j = 0)
    (n : Fin N) : xc x n j = 0 := by
  unfold s2 at hs
  have h := (Finset.sum_eq_zero_iff_of_nonneg
    (fun n _ => mul_self_nonneg (xc x n j))).mp hs n (Finset.mem_univ n)
  exact mul_self_eq_zero.mp h

theorem S_eq_zero_of_s2_eq_zero (x : Fin N → Fin d → ℝ) (j : Fin d) (hs : s2 x j = 0)
    (i : Fin d) : S x j i = 0 :=
  Finset.sum_eq_zero (fun n _ => by rw [xc_eq_zero_of_s2_eq_zero x j hs n, zero_mul])

/-- THEOREM 2: a column of zero energy is constant, and its Gram row vanishes. -/
theorem degenerate (x : Fin N → Fin d → ℝ) (j : Fin d) (hs : s2 x j = 0) :
    (∀ n, xc x n j = 0) ∧ ∀ i, S x j i = 0 :=
  ⟨xc_eq_zero_of_s2_eq_zero x j hs, S_eq_zero_of_s2_eq_zero x j hs⟩

/-! ### The extended-real quantities -/

def meanE (X : Fin N → Fin d → EReal) (i : Fin d) : EReal :=
  ediv (∑ n, X n i) (((N : ℝ)) : EReal)

def xcE (X : Fin N → Fin d → EReal) (n : Fin N) (i : Fin d) : EReal := X n i - meanE X i

def s2E (X : Fin N → Fin d → EReal) (i : Fin d) : EReal := ∑ n, xcE X n i * xcE X n i

def SE (X : Fin N → Fin d → EReal) (i j : Fin d) : EReal := ∑ n, xcE X n i * xcE X n j

def aE (X : Fin N → Fin d → EReal) (j i : Fin d) : EReal := ediv (SE X j i) (s2E X j)

def bE (X : Fin N → Fin d → EReal) (j i : Fin d) : EReal := meanE X i - aE X j i * meanE X j

def RE (X : Fin N → Fin d → EReal) (j : Fin d) (n : Fin N) (i : Fin d) : EReal :=
  X n i - (X n j * aE X j i + bE X j i)

def RmE (X : Fin N → Fin d → EReal) (j i : Fin d) : EReal :=
  ediv (∑ n, RE X j n i) (((N : ℝ)) : EReal)

def RcE (X : Fin N → Fin d → EReal) (j : Fin d) (n : Fin N) (i : Fin d) : EReal :=
  RE X j n i - RmE X j i

def GRE (X : Fin N → Fin d → EReal) (j i k : Fin d) : EReal := ∑ n, RcE X j n i * RcE X j n k

def GKE (X : Fin N → Fin d → EReal) (j i k : Fin d) : EReal :=
  SE X i k - ediv (SE X j i * SE X j k) (s2E X j)

/-! ### Theorem 3a: on finite data the extended quantities are the coerced real ones -/

/-- A finite extended-real sum of coerced reals is the coerced real sum. -/
theorem coe_sum {ι : Type*} (s : Finset ι) (f : ι → ℝ) :
    ((∑ n ∈ s, f n : ℝ) : EReal) = ∑ n ∈ s, (f n : EReal) := by
  classical
  induction s using Finset.induction_on with
  | empty => simp
  | insert c s hc ih => rw [Finset.sum_insert hc, Finset.sum_insert hc, EReal.coe_add, ih]

/-- The quotient of two coerced reals off a zero divisor is the coerced real quotient. -/
theorem ediv_coe_coe (p : ℝ) {q : ℝ} (hq : q ≠ 0) :
    ediv (p : EReal) (q : EReal) = ((p / q : ℝ) : EReal) := by
  rw [Idealize.ShloMosaic.Ideal.div_coe hq, ← EReal.coe_mul, mul_one_div]

section Coe

variable {X : Fin N → Fin d → EReal} {x : Fin N → Fin d → ℝ}

theorem meanE_coe_of (hN : 0 < N) (hX : ∀ n i, X n i = (x n i : EReal)) (i : Fin d) :
    meanE X i = (mean x i : EReal) := by
  have hN' : (N : ℝ) ≠ 0 := Nat.cast_ne_zero.mpr hN.ne'
  unfold meanE mean
  simp_rw [hX]
  rw [← coe_sum, ediv_coe_coe _ hN']

theorem xcE_coe_of (hN : 0 < N) (hX : ∀ n i, X n i = (x n i : EReal)) (n : Fin N) (i : Fin d) :
    xcE X n i = (xc x n i : EReal) := by
  unfold xcE xc
  rw [hX n i, meanE_coe_of hN hX, ← EReal.coe_sub]

theorem SE_coe_of (hN : 0 < N) (hX : ∀ n i, X n i = (x n i : EReal)) (i j : Fin d) :
    SE X i j = (S x i j : EReal) := by
  unfold SE S
  simp_rw [xcE_coe_of hN hX, ← EReal.coe_mul]
  rw [← coe_sum]

theorem s2E_coe_of (hN : 0 < N) (hX : ∀ n i, X n i = (x n i : EReal)) (i : Fin d) :
    s2E X i = (s2 x i : EReal) :=
  SE_coe_of hN hX i i

theorem aE_coe_of (hN : 0 < N) (hX : ∀ n i, X n i = (x n i : EReal)) (j i : Fin d)
    (hs : s2 x j ≠ 0) : aE X j i = (a x j i : EReal) := by
  unfold aE a
  rw [SE_coe_of hN hX, s2E_coe_of hN hX, ediv_coe_coe _ hs]

theorem bE_coe_of (hN : 0 < N) (hX : ∀ n i, X n i = (x n i : EReal)) (j i : Fin d)
    (hs : s2 x j ≠ 0) : bE X j i = (b x j i : EReal) := by
  unfold bE b
  rw [meanE_coe_of hN hX, meanE_coe_of hN hX, aE_coe_of hN hX j i hs, ← EReal.coe_mul,
    ← EReal.coe_sub]

theorem RE_coe_of (hN : 0 < N) (hX : ∀ n i, X n i = (x n i : EReal)) (j : Fin d) (n : Fin N)
    (i : Fin d) (hs : s2 x j ≠ 0) : RE X j n i = (R x j n i : EReal) := by
  unfold RE R
  rw [hX n i, hX n j, aE_coe_of hN hX j i hs, bE_coe_of hN hX j i hs, ← EReal.coe_mul,
    ← EReal.coe_add, ← EReal.coe_sub]

theorem RmE_coe_of (hN : 0 < N) (hX : ∀ n i, X n i = (x n i : EReal)) (j i : Fin d)
    (hs : s2 x j ≠ 0) : RmE X j i = (Rm x j i : EReal) := by
  have hN' : (N : ℝ) ≠ 0 := Nat.cast_ne_zero.mpr hN.ne'
  unfold RmE Rm
  simp_rw [fun n => RE_coe_of hN hX j n i hs]
  rw [← coe_sum, ediv_coe_coe _ hN']

theorem RcE_coe_of (hN : 0 < N) (hX : ∀ n i, X n i = (x n i : EReal)) (j : Fin d) (n : Fin N)
    (i : Fin d) (hs : s2 x j ≠ 0) : RcE X j n i = (Rc x j n i : EReal) := by
  unfold RcE Rc
  rw [RE_coe_of hN hX j n i hs, RmE_coe_of hN hX j i hs, ← EReal.coe_sub]

theorem GRE_coe_of (hN : 0 < N) (hX : ∀ n i, X n i = (x n i : EReal)) (j i k : Fin d)
    (hs : s2 x j ≠ 0) : GRE X j i k = (GR x j i k : EReal) := by
  unfold GRE GR
  simp_rw [fun n => RcE_coe_of hN hX j n i hs, fun n => RcE_coe_of hN hX j n k hs,
    ← EReal.coe_mul]
  rw [← coe_sum]

theorem GKE_coe_of (hN : 0 < N) (hX : ∀ n i, X n i = (x n i : EReal)) (j i k : Fin d)
    (hs : s2 x j ≠ 0) : GKE X j i k = (GK x j i k : EReal) := by
  unfold GKE GK
  rw [SE_coe_of hN hX, SE_coe_of hN hX, SE_coe_of hN hX, s2E_coe_of hN hX, ← EReal.coe_mul,
    ediv_coe_coe _ hs, ← EReal.coe_sub]

/-- THEOREM 3b (data given up to a pointwise equation). -/
theorem GRE_eq_GKE_of (hN : 0 < N) (hX : ∀ n i, X n i = (x n i : EReal)) (j i k : Fin d)
    (hs : s2 x j ≠ 0) : GRE X j i k = GKE X j i k := by
  rw [GRE_coe_of hN hX j i k hs, GKE_coe_of hN hX j i k hs, GR_eq_GK hN x j i k hs]

/-- THEOREM 3c (data given up to a pointwise equation): at a column of zero energy the
    correlation entry is 0 / 0, which the quotient reads as ⊥. -/
theorem corrE_eq_bot_of (hN : 0 < N) (hX : ∀ n i, X n i = (x n i : EReal)) (j i : Fin d)
    (hs : s2 x j = 0) : ediv (SE X j i * SE X j i) (s2E X j * s2E X i) = ⊥ := by
  rw [SE_coe_of hN hX, s2E_coe_of hN hX j, S_eq_zero_of_s2_eq_zero x j hs i, hs, EReal.coe_zero,
    zero_mul, zero_mul]
  simp [Idealize.ShloMosaic.Ideal.div]

end Coe

/-! The same for the data  X n i = ↑(x n i)  itself. -/

section CoeFun

variable (x : Fin N → Fin d → ℝ)

theorem meanE_coe (hN : 0 < N) (i : Fin d) :
    meanE (fun n i => ((x n i : ℝ) : EReal)) i = (mean x i : EReal) :=
  meanE_coe_of hN (fun _ _ => rfl) i

theorem xcE_coe (hN : 0 < N) (n : Fin N) (i : Fin d) :
    xcE (fun n i => ((x n i : ℝ) : EReal)) n i = (xc x n i : EReal) :=
  xcE_coe_of hN (fun _ _ => rfl) n i

theorem s2E_coe (hN : 0 < N) (i : Fin d) :
    s2E (fun n i => ((x n i : ℝ) : EReal)) i = (s2 x i : EReal) :=
  s2E_coe_of hN (fun _ _ => rfl) i

theorem SE_coe (hN : 0 < N) (i j : Fin d) :
    SE (fun n i => ((x n i : ℝ) : EReal)) i j = (S x i j : EReal) :=
  SE_coe_of hN (fun _ _ => rfl) i j

theorem GRE_coe (hN : 0 < N) (j i k : Fin d) (hs : s2 x j ≠ 0) :
    GRE (fun n i => ((x n i : ℝ) : EReal)) j i k = (GR x j i k : EReal) :=
  GRE_coe_of hN (fun _ _ => rfl) j i k hs

theorem GKE_coe (hN : 0 < N) (j i k : Fin d) (hs : s2 x j ≠ 0) :
    GKE (fun n i => ((x n i : ℝ) : EReal)) j i k = (GK x j i k : EReal) :=
  GKE_coe_of hN (fun _ _ => rfl) j i k hs

/-- THEOREM 3b: on finite data with a column j of nonzero energy, the extended-real Gram
    matrix of the centred residuals is the extended-real closed form. -/
theorem GRE_eq_GKE (hN : 0 < N) (j i k : Fin d) (hs : s2 x j ≠ 0) :
    GRE (fun n i => ((x n i : ℝ) : EReal)) j i k
      = GKE (fun n i => ((x n i : ℝ) : EReal)) j i k :=
  GRE_eq_GKE_of hN (fun _ _ => rfl) j i k hs

/-- THEOREM 3c: on finite data with a column j of zero energy, the correlation entry
    against column j is ⊥ (whatever the other column is). -/
theorem corrE_eq_bot (hN : 0 < N) (j i : Fin d) (hs : s2 x j = 0) :
    ediv (SE (fun n i => ((x n i : ℝ) : EReal)) j i * SE (fun n i => ((x n i : ℝ) : EReal)) j i)
        (s2E (fun n i => ((x n i : ℝ) : EReal)) j * s2E (fun n i => ((x n i : ℝ) : EReal)) i)
      = ⊥ :=
  corrE_eq_bot_of hN (fun _ _ => rfl) j i hs

/-- THEOREM 3c in the form with the two columns distinct (the distinctness is not used). -/
theorem corrE_eq_bot_of_ne (hN : 0 < N) (j i : Fin d) (hs : s2 x j = 0) (_hij : i ≠ j) :
    ediv (SE (fun n i => ((x n i : ℝ) : EReal)) j i * SE (fun n i => ((x n i : ℝ) : EReal)) j i)
        (s2E (fun n i => ((x n i : ℝ) : EReal)) j * s2E (fun n i => ((x n i : ℝ) : EReal)) i)
      = ⊥ :=
  corrE_eq_bot x hN j i hs

end CoeFun

/-! ### Theorem 3d: absorption of ⊥

  For every  y : EReal,  y + ⊥ = ⊥  is  EReal.add_bot y  and  ⊥ + y = ⊥  is  EReal.bot_add y. -/

/-- A finite extended-real sum with a ⊥ term is ⊥. -/
theorem sum_eq_bot_of_mem {ι : Type*} (s : Finset ι) (f : ι → EReal) {i : ι} (hi : i ∈ s)
    (h : f i = ⊥) : ∑ n ∈ s, f n = ⊥ := by
  classical
  rw [← Finset.add_sum_erase s f hi, h, EReal.bot_add]

/-- The same over a whole finite type. -/
theorem sum_univ_eq_bot {ι : Type*} [Fintype ι] (f : ι → EReal) (i : ι) (h : f i = ⊥) :
    ∑ n, f n = ⊥ :=
  sum_eq_bot_of_mem Finset.univ f (Finset.mem_univ i) h

/-- A positive finite multiple of ⊥ is ⊥. -/
theorem coe_pos_mul_bot {c : ℝ} (hc : 0 < c) : ((c : ℝ) : EReal) * ⊥ = ⊥ :=
  EReal.coe_mul_bot_of_pos hc

/-- The same with the factors swapped. -/
theorem bot_mul_coe_pos {c : ℝ} (hc : 0 < c) : (⊥ : EReal) * ((c : ℝ) : EReal) = ⊥ := by
  rw [mul_comm]
  exact EReal.coe_mul_bot_of_pos hc

end GramResidual
-- ==== Proof.GRefOps.lean ====
/-
  The reference program's array operations of the residual-Gram block, read at an index.

  The block works on an 8192 × 64 data matrix and arrays derived from it of shapes 64, 1 × 64,
  64 × 1, 64 × 64, 64 × 8192, 64 × 8192 × 64 and 64 × 64 × 64.  Each lemma here takes ONE array
  operation at these literal shapes and says what it holds at an index written by its coordinates:

  • a broadcast along new or unit axes reads its operand at the coordinates it keeps
    (vector → row, vector → column, row → matrix, column → matrix, matrix → one slab,
    slab → stack, and the three-axis forms the residual needs);
  • a sum along the sample axis (axis 0 of 8192 × 64, axis 1 of 64 × 8192 × 64) is the initial
    value plus the sum over the 8192 samples;
  • the matrix product 64 × 8192 by 8192 × 64 and the batched contraction of two 64 × 8192 × 64
    stacks over their middle axis are sums over the 8192 samples of products of entries;
  • the 32-bit pattern 0x46000000 is the real number 8192.
-/
import proofs.«130977_j54631984005498_2_alg».proof.Proof.Gen.ReferenceIdeal
import proofs.«130977_j54631984005498_2_alg».proof.Proof.LibIdealFinite
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.GBridge.RefOps

open Cert.ReferenceIdeal Cert.ReferenceIdeal.Gen Idealize.ShloMosaic Idealize.ShloMosaic.ValueIdx
open scoped BigOperators

/-! ### Broadcasts -/

section Bcast

variable {α : Type}

/-- vector → row: [64] → [1, 64] along axis 1. -/
theorem bc_64_1x64 (h : S64.BroadcastsInDim S1x64 (![1] : Fin 1 → Fin S1x64.rank)) (x : S64.Idx → α)
    (u : Fin 1) (i : Fin 64) : broadcastInDim S1x64 ![1] h x (ix2 u i) = x (ix1 i) :=
  broadcastInDim_apply _ h x _ _ fun a => match a with | ⟨0, _⟩ => rfl

/-- row → matrix: [1, 64] → [8192, 64]. -/
theorem bc_1x64_8192x64 (h : S1x64.BroadcastsInDim S8192x64 (![0, 1] : Fin 2 → Fin S8192x64.rank))
    (x : S1x64.Idx → α) (n : Fin 8192) (i : Fin 64) :
    broadcastInDim S8192x64 ![0, 1] h x (ix2 n i) = x (ix2 (0 : Fin 1) i) :=
  broadcastInDim_apply _ h x _ _ fun a => match a with | ⟨0, _⟩ => rfl | ⟨1, _⟩ => rfl

/-- vector → column: [64] → [64, 1] along axis 0. -/
theorem bc_64_64x1 (h : S64.BroadcastsInDim S64x1 (![0] : Fin 1 → Fin S64x1.rank)) (x : S64.Idx → α)
    (j : Fin 64) (u : Fin 1) : broadcastInDim S64x1 ![0] h x (ix2 j u) = x (ix1 j) :=
  broadcastInDim_apply _ h x _ _ fun a => match a with | ⟨0, _⟩ => rfl

/-- column → matrix: [64, 1] → [64, 64]. -/
theorem bc_64x1_64x64 (h : S64x1.BroadcastsInDim S64x64 (![0, 1] : Fin 2 → Fin S64x64.rank))
    (x : S64x1.Idx → α) (j i : Fin 64) :
    broadcastInDim S64x64 ![0, 1] h x (ix2 j i) = x (ix2 j (0 : Fin 1)) :=
  broadcastInDim_apply _ h x _ _ fun a => match a with | ⟨0, _⟩ => rfl | ⟨1, _⟩ => rfl

/-- row → matrix: [1, 64] → [64, 64]. -/
theorem bc_1x64_64x64 (h : S1x64.BroadcastsInDim S64x64 (![0, 1] : Fin 2 → Fin S64x64.rank))
    (x : S1x64.Idx → α) (j i : Fin 64) :
    broadcastInDim S64x64 ![0, 1] h x (ix2 j i) = x (ix2 (0 : Fin 1) i) :=
  broadcastInDim_apply _ h x _ _ fun a => match a with | ⟨0, _⟩ => rfl | ⟨1, _⟩ => rfl

/-- matrix → one slab: [8192, 64] → [1, 8192, 64] along axes 1, 2. -/
theorem bc_8192x64_1x8192x64
    (h : S8192x64.BroadcastsInDim S1x8192x64 (![1, 2] : Fin 2 → Fin S1x8192x64.rank))
    (x : S8192x64.Idx → α) (u : Fin 1) (n : Fin 8192) (i : Fin 64) :
    broadcastInDim S1x8192x64 ![1, 2] h x (ix3 u n i) = x (ix2 n i) :=
  broadcastInDim_apply _ h x _ _ fun a => match a with | ⟨0, _⟩ => rfl | ⟨1, _⟩ => rfl

/-- one slab → stack: [1, 8192, 64] → [64, 8192, 64]. -/
theorem bc_1x8192x64_64x8192x64
    (h : S1x8192x64.BroadcastsInDim S64x8192x64 (![0, 1, 2] : Fin 3 → Fin S64x8192x64.rank))
    (x : S1x8192x64.Idx → α) (j : Fin 64) (n : Fin 8192) (i : Fin 64) :
    broadcastInDim S64x8192x64 ![0, 1, 2] h x (ix3 j n i) = x (ix3 (0 : Fin 1) n i) :=
  broadcastInDim_apply _ h x _ _ fun a => match a with | ⟨0, _⟩ => rfl | ⟨1, _⟩ => rfl | ⟨2, _⟩ => rfl

/-- matrix → stack of columns: [64, 8192] → [64, 8192, 1] along axes 0, 1. -/
theorem bc_64x8192_64x8192x1
    (h : S64x8192.BroadcastsInDim S64x8192x1 (![0, 1] : Fin 2 → Fin S64x8192x1.rank))
    (x : S64x8192.Idx → α) (j : Fin 64) (n : Fin 8192) (u : Fin 1) :
    broadcastInDim S64x8192x1 ![0, 1] h x (ix3 j n u) = x (ix2 j n) :=
  broadcastInDim_apply _ h x _ _ fun a => match a with | ⟨0, _⟩ => rfl | ⟨1, _⟩ => rfl

/-- stack of columns → stack: [64, 8192, 1] → [64, 8192, 64]. -/
theorem bc_64x8192x1_64x8192x64
    (h : S64x8192x1.BroadcastsInDim S64x8192x64 (![0, 1, 2] : Fin 3 → Fin S64x8192x64.rank))
    (x : S64x8192x1.Idx → α) (j : Fin 64) (n : Fin 8192) (i : Fin 64) :
    broadcastInDim S64x8192x64 ![0, 1, 2] h x (ix3 j n i) = x (ix3 j n (0 : Fin 1)) :=
  broadcastInDim_apply _ h x _ _ fun a => match a with | ⟨0, _⟩ => rfl | ⟨1, _⟩ => rfl | ⟨2, _⟩ => rfl

/-- matrix → stack of rows: [64, 64] → [64, 1, 64] along axes 0, 2. -/
theorem bc_64x64_64x1x64
    (h : S64x64.BroadcastsInDim S64x1x64 (![0, 2] : Fin 2 → Fin S64x1x64.rank))
    (x : S64x64.Idx → α) (j : Fin 64) (u : Fin 1) (i : Fin 64) :
    broadcastInDim S64x1x64 ![0, 2] h x (ix3 j u i) = x (ix2 j i) :=
  broadcastInDim_apply _ h x _ _ fun a => match a with | ⟨0, _⟩ => rfl | ⟨1, _⟩ => rfl

/-- stack of rows → stack: [64, 1, 64] → [64, 8192, 64]. -/
theorem bc_64x1x64_64x8192x64
    (h : S64x1x64.BroadcastsInDim S64x8192x64 (![0, 1, 2] : Fin 3 → Fin S64x8192x64.rank))
    (x : S64x1x64.Idx → α) (j : Fin 64) (n : Fin 8192) (i : Fin 64) :
    broadcastInDim S64x8192x64 ![0, 1, 2] h x (ix3 j n i) = x (ix3 j (0 : Fin 1) i) :=
  broadcastInDim_apply _ h x _ _ fun a => match a with | ⟨0, _⟩ => rfl | ⟨1, _⟩ => rfl | ⟨2, _⟩ => rfl

end Bcast

/-! ### Sums along the sample axis -/

/-- The column sums of an 8192 × 64 matrix, from an initial value. -/
theorem colSum_apply (h' : S8192x64.ReducesTo [0] S64) (hu : 0 < S_.numel)
    (X : FVec Ideal S8192x64 .f32) (z : FVec Ideal S_ .f32) (i : Fin 64) :
    Host.reduceAdd X z h' hu (ix1 i) = z ix0 + ∑ n : Fin 8192, X (ix2 n i) := by
  have h : S8192x64.Reduces [0] S64 := ⟨h'.1, Nat.one_pos, h'.2⟩
  rw [hostReduceAdd_apply, Ideal.hostReduceAdd_single h' h, eq_ix0 (Shape.Idx.first hu)]
  refine congrArg (_ + ·) (Finset.sum_congr rfl fun n _ => ?_)
  refine congrArg X (funext fun a => Fin.ext ?_)
  match a with
  | ⟨0, _⟩ => rfl
  | ⟨1, _⟩ => rfl

/-- The sums over the middle axis of a 64 × 8192 × 64 stack, from an initial value. -/
theorem midSum_apply (h' : S64x8192x64.ReducesTo [1] S64x64) (hu : 0 < S_.numel)
    (R : FVec Ideal S64x8192x64 .f32) (z : FVec Ideal S_ .f32) (j i : Fin 64) :
    Host.reduceAdd R z h' hu (ix2 j i) = z ix0 + ∑ n : Fin 8192, R (ix3 j n i) := by
  have h : S64x8192x64.Reduces [1] S64x64 := ⟨h'.1, Nat.two_pos, h'.2⟩
  rw [hostReduceAdd_apply, Ideal.hostReduceAdd_single h' h, eq_ix0 (Shape.Idx.first hu)]
  refine congrArg (_ + ·) (Finset.sum_congr rfl fun n _ => ?_)
  refine congrArg R (funext fun a => Fin.ext ?_)
  match a with
  | ⟨0, _⟩ => rfl
  | ⟨1, _⟩ => rfl
  | ⟨2, _⟩ => rfl

/-! ### Contractions over the sample axis -/

/-- The product of a 64 × 8192 by an 8192 × 64 matrix. -/
theorem gramDot_apply (L : FVec Ideal S64x8192 .f32) (R : FVec Ideal S8192x64 .f32) (i j : Fin 64) :
    Host.dotGeneral dot_S64x8192_S8192x64_S64x64_1_0_0_1_n_n none L R (ix2 i j)
      = ∑ n : Fin 8192, L (ix2 i n) * R (ix2 n j) := by
  show FloatOps.dotGeneral _ none _ L R (ix2 i j) = _
  rw [Ideal.dotGeneral_apply,
    ← Equiv.sum_comp (contrEquiv1 dot_S64x8192_S8192x64_S64x64_1_0_0_1_n_n 8192 rfl rfl).symm]
  refine Finset.sum_congr rfl fun n _ => ?_
  have cv := contrEquiv1_symm_val dot_S64x8192_S8192x64_S64x64_1_0_0_1_n_n 8192 rfl rfl n
  have hl : dot_S64x8192_S8192x64_S64x64_1_0_0_1_n_n.lhsIdx (ix2 i j)
      ((contrEquiv1 _ 8192 rfl rfl).symm n) = ix2 i n := by
    funext ax; apply Fin.ext
    match ax with
    | ⟨0, _⟩ => simp [DotDims.lhsIdx, dot_S64x8192_S8192x64_S64x64_1_0_0_1_n_n]; rfl
    | ⟨1, _⟩ => simp [DotDims.lhsIdx, dot_S64x8192_S8192x64_S64x64_1_0_0_1_n_n]; exact cv
  have hr : dot_S64x8192_S8192x64_S64x64_1_0_0_1_n_n.rhsIdx (ix2 i j)
      ((contrEquiv1 _ 8192 rfl rfl).symm n) = ix2 n j := by
    funext ax; apply Fin.ext
    match ax with
    | ⟨0, _⟩ => simp [DotDims.rhsIdx, dot_S64x8192_S8192x64_S64x64_1_0_0_1_n_n]; exact cv
    | ⟨1, _⟩ => simp [DotDims.rhsIdx, dot_S64x8192_S8192x64_S64x64_1_0_0_1_n_n]; rfl
  rw [hl, hr]

/-- The batched contraction of two 64 × 8192 × 64 stacks over their middle axis, member by member. -/
theorem stackDot_apply (L R : FVec Ideal S64x8192x64 .f32) (j i k : Fin 64) :
    Host.dotGeneral dot_S64x8192x64_S64x8192x64_S64x64x64_1_1_2_2_0_0 none L R (ix3 j i k)
      = ∑ n : Fin 8192, L (ix3 j n i) * R (ix3 j n k) := by
  show FloatOps.dotGeneral _ none _ L R (ix3 j i k) = _
  rw [Ideal.dotGeneral_apply,
    ← Equiv.sum_comp (contrEquiv1 dot_S64x8192x64_S64x8192x64_S64x64x64_1_1_2_2_0_0 8192 rfl rfl).symm]
  refine Finset.sum_congr rfl fun n _ => ?_
  have cv := contrEquiv1_symm_val dot_S64x8192x64_S64x8192x64_S64x64x64_1_1_2_2_0_0 8192 rfl rfl n
  have hl : dot_S64x8192x64_S64x8192x64_S64x64x64_1_1_2_2_0_0.lhsIdx (ix3 j i k)
      ((contrEquiv1 _ 8192 rfl rfl).symm n) = ix3 j n i := by
    funext ax; apply Fin.ext
    match ax with
    | ⟨0, _⟩ => simp [DotDims.lhsIdx, dot_S64x8192x64_S64x8192x64_S64x64x64_1_1_2_2_0_0]; rfl
    | ⟨1, _⟩ => simp [DotDims.lhsIdx, dot_S64x8192x64_S64x8192x64_S64x64x64_1_1_2_2_0_0]; exact cv
    | ⟨2, _⟩ => simp [DotDims.lhsIdx, dot_S64x8192x64_S64x8192x64_S64x64x64_1_1_2_2_0_0]; rfl
  have hr : dot_S64x8192x64_S64x8192x64_S64x64x64_1_1_2_2_0_0.rhsIdx (ix3 j i k)
      ((contrEquiv1 _ 8192 rfl rfl).symm n) = ix3 j n k := by
    funext ax; apply Fin.ext
    match ax with
    | ⟨0, _⟩ => simp [DotDims.rhsIdx, dot_S64x8192x64_S64x8192x64_S64x64x64_1_1_2_2_0_0]; rfl
    | ⟨1, _⟩ => simp [DotDims.rhsIdx, dot_S64x8192x64_S64x8192x64_S64x64x64_1_1_2_2_0_0]; exact cv
    | ⟨2, _⟩ => simp [DotDims.rhsIdx, dot_S64x8192x64_S64x8192x64_S64x64x64_1_1_2_2_0_0]; rfl
  rw [hl, hr]

/-! ### The two constants -/

/-- The rank-0 constant 0x46000000 is the real number 8192, the number of samples. -/
theorem cst8192_apply :
    constant (F := Ideal) S_ .f32 0x46000000#32 ix0 = (((8192 : ℕ) : ℝ) : EReal) := by
  rw [constant_apply, IdealFinite.ofBits_46000000, Nat.cast_ofNat]

/-- The rank-0 constant 0x00000000 is zero. -/
theorem cst0_apply : constant (F := Ideal) S_ .f32 0x00000000#32 ix0 = 0 := by
  rw [constant_apply, Ideal.ofBits_zero_f32]

end Cert.GBridge.RefOps

end
-- ==== Proof.GBridgeR.lean ====
/-
  The reference program computes the Gram matrix of the centred least-squares residuals.

  From its 8192 × 64 data matrix X the reference program forms, operation by operation: the column
  means (sum over the samples divided by 8192), the centred data, the column energies, the Gram
  matrix S of the centred data (a transpose and a matrix product); then, for every column j at once,
  the least-squares slopes a = S / s2 (row j divided by the energy of column j), the intercepts
  b = mean i − a · mean j, the residuals R (j, n, i) = X (n, i) − (X (n, j) · a (j, i) + b (j, i)),
  their means over the samples, the centred residuals, and the batched contraction over the samples
  of the centred residuals with themselves: a 64 × 64 × 64 array G.

  This module cuts that stretch of the program out as one list of operations and shows that, whatever
  the buffers hold before it, afterwards the buffers of the means, the energies, the Gram matrix and G
  hold, index by index, exactly the extended-real quantities meanE, s2E, SE and GRE of the module on
  the residual Gram matrix, evaluated at the data matrix read as a function of (sample, column).

  The proof has two layers.  First each stage is named as a function of whole arrays and read at an
  index with the one-operation lemmas (a broadcast keeps the coordinates it keeps, a reduction from a
  zero initial value is the plain sum, the constant 0x46000000 is 8192).  Then the stretch is cut in
  two lists; folding each over the buffers gives, at each buffer of interest, its stage function
  applied to the buffers the list reads, and the two are composed.
-/
import proofs.«130977_j54631984005498_2_alg».proof.Proof.RefOpsList3
import proofs.«130977_j54631984005498_2_alg».proof.Proof.RefOpsList4
import proofs.«130977_j54631984005498_2_alg».proof.Proof.LibGramResidual
import proofs.«130977_j54631984005498_2_alg».proof.Proof.LibAfterCut
import proofs.«130977_j54631984005498_2_alg».proof.Proof.GRefOps
import Idealize.ShloMosaic.Lib.StableHlo.Run
import Idealize.ShloMosaic.Lib.ValueIdx
import Idealize.ShloMosaic.Lib.ValueLayout
import Idealize.ShloMosaic.Lib.IdealHost

noncomputable section

namespace Cert.GBridge

open Cert.ReferenceIdeal Cert.ReferenceIdeal.Gen Cert.ReferenceIdeal.Hand Idealize.ShloMosaic
  Idealize.ShloMosaic.TcCoe Idealize.SL.Sem Idealize.ShloMosaic.StableHlo Idealize.ShloMosaic.ValueIdx
  Cert.GBridge.RefOps
open scoped BigOperators

/-! Everything auxiliary lives in the sub-namespace R; only the stretch and the final statements are
    at the top of the namespace. -/
namespace R

/-- An 8192 × 64 array read as a function of (sample, column). -/
abbrev asFn (X : FVec Ideal S8192x64 .f32) : Fin 8192 → Fin 64 → EReal := fun n i => X (ix2 n i)

/-! ### Stage functions on whole arrays: the moments -/

/-- Column means. -/
def meanA (X : FVec Ideal S8192x64 .f32) : FVec Ideal S64 .f32 :=
  Host.divf (Host.reduceAdd X (constant S_ .f32 0x00000000#32) reducesTo_S8192x64_S64_d0 h_S_)
    (broadcastInDim S64 ![] bcast_S_S64 (constant S_ .f32 0x46000000#32))

/-- Centred data. -/
def xcA (X : FVec Ideal S8192x64 .f32) : FVec Ideal S8192x64 .f32 :=
  subf X (broadcastInDim S8192x64 ![0, 1] bcast_S1x64_S8192x64_0_1
    (broadcastInDim S1x64 ![1] bcast_S64_S1x64_1 (meanA X)))

/-- Column energies. -/
def s2A (X : FVec Ideal S8192x64 .f32) : FVec Ideal S64 .f32 :=
  Host.reduceAdd (mulf (xcA X) (xcA X)) (constant S_ .f32 0x00000000#32) reducesTo_S8192x64_S64_d0 h_S_

/-- Gram matrix of the centred data. -/
def SA (X : FVec Ideal S8192x64 .f32) : FVec Ideal S64x64 .f32 :=
  Host.dotGeneral dot_S64x8192_S8192x64_S64x64_1_0_0_1_n_n none
    (transpose S64x8192 [1, 0] (xcA X) transposes_S8192x64_S64x8192_1_0) (xcA X)

theorem meanA_apply (X : FVec Ideal S8192x64 .f32) (i : Fin 64) :
    meanA X (ix1 i) = GramResidual.meanE (asFn X) i := by
  unfold meanA GramResidual.meanE
  rw [hostDivf_apply, colSum_apply, broadcastInDim_scalar_apply, cst0_apply, cst8192_apply, zero_add]

theorem xcA_apply (X : FVec Ideal S8192x64 .f32) (n : Fin 8192) (i : Fin 64) :
    xcA X (ix2 n i) = GramResidual.xcE (asFn X) n i := by
  unfold xcA GramResidual.xcE
  rw [subf_apply, bc_1x64_8192x64, bc_64_1x64, meanA_apply]

theorem s2A_apply (X : FVec Ideal S8192x64 .f32) (i : Fin 64) :
    s2A X (ix1 i) = GramResidual.s2E (asFn X) i := by
  unfold s2A GramResidual.s2E
  rw [colSum_apply, cst0_apply, zero_add]
  refine Finset.sum_congr rfl fun n _ => ?_
  rw [mulf_apply, xcA_apply]

theorem SA_apply (X : FVec Ideal S8192x64 .f32) (i j : Fin 64) :
    SA X (ix2 i j) = GramResidual.SE (asFn X) i j := by
  unfold SA GramResidual.SE
  rw [gramDot_apply]
  refine Finset.sum_congr rfl fun n _ => ?_
  rw [transpose_ix2_apply, xcA_apply, xcA_apply]

/-! ### Stage functions on whole arrays: the regression on every column at once -/

/-- Slopes: row j of the Gram matrix divided by the energy of column j. -/
def aA (G : FVec Ideal S64x64 .f32) (E : FVec Ideal S64 .f32) : FVec Ideal S64x64 .f32 :=
  Host.divf G (broadcastInDim S64x64 ![0, 1] bcast_S64x1_S64x64_0_1
    (broadcastInDim S64x1 ![0] bcast_S64_S64x1_0 E))

/-- Intercepts. -/
def bA (M : FVec Ideal S64 .f32) (A : FVec Ideal S64x64 .f32) : FVec Ideal S64x64 .f32 :=
  subf (broadcastInDim S64x64 ![0, 1] bcast_S1x64_S64x64_0_1 (broadcastInDim S1x64 ![1] bcast_S64_S1x64_1 M))
    (mulf A (broadcastInDim S64x64 ![0, 1] bcast_S64x1_S64x64_0_1 (broadcastInDim S64x1 ![0] bcast_S64_S64x1_0 M)))

/-- Residuals, indexed (regressor column, sample, column). -/
def RA (X : FVec Ideal S8192x64 .f32) (A B : FVec Ideal S64x64 .f32) : FVec Ideal S64x8192x64 .f32 :=
  subf
    (broadcastInDim S64x8192x64 ![0, 1, 2] bcast_S1x8192x64_S64x8192x64_0_1_2
      (broadcastInDim S1x8192x64 ![1, 2] bcast_S8192x64_S1x8192x64_1_2 X))
    (addf
      (mulf
        (broadcastInDim S64x8192x64 ![0, 1, 2] bcast_S64x8192x1_S64x8192x64_0_1_2
          (broadcastInDim S64x8192x1 ![0, 1] bcast_S64x8192_S64x8192x1_0_1
            (transpose S64x8192 [1, 0] X transposes_S8192x64_S64x8192_1_0)))
        (broadcastInDim S64x8192x64 ![0, 1, 2] bcast_S64x1x64_S64x8192x64_0_1_2
          (broadcastInDim S64x1x64 ![0, 2] bcast_S64x64_S64x1x64_0_2 A)))
      (broadcastInDim S64x8192x64 ![0, 1, 2] bcast_S64x1x64_S64x8192x64_0_1_2
        (broadcastInDim S64x1x64 ![0, 2] bcast_S64x64_S64x1x64_0_2 B)))

/-- Means of the residuals over the samples. -/
def RmA (R : FVec Ideal S64x8192x64 .f32) : FVec Ideal S64x1x64 .f32 :=
  Host.divf
    (broadcastInDim S64x1x64 ![0, 2] bcast_S64x64_S64x1x64_0_2
      (Host.reduceAdd R (constant S_ .f32 0x00000000#32) reducesTo_S64x8192x64_S64x64_d1 h_S_))
    (broadcastInDim S64x1x64 ![] bcast_S_S64x1x64 (constant S_ .f32 0x46000000#32))

/-- Centred residuals. -/
def RcA (R : FVec Ideal S64x8192x64 .f32) : FVec Ideal S64x8192x64 .f32 :=
  subf R (broadcastInDim S64x8192x64 ![0, 1, 2] bcast_S64x1x64_S64x8192x64_0_1_2 (RmA R))

/-- Gram matrices of the centred residuals, one per regressor column. -/
def GA (C : FVec Ideal S64x8192x64 .f32) : FVec Ideal S64x64x64 .f32 :=
  Host.dotGeneral dot_S64x8192x64_S64x8192x64_S64x64x64_1_1_2_2_0_0 none C C

/-- The whole second stage, from the data, the means, the energies and the Gram matrix. -/
def GofA (X : FVec Ideal S8192x64 .f32) (M E : FVec Ideal S64 .f32) (G : FVec Ideal S64x64 .f32) :
    FVec Ideal S64x64x64 .f32 :=
  GA (RcA (RA X (aA G E) (bA M (aA G E))))

theorem aA_apply (G : FVec Ideal S64x64 .f32) (E : FVec Ideal S64 .f32) (j i : Fin 64) :
    aA G E (ix2 j i) = Ideal.div (G (ix2 j i)) (E (ix1 j)) := by
  unfold aA
  rw [hostDivf_apply, bc_64x1_64x64, bc_64_64x1]

theorem bA_apply (M : FVec Ideal S64 .f32) (A : FVec Ideal S64x64 .f32) (j i : Fin 64) :
    bA M A (ix2 j i) = M (ix1 i) - A (ix2 j i) * M (ix1 j) := by
  unfold bA
  rw [subf_apply, mulf_apply, bc_1x64_64x64, bc_64_1x64, bc_64x1_64x64, bc_64_64x1]

theorem RA_apply (X : FVec Ideal S8192x64 .f32) (A B : FVec Ideal S64x64 .f32) (j : Fin 64) (n : Fin 8192)
    (i : Fin 64) :
    RA X A B (ix3 j n i) = X (ix2 n i) - (X (ix2 n j) * A (ix2 j i) + B (ix2 j i)) := by
  unfold RA
  rw [subf_apply, addf_apply, mulf_apply, bc_1x8192x64_64x8192x64, bc_8192x64_1x8192x64,
    bc_64x8192x1_64x8192x64, bc_64x8192_64x8192x1, transpose_ix2_apply, bc_64x1x64_64x8192x64,
    bc_64x64_64x1x64, bc_64x1x64_64x8192x64, bc_64x64_64x1x64]

theorem RmA_apply (R : FVec Ideal S64x8192x64 .f32) (j : Fin 64) (u : Fin 1) (i : Fin 64) :
    RmA R (ix3 j u i) = Ideal.div (∑ n : Fin 8192, R (ix3 j n i)) (((8192 : ℕ) : ℝ) : EReal) := by
  unfold RmA
  rw [hostDivf_apply, bc_64x64_64x1x64, midSum_apply, broadcastInDim_scalar_apply, cst0_apply,
    cst8192_apply, zero_add]

theorem RcA_apply (R : FVec Ideal S64x8192x64 .f32) (j : Fin 64) (n : Fin 8192) (i : Fin 64) :
    RcA R (ix3 j n i) = R (ix3 j n i) - RmA R (ix3 j (0 : Fin 1) i) := by
  unfold RcA
  rw [subf_apply, bc_64x1x64_64x8192x64]

theorem GA_apply (C : FVec Ideal S64x8192x64 .f32) (j i k : Fin 64) :
    GA C (ix3 j i k) = ∑ n : Fin 8192, C (ix3 j n i) * C (ix3 j n k) :=
  stackDot_apply C C j i k

/-- The second stage, fed the moments of the data, is the Gram matrix of the centred residuals. -/
theorem GofA_apply (X : FVec Ideal S8192x64 .f32) (M E : FVec Ideal S64 .f32) (G : FVec Ideal S64x64 .f32)
    (hM : ∀ i, M (ix1 i) = GramResidual.meanE (asFn X) i)
    (hE : ∀ i, E (ix1 i) = GramResidual.s2E (asFn X) i)
    (hG : ∀ i j, G (ix2 i j) = GramResidual.SE (asFn X) i j) (j i k : Fin 64) :
    GofA X M E G (ix3 j i k) = GramResidual.GRE (asFn X) j i k := by
  have ha : ∀ j i, aA G E (ix2 j i) = GramResidual.aE (asFn X) j i := fun j i => by
    rw [aA_apply, hG, hE]; rfl
  have hb : ∀ j i, bA M (aA G E) (ix2 j i) = GramResidual.bE (asFn X) j i := fun j i => by
    rw [bA_apply, hM, hM, ha]; rfl
  have hR : ∀ j n i, RA X (aA G E) (bA M (aA G E)) (ix3 j n i) = GramResidual.RE (asFn X) j n i :=
    fun j n i => by rw [RA_apply, ha, hb]; rfl
  have hRm : ∀ j i, RmA (RA X (aA G E) (bA M (aA G E))) (ix3 j (0 : Fin 1) i)
      = GramResidual.RmE (asFn X) j i := fun j i => by
    rw [RmA_apply]
    unfold GramResidual.RmE
    exact congrArg (fun s => Ideal.div s _) (Finset.sum_congr rfl fun n _ => hR j n i)
  have hRc : ∀ j n i, RcA (RA X (aA G E) (bA M (aA G E))) (ix3 j n i) = GramResidual.RcE (asFn X) j n i :=
    fun j n i => by rw [RcA_apply, hR, hRm]; rfl
  unfold GofA GramResidual.GRE
  rw [GA_apply]
  exact Finset.sum_congr rfl fun n _ => by rw [hRc, hRc]

/-! ### The stretch of the program, cut in two -/

/-- First part: from the zero constant of the column sums through the end of its window (the moments
    and, past them, operations the residual block does not read). -/
abbrev segGR1 : List (HloOp τ sig (Elt Ideal)) := (ops3 (F := Ideal)).drop 56

/-- Second part: from the start of the next window through the operation writing G. -/
abbrev segGR2 : List (HloOp τ sig (Elt Ideal)) := (ops4 (F := Ideal)).take 40

section Reads

variable (V : Valuation τ sig (Elt Ideal))

theorem seg1_v174 : after segGR1 V (Proc.devRef .tc main_v174) = V (Proc.devRef .tc main_v174) := by
  simp only [segGR1, ops3, List.drop]
  after_results_simp

theorem seg1_v177 : after segGR1 V (Proc.devRef .tc main_v177) = meanA (V (Proc.devRef .tc main_v174)) := by
  simp only [segGR1, ops3, List.drop, meanA]
  after_results_simp

theorem seg1_v182 : after segGR1 V (Proc.devRef .tc main_v182) = s2A (V (Proc.devRef .tc main_v174)) := by
  simp only [segGR1, ops3, List.drop, s2A, xcA, meanA]
  after_results_simp

theorem seg1_v184 : after segGR1 V (Proc.devRef .tc main_v184) = SA (V (Proc.devRef .tc main_v174)) := by
  simp only [segGR1, ops3, List.drop, SA, xcA, meanA]
  after_results_simp

theorem seg2_v174 : after segGR2 V (Proc.devRef .tc main_v174) = V (Proc.devRef .tc main_v174) := by
  simp only [segGR2, ops4, List.take]
  after_results_simp

theorem seg2_v177 : after segGR2 V (Proc.devRef .tc main_v177) = V (Proc.devRef .tc main_v177) := by
  simp only [segGR2, ops4, List.take]
  after_results_simp

theorem seg2_v182 : after segGR2 V (Proc.devRef .tc main_v182) = V (Proc.devRef .tc main_v182) := by
  simp only [segGR2, ops4, List.take]
  after_results_simp

theorem seg2_v184 : after segGR2 V (Proc.devRef .tc main_v184) = V (Proc.devRef .tc main_v184) := by
  simp only [segGR2, ops4, List.take]
  after_results_simp

theorem seg2_v230 : after segGR2 V (Proc.devRef .tc main_v230)
    = GofA (V (Proc.devRef .tc main_v174)) (V (Proc.devRef .tc main_v177)) (V (Proc.devRef .tc main_v182))
        (V (Proc.devRef .tc main_v184)) := by
  simp only [segGR2, ops4, List.take, GofA, GA, RcA, RmA, RA, bA, aA]
  after_results_simp

end Reads

end R

open R

/-! ### What the buffers hold after the stretch -/

/-- The operations from the one after the data matrix is written through the one writing G. -/
abbrev segGR : List (HloOp τ sig (Elt Ideal)) := segGR1 ++ segGR2

section Results

variable (V' : Valuation τ sig (Elt Ideal))

/-- The column means. -/
theorem gR_mean (i : Fin 64) :
    after segGR V' (Proc.devRef .tc main_v177) (ix1 i)
      = GramResidual.meanE (asFn (V' (Proc.devRef .tc main_v174))) i := by
  rw [segGR, AfterCut.after_append, seg2_v177, seg1_v177, meanA_apply]

/-- The column energies. -/
theorem gR_s2 (i : Fin 64) :
    after segGR V' (Proc.devRef .tc main_v182) (ix1 i)
      = GramResidual.s2E (asFn (V' (Proc.devRef .tc main_v174))) i := by
  rw [segGR, AfterCut.after_append, seg2_v182, seg1_v182, s2A_apply]

/-- The Gram matrix of the centred data. -/
theorem gR_S (i j : Fin 64) :
    after segGR V' (Proc.devRef .tc main_v184) (ix2 i j)
      = GramResidual.SE (asFn (V' (Proc.devRef .tc main_v174))) i j := by
  rw [segGR, AfterCut.after_append, seg2_v184, seg1_v184, SA_apply]

/-- The data matrix is not written. -/
theorem gR_X : after segGR V' (Proc.devRef .tc main_v174) = V' (Proc.devRef .tc main_v174) := by
  rw [segGR, AfterCut.after_append, seg2_v174, seg1_v174]

/-- The Gram matrices of the centred residuals. -/
theorem gR_G (j i k : Fin 64) :
    after segGR V' (Proc.devRef .tc main_v230) (ix3 j i k)
      = GramResidual.GRE (asFn (V' (Proc.devRef .tc main_v174))) j i k := by
  rw [segGR, AfterCut.after_append, seg2_v230, seg1_v174, seg1_v177, seg1_v182, seg1_v184]
  exact GofA_apply _ _ _ _ (fun i => meanA_apply _ i) (fun i => s2A_apply _ i) (fun i j => SA_apply _ i j) j i k

end Results

end Cert.GBridge

end
-- ==== Proof.GBridgeK.lean ====
/-
  The kernel's Gram block, read entry by entry.

  After its last linear layer the kernel program holds an 8192 by 64 array X of extended reals (8192
  samples, 64 variables). The operations that follow it in the same stretch compute, in this order:
    • the column means        m i     = (∑ₙ X n i) / 8192,
    • the centred data        xc n i  = X n i − m i,
    • the column energies     s2 i    = ∑ₙ xc n i · xc n i,
    • the Gram matrix         S i j   = ∑ₙ xc n i · xc n j   (a matrix product of the transposed centred
      data with the centred data),
    • the squared correlations  corr2 i k = (S i k · S i k) / (s2 i · s2 k),
    • the off-diagonal mask (one minus the indicator of i = k, the indicator made by comparing the two
      coordinate arrays and converting the bit to a float), and  62 · ∑ corr2 · mask,
    • the closed form of the residual Gram matrices   G j i k = S i k − (S j i · S j k) / s2 j,
      assembled from S and s2 by broadcasts along new axes.
  Every quotient is the extended-real quotient with its corners at a zero divisor; every sum starts from
  the constant 0, which drops out.

  This module proves that, for EVERY assignment of contents to the buffers, running those operations from
  it leaves at the corresponding result buffers exactly the quantities  meanE, s2E, SE, GKE  of the
  Gram-residual module formed from the columns  n i ↦ X (n, i)  of the data, and the squared correlation
  in the same notation. It does so in two steps: the run of the operations is first identified with a short
  chain of pure array functions of X (one pass over the list of operations), and each pure function is then
  read at an index: a broadcast reads one entry of its operand, a transpose swaps the two coordinates, the
  reduction over the rows is the initial value plus the sum over the row coordinate, the matrix product is
  the sum over the contracted coordinate.

  Last, the degenerate column. If every entry of X is a real number and some column j has zero energy,
  then the entry (j, i) of corr2 for any other column i is 0 / 0, which the quotient reads as ⊥; its mask
  factor is 1 because j ≠ i gives different 32-bit words; a finite sum with a ⊥ term is ⊥, 0 + ⊥ = ⊥ and
  62 · ⊥ = ⊥. So the masked sum of squared correlations is ⊥.
-/
import proofs.«130977_j54631984005498_2_alg».proof.Proof.Gen.KernelIdeal.Launch
import proofs.«130977_j54631984005498_2_alg».proof.Proof.LibGramResidual
import proofs.«130977_j54631984005498_2_alg».proof.Proof.LibIdealFinite
import Idealize.ShloMosaic.Lib.ValueIdx
import Idealize.ShloMosaic.Lib.ValueLayout
import Idealize.ShloMosaic.Lib.StackMember
import Idealize.ShloMosaic.PureOps.Ideal.Laws
import Idealize.ShloMosaic.Lib.Pipeline.Value
import Idealize.ShloMosaic.Lib.StableHlo.Run

set_option maxRecDepth 16384

noncomputable section

namespace Cert.GBridge

open Cert.KernelIdeal Cert.KernelIdeal.Gen
open Idealize.ShloMosaic Idealize.ShloMosaic.TcCoe Idealize.ShloMosaic.StableHlo Idealize.ShloMosaic.ValueIdx
open scoped BigOperators

/-! ### Layout operations and the column sum, read at an index -/

section Reads
variable {α : Type}

theorem bc_S_S64 (c : S_.Idx → α) (i : Fin 64) :
    broadcastInDim S64 ![] bcast_S_S64 c (ix1 i) = c ix0 :=
  broadcastInDim_apply _ _ c _ _ fun a => a.elim0

theorem bc_S_S64x64 (c : S_.Idx → α) (i k : Fin 64) :
    broadcastInDim S64x64 ![] bcast_S_S64x64 c (ix2 i k) = c ix0 :=
  broadcastInDim_apply _ _ c _ _ fun a => a.elim0

theorem bc_S64_S1x64 (v : S64.Idx → α) (a : Fin 1) (i : Fin 64) :
    broadcastInDim S1x64 ![1] bcast_S64_S1x64_1 v (ix2 a i) = v (ix1 i) :=
  broadcastInDim_apply _ _ v _ _ fun c => match c with | ⟨0, _⟩ => rfl

theorem bc_S64_S64x1 (v : S64.Idx → α) (i : Fin 64) (a : Fin 1) :
    broadcastInDim S64x1 ![0] bcast_S64_S64x1_0 v (ix2 i a) = v (ix1 i) :=
  broadcastInDim_apply _ _ v _ _ fun c => match c with | ⟨0, _⟩ => rfl

theorem bc_S1x64_S8192x64 (v : S1x64.Idx → α) (n : Fin 8192) (i : Fin 64) :
    broadcastInDim S8192x64 ![0, 1] bcast_S1x64_S8192x64_0_1 v (ix2 n i) = v (ix2 (0 : Fin 1) i) :=
  broadcastInDim_apply _ _ v _ _ fun c => match c with | ⟨0, _⟩ => rfl | ⟨1, _⟩ => rfl

theorem bc_S64x1_S64x64 (v : S64x1.Idx → α) (i k : Fin 64) :
    broadcastInDim S64x64 ![0, 1] bcast_S64x1_S64x64_0_1 v (ix2 i k) = v (ix2 i (0 : Fin 1)) :=
  broadcastInDim_apply _ _ v _ _ fun c => match c with | ⟨0, _⟩ => rfl | ⟨1, _⟩ => rfl

theorem bc_S1x64_S64x64 (v : S1x64.Idx → α) (i k : Fin 64) :
    broadcastInDim S64x64 ![0, 1] bcast_S1x64_S64x64_0_1 v (ix2 i k) = v (ix2 (0 : Fin 1) k) :=
  broadcastInDim_apply _ _ v _ _ fun c => match c with | ⟨0, _⟩ => rfl | ⟨1, _⟩ => rfl

theorem bc_S64x64_S64x64x1 (v : S64x64.Idx → α) (j i : Fin 64) (a : Fin 1) :
    broadcastInDim S64x64x1 ![0, 1] bcast_S64x64_S64x64x1_0_1 v (ix3 j i a) = v (ix2 j i) :=
  broadcastInDim_apply _ _ v _ _ fun c => match c with | ⟨0, _⟩ => rfl | ⟨1, _⟩ => rfl

theorem bc_S64x64_S64x1x64 (v : S64x64.Idx → α) (j : Fin 64) (a : Fin 1) (k : Fin 64) :
    broadcastInDim S64x1x64 ![0, 2] bcast_S64x64_S64x1x64_0_2 v (ix3 j a k) = v (ix2 j k) :=
  broadcastInDim_apply _ _ v _ _ fun c => match c with | ⟨0, _⟩ => rfl | ⟨1, _⟩ => rfl

theorem bc_S64x64_S1x64x64 (v : S64x64.Idx → α) (a : Fin 1) (i k : Fin 64) :
    broadcastInDim S1x64x64 ![1, 2] bcast_S64x64_S1x64x64_1_2 v (ix3 a i k) = v (ix2 i k) :=
  broadcastInDim_apply _ _ v _ _ fun c => match c with | ⟨0, _⟩ => rfl | ⟨1, _⟩ => rfl

theorem bc_S64_S64x1x1 (v : S64.Idx → α) (j : Fin 64) (a b : Fin 1) :
    broadcastInDim S64x1x1 ![0] bcast_S64_S64x1x1_0 v (ix3 j a b) = v (ix1 j) :=
  broadcastInDim_apply _ _ v _ _ fun c => match c with | ⟨0, _⟩ => rfl

theorem bc_S64x64x1_S64x64x64 (v : S64x64x1.Idx → α) (j i k : Fin 64) :
    broadcastInDim S64x64x64 ![0, 1, 2] bcast_S64x64x1_S64x64x64_0_1_2 v (ix3 j i k) = v (ix3 j i (0 : Fin 1)) :=
  broadcastInDim_apply _ _ v _ _ fun c => match c with | ⟨0, _⟩ => rfl | ⟨1, _⟩ => rfl | ⟨2, _⟩ => rfl

theorem bc_S64x1x64_S64x64x64 (v : S64x1x64.Idx → α) (j i k : Fin 64) :
    broadcastInDim S64x64x64 ![0, 1, 2] bcast_S64x1x64_S64x64x64_0_1_2 v (ix3 j i k) = v (ix3 j (0 : Fin 1) k) :=
  broadcastInDim_apply _ _ v _ _ fun c => match c with | ⟨0, _⟩ => rfl | ⟨1, _⟩ => rfl | ⟨2, _⟩ => rfl

theorem bc_S1x64x64_S64x64x64 (v : S1x64x64.Idx → α) (j i k : Fin 64) :
    broadcastInDim S64x64x64 ![0, 1, 2] bcast_S1x64x64_S64x64x64_0_1_2 v (ix3 j i k) = v (ix3 (0 : Fin 1) i k) :=
  broadcastInDim_apply _ _ v _ _ fun c => match c with | ⟨0, _⟩ => rfl | ⟨1, _⟩ => rfl | ⟨2, _⟩ => rfl

theorem bc_S64x1x1_S64x64x64 (v : S64x1x1.Idx → α) (j i k : Fin 64) :
    broadcastInDim S64x64x64 ![0, 1, 2] bcast_S64x1x1_S64x64x64_0_1_2 v (ix3 j i k) = v (ix3 j (0 : Fin 1) (0 : Fin 1)) :=
  broadcastInDim_apply _ _ v _ _ fun c => match c with | ⟨0, _⟩ => rfl | ⟨1, _⟩ => rfl | ⟨2, _⟩ => rfl

/-- The sum over the rows of an 8192 by 64 array, from an initial value. -/
theorem reduce0_apply (x : FVec Ideal S8192x64 .f32) (v : FVec Ideal S_ .f32) (i : Fin 64) :
    Host.reduceAdd x v reducesTo_S8192x64_S64_d0 h_S_ (ix1 i) = v ix0 + ∑ n : Fin 8192, x (ix2 n i) := by
  have hR : S8192x64.Reduces [0] S64 := by decide
  show Ideal.hostReduceAdd reducesTo_S8192x64_S64_d0 x (v (Shape.Idx.first h_S_)) (ix1 i) = _
  rw [Ideal.hostReduceAdd_single _ hR, eq_ix0 (Shape.Idx.first h_S_)]
  show v ix0 + ∑ n : Fin 8192, x (hR.lift (ix1 i) n) = _
  refine congrArg (v ix0 + ·) (Finset.sum_congr rfl fun n _ => congrArg x ?_)
  funext c
  match c with
  | ⟨0, _⟩ => rfl
  | ⟨1, _⟩ => rfl

end Reads

/-! ### The stretch as pure functions of the data -/

abbrev zeroS : FVec Ideal S_ .f32 := constant S_ .f32 0x00000000#32

def kMean (X : FVec Ideal S8192x64 .f32) : FVec Ideal S64 .f32 :=
  Host.divf (Host.reduceAdd X zeroS reducesTo_S8192x64_S64_d0 h_S_)
    (broadcastInDim S64 ![] bcast_S_S64 (constant S_ .f32 0x46000000#32))

def kXc (X : FVec Ideal S8192x64 .f32) : FVec Ideal S8192x64 .f32 :=
  subf X (broadcastInDim S8192x64 ![0, 1] bcast_S1x64_S8192x64_0_1 (broadcastInDim S1x64 ![1] bcast_S64_S1x64_1 (kMean X)))

def kS2 (X : FVec Ideal S8192x64 .f32) : FVec Ideal S64 .f32 :=
  Host.reduceAdd (mulf (kXc X) (kXc X)) zeroS reducesTo_S8192x64_S64_d0 h_S_

def kS (X : FVec Ideal S8192x64 .f32) : FVec Ideal S64x64 .f32 :=
  Host.dotGeneral dot_S64x8192_S8192x64_S64x64_1_0_0_1_n_n none
    (transpose S64x8192 [1, 0] (kXc X) transposes_S8192x64_S64x8192_1_0) (kXc X)

def kCorr (X : FVec Ideal S8192x64 .f32) : FVec Ideal S64x64 .f32 :=
  Host.divf (mulf (kS X) (kS X))
    (mulf (broadcastInDim S64x64 ![0, 1] bcast_S64x1_S64x64_0_1 (broadcastInDim S64x1 ![0] bcast_S64_S64x1_0 (kS2 X)))
      (broadcastInDim S64x64 ![0, 1] bcast_S1x64_S64x64_0_1 (broadcastInDim S1x64 ![1] bcast_S64_S1x64_1 (kS2 X))))

def kOff : FVec Ideal S64x64 .f32 :=
  subf (broadcastInDim S64x64 ![] bcast_S_S64x64 (constant S_ .f32 0x3F800000#32))
    (uitofp .f32 (cmpi .eq (addi (iotaInDim S64x64 32 0) (broadcastInDim S64x64 ![] bcast_S_S64x64 (constantI S_ 32 0#32)))
      (iotaInDim S64x64 32 1)))

def kSumsc (X : FVec Ideal S8192x64 .f32) : FVec Ideal S_ .f32 :=
  mulf (constant S_ .f32 0x42780000#32)
    (Host.reduceAdd (mulf (kCorr X) kOff) zeroS reducesTo_S64x64_S_d0_1 h_S_)

def kG (X : FVec Ideal S8192x64 .f32) : FVec Ideal S64x64x64 .f32 :=
  subf (broadcastInDim S64x64x64 ![0, 1, 2] bcast_S1x64x64_S64x64x64_0_1_2 (broadcastInDim S1x64x64 ![1, 2] bcast_S64x64_S1x64x64_1_2 (kS X)))
    (Host.divf
      (mulf (broadcastInDim S64x64x64 ![0, 1, 2] bcast_S64x64x1_S64x64x64_0_1_2 (broadcastInDim S64x64x1 ![0, 1] bcast_S64x64_S64x64x1_0_1 (kS X)))
        (broadcastInDim S64x64x64 ![0, 1, 2] bcast_S64x1x64_S64x64x64_0_1_2 (broadcastInDim S64x1x64 ![0, 2] bcast_S64x64_S64x1x64_0_2 (kS X))))
      (broadcastInDim S64x64x64 ![0, 1, 2] bcast_S64x1x1_S64x64x64_0_1_2 (broadcastInDim S64x1x1 ![0] bcast_S64_S64x1x1_0 (kS2 X))))

abbrev segGK : List (HloOp τ sig (Elt Ideal)) := (hostOps1_8 (F := Ideal)).drop 5

section Run
variable (V : Valuation τ sig (Elt Ideal))

theorem run170 : (after segGK V (Proc.devRef .tc main_v170) : FVec Ideal S64 .f32) = kMean (V (Proc.devRef .tc main_v167)) := by
  simp only [segGK, hostOps1_8, List.drop]
  after_results_simp
  rfl

theorem run175 : (after segGK V (Proc.devRef .tc main_v175) : FVec Ideal S64 .f32) = kS2 (V (Proc.devRef .tc main_v167)) := by
  simp only [segGK, hostOps1_8, List.drop]
  after_results_simp
  rfl

theorem run177 : (after segGK V (Proc.devRef .tc main_v177) : FVec Ideal S64x64 .f32) = kS (V (Proc.devRef .tc main_v167)) := by
  simp only [segGK, hostOps1_8, List.drop]
  after_results_simp
  rfl

theorem run184 : (after segGK V (Proc.devRef .tc main_v184) : FVec Ideal S64x64 .f32) = kCorr (V (Proc.devRef .tc main_v167)) := by
  simp only [segGK, hostOps1_8, List.drop]
  after_results_simp
  rfl

theorem run195 : (after segGK V (Proc.devRef .tc main_v195) : FVec Ideal S_ .f32) = kSumsc (V (Proc.devRef .tc main_v167)) := by
  simp only [segGK, hostOps1_8, List.drop]
  after_results_simp
  rfl

theorem run206 : (after segGK V (Proc.devRef .tc main_v206) : FVec Ideal S64x64x64 .f32) = kG (V (Proc.devRef .tc main_v167)) := by
  simp only [segGK, hostOps1_8, List.drop]
  after_results_simp
  rfl

end Run

/-! ### The pure functions read at an index -/

section Pointwise
variable (X : FVec Ideal S8192x64 .f32)

theorem zeroS_apply (j : S_.Idx) : zeroS j = 0 := Ideal.ofBits_zero_f32

theorem kMean_apply (i : Fin 64) :
    kMean X (ix1 i) = Ideal.div (∑ n : Fin 8192, X (ix2 n i)) ((8192 : ℝ) : EReal) := by
  show Ideal.div (Host.reduceAdd X zeroS reducesTo_S8192x64_S64_d0 h_S_ (ix1 i))
      (broadcastInDim S64 ![] bcast_S_S64 (constant (F := Ideal) S_ .f32 0x46000000#32) (ix1 i)) = _
  rw [reduce0_apply, bc_S_S64, zeroS_apply, zero_add, constant_apply, IdealFinite.ofBits_46000000]

theorem kXc_apply (n : Fin 8192) (i : Fin 64) : kXc X (ix2 n i) = X (ix2 n i) - kMean X (ix1 i) := by
  show X (ix2 n i) - broadcastInDim S8192x64 ![0, 1] bcast_S1x64_S8192x64_0_1
      (broadcastInDim S1x64 ![1] bcast_S64_S1x64_1 (kMean X)) (ix2 n i) = _
  rw [bc_S1x64_S8192x64, bc_S64_S1x64]

theorem kS2_apply (i : Fin 64) : kS2 X (ix1 i) = ∑ n : Fin 8192, kXc X (ix2 n i) * kXc X (ix2 n i) := by
  unfold kS2
  rw [reduce0_apply, zeroS_apply, zero_add]
  rfl

theorem kS_apply (i j : Fin 64) : kS X (ix2 i j) = ∑ n : Fin 8192, kXc X (ix2 n i) * kXc X (ix2 n j) := by
  show Host.dotGeneral (DotDims.plain 64 8192 64) none
      (transpose S64x8192 [1, 0] (kXc X) transposes_S8192x64_S64x8192_1_0) (kXc X) (ix2 i j) = _
  rw [StackMember.dotGeneral_plain_apply]
  refine Finset.sum_congr rfl fun n _ => ?_
  rw [transpose_ix2_apply]

theorem kCorr_apply (i k : Fin 64) :
    kCorr X (ix2 i k) = Ideal.div (kS X (ix2 i k) * kS X (ix2 i k)) (kS2 X (ix1 i) * kS2 X (ix1 k)) := by
  show Ideal.div (kS X (ix2 i k) * kS X (ix2 i k))
      (broadcastInDim S64x64 ![0, 1] bcast_S64x1_S64x64_0_1 (broadcastInDim S64x1 ![0] bcast_S64_S64x1_0 (kS2 X)) (ix2 i k)
        * broadcastInDim S64x64 ![0, 1] bcast_S1x64_S64x64_0_1 (broadcastInDim S1x64 ![1] bcast_S64_S1x64_1 (kS2 X)) (ix2 i k)) = _
  rw [bc_S64x1_S64x64, bc_S64_S64x1, bc_S1x64_S64x64, bc_S64_S1x64]

theorem kG_apply (j i k : Fin 64) :
    kG X (ix3 j i k) = kS X (ix2 i k) - Ideal.div (kS X (ix2 j i) * kS X (ix2 j k)) (kS2 X (ix1 j)) := by
  show broadcastInDim S64x64x64 ![0, 1, 2] bcast_S1x64x64_S64x64x64_0_1_2
        (broadcastInDim S1x64x64 ![1, 2] bcast_S64x64_S1x64x64_1_2 (kS X)) (ix3 j i k)
      - Ideal.div
        (broadcastInDim S64x64x64 ![0, 1, 2] bcast_S64x64x1_S64x64x64_0_1_2
            (broadcastInDim S64x64x1 ![0, 1] bcast_S64x64_S64x64x1_0_1 (kS X)) (ix3 j i k)
          * broadcastInDim S64x64x64 ![0, 1, 2] bcast_S64x1x64_S64x64x64_0_1_2
            (broadcastInDim S64x1x64 ![0, 2] bcast_S64x64_S64x1x64_0_2 (kS X)) (ix3 j i k))
        (broadcastInDim S64x64x64 ![0, 1, 2] bcast_S64x1x1_S64x64x64_0_1_2
          (broadcastInDim S64x1x1 ![0] bcast_S64_S64x1x1_0 (kS2 X)) (ix3 j i k)) = _
  rw [bc_S1x64x64_S64x64x64, bc_S64x64_S1x64x64, bc_S64x64x1_S64x64x64, bc_S64x64_S64x64x1,
    bc_S64x1x64_S64x64x64, bc_S64x64_S64x1x64, bc_S64x1x1_S64x64x64, bc_S64_S64x1x1]

end Pointwise

/-! ### Against the Gram-residual quantities -/

/-- The data as a family of columns. -/
abbrev colsOf (X : FVec Ideal S8192x64 .f32) : Fin 8192 → Fin 64 → EReal := fun n i => X (ix2 n i)

section Gram
variable (X : FVec Ideal S8192x64 .f32)

theorem kMean_eq (i : Fin 64) : kMean X (ix1 i) = GramResidual.meanE (colsOf X) i := by
  rw [kMean_apply]
  unfold GramResidual.meanE
  rw [Nat.cast_ofNat]

theorem kXc_eq (n : Fin 8192) (i : Fin 64) : kXc X (ix2 n i) = GramResidual.xcE (colsOf X) n i := by
  rw [kXc_apply, kMean_eq]
  rfl

theorem kS2_eq (i : Fin 64) : kS2 X (ix1 i) = GramResidual.s2E (colsOf X) i := by
  rw [kS2_apply]
  unfold GramResidual.s2E
  exact Finset.sum_congr rfl fun n _ => by rw [kXc_eq]

theorem kS_eq (i j : Fin 64) : kS X (ix2 i j) = GramResidual.SE (colsOf X) i j := by
  rw [kS_apply]
  unfold GramResidual.SE
  exact Finset.sum_congr rfl fun n _ => by rw [kXc_eq, kXc_eq]

theorem kG_eq (j i k : Fin 64) : kG X (ix3 j i k) = GramResidual.GKE (colsOf X) j i k := by
  rw [kG_apply, kS_eq, kS_eq, kS_eq, kS2_eq]
  rfl

theorem kCorr_eq (i k : Fin 64) :
    kCorr X (ix2 i k) = Ideal.div (GramResidual.SE (colsOf X) i k * GramResidual.SE (colsOf X) i k)
      (GramResidual.s2E (colsOf X) i * GramResidual.s2E (colsOf X) k) := by
  rw [kCorr_apply, kS_eq, kS2_eq, kS2_eq]

end Gram

/-! ### The off-diagonal mask and the degenerate column -/

/-- Two different column numbers below 64 are different 32-bit words, so the comparison's bit is clear. -/
theorem offdiag_bit (j i : Fin 64) (h : j ≠ i) :
    IntOp.cmpi .eq (IntOp.addi (BitVec.ofNat 32 j.val) 0#32) (BitVec.ofNat 32 i.val) = 0#1 := by
  have hne : BitVec.ofNat 32 j.val ≠ BitVec.ofNat 32 i.val := by
    intro e
    have e' := congrArg BitVec.toNat e
    simp only [BitVec.toNat_ofNat] at e'
    have hj := j.isLt
    have hi := i.isLt
    rw [Nat.mod_eq_of_lt (by omega), Nat.mod_eq_of_lt (by omega)] at e'
    exact h (Fin.ext e')
  have hb : (BitVec.ofNat 32 j.val == BitVec.ofNat 32 i.val) = false := beq_eq_false_iff_ne.mpr hne
  unfold IntOp.cmpi IntOp.addi
  rw [BitVec.add_zero]
  show BitVec.ofBool (BitVec.ofNat 32 j.val == BitVec.ofNat 32 i.val) = 0#1
  rw [hb]
  rfl

/-- Off the diagonal the mask's factor is one. -/
theorem kOff_of_ne (j i : Fin 64) (h : j ≠ i) : kOff (ix2 j i) = 1 := by
  show Ideal.ofBits .f32 0x3F800000#32
      - (((IntOp.cmpi .eq (IntOp.addi (BitVec.ofNat 32 j.val) 0#32) (BitVec.ofNat 32 i.val)).toNat : ℝ) : EReal) = 1
  rw [offdiag_bit j i h, IdealFinite.ofBits_3F800000]
  simp

/-- With real data and a column of zero energy the masked sum of squared correlations is ⊥: the entry of
    that column's row against any other column is 0 / 0 = ⊥, its mask factor is 1, a sum with a ⊥ term is
    ⊥, and a positive multiple of ⊥ is ⊥. -/
theorem kSumsc_bot (X : FVec Ideal S8192x64 .f32) (hfin : ∀ n i, IdealFinite.IsFin (X (ix2 n i)))
    (hdeg : ∃ j, GramResidual.s2E (colsOf X) j = 0) : kSumsc X = fun _ => (⊥ : EReal) := by
  obtain ⟨j, hj⟩ := hdeg
  choose x hx using hfin
  have hX : ∀ n i, colsOf X n i = (x n i : EReal) := hx
  have hN : 0 < 8192 := by norm_num
  have hs : GramResidual.s2 x j = 0 := by
    rw [GramResidual.s2E_coe_of hN hX j] at hj
    exact_mod_cast hj
  obtain ⟨i, hij⟩ : ∃ i : Fin 64, j ≠ i := by
    by_cases h0 : j = 0
    · exact ⟨1, by rw [h0]; decide⟩
    · exact ⟨0, h0⟩
  funext idx
  have hsum : Host.reduceAdd (mulf (kCorr X) kOff) zeroS reducesTo_S64x64_S_d0_1 h_S_ idx = ⊥ := by
    show Ideal.hostReduceAdd reducesTo_S64x64_S_d0_1 (mulf (kCorr X) kOff) (zeroS (Shape.Idx.first h_S_)) idx = ⊥
    rw [Ideal.hostReduceAdd_total _ (fun b => b.elim0)]
    have hterm : mulf (kCorr X) kOff (ix2 j i) = ⊥ := by
      show kCorr X (ix2 j i) * kOff (ix2 j i) = ⊥
      rw [kCorr_eq, GramResidual.corrE_eq_bot_of hN hX j i hs, kOff_of_ne j i hij, mul_one]
    rw [GramResidual.sum_univ_eq_bot _ (ix2 j i) hterm, EReal.add_bot]
  show Ideal.ofBits .f32 0x42780000#32 * Host.reduceAdd (mulf (kCorr X) kOff) zeroS reducesTo_S64x64_S_d0_1 h_S_ idx = ⊥
  rw [hsum, IdealFinite.ofBits_42780000]
  exact GramResidual.coe_pos_mul_bot (by norm_num)

/-! ### The stretch after the linear layer, read against the Gram-residual quantities -/

section Final
variable (V : Valuation τ sig (Elt Ideal))

/-- The data: what the valuation holds at the linear layer's result. -/
abbrev dataK : FVec Ideal S8192x64 .f32 := V (Proc.devRef .tc main_v167)
/-- The data as a family of columns. -/
abbrev XfK : Fin 8192 → Fin 64 → EReal := fun n i => dataK V (ix2 n i)

theorem gK_mean (i : Fin 64) :
    (after segGK V (Proc.devRef .tc main_v170) : FVec Ideal S64 .f32) (ix1 i) = GramResidual.meanE (XfK V) i := by
  rw [run170]; exact kMean_eq _ i

theorem gK_s2 (i : Fin 64) :
    (after segGK V (Proc.devRef .tc main_v175) : FVec Ideal S64 .f32) (ix1 i) = GramResidual.s2E (XfK V) i := by
  rw [run175]; exact kS2_eq _ i

theorem gK_S (i j : Fin 64) :
    (after segGK V (Proc.devRef .tc main_v177) : FVec Ideal S64x64 .f32) (ix2 i j) = GramResidual.SE (XfK V) i j := by
  rw [run177]; exact kS_eq _ i j

theorem gK_G (j i k : Fin 64) :
    (after segGK V (Proc.devRef .tc main_v206) : FVec Ideal S64x64x64 .f32) (ix3 j i k) = GramResidual.GKE (XfK V) j i k := by
  rw [run206]; exact kG_eq _ j i k

theorem gK_corr (i k : Fin 64) :
    (after segGK V (Proc.devRef .tc main_v184) : FVec Ideal S64x64 .f32) (ix2 i k)
      = Ideal.div (GramResidual.SE (XfK V) i k * GramResidual.SE (XfK V) i k)
          (GramResidual.s2E (XfK V) i * GramResidual.s2E (XfK V) k) := by
  rw [run184]; exact kCorr_eq _ i k

theorem gK_sumsc_bot (hfin : ∀ n i, IdealFinite.IsFin (dataK V (ix2 n i)))
    (hdeg : ∃ j, GramResidual.s2E (XfK V) j = 0) :
    (after segGK V (Proc.devRef .tc main_v195) : FVec Ideal S_ .f32) = fun _ => (⊥ : EReal) := by
  rw [run195]; exact kSumsc_bot _ hfin hdeg

end Final

end Cert.GBridge

end
-- ==== Proof.GCombine.lean ====
/-
  The two programs compute the same 64 × 64 × 64 array G when no column is degenerate.

  One program forms, for every regressor column j, the Gram matrix of the centred least-squares
  residuals of all columns on column j, by carrying the residuals out sample by sample; the other
  forms the closed form  S i k − S j i · S j k / s2 j  from the Gram matrix S and the column energies
  s2 of the centred data.  Read in the extended reals, the first is GRE and the second is GKE of the
  same data matrix.  When every entry of the data is a real number and no column energy vanishes, the
  two agree (the Schur-complement identity, transferred from the reals); so the buffers holding G after
  the two stretches of operations are equal.  Whether some column energy vanishes is decided
  classically: either none does, or one does.
-/
import proofs.«130977_j54631984005498_2_alg».proof.Proof.GBridgeR
import proofs.«130977_j54631984005498_2_alg».proof.Proof.GBridgeK
import proofs.«130977_j54631984005498_2_alg».proof.Proof.LibIdealFinite
import proofs.«130977_j54631984005498_2_alg».proof.Proof.LibGramResidual
import Idealize.ShloMosaic.Lib.StableHlo.Run
import Idealize.ShloMosaic.Lib.ValueIdx

noncomputable section

namespace Cert.GBridge

open Idealize.ShloMosaic Idealize.ShloMosaic.StableHlo Idealize.ShloMosaic.ValueIdx

/-- Either no column has zero energy, or some column has. -/
theorem s2_dichotomy (Xf : Fin 8192 → Fin 64 → EReal) :
    (∀ j : Fin 64, GramResidual.s2E Xf j ≠ 0) ∨ (∃ j : Fin 64, GramResidual.s2E Xf j = 0) := by
  by_cases h : ∃ j : Fin 64, GramResidual.s2E Xf j = 0
  · exact Or.inr h
  · exact Or.inl fun j hj => h ⟨j, hj⟩

/-- On real data with no degenerate column, the Gram matrix of the centred residuals is the closed
    form, in the extended reals, at every index. -/
theorem GRE_eq_GKE_of_isFin (Xf : Fin 8192 → Fin 64 → EReal)
    (hfin : ∀ n i, IdealFinite.IsFin (Xf n i)) (hnd : ∀ j : Fin 64, GramResidual.s2E Xf j ≠ 0)
    (j i k : Fin 64) : GramResidual.GRE Xf j i k = GramResidual.GKE Xf j i k := by
  choose x hx using hfin
  have hN : 0 < 8192 := by norm_num
  refine GramResidual.GRE_eq_GKE_of hN hx j i k fun h0 => hnd j ?_
  rw [GramResidual.s2E_coe_of hN hx j, h0, EReal.coe_zero]

/-- The buffer holding G after the reference's stretch equals the buffer holding G after the
    kernel program's stretch, when the two stretches start from the same real data matrix and no
    column of it has zero energy. -/
theorem G_eq (V : Valuation Cert.KernelIdeal.τ Cert.KernelIdeal.sig (Elt Ideal))
    (V' : Valuation Cert.ReferenceIdeal.τ Cert.ReferenceIdeal.sig (Elt Ideal))
    (hX : (V' (Proc.devRef .tc Cert.ReferenceIdeal.main_v174) : FVec Ideal Cert.KernelIdeal.S8192x64 .f32)
      = V (Proc.devRef .tc Cert.KernelIdeal.main_v167))
    (hfin : ∀ n i, IdealFinite.IsFin (dataK V (ix2 n i)))
    (hnd : ∀ j : Fin 64, GramResidual.s2E (XfK V) j ≠ 0) :
    (after segGR V' (Proc.devRef .tc Cert.ReferenceIdeal.main_v230) : FVec Ideal Cert.KernelIdeal.S64x64x64 .f32)
      = after segGK V (Proc.devRef .tc Cert.KernelIdeal.main_v206) := by
  funext idx
  obtain ⟨j, i, k, rfl⟩ : ∃ (j i k : Fin 64), idx = ix3 j i k := ⟨idx 0, idx 1, idx 2, eq_ix3 idx⟩
  have hXf : R.asFn (V' (Proc.devRef .tc Cert.ReferenceIdeal.main_v174)) = XfK V :=
    funext fun n => funext fun i => congrFun hX (ix2 n i)
  refine (gR_G V' j i k).trans (Eq.trans ?_ (gK_G V j i k).symm)
  rw [hXf]
  exact GRE_eq_GKE_of_isFin (XfK V) hfin hnd j i k

/-- The same with the finiteness of the data stated for the whole array. -/
theorem G_eq_of_allFin (V : Valuation Cert.KernelIdeal.τ Cert.KernelIdeal.sig (Elt Ideal))
    (V' : Valuation Cert.ReferenceIdeal.τ Cert.ReferenceIdeal.sig (Elt Ideal))
    (hX : (V' (Proc.devRef .tc Cert.ReferenceIdeal.main_v174) : FVec Ideal Cert.KernelIdeal.S8192x64 .f32)
      = V (Proc.devRef .tc Cert.KernelIdeal.main_v167))
    (hfin : IdealFinite.AllFin (S := Cert.KernelIdeal.S8192x64) (V (Proc.devRef .tc Cert.KernelIdeal.main_v167)))
    (hnd : ∀ j : Fin 64, GramResidual.s2E (XfK V) j ≠ 0) :
    (after segGR V' (Proc.devRef .tc Cert.ReferenceIdeal.main_v230) : FVec Ideal Cert.KernelIdeal.S64x64x64 .f32)
      = after segGK V (Proc.devRef .tc Cert.KernelIdeal.main_v206) :=
  G_eq V V' hX (fun n i => hfin (ix2 n i)) hnd

end Cert.GBridge

end
-- ==== Proof.DiagBridge.lean ====
/-
  The diagonal of a 64 by 64 by 64 array G, indexed (j, i, k), read two ways: both give the 64 by 64 array whose
  entry (j, i) is G (j, i, i).

  The kernel's program gathers. Two index vectors of length 64 are built from the positions 0 … 63: each position is
  compared with zero as a signed 32-bit word and 64 is added to the negative ones; no position is negative, so both
  vectors hold the positions themselves. Each vector is laid out as a column, the two columns are put side by side as a
  64 by 2 table whose row i is (i, i), and the gather, with the first axis of G as its offset axis and the other two
  collapsed and addressed by the table, reads at (j, i) the entry of G at j on the first axis and at the clamped start
  indices (i, i) on the other two; a start index below 64 is its own clamp.

  The reference's program masks and sums. The 64 by 64 mask "row position equals column position" is laid along the last
  two axes of a 64 by 64 by 64 array, G is kept where the mask holds and replaced by zero elsewhere, and the result is
  summed over the middle axis from the initial value zero. At (j, i) the terms of that sum are G (j, k, i) for k = i
  and zero for every other k, so the sum is its one diagonal term: zero terms change no sum of extended reals,
  whatever the diagonal term is.

  Both facts are stated over arbitrary buffer contents, so that they apply wherever the array lies in a longer run,
  and the last statement joins them: if the two programs' arrays are equal, so are their diagonals.
-/
import proofs.«130977_j54631984005498_2_alg».proof.Proof.Gen.KernelIdeal.Launch
import proofs.«130977_j54631984005498_2_alg».proof.Proof.RefOpsList4
import proofs.«130977_j54631984005498_2_alg».proof.Proof.LibAfterCut
import Idealize.ShloMosaic.Lib.StableHlo.Run
import Idealize.ShloMosaic.Lib.StableHlo.Predicate
import Idealize.ShloMosaic.Lib.ValueIdx
import Idealize.ShloMosaic.Lib.IdealHost
import Idealize.ShloMosaic.Lib.Pipeline.Value
import Idealize.ShloMosaic.PureOps.Ideal.Laws

noncomputable section

namespace Cert.GBridge

open Idealize.ShloMosaic Idealize.ShloMosaic.TcCoe Idealize.SL.Sem Idealize.ShloMosaic.StableHlo Idealize.ShloMosaic.ValueIdx
open scoped BigOperators

/-- The reference's operations from the two position arrays to the sum over the middle axis, with the two zero
    constants among them: the nine entries at positions 40 to 48, counted from 0, of the list that holds them. -/
abbrev segDgR {F : FTy → Type} [FloatOps F] : List (HloOp Cert.ReferenceIdeal.τ Cert.ReferenceIdeal.sig (Elt F)) :=
  ((Cert.ReferenceIdeal.Hand.ops4 (F := F)).drop 40).take 9

/-! ## The kernel's side: a gather -/

section Kernel
open Cert.KernelIdeal Cert.KernelIdeal.Gen

/-- The gather with offset axis 0 and collapsed, start-indexed axes 1 and 2, at a table of start indices whose row i
    is (i, i): result entry (j, i) is the operand's entry (j, i, i). -/
theorem diag_gather_apply {α : Type} (x : S64x64x64.Idx → α) (idx : IVec S64x2 32) (j i : Fin 64)
    (h0 : idx (ix2 i (0 : Fin 2)) = BitVec.ofNat 32 i.val) (h1 : idx (ix2 i (1 : Fin 2)) = BitVec.ofNat 32 i.val) :
    Host.gather gather_S64x64x64_S64x2_S64x64_0_12_n_n_12_1_6411 x idx (ix2 j i) = x (ix3 j i i) := by
  have hi : (BitVec.ofNat 32 i.val).toInt.toNat = i.val := by
    rw [Predicate.toInt_ofNat_small i.val (by have := i.isLt; omega)]; exact Int.toNat_natCast _
  have hmin : min i.val (64 - 1) = i.val := by have := i.isLt; omega
  unfold Host.gather
  refine congrArg x (funext fun a => Fin.ext ?_)
  match a with
  | ⟨0, _⟩ =>
    show GatherDims.start _ (ix2 j i) idx 0 + GatherDims.batchCoord _ (ix2 j i) 0 + GatherDims.offCoord _ (ix2 j i) 0 = j.val
    rw [GatherDims.batchCoord_eq_zero _ _ _ (by decide)]
    unfold GatherDims.start GatherDims.offCoord
    rw [dif_neg (by decide), dif_pos (by decide), Nat.add_zero, Nat.zero_add]
    rfl
  | ⟨1, _⟩ =>
    show GatherDims.start _ (ix2 j i) idx 1 + GatherDims.batchCoord _ (ix2 j i) 1 + GatherDims.offCoord _ (ix2 j i) 1 = i.val
    rw [GatherDims.batchCoord_eq_zero _ _ _ (by decide), GatherDims.offCoord_eq_zero _ _ _ (by decide)]
    simp only [Nat.add_zero]
    unfold GatherDims.start
    rw [dif_pos (by decide)]
    have hsi : GatherDims.siIdx gather_S64x64x64_S64x2_S64x64_0_12_n_n_12_1_6411 (ix2 j i)
        ⟨List.idxOf (1 : Fin 3) gather_S64x64x64_S64x2_S64x64_0_12_n_n_12_1_6411.startIndexMap,
          List.idxOf_lt_length_iff.2 (by decide)⟩ = ix2 i (0 : Fin 2) := by
      funext b; refine Fin.ext ?_
      match b with
      | ⟨0, _⟩ => rfl
      | ⟨1, _⟩ => rfl
    rw [hsi, h0, hi]
    exact hmin
  | ⟨2, _⟩ =>
    show GatherDims.start _ (ix2 j i) idx 2 + GatherDims.batchCoord _ (ix2 j i) 2 + GatherDims.offCoord _ (ix2 j i) 2 = i.val
    rw [GatherDims.batchCoord_eq_zero _ _ _ (by decide), GatherDims.offCoord_eq_zero _ _ _ (by decide)]
    simp only [Nat.add_zero]
    unfold GatherDims.start
    rw [dif_pos (by decide)]
    have hsi : GatherDims.siIdx gather_S64x64x64_S64x2_S64x64_0_12_n_n_12_1_6411 (ix2 j i)
        ⟨List.idxOf (2 : Fin 3) gather_S64x64x64_S64x2_S64x64_0_12_n_n_12_1_6411.startIndexMap,
          List.idxOf_lt_length_iff.2 (by decide)⟩ = ix2 i (1 : Fin 2) := by
      funext b; refine Fin.ext ?_
      match b with
      | ⟨0, _⟩ => rfl
      | ⟨1, _⟩ => rfl
    rw [hsi, h1, hi]
    exact hmin

/-- The wrapped row index: the position itself, since a position is never negative. -/
private theorem diag_wrap_eq (p : Fin 64) :
    Scalar.select (IntOp.cmpi .slt (BitVec.ofNat 32 p.val) 0#32) (IntOp.addi (BitVec.ofNat 32 p.val) 64#32) (BitVec.ofNat 32 p.val)
      = BitVec.ofNat 32 p.val := by
  revert p; decide

/-- After the index arithmetic, the first index vector holds each position. -/
theorem diag_idx0_read (V : Valuation Cert.KernelIdeal.τ Cert.KernelIdeal.sig (Elt Ideal)) (p : Fin 64) :
    (after ((hostOps1_9 (F := Ideal)).take 16) V (Proc.devRef .tc main_call8_v6) : IVec S64 32) (ix1 p) = BitVec.ofNat 32 p.val := by
  simp only [hostOps1_9, List.take, TRef.nullary, TRef.unary, TRef.binary, TRef.ternary, TRef.toBuf, TRef.ofBuf, TRef.of]
  after_results_simp
  exact diag_wrap_eq p

/-- After the index arithmetic, the second index vector holds each position. -/
theorem diag_idx1_read (V : Valuation Cert.KernelIdeal.τ Cert.KernelIdeal.sig (Elt Ideal)) (p : Fin 64) :
    (after ((hostOps1_9 (F := Ideal)).take 16) V (Proc.devRef .tc main_call8_v11) : IVec S64 32) (ix1 p) = BitVec.ofNat 32 p.val := by
  simp only [hostOps1_9, List.take, TRef.nullary, TRef.unary, TRef.binary, TRef.ternary, TRef.toBuf, TRef.ofBuf, TRef.of]
  after_results_simp
  exact diag_wrap_eq p

/-- The index arithmetic leaves the array untouched. -/
theorem diag_arr_kept (V : Valuation Cert.KernelIdeal.τ Cert.KernelIdeal.sig (Elt Ideal)) :
    after ((hostOps1_9 (F := Ideal)).take 16) V (Proc.devRef .tc main_v206) = V (Proc.devRef .tc main_v206) := by
  simp only [hostOps1_9, List.take, TRef.nullary, TRef.unary, TRef.binary, TRef.ternary, TRef.toBuf, TRef.ofBuf, TRef.of]
  after_results_simp

/-- The last four operations (two columns, their concatenation, the gather) over contents whose two index vectors hold
    each position: entry (j, i) of the result is entry (j, i, i) of the array. -/
theorem diag_tail_read (W : Valuation Cert.KernelIdeal.τ Cert.KernelIdeal.sig (Elt Ideal)) (j i : Fin 64)
    (h6 : ∀ p : Fin 64, (W (Proc.devRef .tc main_call8_v6) : IVec S64 32) (ix1 p) = BitVec.ofNat 32 p.val)
    (h11 : ∀ p : Fin 64, (W (Proc.devRef .tc main_call8_v11) : IVec S64 32) (ix1 p) = BitVec.ofNat 32 p.val) :
    after ((hostOps1_9 (F := Ideal)).drop 16) W (Proc.devRef .tc main_v207) (ix2 j i) = W (Proc.devRef .tc main_v206) (ix3 j i i) := by
  simp only [hostOps1_9, List.drop, TRef.nullary, TRef.unary, TRef.binary, TRef.ternary, TRef.toBuf, TRef.ofBuf, TRef.of]
  after_results_simp
  rw [unary_result_ne (h := by decide), unary_result, unary_result, unary_result_ne (h := by decide)]
  show Host.gather gather_S64x64x64_S64x2_S64x64_0_12_n_n_12_1_6411 (W (Proc.devRef .tc main_v206))
      (concatenate S64x2 1
        [⟨S64x1, broadcastInDim S64x1 ![0] bcast_S64_S64x1_0 (W (Proc.devRef .tc main_call8_v6) : IVec S64 32)⟩,
         ⟨S64x1, broadcastInDim S64x1 ![0] bcast_S64_S64x1_0 (W (Proc.devRef .tc main_call8_v11) : IVec S64 32)⟩]
        concatenates_S64x1_S64x1_S64x2_d1) (ix2 j i) = _
  refine diag_gather_apply _ _ j i ?_ ?_
  · rw [concatenate_pair_apply_left (t := S64x2) (s₁ := S64x1) (s₂ := S64x1) (1 : Fin 2) _ _ concatenates_S64x1_S64x1_S64x2_d1 (ix2 i (0 : Fin 2)) rfl (ix2 i (0 : Fin 1))
      (fun b => match b with | ⟨0, _⟩ => rfl | ⟨1, _⟩ => rfl)]
    rw [broadcastInDim_apply (s := S64) (t := S64x1) ![0] bcast_S64_S64x1_0 _ (ix2 i (0 : Fin 1)) (ix1 i) (fun a => match a with | ⟨0, _⟩ => rfl)]
    exact h6 i
  · rw [concatenate_pair_apply_right (t := S64x2) (s₁ := S64x1) (s₂ := S64x1) (1 : Fin 2) _ _ concatenates_S64x1_S64x1_S64x2_d1 (ix2 i (1 : Fin 2)) rfl rfl (ix2 i (0 : Fin 1))
      (fun b => match b with | ⟨0, _⟩ => fun _ => rfl | ⟨1, _⟩ => fun h => absurd rfl h) rfl]
    rw [broadcastInDim_apply (s := S64) (t := S64x1) ![0] bcast_S64_S64x1_0 _ (ix2 i (0 : Fin 1)) (ix1 i) (fun a => match a with | ⟨0, _⟩ => rfl)]
    exact h11 i

/-- The kernel's diagonal: entry (j, i) of the gather's result is entry (j, i, i) of the array. -/
theorem diag_kernel (V : Valuation Cert.KernelIdeal.τ Cert.KernelIdeal.sig (Elt Ideal)) (j i : Fin 64) :
    after (hostOps1_9 (F := Ideal)) V (Proc.devRef .tc main_v207) (ix2 j i) = V (Proc.devRef .tc main_v206) (ix3 j i i) := by
  rw [AfterCut.after_take_drop (hostOps1_9 (F := Ideal)) 16 V,
    diag_tail_read _ j i (diag_idx0_read V) (diag_idx1_read V), diag_arr_kept V]

end Kernel

/-! ## The reference's side: a masked sum -/

section Reference
open Cert.ReferenceIdeal Cert.ReferenceIdeal.Gen Cert.ReferenceIdeal.Hand

/-- Two positions below 64 are equal as 32-bit words only when they are the same position. -/
private theorem diag_ofNat_inj64 (k i : Fin 64) : BitVec.ofNat 32 k.val = BitVec.ofNat 32 i.val ↔ k = i := by
  constructor
  · intro h
    have e := congrArg BitVec.toNat h
    simp only [BitVec.toNat_ofNat] at e
    have hk := k.isLt; have hi := i.isLt
    exact Fin.ext (by omega)
  · rintro rfl; rfl

/-- The masked array at (j, k, i): the array's entry where the middle position equals the last, zero elsewhere. -/
private theorem diag_masked_term (G : FVec Ideal S64x64x64 .f32) (j k i : Fin 64) :
    select (broadcastInDim S64x64x64 ![1, 2] bcast_S64x64_S64x64x64_1_2 (cmpi .eq (iotaInDim S64x64 32 0) (iotaInDim S64x64 32 1)))
      G (broadcastInDim S64x64x64 ![] bcast_S_S64x64x64 (constant S_ .f32 0#32)) (ix3 j k i)
      = if k = i then G (ix3 j k i) else (0 : EReal) := by
  show Scalar.select (broadcastInDim S64x64x64 ![1, 2] bcast_S64x64_S64x64x64_1_2 (cmpi .eq (iotaInDim S64x64 32 0) (iotaInDim S64x64 32 1)) (ix3 j k i))
      (G (ix3 j k i)) (Ideal.ofBits .f32 0#32) = _
  rw [broadcastInDim_apply (s := S64x64) (t := S64x64x64) ![1, 2] bcast_S64x64_S64x64x64_1_2 _ (ix3 j k i) (ix2 k i)
    (fun a => match a with | ⟨0, _⟩ => rfl | ⟨1, _⟩ => rfl)]
  show Scalar.select (IntOp.cmpi .eq (BitVec.ofNat 32 k.val) (BitVec.ofNat 32 i.val)) (G (ix3 j k i)) (Ideal.ofBits .f32 0#32) = _
  unfold Scalar.select
  rw [Ideal.ofBits_zero_f32]
  by_cases h : k = i
  · have hc : IntOp.cmpi .eq (BitVec.ofNat 32 k.val) (BitVec.ofNat 32 i.val) = (1 : BitVec 1) := Predicate.cmpi_eq_iff.2 (by rw [h])
    rw [if_pos h, if_pos hc]
  · have hc : ¬ IntOp.cmpi .eq (BitVec.ofNat 32 k.val) (BitVec.ofNat 32 i.val) = (1 : BitVec 1) :=
      fun hc => h ((diag_ofNat_inj64 k i).1 (Predicate.cmpi_eq_iff.1 hc))
    rw [if_neg h, if_neg hc]

/-- The reference's diagonal: the sum over the middle axis of the masked array is its one diagonal term. -/
theorem diag_reference (V' : Valuation Cert.ReferenceIdeal.τ Cert.ReferenceIdeal.sig (Elt Ideal)) (j i : Fin 64) :
    after (segDgR (F := Ideal)) V' (Proc.devRef .tc main_v237) (ix2 j i) = V' (Proc.devRef .tc main_v230) (ix3 j i i) := by
  simp only [segDgR, ops4, List.drop, List.take]
  after_results_simp
  have hR : S64x64x64.Reduces [1] S64x64 := by decide
  rw [hostReduceAdd_apply, Ideal.hostReduceAdd_single reducesTo_S64x64x64_S64x64_d1 hR]
  have hl : ∀ k : Fin 64, hR.lift (ix2 j i) k = ix3 j k i := fun k => by
    funext a; refine Fin.ext ?_
    match a with
    | ⟨0, _⟩ => rfl
    | ⟨1, _⟩ => rfl
    | ⟨2, _⟩ => rfl
  show Ideal.ofBits .f32 0#32 + ∑ k : Fin 64, _ = _
  rw [Ideal.ofBits_zero_f32, zero_add, Finset.sum_eq_single i]
  · rw [hl, diag_masked_term, if_pos rfl]
  · intro k _ hk; rw [hl, diag_masked_term, if_neg hk]
  · intro h; exact absurd (Finset.mem_univ i) h

end Reference

/-! ## The two sides joined -/

/-- Equal arrays have equal diagonals, the one summed by the reference and the one gathered by the kernel. -/
theorem diag_eq (V : Valuation Cert.KernelIdeal.τ Cert.KernelIdeal.sig (Elt Ideal))
    (V' : Valuation Cert.ReferenceIdeal.τ Cert.ReferenceIdeal.sig (Elt Ideal))
    (hG : V' (Proc.devRef .tc Cert.ReferenceIdeal.main_v230) = V (Proc.devRef .tc Cert.KernelIdeal.main_v206)) :
    after (segDgR (F := Ideal)) V' (Proc.devRef .tc Cert.ReferenceIdeal.main_v237)
      = after (Cert.KernelIdeal.Gen.hostOps1_9 (F := Ideal)) V (Proc.devRef .tc Cert.KernelIdeal.main_v207) := by
  funext idx
  have e : idx = ix2 (idx 0) (idx 1) := eq_ix2 idx
  rw [e]
  exact (diag_reference V' _ _).trans ((congrFun hG _).trans (diag_kernel V _ _).symm)

end Cert.GBridge
-- ==== Proof.SimLib.lean ====
/-
  Two programs that apply the same host operations, in the same dependency order, to equal inputs compute
  equal values. This module fixes the vocabulary for stating that between the kernel program and the
  reference program at the ideal instance (a float an extended real): the two kinds of buffer contents, one per
  program; the statement that the sixteen argument buffers of the two programs hold the same tensors; and the
  one computation every such statement is proved by — fold each program's segment over its contents, read
  the wanted buffer as the operations' functions applied to the contents the segment starts from, and
  compare the two expressions, which are the same function of the same inputs once the inputs are identified.
  The two programs declare their own copies of every shape and of every shape relation; the copies of a
  shape are the same literal, and a shape relation is a proposition, so the two expressions coincide.
-/
import proofs.«130977_j54631984005498_2_alg».proof.Proof.Gen.KernelIdeal.Launch
import proofs.«130977_j54631984005498_2_alg».proof.Proof.Gen.ReferenceIdeal
import proofs.«130977_j54631984005498_2_alg».proof.Proof.LibAfterCut
import Idealize.ShloMosaic.Lib.StableHlo.Run
import Idealize.ShloMosaic.PureOps.Ideal

noncomputable section

namespace Cert.Sim

open Idealize.ShloMosaic Idealize.ShloMosaic.TcCoe Idealize.SL.Sem Idealize.ShloMosaic.StableHlo

/-- Buffer contents of the kernel program, every float an extended real. -/
abbrev VK := Valuation Cert.KernelIdeal.τ Cert.KernelIdeal.sig (Elt Ideal)
/-- Buffer contents of the reference program, every float an extended real. -/
abbrev VR := Valuation Cert.ReferenceIdeal.τ Cert.ReferenceIdeal.sig (Elt Ideal)
/-- A list of host operations of the kernel program. -/
abbrev OpsK := List (HloOp Cert.KernelIdeal.τ Cert.KernelIdeal.sig (Elt Ideal))
/-- A list of host operations of the reference program. -/
abbrev OpsR := List (HloOp Cert.ReferenceIdeal.τ Cert.ReferenceIdeal.sig (Elt Ideal))

/-- A buffer of the kernel program, by its name there. -/
scoped macro "kb% " x:ident : term => pure (Lean.mkIdentFrom x (`Cert.KernelIdeal ++ x.getId))
/-- A buffer of the reference program, by its name there. -/
scoped macro "rb% " x:ident : term => pure (Lean.mkIdentFrom x (`Cert.ReferenceIdeal ++ x.getId))

/-- Contents of a buffer of the given shape and element type. -/
abbrev Tn (s : Shape) (e : EltTy) : Type := BufTy.Contents (Elt Ideal) ⟨s, e⟩

/-- The two programs' sixteen argument buffers hold the same tensors (each equation at the argument's own
    tensor type, which is the same in the two programs). -/
structure ArgsEq (V' : VR) (V : VK) : Prop where
  a0 : @Eq (Tn (kb% S16384x64) .f32) (V' (rb% main_arg0)) (V (kb% main_arg0))
  a1 : @Eq (Tn (kb% S2048x64) .f32) (V' (rb% main_arg1)) (V (kb% main_arg1))
  a2 : @Eq (Tn (kb% S8192x64) .f32) (V' (rb% main_arg2)) (V (kb% main_arg2))
  a3 : @Eq (Tn (kb% S64x64) .f32) (V' (rb% main_arg3)) (V (kb% main_arg3))
  a4 : @Eq (Tn (kb% S16384x128) .f32) (V' (rb% main_arg4)) (V (kb% main_arg4))
  a5 : @Eq (Tn (kb% S256x128) .f32) (V' (rb% main_arg5)) (V (kb% main_arg5))
  a6 : @Eq (Tn (kb% S256) .f32) (V' (rb% main_arg6)) (V (kb% main_arg6))
  a7 : @Eq (Tn (kb% S256) .f32) (V' (rb% main_arg7)) (V (kb% main_arg7))
  a8 : @Eq (Tn (kb% S64x256) .f32) (V' (rb% main_arg8)) (V (kb% main_arg8))
  a9 : @Eq (Tn (kb% S64) .f32) (V' (rb% main_arg9)) (V (kb% main_arg9))
  a10 : @Eq (Tn (kb% S256x64) .f32) (V' (rb% main_arg10)) (V (kb% main_arg10))
  a11 : @Eq (Tn (kb% S256) .f32) (V' (rb% main_arg11)) (V (kb% main_arg11))
  a12 : @Eq (Tn (kb% S256) .f32) (V' (rb% main_arg12)) (V (kb% main_arg12))
  a13 : @Eq (Tn (kb% S128x256) .f32) (V' (rb% main_arg13)) (V (kb% main_arg13))
  a14 : @Eq (Tn (kb% S128) .f32) (V' (rb% main_arg14)) (V (kb% main_arg14))
  a15 : @Eq (Tn (kb% S16384) .i32) (V' (rb% main_arg15)) (V (kb% main_arg15))

/-- Reads a buffer after a fold of operations whose lists are already literal: the fold over a
    concatenation is taken part by part, then every operation's result is read at its own buffer as its
    function's value and at any other buffer as what was there before. -/
macro "sim_read" : tactic =>
  `(tactic| (simp only [AfterCut.after_append]; after_results_simp))

/-- Rewrites the reference program's argument contents to the kernel program's and compares. -/
macro "sim_args " ha:ident : tactic =>
  `(tactic| (simp only [ArgsEq.a0 $ha, ArgsEq.a1 $ha, ArgsEq.a2 $ha, ArgsEq.a3 $ha, ArgsEq.a4 $ha, ArgsEq.a5 $ha, ArgsEq.a6 $ha,
      ArgsEq.a7 $ha, ArgsEq.a8 $ha, ArgsEq.a9 $ha, ArgsEq.a10 $ha, ArgsEq.a11 $ha, ArgsEq.a12 $ha, ArgsEq.a13 $ha, ArgsEq.a14 $ha,
      ArgsEq.a15 $ha]; first | done | rfl))

end Cert.Sim

end
-- ==== Proof.SimGen.lean ====
/-
  The independence samples and their statistics are the same host operations in the kernel program and in the
  reference program. A generator network here is a linear layer without bias, a normalisation over the batch by
  its mean and its biased variance with a scale and a shift, a leaky rectifier, and a linear layer with bias.
  First, from equal arguments, each program applies the translator network to the second noise sample and the
  decoder network to the result: the two sample matrices are equal. Second, from equal sample matrices, each
  program forms the column means, the centred matrix, its column energies, the Gram matrix of the centred
  columns, the squared correlations (the squared Gram entries over the products of the energies) and their sum
  off the diagonal, scaled: the two sums are equal. Each value is the same expression in the block's inputs in
  both programs, read off by folding the block's operations over the starting contents.
-/
import proofs.«130977_j54631984005498_2_alg».proof.Proof.SimLib
import proofs.«130977_j54631984005498_2_alg».proof.Proof.KBlocks
import proofs.«130977_j54631984005498_2_alg».proof.Proof.RBlocks

noncomputable section

namespace Cert.Sim

open Idealize.ShloMosaic Idealize.ShloMosaic.TcCoe Idealize.SL.Sem Idealize.ShloMosaic.StableHlo

open Cert.KernelIdeal.Gen Cert.ReferenceIdeal.Hand in
set_option maxHeartbeats 4000000 in
set_option maxRecDepth 16384 in
/-- The correlation sum: from equal sample matrices the two programs compute the column means, the centred
    matrix, the column energies, the Gram matrix and the scaled off-diagonal sum of the squared correlations by
    the same operations. (The two blocks go on differently after that sum; no later operation writes its
    buffer, so the read is of the common part.) -/
theorem sim_sumsc (V : VK) (V' : VR)
    (hX : @Eq (Tn (kb% S8192x64) .f32) (V' (rb% main_v174)) (V (kb% main_v167))) :
    @Eq (Tn (kb% S_) .f32) (after (Cert.ReferenceIdeal.Blocks.rB3 (F := Ideal)) V' (rb% main_v202))
      (after (Cert.KernelIdeal.Blocks.kB3 (F := Ideal)) V (kb% main_v195)) := by
  simp only [Cert.KernelIdeal.Blocks.kB3, Cert.ReferenceIdeal.Blocks.rB3, Cert.KernelIdeal.Blocks.L, Cert.KernelIdeal.Hand.tailOpss, hostOps1, hostOps1_1, hostOps1_2, hostOps1_3, hostOps1_4, hostOps1_5, hostOps1_6, hostOps1_7, hostOps1_8, hostOps1_9, hostOps1_10, hostOps1_11, hostOps1_12, hostOps1_13, hostOps1_14, Cert.ReferenceIdeal.Blocks.L, ops0, ops1, ops2, ops3, ops4, ops5, List.flatten_cons, List.flatten_nil, List.cons_append, List.nil_append, List.append_nil, List.drop, List.take]
  after_results_simp
  simp only [TRef.ofBuf, TRef.toBuf, cast_eq, hX]
  first | done | rfl

open Cert.KernelIdeal.Gen Cert.ReferenceIdeal.Hand in
set_option maxHeartbeats 4000000 in
set_option maxRecDepth 16384 in
/-- The independence samples: the translator network applied to the second noise sample, then the decoder
    network applied to the result, are the same operations of the same arguments in the two programs. -/
theorem sim_Xind (V : VK) (V' : VR) (ha : ArgsEq V' V) :
    @Eq (Tn (kb% S8192x64) .f32) (after (Cert.ReferenceIdeal.Blocks.rB2 (F := Ideal)) V' (rb% main_v174))
      (after (Cert.KernelIdeal.Blocks.kB2 (F := Ideal)) V (kb% main_v167)) := by
  simp only [Cert.KernelIdeal.Blocks.kB2, Cert.ReferenceIdeal.Blocks.rB2, Cert.KernelIdeal.Blocks.L, Cert.KernelIdeal.Hand.tailOpss, hostOps1, hostOps1_1, hostOps1_2, hostOps1_3, hostOps1_4, hostOps1_5, hostOps1_6, hostOps1_7, hostOps1_8, hostOps1_9, hostOps1_10, hostOps1_11, hostOps1_12, hostOps1_13, hostOps1_14, Cert.ReferenceIdeal.Blocks.L, ops0, ops1, ops2, ops3, ops4, ops5, List.flatten_cons, List.flatten_nil, List.cons_append, List.nil_append, List.append_nil, List.drop, List.take]
  after_results_simp
  simp only [TRef.ofBuf, TRef.toBuf, cast_eq]
  sim_args ha

end Cert.Sim

end
-- ==== Proof.SimRest.lean ====
/-
  From the residual Gram array to the weighted triple sum, the kernel program and the reference program apply
  the same host operations: the denominator built from the array's diagonal, the mask of index triples with
  pairwise distinct entries, the guarded quotient of the squared array by the denominator, the weights built from the
  connectivity matrix and its transpose, and the sum over all triples. Given equal Gram arrays, equal diagonals
  and equal connectivity matrices at the start of the block, the two sums are therefore equal: each is the same
  expression in those three inputs, read off by folding the block's operations over the starting contents.
-/
import proofs.«130977_j54631984005498_2_alg».proof.Proof.SimLib
import proofs.«130977_j54631984005498_2_alg».proof.Proof.KBlocks
import proofs.«130977_j54631984005498_2_alg».proof.Proof.RBlocks

noncomputable section

namespace Cert.Sim

open Idealize.ShloMosaic Idealize.ShloMosaic.TcCoe Idealize.SL.Sem Idealize.ShloMosaic.StableHlo

open Cert.KernelIdeal.Gen Cert.ReferenceIdeal.Hand in
set_option maxHeartbeats 4000000 in
set_option maxRecDepth 16384 in
/-- The weighted triple sum: from equal residual Gram arrays, equal diagonals and equal connectivity matrices the two
    programs apply the same operations (the reference forms the square of the Gram array before, the kernel
    program after, the constant it guards the denominator with: the order of two independent operations), so
    their triple sums are equal. -/
theorem sim_triple (V : VK) (V' : VR)
    (hG : @Eq (Tn (kb% S64x64x64) .f32) (V' (rb% main_v230)) (V (kb% main_v206)))
    (hdg : @Eq (Tn (kb% S64x64) .f32) (V' (rb% main_v237)) (V (kb% main_v207)))
    (hC : @Eq (Tn (kb% S64x64) .f32) (V' (rb% main_v16)) (V (kb% main_v16))) :
    @Eq (Tn (kb% S_) .f32) (after (Cert.ReferenceIdeal.Blocks.rB5 (F := Ideal)) V' (rb% main_v276))
      (after (Cert.KernelIdeal.Blocks.kB5 (F := Ideal)) V (kb% main_v246)) := by
  simp only [Cert.KernelIdeal.Blocks.kB5, Cert.ReferenceIdeal.Blocks.rB5, Cert.KernelIdeal.Blocks.L, Cert.KernelIdeal.Hand.tailOpss, hostOps1, hostOps1_1, hostOps1_2, hostOps1_3, hostOps1_4, hostOps1_5, hostOps1_6, hostOps1_7, hostOps1_8, hostOps1_9, hostOps1_10, hostOps1_11, hostOps1_12, hostOps1_13, hostOps1_14, Cert.ReferenceIdeal.Blocks.L, ops0, ops1, ops2, ops3, ops4, ops5, List.flatten_cons, List.flatten_nil, List.cons_append, List.nil_append, List.append_nil, List.drop, List.take]
  after_results_simp
  simp only [hG, hdg, hC]
  first | done | rfl

end Cert.Sim

end
-- ==== Proof.FinForm.lean ====
/-
  The last four additions of the two programs.

  Both programs end by adding five scalars: the kernel forms  (t + (m + n)) + (g + c)  from the transition
  loss t, the reconstruction loss m, the nearest-neighbour loss n, the weighted triple sum g and the
  correlation sum c; the reference forms the same expression from its own five buffers. At the ideal
  instance a scalar is an extended real and the addition is the extended reals'.

  This module reads the final buffer of either program, after its last four operations run from ANY
  contents, as that expression in the five live-in buffers; it follows that equal live-ins give equal
  results; and since  x + ⊥ = ⊥  for every extended real x, a correlation sum equal to ⊥ makes the result ⊥.
-/
import proofs.«130977_j54631984005498_2_alg».proof.Proof.KBlocks
import proofs.«130977_j54631984005498_2_alg».proof.Proof.RBlocks
import Idealize.ShloMosaic.Lib.ValueIdx
import Idealize.ShloMosaic.Lib.StableHlo.Run
import Mathlib.Data.EReal.Operations

set_option maxRecDepth 16384

noncomputable section

namespace Cert.FinForm

open Idealize.ShloMosaic Idealize.ShloMosaic.TcCoe Idealize.ShloMosaic.StableHlo Idealize.ShloMosaic.ValueIdx

/-- A scalar array of extended reals. -/
abbrev Sc : Type := FVec Ideal (⟨0, ![]⟩ : Shape) .f32

/-- The sum of the five scalars, associated as both programs associate it. -/
abbrev total (t m n g c : Sc) : Sc :=
  addf (F := Ideal) (s := ⟨0, ![]⟩) (φ := .f32)
    (addf (F := Ideal) (s := ⟨0, ![]⟩) (φ := .f32) t (addf (F := Ideal) (s := ⟨0, ![]⟩) (φ := .f32) m n))
    (addf (F := Ideal) (s := ⟨0, ![]⟩) (φ := .f32) g c)

/-- A sum whose last term is ⊥ is ⊥: x + ⊥ = ⊥ for every extended real x. -/
theorem total_bot (t m n g : Sc) : total t m n g (fun _ => (⊥ : EReal)) = fun _ => (⊥ : EReal) := by
  funext j
  show (t j : EReal) + ((m j : EReal) + (n j : EReal)) + ((g j : EReal) + (⊥ : EReal)) = ⊥
  rw [EReal.add_bot, EReal.add_bot]

/-- The kernel's last block is the last four operations of its last stretch. -/
theorem kB6_eq : Cert.KernelIdeal.Blocks.kB6 (F := Ideal) = (Cert.KernelIdeal.Gen.hostOps1_14 (F := Ideal)).drop 10 := rfl

/-- The reference's last block is the last four operations of its last window. -/
theorem rB6_eq : Cert.ReferenceIdeal.Blocks.rB6 (F := Ideal) = (Cert.ReferenceIdeal.Hand.ops5 (F := Ideal)).drop 35 := rfl

section K
open Cert.KernelIdeal Cert.KernelIdeal.Gen
variable (V : Valuation Cert.KernelIdeal.τ Cert.KernelIdeal.sig (Elt Ideal))

theorem fin_K :
    (after (Cert.KernelIdeal.Blocks.kB6 (F := Ideal)) V (Proc.devRef .tc main_v250) : Sc)
      = total (V (Proc.devRef .tc main_v20)) (V (Proc.devRef .tc main_v55)) (V (Proc.devRef .tc main_v105))
          (V (Proc.devRef .tc main_v246)) (V (Proc.devRef .tc main_v195)) := by
  rw [kB6_eq]
  simp only [hostOps1_14, List.drop]
  after_results_simp

/-- If the correlation sum is ⊥, so is the kernel's result. -/
theorem fin_K_bot (h : (V (Proc.devRef .tc main_v195) : Sc) = fun _ => (⊥ : EReal)) :
    (after (Cert.KernelIdeal.Blocks.kB6 (F := Ideal)) V (Proc.devRef .tc main_v250) : Sc) = fun _ => (⊥ : EReal) := by
  rw [fin_K, h]
  exact total_bot _ _ _ _

end K

section R
open Cert.ReferenceIdeal Cert.ReferenceIdeal.Gen
variable (V' : Valuation Cert.ReferenceIdeal.τ Cert.ReferenceIdeal.sig (Elt Ideal))

theorem fin_R :
    (after (Cert.ReferenceIdeal.Blocks.rB6 (F := Ideal)) V' (Proc.devRef .tc main_v280) : Sc)
      = total (V' (Proc.devRef .tc main_v20)) (V' (Proc.devRef .tc main_v55)) (V' (Proc.devRef .tc main_v112))
          (V' (Proc.devRef .tc main_v276)) (V' (Proc.devRef .tc main_v202)) := by
  rw [rB6_eq]
  simp only [Cert.ReferenceIdeal.Hand.ops5, List.drop]
  after_results_simp

/-- If the correlation sum is ⊥, so is the reference's result. -/
theorem fin_R_bot (h : (V' (Proc.devRef .tc main_v202) : Sc) = fun _ => (⊥ : EReal)) :
    (after (Cert.ReferenceIdeal.Blocks.rB6 (F := Ideal)) V' (Proc.devRef .tc main_v280) : Sc) = fun _ => (⊥ : EReal) := by
  rw [fin_R, h]
  exact total_bot _ _ _ _

end R

/-- Equal live-ins give equal results. -/
theorem fin_eq (V : Valuation Cert.KernelIdeal.τ Cert.KernelIdeal.sig (Elt Ideal))
    (V' : Valuation Cert.ReferenceIdeal.τ Cert.ReferenceIdeal.sig (Elt Ideal))
    (h246 : (V' (Proc.devRef .tc Cert.ReferenceIdeal.main_v276) : Sc) = V (Proc.devRef .tc Cert.KernelIdeal.main_v246))
    (hsc : (V' (Proc.devRef .tc Cert.ReferenceIdeal.main_v202) : Sc) = V (Proc.devRef .tc Cert.KernelIdeal.main_v195))
    (hmse : (V' (Proc.devRef .tc Cert.ReferenceIdeal.main_v55) : Sc) = V (Proc.devRef .tc Cert.KernelIdeal.main_v55))
    (hnct : (V' (Proc.devRef .tc Cert.ReferenceIdeal.main_v112) : Sc) = V (Proc.devRef .tc Cert.KernelIdeal.main_v105))
    (hlt : (V' (Proc.devRef .tc Cert.ReferenceIdeal.main_v20) : Sc) = V (Proc.devRef .tc Cert.KernelIdeal.main_v20)) :
    (after (Cert.ReferenceIdeal.Blocks.rB6 (F := Ideal)) V' (Proc.devRef .tc Cert.ReferenceIdeal.main_v280) : Sc)
      = after (Cert.KernelIdeal.Blocks.kB6 (F := Ideal)) V (Proc.devRef .tc Cert.KernelIdeal.main_v250) := by
  rw [fin_R, fin_K, h246, hsc, hmse, hnct, hlt]

end Cert.FinForm

end
-- ==== Proof.AsmCore.lean ====
/-
  The back half of the comparison of the two programs: from the independence samples to the result.

  Each program, after it has made the 8192 × 64 matrix of independence samples, runs four more blocks
  of operations: (3) the column statistics of the samples, the correlation sum, and the 64 × 64 × 64
  array G of residual Gram matrices — the kernel program by the closed form, the reference sample by
  sample; (4) the diagonals of G; (5) a weighted triple sum over G, its diagonals and the connectivity
  matrix; (6) four additions that put the losses together.  This module shows that the two results are
  equal, given that the two programs hold the same samples (all of them real numbers), the same
  connectivity matrix and the same three earlier losses when block (3) starts.

  Every value computed before a block and read after it is carried across the block by the fact that
  the block writes none of those buffers.  The correlation sums of the two programs are equal in every
  case.  Then two cases.  If no column of the samples has zero energy, the two arrays G are equal (the
  residual Gram matrix is the Schur complement), so are their diagonals, the triple sums and the results.
  If some column has zero energy, the correlation sum is −∞ on both sides, and a result that adds −∞ is
  −∞ on both sides.
-/
import proofs.«130977_j54631984005498_2_alg».proof.Proof.KBlocks
import proofs.«130977_j54631984005498_2_alg».proof.Proof.RBlocks
import proofs.«130977_j54631984005498_2_alg».proof.Proof.GCombine
import proofs.«130977_j54631984005498_2_alg».proof.Proof.GBridgeK
import proofs.«130977_j54631984005498_2_alg».proof.Proof.DiagBridge
import proofs.«130977_j54631984005498_2_alg».proof.Proof.SimGen
import proofs.«130977_j54631984005498_2_alg».proof.Proof.SimRest
import proofs.«130977_j54631984005498_2_alg».proof.Proof.FinForm
import proofs.«130977_j54631984005498_2_alg».proof.Proof.KKeeps
import proofs.«130977_j54631984005498_2_alg».proof.Proof.RKeeps
import proofs.«130977_j54631984005498_2_alg».proof.Proof.LibAfterCut
import proofs.«130977_j54631984005498_2_alg».proof.Proof.LibIdealFinite
import Idealize.ShloMosaic.Lib.StableHlo.Run
import Idealize.ShloMosaic.Lib.ValueIdx

set_option maxRecDepth 16384

noncomputable section

namespace Cert.Asm

open Idealize.ShloMosaic Idealize.ShloMosaic.TcCoe Idealize.ShloMosaic.StableHlo Idealize.ShloMosaic.ValueIdx
open Cert.KernelIdeal.Blocks (kB3 kB4 kB5 kB6 kB3_keeps kB4_keeps kB5_keeps)
open Cert.ReferenceIdeal.Blocks (rB3 rB4 rB5 rB6 rB3_keeps rB4_keeps rB5_keeps)

/-- Buffer contents of the kernel program. -/
abbrev VK := Valuation Cert.KernelIdeal.τ Cert.KernelIdeal.sig (Elt Ideal)
/-- Buffer contents of the reference program. -/
abbrev VR := Valuation Cert.ReferenceIdeal.τ Cert.ReferenceIdeal.sig (Elt Ideal)

/-- A scalar, a 64 × 64 matrix, a 64 × 64 × 64 array, an 8192 × 64 matrix of extended reals. -/
abbrev Sc : Type := FVec Ideal (⟨0, ![]⟩ : Shape) .f32
abbrev M64 : Type := FVec Ideal (⟨2, ![64, 64]⟩ : Shape) .f32
abbrev T64 : Type := FVec Ideal (⟨3, ![64, 64, 64]⟩ : Shape) .f32
abbrev D8192x64 : Type := FVec Ideal (⟨2, ![8192, 64]⟩ : Shape) .f32

/-! ### The blocks as the stretches the bridges are stated over -/

theorem rB3_eq : rB3 (F := Ideal) = Cert.GBridge.segGR := rfl
theorem kB3_eq : kB3 (F := Ideal) = Cert.GBridge.segGK := rfl
theorem rB4_eq : rB4 (F := Ideal) = Cert.GBridge.segDgR (F := Ideal) := rfl
theorem kB4_eq : kB4 (F := Ideal) = Cert.KernelIdeal.Gen.hostOps1_9 (F := Ideal) := rfl

/-- A buffer that no operation of a block writes holds after the block what it held before. -/
theorem keep {τ : Topo} {sig : RefSig} {l : List (HloOp τ sig (Elt Ideal))} {bs : List (Ref sig .tc)}
    (hk : ∀ op ∈ l, ∀ b ∈ bs, Proc.devRef (τ := τ) .tc b ∉ op.writes) (V : Valuation τ sig (Elt Ideal))
    {b : Ref sig .tc} (hb : b ∈ bs) : after l V (Proc.devRef .tc b) = V (Proc.devRef .tc b) :=
  AfterCut.after_congr_of_not_written l V fun op hop => hk op hop b hb

/-! ### The contents after each block -/

section Chain

variable (A2 : VK) (R2 : VR)

/-- The kernel program's contents after its blocks 3, 4, 5. -/
abbrev A3 : VK := after (kB3 (F := Ideal)) A2
abbrev A4 : VK := after (kB4 (F := Ideal)) (A3 A2)
abbrev A5 : VK := after (kB5 (F := Ideal)) (A4 A2)
/-- The reference program's contents after its blocks 3, 4, 5. -/
abbrev R3 : VR := after (rB3 (F := Ideal)) R2
abbrev R4 : VR := after (rB4 (F := Ideal)) (R3 R2)
abbrev R5 : VR := after (rB5 (F := Ideal)) (R4 R2)

theorem A3_eq : A3 A2 = after Cert.GBridge.segGK A2 := congrArg (fun l => after l A2) kB3_eq
theorem R3_eq : R3 R2 = after Cert.GBridge.segGR R2 := congrArg (fun l => after l R2) rB3_eq
theorem A4_eq : A4 A2 = after (Cert.KernelIdeal.Gen.hostOps1_9 (F := Ideal)) (A3 A2) :=
  congrArg (fun l => after l (A3 A2)) kB4_eq
theorem R4_eq : R4 R2 = after (Cert.GBridge.segDgR (F := Ideal)) (R3 R2) :=
  congrArg (fun l => after l (R3 R2)) rB4_eq

/-- The two results are equal. -/
theorem asm_core
    (hX : (R2 (Proc.devRef .tc Cert.ReferenceIdeal.main_v174) : D8192x64)
      = A2 (Proc.devRef .tc Cert.KernelIdeal.main_v167))
    (hfin : IdealFinite.AllFin (S := Cert.KernelIdeal.S8192x64) (A2 (Proc.devRef .tc Cert.KernelIdeal.main_v167)))
    (hC : (R2 (Proc.devRef .tc Cert.ReferenceIdeal.main_v16) : M64) = A2 (Proc.devRef .tc Cert.KernelIdeal.main_v16))
    (hlt : (R2 (Proc.devRef .tc Cert.ReferenceIdeal.main_v20) : Sc) = A2 (Proc.devRef .tc Cert.KernelIdeal.main_v20))
    (hmse : (R2 (Proc.devRef .tc Cert.ReferenceIdeal.main_v55) : Sc) = A2 (Proc.devRef .tc Cert.KernelIdeal.main_v55))
    (hnct : (R2 (Proc.devRef .tc Cert.ReferenceIdeal.main_v112) : Sc) = A2 (Proc.devRef .tc Cert.KernelIdeal.main_v105)) :
    (after (rB6 (F := Ideal)) (R5 R2) (Proc.devRef .tc Cert.ReferenceIdeal.main_v280) : Sc)
      = after (kB6 (F := Ideal)) (A5 A2) (Proc.devRef .tc Cert.KernelIdeal.main_v250) := by
  -- positions in the lists of kept buffers
  have m0 : ∀ {α : Type} {a : α} {l : List α}, a ∈ a :: l := List.mem_cons_self
  have m1 : ∀ {α : Type} {a b : α} {l : List α}, a ∈ b :: a :: l := List.mem_cons_of_mem _ List.mem_cons_self
  have m2 : ∀ {α : Type} {a b c : α} {l : List α}, a ∈ b :: c :: a :: l :=
    List.mem_cons_of_mem _ (List.mem_cons_of_mem _ List.mem_cons_self)
  have m3 : ∀ {α : Type} {a b c d : α} {l : List α}, a ∈ b :: c :: d :: a :: l :=
    List.mem_cons_of_mem _ (List.mem_cons_of_mem _ (List.mem_cons_of_mem _ List.mem_cons_self))
  have m4 : ∀ {α : Type} {a b c d e : α} {l : List α}, a ∈ b :: c :: d :: e :: a :: l :=
    List.mem_cons_of_mem _ (List.mem_cons_of_mem _ (List.mem_cons_of_mem _ (List.mem_cons_of_mem _ List.mem_cons_self)))
  have m5 : ∀ {α : Type} {a b c d e f : α} {l : List α}, a ∈ b :: c :: d :: e :: f :: a :: l :=
    List.mem_cons_of_mem _ (List.mem_cons_of_mem _ (List.mem_cons_of_mem _ (List.mem_cons_of_mem _
      (List.mem_cons_of_mem _ List.mem_cons_self))))
  -- the kernel program's carried values
  have kC : A4 A2 (Proc.devRef .tc Cert.KernelIdeal.main_v16) = A2 (Proc.devRef .tc Cert.KernelIdeal.main_v16) :=
    (keep (kB4_keeps (F := Ideal)) (A3 A2) m0).trans (keep (kB3_keeps (F := Ideal)) A2 m0)
  have klt : A5 A2 (Proc.devRef .tc Cert.KernelIdeal.main_v20) = A2 (Proc.devRef .tc Cert.KernelIdeal.main_v20) :=
    (keep (kB5_keeps (F := Ideal)) (A4 A2) m0).trans
      ((keep (kB4_keeps (F := Ideal)) (A3 A2) m1).trans (keep (kB3_keeps (F := Ideal)) A2 m1))
  have kmse : A5 A2 (Proc.devRef .tc Cert.KernelIdeal.main_v55) = A2 (Proc.devRef .tc Cert.KernelIdeal.main_v55) :=
    (keep (kB5_keeps (F := Ideal)) (A4 A2) m1).trans
      ((keep (kB4_keeps (F := Ideal)) (A3 A2) m2).trans (keep (kB3_keeps (F := Ideal)) A2 m2))
  have knct : A5 A2 (Proc.devRef .tc Cert.KernelIdeal.main_v105) = A2 (Proc.devRef .tc Cert.KernelIdeal.main_v105) :=
    (keep (kB5_keeps (F := Ideal)) (A4 A2) m2).trans
      ((keep (kB4_keeps (F := Ideal)) (A3 A2) m3).trans (keep (kB3_keeps (F := Ideal)) A2 m3))
  have ksc : A5 A2 (Proc.devRef .tc Cert.KernelIdeal.main_v195) = A3 A2 (Proc.devRef .tc Cert.KernelIdeal.main_v195) :=
    (keep (kB5_keeps (F := Ideal)) (A4 A2) m3).trans (keep (kB4_keeps (F := Ideal)) (A3 A2) m4)
  have kG : A4 A2 (Proc.devRef .tc Cert.KernelIdeal.main_v206) = A3 A2 (Proc.devRef .tc Cert.KernelIdeal.main_v206) :=
    keep (kB4_keeps (F := Ideal)) (A3 A2) m5
  -- the reference program's carried values
  have rC : R4 R2 (Proc.devRef .tc Cert.ReferenceIdeal.main_v16) = R2 (Proc.devRef .tc Cert.ReferenceIdeal.main_v16) :=
    (keep (rB4_keeps (F := Ideal)) (R3 R2) m0).trans (keep (rB3_keeps (F := Ideal)) R2 m0)
  have rlt : R5 R2 (Proc.devRef .tc Cert.ReferenceIdeal.main_v20) = R2 (Proc.devRef .tc Cert.ReferenceIdeal.main_v20) :=
    (keep (rB5_keeps (F := Ideal)) (R4 R2) m0).trans
      ((keep (rB4_keeps (F := Ideal)) (R3 R2) m1).trans (keep (rB3_keeps (F := Ideal)) R2 m1))
  have rmse : R5 R2 (Proc.devRef .tc Cert.ReferenceIdeal.main_v55) = R2 (Proc.devRef .tc Cert.ReferenceIdeal.main_v55) :=
    (keep (rB5_keeps (F := Ideal)) (R4 R2) m1).trans
      ((keep (rB4_keeps (F := Ideal)) (R3 R2) m2).trans (keep (rB3_keeps (F := Ideal)) R2 m2))
  have rnct : R5 R2 (Proc.devRef .tc Cert.ReferenceIdeal.main_v112) = R2 (Proc.devRef .tc Cert.ReferenceIdeal.main_v112) :=
    (keep (rB5_keeps (F := Ideal)) (R4 R2) m2).trans
      ((keep (rB4_keeps (F := Ideal)) (R3 R2) m3).trans (keep (rB3_keeps (F := Ideal)) R2 m3))
  have rsc : R5 R2 (Proc.devRef .tc Cert.ReferenceIdeal.main_v202) = R3 R2 (Proc.devRef .tc Cert.ReferenceIdeal.main_v202) :=
    (keep (rB5_keeps (F := Ideal)) (R4 R2) m3).trans (keep (rB4_keeps (F := Ideal)) (R3 R2) m4)
  have rG : R4 R2 (Proc.devRef .tc Cert.ReferenceIdeal.main_v230) = R3 R2 (Proc.devRef .tc Cert.ReferenceIdeal.main_v230) :=
    keep (rB4_keeps (F := Ideal)) (R3 R2) m5
  -- the two programs' carried values agree
  have hlt5 : (R5 R2 (Proc.devRef .tc Cert.ReferenceIdeal.main_v20) : Sc)
      = A5 A2 (Proc.devRef .tc Cert.KernelIdeal.main_v20) := rlt.trans (hlt.trans klt.symm)
  have hmse5 : (R5 R2 (Proc.devRef .tc Cert.ReferenceIdeal.main_v55) : Sc)
      = A5 A2 (Proc.devRef .tc Cert.KernelIdeal.main_v55) := rmse.trans (hmse.trans kmse.symm)
  have hnct5 : (R5 R2 (Proc.devRef .tc Cert.ReferenceIdeal.main_v112) : Sc)
      = A5 A2 (Proc.devRef .tc Cert.KernelIdeal.main_v105) := rnct.trans (hnct.trans knct.symm)
  have hC4 : (R4 R2 (Proc.devRef .tc Cert.ReferenceIdeal.main_v16) : M64)
      = A4 A2 (Proc.devRef .tc Cert.KernelIdeal.main_v16) := rC.trans (hC.trans kC.symm)
  -- the correlation sums agree, after block 3 and hence after block 5
  have hsc3 : (R3 R2 (Proc.devRef .tc Cert.ReferenceIdeal.main_v202) : Sc)
      = A3 A2 (Proc.devRef .tc Cert.KernelIdeal.main_v195) := Cert.Sim.sim_sumsc A2 R2 hX
  have hsc5 : (R5 R2 (Proc.devRef .tc Cert.ReferenceIdeal.main_v202) : Sc)
      = A5 A2 (Proc.devRef .tc Cert.KernelIdeal.main_v195) := rsc.trans (hsc3.trans ksc.symm)
  rcases Cert.GBridge.s2_dichotomy (Cert.GBridge.XfK A2) with hnd | hdeg
  · -- no degenerate column: the arrays G agree, then their diagonals, the triple sums, the results
    have hG3 : (R3 R2 (Proc.devRef .tc Cert.ReferenceIdeal.main_v230) : T64)
        = A3 A2 (Proc.devRef .tc Cert.KernelIdeal.main_v206) :=
      (congrFun (R3_eq R2) _).trans
        ((Cert.GBridge.G_eq_of_allFin A2 R2 hX hfin hnd).trans (congrFun (A3_eq A2) _).symm)
    have hG4 : (R4 R2 (Proc.devRef .tc Cert.ReferenceIdeal.main_v230) : T64)
        = A4 A2 (Proc.devRef .tc Cert.KernelIdeal.main_v206) := rG.trans (hG3.trans kG.symm)
    have hdg4 : (R4 R2 (Proc.devRef .tc Cert.ReferenceIdeal.main_v237) : M64)
        = A4 A2 (Proc.devRef .tc Cert.KernelIdeal.main_v207) :=
      (congrFun (R4_eq R2) _).trans
        ((Cert.GBridge.diag_eq (A3 A2) (R3 R2) hG3).trans (congrFun (A4_eq A2) _).symm)
    have h246 : (R5 R2 (Proc.devRef .tc Cert.ReferenceIdeal.main_v276) : Sc)
        = A5 A2 (Proc.devRef .tc Cert.KernelIdeal.main_v246) := Cert.Sim.sim_triple (A4 A2) (R4 R2) hG4 hdg4 hC4
    exact Cert.FinForm.fin_eq (A5 A2) (R5 R2) h246 hsc5 hmse5 hnct5 hlt5
  · -- a degenerate column: the correlation sum is −∞ on both sides, and so are the results
    have hbot3 : (A3 A2 (Proc.devRef .tc Cert.KernelIdeal.main_v195) : Sc) = fun _ => (⊥ : EReal) :=
      (congrFun (A3_eq A2) _).trans (Cert.GBridge.gK_sumsc_bot A2 (fun n i => hfin (ix2 n i)) hdeg)
    have hbotK : (A5 A2 (Proc.devRef .tc Cert.KernelIdeal.main_v195) : Sc) = fun _ => (⊥ : EReal) :=
      ksc.trans hbot3
    have hbotR : (R5 R2 (Proc.devRef .tc Cert.ReferenceIdeal.main_v202) : Sc) = fun _ => (⊥ : EReal) :=
      hsc5.trans hbotK
    exact (Cert.FinForm.fin_R_bot (R5 R2) hbotR).trans (Cert.FinForm.fin_K_bot (A5 A2) hbotK).symm

end Chain

end Cert.Asm

end
-- ==== Proof.FiniteChain.lean ====
/-
  Every entry of the three arrays that the kernel program hands on — the projected points Zp, the
  gathered points Zs, and the generated samples X_ind — is a real number, provided every entry of the
  fifteen float arguments is.

  The kernel program is a straight line of array operations around one pipelined region; each operation
  writes one buffer of its own and no argument buffer (the sixteen arguments are the buffers of index
  0 … 15, every result buffer has index at least 16). So after any stretch of the operations the argument
  buffers hold what they held, and in particular stay arrays of reals.

  A generator network maps an array x of reals to an array of reals, step by step:
    h  = x · W1ᵀ                      a finite sum of products of reals;
    μ  = (Σ over rows of h) / N        a finite sum of reals divided by the positive constant N;
    v  = (Σ over rows of (h − μ)²) / (N − 0)   a finite sum of squares, hence ≥ 0, divided by N − 0 = N > 0;
         the program guards this quotient by the test N − 0 > 0 between constants, which holds, so the
         guarded choice returns the quotient and never its alternative;
    h' = (h − μ) / √(v + ε) · γ + β    v + ε > 0 because v ≥ 0 and the constant ε (nearest float to 1e-5) is
         positive, so √(v + ε) > 0 and the quotient is a real; γ, β are arguments;
    a  = h' where h' ≥ 0, else 0.01 · h'   a choice between two arrays of reals;
    y  = a · W2ᵀ + b                   again sums of products of reals plus an argument.
  Zp is such a network applied to argument 1; X_ind is one such network applied to argument 2 followed
  by a second one applied to its result; Zs is a gather of rows of argument 4, each entry of which is an
  entry of argument 4 whatever the (integer) row indices are.
-/
import proofs.«130977_j54631984005498_2_alg».proof.Proof.Gen.KernelIdeal.Launch
import proofs.«130977_j54631984005498_2_alg».proof.Proof.LibIdealFinite
import proofs.«130977_j54631984005498_2_alg».proof.Proof.LibAfterCut
import proofs.«130977_j54631984005498_2_alg».proof.Proof.KBlocks
import Idealize.ShloMosaic.Lib.StableHlo.Run
import Idealize.ShloMosaic.PureOps.Ideal.Laws

noncomputable section

namespace Cert.FiniteChain

open Cert.KernelIdeal Cert.KernelIdeal.Gen Idealize.ShloMosaic Idealize.ShloMosaic.TcCoe Idealize.ShloMosaic.StableHlo IdealFinite

/-- Buffer contents of the kernel program, floats read as extended reals. -/
abbrev Vl := Valuation τ sig (Elt Ideal)

/-! ## The operations before the region, and the stretch that generates X_ind -/

variable {F : FTy → Type} [FloatOps F]

/-- All host operations before the pipelined region, in order. -/
abbrev preK : List (HloOp τ sig (Elt F)) :=
  hostOps0 ++ hostOps0_1 ++ hostOps0_2 ++ hostOps0_3 ++ hostOps0_4 ++ hostOps0_5 ++ hostOps0_6 ++ hostOps0_7 ++ hostOps0_8

/-- The operations after the region that compute X_ind: the two networks applied in turn to argument 2. -/
abbrev genK : List (HloOp τ sig (Elt F)) :=
  (hostOps1 (F := F)).drop 11 ++ hostOps1_1 ++ hostOps1_2 ++ hostOps1_3 ++ hostOps1_4 ++ hostOps1_5 ++ hostOps1_6
    ++ hostOps1_7 ++ (hostOps1_8 (F := F)).take 5

/-- The same list as the concatenation of the list of the nine stretches. -/
theorem preK_eq_flatten : (preK : List (HloOp τ sig (Elt F)))
    = List.flatten [hostOps0, hostOps0_1, hostOps0_2, hostOps0_3, hostOps0_4, hostOps0_5, hostOps0_6, hostOps0_7, hostOps0_8] := by
  simp only [preK, List.flatten_cons, List.flatten_nil, List.append_nil, List.append_assoc]

/-! ## Masks, and the variance's guard -/

/-- A mask that is 1 at every entry. -/
def AllOne {S : Shape} (p : IVec S 1) : Prop := ∀ i, p i = 1#1

/-- A choice under a mask that is 1 everywhere is its first array. -/
theorem AllNonneg.select_left {S : Shape} {p : IVec S 1} {a b : S.Idx → EReal} (hp : AllOne p) (ha : AllNonneg a) :
    AllNonneg (Idealize.ShloMosaic.select p a b) := fun i => by
  show ∃ r : ℝ, 0 ≤ r ∧ Scalar.select (p i) (a i) (b i) = (r : EReal)
  rw [hp i]
  exact ha i

/-- A positive real is greater than zero: the mask of that comparison is 1 everywhere. -/
theorem AllOne.cmpf_ogt_zero {S : Shape} {φ : FTy} {x : FVec Ideal S φ} {z : BitVec φ.bits} (hx : AllPos x)
    (hz : Ideal.ofBits φ z = 0) : AllOne (Idealize.ShloMosaic.cmpf (F := Ideal) .ogt x (constant S φ z)) := fun j => by
  obtain ⟨r, hr, e⟩ := hx j
  show Ideal.cmp .ogt (x j) (Ideal.ofBits φ z) = 1#1
  rw [e, hz]
  have h0 : (0 : EReal) < (r : EReal) := by exact_mod_cast hr
  simp [Ideal.cmp, h0]

theorem AllOne.broadcastInDim {S T : Shape} {dims : Fin S.rank → Fin T.rank} {h : S.BroadcastsInDim T dims}
    {p : IVec S 1} (hp : AllOne p) : AllOne (Idealize.ShloMosaic.broadcastInDim T dims h p) := fun _ => hp _

/-- A positive constant minus the integer zero converted to a float is that positive constant. -/
theorem AllPos.sub_sitofp_zero {S : Shape} {b : BitVec 32} (hb : ∃ r : ℝ, 0 < r ∧ Ideal.ofBits .f32 b = (r : EReal)) :
    AllPos (Idealize.ShloMosaic.subf (F := Ideal) (constant S .f32 b) (sitofp .f32 (constantI S 32 0#32))) := fun i => by
  obtain ⟨r, hr, e⟩ := hb
  refine ⟨r, hr, ?_⟩
  show Ideal.ofBits .f32 b - (((0#32 : BitVec 32).toInt : ℝ) : EReal) = r
  rw [e]; simp

/-- The zero word denotes zero. -/
theorem zero_eq : Ideal.ofBits .f32 0#32 = 0 := Ideal.ofBits_zero_f32

/-- Closes a goal "every entry of this expression is real / ≥ 0 / > 0" by following the expression's structure. -/
syntax "fin_auto" : tactic
macro_rules
  | `(tactic| fin_auto) => `(tactic| with_reducible first
      | assumption
      | exact zero_eq
      | exact isFin_of_eq ofBits_00000000
      | exact isFin_of_eq ofBits_3C23D70A
      | exact ofBits_00000000_nonneg
      | exact ofBits_3727C5AC_pos
      | exact ofBits_46800000_pos
      | exact ofBits_46000000_pos
      | exact ofBits_45000000_pos
      | (apply AllFin.dotGeneral <;> fin_auto)
      | (apply AllFin.reduceAdd <;> fin_auto)
      | (apply AllFin.addf <;> fin_auto)
      | (apply AllFin.subf <;> fin_auto)
      | (apply AllFin.mulf <;> fin_auto)
      | (apply AllFin.negf <;> fin_auto)
      | (apply AllFin.exp <;> fin_auto)
      | (apply AllFin.select <;> fin_auto)
      | (apply AllFin.broadcastInDim <;> fin_auto)
      | (apply AllFin.transpose <;> fin_auto)
      | (apply AllFin.gather <;> fin_auto)
      | (apply AllFin.divf <;> fin_auto)
      | (apply AllFin.constant <;> fin_auto)
      | exact AllFin.uitofp
      | exact AllFin.sitofp
      | (apply AllPos.broadcastInDim <;> fin_auto)
      | (apply AllPos.transpose <;> fin_auto)
      | (apply AllPos.gather <;> fin_auto)
      | (apply AllPos.sqrt <;> fin_auto)
      | (apply AllPos.addf_nonneg_pos <;> fin_auto)
      | (apply AllPos.constant <;> fin_auto)
      | (apply AllPos.sub_sitofp_zero <;> fin_auto)
      | (apply AllPos.exp <;> fin_auto)
      | (apply AllNonneg.mulf_self <;> fin_auto)
      | (apply AllNonneg.reduceAdd <;> fin_auto)
      | (apply AllNonneg.divf <;> fin_auto)
      | (apply AllNonneg.broadcastInDim <;> fin_auto)
      | (apply AllNonneg.transpose <;> fin_auto)
      | (apply AllNonneg.select_left <;> fin_auto)
      | (apply AllNonneg.constant <;> fin_auto)
      | (apply AllOne.broadcastInDim <;> fin_auto)
      | (apply AllOne.cmpf_ogt_zero <;> fin_auto))

/-! ## The arguments stay arrays of reals -/

/-- Every entry of each of the fifteen float arguments is a real number. -/
structure ArgsFin (V : Vl) : Prop where
  a0 : AllFin (S := S16384x64) (V (Proc.devRef .tc main_arg0))
  a1 : AllFin (S := S2048x64) (V (Proc.devRef .tc main_arg1))
  a2 : AllFin (S := S8192x64) (V (Proc.devRef .tc main_arg2))
  a3 : AllFin (S := S64x64) (V (Proc.devRef .tc main_arg3))
  a4 : AllFin (S := S16384x128) (V (Proc.devRef .tc main_arg4))
  a5 : AllFin (S := S256x128) (V (Proc.devRef .tc main_arg5))
  a6 : AllFin (S := S256) (V (Proc.devRef .tc main_arg6))
  a7 : AllFin (S := S256) (V (Proc.devRef .tc main_arg7))
  a8 : AllFin (S := S64x256) (V (Proc.devRef .tc main_arg8))
  a9 : AllFin (S := S64) (V (Proc.devRef .tc main_arg9))
  a10 : AllFin (S := S256x64) (V (Proc.devRef .tc main_arg10))
  a11 : AllFin (S := S256) (V (Proc.devRef .tc main_arg11))
  a12 : AllFin (S := S256) (V (Proc.devRef .tc main_arg12))
  a13 : AllFin (S := S128x256) (V (Proc.devRef .tc main_arg13))
  a14 : AllFin (S := S128) (V (Proc.devRef .tc main_arg14))

/-- An operation that writes exactly one buffer, whose index is at least 16. -/
def WritesHigh (op : HloOp τ sig (Elt Ideal)) : Prop :=
  ∃ y : Ref sig .tc, op.writes = {Proc.devRef (τ := τ) .tc y} ∧ 16 ≤ y.idx.val

theorem writesHigh_of {op : HloOp τ sig (Elt Ideal)} {y : Ref sig .tc}
    (hw : op.writes = {Proc.devRef (τ := τ) .tc y}) (hy : 16 ≤ y.idx.val) : WritesHigh op := ⟨y, hw, hy⟩

/-- Every operation of the list writes exactly one buffer, of index at least 16. -/
def High (ops : List (HloOp τ sig (Elt Ideal))) : Prop := ∀ op ∈ ops, WritesHigh op

theorem High.take {ops : List (HloOp τ sig (Elt Ideal))} (h : High ops) (n : Nat) : High (ops.take n) :=
  fun op hop => h op (List.mem_of_mem_take hop)

theorem High.drop {ops : List (HloOp τ sig (Elt Ideal))} (h : High ops) (n : Nat) : High (ops.drop n) :=
  fun op hop => h op (List.mem_of_mem_drop hop)

/-- Such a list leaves every buffer of index below 16 as it was. -/
theorem after_low {ops : List (HloOp τ sig (Elt Ideal))} (h : High ops) (V : Vl) {r : Ref sig .tc} (hr : r.idx.val < 16) :
    after ops V (Proc.devRef .tc r) = V (Proc.devRef .tc r) :=
  after_of_forall_not_mem ops V fun op hop hmem => by
    obtain ⟨y, hw, hy⟩ := h op hop
    rw [hw, Finset.mem_singleton] at hmem
    have e : r = y := Proc.devRef_injective _ hmem
    subst e
    omega

/-- So the arguments stay arrays of reals. -/
theorem ArgsFin.after {V : Vl} (h : ArgsFin V) {ops : List (HloOp τ sig (Elt Ideal))} (hops : High ops) :
    ArgsFin (after ops V) where
  a0 := by rw [after_low hops V (r := main_arg0) (by decide)]; exact h.a0
  a1 := by rw [after_low hops V (r := main_arg1) (by decide)]; exact h.a1
  a2 := by rw [after_low hops V (r := main_arg2) (by decide)]; exact h.a2
  a3 := by rw [after_low hops V (r := main_arg3) (by decide)]; exact h.a3
  a4 := by rw [after_low hops V (r := main_arg4) (by decide)]; exact h.a4
  a5 := by rw [after_low hops V (r := main_arg5) (by decide)]; exact h.a5
  a6 := by rw [after_low hops V (r := main_arg6) (by decide)]; exact h.a6
  a7 := by rw [after_low hops V (r := main_arg7) (by decide)]; exact h.a7
  a8 := by rw [after_low hops V (r := main_arg8) (by decide)]; exact h.a8
  a9 := by rw [after_low hops V (r := main_arg9) (by decide)]; exact h.a9
  a10 := by rw [after_low hops V (r := main_arg10) (by decide)]; exact h.a10
  a11 := by rw [after_low hops V (r := main_arg11) (by decide)]; exact h.a11
  a12 := by rw [after_low hops V (r := main_arg12) (by decide)]; exact h.a12
  a13 := by rw [after_low hops V (r := main_arg13) (by decide)]; exact h.a13
  a14 := by rw [after_low hops V (r := main_arg14) (by decide)]; exact h.a14

/-- The fact for one operation: what it writes is its result by computation, whose index is a literal. -/
local macro "wh" : term => `(writesHigh_of rfl (by decide))

set_option maxHeartbeats 1000000 in
theorem high_hostOps0 : High (hostOps0 (F := Ideal)) := List.forall_iff_forall_mem.1 (show List.Forall WritesHigh (hostOps0 (F := Ideal)) from
  ⟨wh, wh, wh, wh, wh, wh, wh, wh, wh, wh, wh, wh, wh, wh, wh, wh, wh, wh, wh, wh, wh, wh, wh, wh, wh, wh, wh, wh, wh, wh, wh, wh, wh, wh⟩)

set_option maxHeartbeats 1000000 in
theorem high_hostOps0_1 : High (hostOps0_1 (F := Ideal)) := List.forall_iff_forall_mem.1 (show List.Forall WritesHigh (hostOps0_1 (F := Ideal)) from
  ⟨wh, wh, wh, wh, wh, wh, wh, wh, wh, wh, wh, wh, wh, wh, wh, wh, wh, wh, wh, wh, wh, wh⟩)

set_option maxHeartbeats 1000000 in
theorem high_hostOps0_2 : High (hostOps0_2 (F := Ideal)) := List.forall_iff_forall_mem.1 (show List.Forall WritesHigh (hostOps0_2 (F := Ideal)) from
  ⟨wh, wh, wh, wh, wh, wh, wh, wh, wh, wh, wh, wh, wh, wh, wh, wh, wh, wh, wh, wh, wh, wh⟩)

theorem high_hostOps0_3 : High (hostOps0_3 (F := Ideal)) := List.forall_iff_forall_mem.1 (show List.Forall WritesHigh (hostOps0_3 (F := Ideal)) from wh)

set_option maxHeartbeats 1000000 in
theorem high_hostOps0_4 : High (hostOps0_4 (F := Ideal)) := List.forall_iff_forall_mem.1 (show List.Forall WritesHigh (hostOps0_4 (F := Ideal)) from
  ⟨wh, wh, wh, wh, wh, wh, wh, wh, wh, wh, wh, wh, wh, wh, wh, wh, wh, wh, wh⟩)

set_option maxHeartbeats 1000000 in
theorem high_hostOps0_5 : High (hostOps0_5 (F := Ideal)) := List.forall_iff_forall_mem.1 (show List.Forall WritesHigh (hostOps0_5 (F := Ideal)) from
  ⟨wh, wh, wh, wh, wh, wh, wh, wh, wh, wh, wh, wh, wh, wh, wh, wh, wh, wh, wh, wh, wh, wh⟩)

set_option maxHeartbeats 1000000 in
theorem high_hostOps0_6 : High (hostOps0_6 (F := Ideal)) := List.forall_iff_forall_mem.1 (show List.Forall WritesHigh (hostOps0_6 (F := Ideal)) from
  ⟨wh, wh, wh, wh, wh, wh, wh, wh, wh, wh, wh, wh, wh, wh, wh, wh, wh, wh, wh, wh, wh, wh⟩)

theorem high_hostOps0_7 : High (hostOps0_7 (F := Ideal)) := List.forall_iff_forall_mem.1 (show List.Forall WritesHigh (hostOps0_7 (F := Ideal)) from wh)

set_option maxHeartbeats 1000000 in
theorem high_hostOps1 : High (hostOps1 (F := Ideal)) := List.forall_iff_forall_mem.1 (show List.Forall WritesHigh (hostOps1 (F := Ideal)) from
  ⟨wh, wh, wh, wh, wh, wh, wh, wh, wh, wh, wh, wh, wh, wh, wh, wh, wh, wh, wh⟩)

set_option maxHeartbeats 1000000 in
theorem high_hostOps1_1 : High (hostOps1_1 (F := Ideal)) := List.forall_iff_forall_mem.1 (show List.Forall WritesHigh (hostOps1_1 (F := Ideal)) from
  ⟨wh, wh, wh, wh, wh, wh, wh, wh, wh, wh, wh, wh, wh, wh, wh, wh, wh, wh, wh, wh, wh, wh⟩)

set_option maxHeartbeats 1000000 in
theorem high_hostOps1_2 : High (hostOps1_2 (F := Ideal)) := List.forall_iff_forall_mem.1 (show List.Forall WritesHigh (hostOps1_2 (F := Ideal)) from
  ⟨wh, wh, wh, wh, wh, wh, wh, wh, wh, wh, wh, wh, wh, wh, wh, wh, wh, wh, wh, wh, wh, wh⟩)

theorem high_hostOps1_3 : High (hostOps1_3 (F := Ideal)) := List.forall_iff_forall_mem.1 (show List.Forall WritesHigh (hostOps1_3 (F := Ideal)) from wh)

set_option maxHeartbeats 1000000 in
theorem high_hostOps1_4 : High (hostOps1_4 (F := Ideal)) := List.forall_iff_forall_mem.1 (show List.Forall WritesHigh (hostOps1_4 (F := Ideal)) from
  ⟨wh, wh, wh, wh, wh, wh, wh, wh, wh, wh, wh, wh, wh⟩)

/-! ## One network at a time -/

/-- The network at 2048 rows maps argument 1 to an array of reals (Zp). -/
theorem net_Zp (W : Vl) (h : ArgsFin W) :
    AllFin (S := S2048x128) (after ((hostOps0_8 (F := Ideal)).take 5) (after hostOps0_7 (after hostOps0_6 (after hostOps0_5
      (after ((hostOps0_4 (F := Ideal)).drop 11) W)))) (Proc.devRef .tc main_v86)) := by
  obtain ⟨a0, a1, a2, a3, a4, a5, a6, a7, a8, a9, a10, a11, a12, a13, a14⟩ := h
  simp only [hostOps0_4, hostOps0_5, hostOps0_6, hostOps0_7, hostOps0_8, List.drop, List.take]
  after_results_simp
  simp only [TRef.ofBuf, TRef.toBuf, cast_eq]
  fin_auto

/-- The operations after the one that writes Zp leave it as it is. -/
theorem tail_v86 (X : Vl) :
    after ((hostOps0_8 (F := Ideal)).drop 5) X (Proc.devRef .tc main_v86) = X (Proc.devRef .tc main_v86) := by
  simp only [hostOps0_8, List.drop]
  after_results_simp

/-- The last stretch before the region gathers rows of argument 4 (Zs): entries of argument 4. -/
theorem read_v93 (X : Vl) (h : ArgsFin X) :
    AllFin (S := S16384x128) (after (hostOps0_8 (F := Ideal)) X (Proc.devRef .tc main_v93)) := by
  obtain ⟨a0, a1, a2, a3, a4, a5, a6, a7, a8, a9, a10, a11, a12, a13, a14⟩ := h
  simp only [hostOps0_8]
  after_results_simp
  fin_auto

/-- The first network at 8192 rows maps argument 2 to an array of reals. -/
theorem net_A (W : Vl) (h : ArgsFin W) :
    AllFin (S := S8192x128) (after ((hostOps1_4 (F := Ideal)).take 5) (after hostOps1_3 (after hostOps1_2 (after hostOps1_1
      (after ((hostOps1 (F := Ideal)).drop 11) W)))) (Proc.devRef .tc main_v136)) := by
  obtain ⟨a0, a1, a2, a3, a4, a5, a6, a7, a8, a9, a10, a11, a12, a13, a14⟩ := h
  simp only [hostOps1, hostOps1_1, hostOps1_2, hostOps1_3, hostOps1_4, List.drop, List.take]
  after_results_simp
  simp only [TRef.ofBuf, TRef.toBuf, cast_eq]
  fin_auto

/-- The second network at 8192 rows maps an array of reals to an array of reals (X_ind). -/
theorem net_B (W : Vl) (h : ArgsFin W) (h136 : AllFin (S := S8192x128) (W (Proc.devRef .tc main_v136))) :
    AllFin (S := S8192x64) (after ((hostOps1_8 (F := Ideal)).take 5) (after hostOps1_7 (after hostOps1_6 (after hostOps1_5
      (after ((hostOps1_4 (F := Ideal)).drop 5) W)))) (Proc.devRef .tc main_v167)) := by
  obtain ⟨a0, a1, a2, a3, a4, a5, a6, a7, a8, a9, a10, a11, a12, a13, a14⟩ := h
  simp only [hostOps1_4, hostOps1_5, hostOps1_6, hostOps1_7, hostOps1_8, List.drop, List.take]
  after_results_simp
  simp only [TRef.ofBuf, TRef.toBuf, cast_eq]
  fin_auto

/-! ## The three arrays -/

/-- Zp, as the region receives it, is an array of reals. -/
theorem fin_Zp_preK (V : Vl) (h : ArgsFin V) :
    AllFin (S := S2048x128) (after (preK (F := Ideal)) V (Proc.devRef .tc main_v86)) := by
  have hW := ((((h.after high_hostOps0).after high_hostOps0_1).after high_hostOps0_2).after high_hostOps0_3).after
    (high_hostOps0_4.take 11)
  simp only [preK, AfterCut.after_append]
  rw [AfterCut.after_take_drop hostOps0_8 5, tail_v86, AfterCut.after_take_drop hostOps0_4 11]
  exact net_Zp _ hW

/-- Zs, as the region receives it, is an array of reals. -/
theorem fin_Zs_preK (V : Vl) (h : ArgsFin V) :
    AllFin (S := S16384x128) (after (preK (F := Ideal)) V (Proc.devRef .tc main_v93)) := by
  have hX := (((((((h.after high_hostOps0).after high_hostOps0_1).after high_hostOps0_2).after high_hostOps0_3).after
    high_hostOps0_4).after high_hostOps0_5).after high_hostOps0_6).after high_hostOps0_7
  simp only [preK, AfterCut.after_append]
  exact read_v93 _ hX

/-- X_ind is an array of reals. -/
theorem fin_Xind_genK (V : Vl) (h : ArgsFin V) :
    AllFin (S := S8192x64) (after (genK (F := Ideal)) V (Proc.devRef .tc main_v167)) := by
  have hW := ((((h.after (high_hostOps1.drop 11)).after high_hostOps1_1).after high_hostOps1_2).after high_hostOps1_3).after
    (high_hostOps1_4.take 5)
  simp only [genK, AfterCut.after_append]
  rw [AfterCut.after_take_drop hostOps1_4 5]
  exact net_B _ hW (net_A V h)

/-! ## The same three facts over the program's own lists of operations -/

/-- The operations before the region, listed stretch by stretch and flattened, are the list above. -/
theorem flatten_preOpss : List.flatten (Cert.KernelIdeal.Hand.preOpss (F := F)) = preK (F := F) :=
  preK_eq_flatten.symm

set_option maxRecDepth 16384 in
/-- The 116 operations from the first network's first operation through the one that writes X_ind are the list above. -/
theorem kB2_eq_genK : Cert.KernelIdeal.Blocks.kB2 (F := F) = genK (F := F) := by
  rfl

/-- Zp, as the region receives it, is an array of reals. -/
theorem fin_Zp (V : Vl) (h : ArgsFin V) :
    AllFin (S := S2048x128) (after (List.flatten (Cert.KernelIdeal.Hand.preOpss (F := Ideal))) V (Proc.devRef .tc main_v86)) := by
  rw [flatten_preOpss]; exact fin_Zp_preK V h

/-- Zs, as the region receives it, is an array of reals. -/
theorem fin_Zs (V : Vl) (h : ArgsFin V) :
    AllFin (S := S16384x128) (after (List.flatten (Cert.KernelIdeal.Hand.preOpss (F := Ideal))) V (Proc.devRef .tc main_v93)) := by
  rw [flatten_preOpss]; exact fin_Zs_preK V h

/-- X_ind is an array of reals. -/
theorem fin_Xind (V : Vl) (h : ArgsFin V) :
    AllFin (S := S8192x64) (after (Cert.KernelIdeal.Blocks.kB2 (F := Ideal)) V (Proc.devRef .tc main_v167)) := by
  rw [kB2_eq_genK]; exact fin_Xind_genK V h

end Cert.FiniteChain

end
-- ==== Proof.PreFinite.lean ====
/-
  Reading the precondition: every float argument is an array of real numbers.

  The precondition of this certificate is a predicate over the sixteen argument arrays. For each of the
  fifteen float arrays x it forms the mask |x| < +∞ entry by entry, takes the conjunction of the mask
  over ALL of its entries, and then takes the conjunction of the fifteen results; the sixteenth argument
  (an array of integer indices) does not enter. The precondition says that this one truth value is 1.

  At the ideal reading of floats an entry is an extended real number, the bit pattern 0x7F800000 denotes
  +∞ and |x| is max(x, -x). For an extended real x, max(x, -x) < +∞ rules out both x = +∞ and x = -∞
  (in the second case -x = +∞), so it says precisely that x is a real number. Hence:

  * a conjunction of two truth values that is 1 has both conjuncts 1, so each of the fifteen array-wide
    conjunctions is 1;
  * a conjunction over all entries of a mask (started from 1) that is 1 has a 1 at every entry, so the
    comparison |x i| < +∞ holds at every index i;
  * therefore every entry of every float argument is a real number.

  The middle step is proved once for an arbitrary shape and then used at the nine shapes that occur.
-/
import proofs.«130977_j54631984005498_2_alg».proof.Proof.Gen.Pre_finite_inputs
import proofs.«130977_j54631984005498_2_alg».proof.Defs
import proofs.«130977_j54631984005498_2_alg».proof.Proof.LibIdealFinite
import Idealize.ShloMosaic.Lib.ReduceAll
import Idealize.ShloMosaic.Lib.ValueIdx
import Idealize.ShloMosaic.PureOps.Ideal.Laws
import Mathlib.Data.EReal.Basic

noncomputable section

namespace Cert.KernelIdeal.Hand

open Idealize.ShloMosaic Idealize.SL.Sem

namespace PreFinite

/-- The shape of a scalar: no axes, one index. -/
abbrev S0 : Shape := ⟨0, ![]⟩

/-- A scalar has exactly one index. -/
instance subsingleton_S0_idx : Subsingleton S0.Idx := ⟨fun a b => funext fun d => d.elim0⟩

/-- The binary32 pattern 0x7F800000 denotes +∞. -/
theorem ofBits_inf : Ideal.ofBits .f32 0x7F800000#32 = (⊤ : EReal) := by simp [Ideal.ofBits, Ideal.ieee]

/-- An extended real whose absolute value max(x, -x) lies strictly below +∞ is a real number:
    x = +∞ gives max = +∞, and x = -∞ gives -x = +∞, so again max = +∞. -/
theorem isFin_of_abs_lt_top (x : EReal) (h : Ideal.cmp .olt (max x (-x)) ⊤ = 1#1) : IdealFinite.IsFin x := by
  induction x using EReal.rec with
  | bot => simp [Ideal.cmp] at h
  | coe r => exact ⟨r, rfl⟩
  | top => simp [Ideal.cmp] at h

/-- Two scalar truth values whose conjunction is 1 are both 1. -/
theorem andi_ix0_eq_one {a b : IVec S0 1} (h : andi a b ValueIdx.ix0 = 1#1) :
    a ValueIdx.ix0 = 1#1 ∧ b ValueIdx.ix0 = 1#1 := IntOp.andi_eq_one.1 h

/-- For an array x of ANY shape: if the conjunction, over all entries, of the mask |x| < +∞ is 1,
    then every entry of x is a real number. -/
theorem allFin_of_all {S : Shape} {axes : List (Fin S.rank)}
    (hb : S0.BroadcastsInDim S (![] : Fin 0 → Fin S.rank)) (hr : S.ReducesTo axes S0) (hu : 0 < S0.numel)
    (x : FVec Ideal S .f32)
    (e : Host.reduce IntOp.andi
          (cmpf .olt (Host.absf x) (broadcastInDim S ![] hb (constant (F := Ideal) S0 .f32 0x7F800000#32)))
          (constantI S0 1 1#1) hr hu ValueIdx.ix0 = 1#1) :
    IdealFinite.AllFin x := by
  intro i
  have hi := Host.reduce_andi_all _ _ hr hu ValueIdx.ix0 e i
  apply isFin_of_abs_lt_top
  rw [← ofBits_inf]
  exact hi

end PreFinite

open PreFinite in
/-- Under the precondition, on every device, each of the fifteen float arguments is an array of reals. -/
theorem args_finite (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S16384x64) (m ((c.tc : Thread Cert.KernelIdeal.nD Cert.KernelIdeal.τ).loc Cert.KernelIdeal.main_arg0))
    ∧ IdealFinite.AllFin (S := Cert.KernelIdeal.S2048x64) (m ((c.tc : Thread Cert.KernelIdeal.nD Cert.KernelIdeal.τ).loc Cert.KernelIdeal.main_arg1))
    ∧ IdealFinite.AllFin (S := Cert.KernelIdeal.S8192x64) (m ((c.tc : Thread Cert.KernelIdeal.nD Cert.KernelIdeal.τ).loc Cert.KernelIdeal.main_arg2))
    ∧ IdealFinite.AllFin (S := Cert.KernelIdeal.S64x64) (m ((c.tc : Thread Cert.KernelIdeal.nD Cert.KernelIdeal.τ).loc Cert.KernelIdeal.main_arg3))
    ∧ IdealFinite.AllFin (S := Cert.KernelIdeal.S16384x128) (m ((c.tc : Thread Cert.KernelIdeal.nD Cert.KernelIdeal.τ).loc Cert.KernelIdeal.main_arg4))
    ∧ IdealFinite.AllFin (S := Cert.KernelIdeal.S256x128) (m ((c.tc : Thread Cert.KernelIdeal.nD Cert.KernelIdeal.τ).loc Cert.KernelIdeal.main_arg5))
    ∧ IdealFinite.AllFin (S := Cert.KernelIdeal.S256) (m ((c.tc : Thread Cert.KernelIdeal.nD Cert.KernelIdeal.τ).loc Cert.KernelIdeal.main_arg6))
    ∧ IdealFinite.AllFin (S := Cert.KernelIdeal.S256) (m ((c.tc : Thread Cert.KernelIdeal.nD Cert.KernelIdeal.τ).loc Cert.KernelIdeal.main_arg7))
    ∧ IdealFinite.AllFin (S := Cert.KernelIdeal.S64x256) (m ((c.tc : Thread Cert.KernelIdeal.nD Cert.KernelIdeal.τ).loc Cert.KernelIdeal.main_arg8))
    ∧ IdealFinite.AllFin (S := Cert.KernelIdeal.S64) (m ((c.tc : Thread Cert.KernelIdeal.nD Cert.KernelIdeal.τ).loc Cert.KernelIdeal.main_arg9))
    ∧ IdealFinite.AllFin (S := Cert.KernelIdeal.S256x64) (m ((c.tc : Thread Cert.KernelIdeal.nD Cert.KernelIdeal.τ).loc Cert.KernelIdeal.main_arg10))
    ∧ IdealFinite.AllFin (S := Cert.KernelIdeal.S256) (m ((c.tc : Thread Cert.KernelIdeal.nD Cert.KernelIdeal.τ).loc Cert.KernelIdeal.main_arg11))
    ∧ IdealFinite.AllFin (S := Cert.KernelIdeal.S256) (m ((c.tc : Thread Cert.KernelIdeal.nD Cert.KernelIdeal.τ).loc Cert.KernelIdeal.main_arg12))
    ∧ IdealFinite.AllFin (S := Cert.KernelIdeal.S128x256) (m ((c.tc : Thread Cert.KernelIdeal.nD Cert.KernelIdeal.τ).loc Cert.KernelIdeal.main_arg13))
    ∧ IdealFinite.AllFin (S := Cert.KernelIdeal.S128) (m ((c.tc : Thread Cert.KernelIdeal.nD Cert.KernelIdeal.τ).loc Cert.KernelIdeal.main_arg14)) := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  obtain ⟨h, h14⟩ := andi_ix0_eq_one h
  obtain ⟨h, h13⟩ := andi_ix0_eq_one h
  obtain ⟨h, h12⟩ := andi_ix0_eq_one h
  obtain ⟨h, h11⟩ := andi_ix0_eq_one h
  obtain ⟨h, h10⟩ := andi_ix0_eq_one h
  obtain ⟨h, h9⟩ := andi_ix0_eq_one h
  obtain ⟨h, h8⟩ := andi_ix0_eq_one h
  obtain ⟨h, h7⟩ := andi_ix0_eq_one h
  obtain ⟨h, h6⟩ := andi_ix0_eq_one h
  obtain ⟨h, h5⟩ := andi_ix0_eq_one h
  obtain ⟨h, h4⟩ := andi_ix0_eq_one h
  obtain ⟨h, h3⟩ := andi_ix0_eq_one h
  obtain ⟨h, h2⟩ := andi_ix0_eq_one h
  obtain ⟨h0, h1⟩ := andi_ix0_eq_one h
  exact ⟨allFin_of_all _ _ _ _ h0,
    allFin_of_all _ _ _ _ h1,
    allFin_of_all _ _ _ _ h2,
    allFin_of_all _ _ _ _ h3,
    allFin_of_all _ _ _ _ h4,
    allFin_of_all _ _ _ _ h5,
    allFin_of_all _ _ _ _ h6,
    allFin_of_all _ _ _ _ h7,
    allFin_of_all _ _ _ _ h8,
    allFin_of_all _ _ _ _ h9,
    allFin_of_all _ _ _ _ h10,
    allFin_of_all _ _ _ _ h11,
    allFin_of_all _ _ _ _ h12,
    allFin_of_all _ _ _ _ h13,
    allFin_of_all _ _ _ _ h14⟩

/-- Argument 0 is an array of real numbers. -/
theorem args_finite_0 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S16384x64) (m ((c.tc : Thread Cert.KernelIdeal.nD Cert.KernelIdeal.τ).loc Cert.KernelIdeal.main_arg0)) := (args_finite m hpre c).1

/-- Argument 1 is an array of real numbers. -/
theorem args_finite_1 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S2048x64) (m ((c.tc : Thread Cert.KernelIdeal.nD Cert.KernelIdeal.τ).loc Cert.KernelIdeal.main_arg1)) := (args_finite m hpre c).2.1

/-- Argument 2 is an array of real numbers. -/
theorem args_finite_2 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S8192x64) (m ((c.tc : Thread Cert.KernelIdeal.nD Cert.KernelIdeal.τ).loc Cert.KernelIdeal.main_arg2)) := (args_finite m hpre c).2.2.1

/-- Argument 3 is an array of real numbers. -/
theorem args_finite_3 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S64x64) (m ((c.tc : Thread Cert.KernelIdeal.nD Cert.KernelIdeal.τ).loc Cert.KernelIdeal.main_arg3)) := (args_finite m hpre c).2.2.2.1

/-- Argument 4 is an array of real numbers. -/
theorem args_finite_4 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S16384x128) (m ((c.tc : Thread Cert.KernelIdeal.nD Cert.KernelIdeal.τ).loc Cert.KernelIdeal.main_arg4)) := (args_finite m hpre c).2.2.2.2.1

/-- Argument 5 is an array of real numbers. -/
theorem args_finite_5 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S256x128) (m ((c.tc : Thread Cert.KernelIdeal.nD Cert.KernelIdeal.τ).loc Cert.KernelIdeal.main_arg5)) := (args_finite m hpre c).2.2.2.2.2.1

/-- Argument 6 is an array of real numbers. -/
theorem args_finite_6 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S256) (m ((c.tc : Thread Cert.KernelIdeal.nD Cert.KernelIdeal.τ).loc Cert.KernelIdeal.main_arg6)) := (args_finite m hpre c).2.2.2.2.2.2.1

/-- Argument 7 is an array of real numbers. -/
theorem args_finite_7 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S256) (m ((c.tc : Thread Cert.KernelIdeal.nD Cert.KernelIdeal.τ).loc Cert.KernelIdeal.main_arg7)) := (args_finite m hpre c).2.2.2.2.2.2.2.1

/-- Argument 8 is an array of real numbers. -/
theorem args_finite_8 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S64x256) (m ((c.tc : Thread Cert.KernelIdeal.nD Cert.KernelIdeal.τ).loc Cert.KernelIdeal.main_arg8)) := (args_finite m hpre c).2.2.2.2.2.2.2.2.1

/-- Argument 9 is an array of real numbers. -/
theorem args_finite_9 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S64) (m ((c.tc : Thread Cert.KernelIdeal.nD Cert.KernelIdeal.τ).loc Cert.KernelIdeal.main_arg9)) := (args_finite m hpre c).2.2.2.2.2.2.2.2.2.1

/-- Argument 10 is an array of real numbers. -/
theorem args_finite_10 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S256x64) (m ((c.tc : Thread Cert.KernelIdeal.nD Cert.KernelIdeal.τ).loc Cert.KernelIdeal.main_arg10)) := (args_finite m hpre c).2.2.2.2.2.2.2.2.2.2.1

/-- Argument 11 is an array of real numbers. -/
theorem args_finite_11 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S256) (m ((c.tc : Thread Cert.KernelIdeal.nD Cert.KernelIdeal.τ).loc Cert.KernelIdeal.main_arg11)) := (args_finite m hpre c).2.2.2.2.2.2.2.2.2.2.2.1

/-- Argument 12 is an array of real numbers. -/
theorem args_finite_12 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S256) (m ((c.tc : Thread Cert.KernelIdeal.nD Cert.KernelIdeal.τ).loc Cert.KernelIdeal.main_arg12)) := (args_finite m hpre c).2.2.2.2.2.2.2.2.2.2.2.2.1

/-- Argument 13 is an array of real numbers. -/
theorem args_finite_13 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S128x256) (m ((c.tc : Thread Cert.KernelIdeal.nD Cert.KernelIdeal.τ).loc Cert.KernelIdeal.main_arg13)) := (args_finite m hpre c).2.2.2.2.2.2.2.2.2.2.2.2.2.1

/-- Argument 14 is an array of real numbers. -/
theorem args_finite_14 (m : (ℓ : Loc Cert.KernelIdeal.nD Cert.KernelIdeal.τ Cert.KernelIdeal.sig) → Buf (Elt Ideal) ℓ)
    (hpre : Cert.Pre_KernelIdeal m) (c : Dev Cert.KernelIdeal.nD) :
    IdealFinite.AllFin (S := Cert.KernelIdeal.S128) (m ((c.tc : Thread Cert.KernelIdeal.nD Cert.KernelIdeal.τ).loc Cert.KernelIdeal.main_arg14)) := (args_finite m hpre c).2.2.2.2.2.2.2.2.2.2.2.2.2.2

end Cert.KernelIdeal.Hand
-- ==== Proof.AsmArgs.lean ====
/-
  The two programs' sixteen arguments: that the launch memories agree on them, as typed equations; that the kernel's
  fifteen float arguments are real-valued under the precondition; and that contents which agree with the launch contents on
  every argument array (no host operation writes one) inherit both facts.
-/
import proofs.«130977_j54631984005498_2_alg».proof.Proof.KFrame
import proofs.«130977_j54631984005498_2_alg».proof.Proof.RefOpsList0
import proofs.«130977_j54631984005498_2_alg».proof.Proof.SimLib
import proofs.«130977_j54631984005498_2_alg».proof.Proof.FiniteChain
import proofs.«130977_j54631984005498_2_alg».proof.Proof.PreFinite

set_option maxRecDepth 65536
set_option maxHeartbeats 4000000

noncomputable section

namespace Cert.Asm

open Idealize.ShloMosaic Idealize.ShloMosaic.TcCoe Idealize.ShloMosaic.StableHlo Idealize.SL.Sem
open Cert.Sim (ArgsEq VK VR)
open Cert.FiniteChain (ArgsFin)

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- The two launch memories hold the same sixteen argument arrays on core `c`. -/
abbrev Agree (m : KMem) (m' : RMem) (c : Dev Cert.KernelIdeal.nD) : Prop :=
  @Eq (Cert.Sim.Tn Cert.KernelIdeal.S16384x64 .f32) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg0))
  ∧ @Eq (Cert.Sim.Tn Cert.KernelIdeal.S2048x64 .f32) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg1))
  ∧ @Eq (Cert.Sim.Tn Cert.KernelIdeal.S8192x64 .f32) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg2))
  ∧ @Eq (Cert.Sim.Tn Cert.KernelIdeal.S64x64 .f32) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg3))
  ∧ @Eq (Cert.Sim.Tn Cert.KernelIdeal.S16384x128 .f32) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg4))
  ∧ @Eq (Cert.Sim.Tn Cert.KernelIdeal.S256x128 .f32) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg5))
  ∧ @Eq (Cert.Sim.Tn Cert.KernelIdeal.S256 .f32) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg6))
  ∧ @Eq (Cert.Sim.Tn Cert.KernelIdeal.S256 .f32) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg7))
  ∧ @Eq (Cert.Sim.Tn Cert.KernelIdeal.S64x256 .f32) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg8))
  ∧ @Eq (Cert.Sim.Tn Cert.KernelIdeal.S64 .f32) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg9))
  ∧ @Eq (Cert.Sim.Tn Cert.KernelIdeal.S256x64 .f32) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg10))
  ∧ @Eq (Cert.Sim.Tn Cert.KernelIdeal.S256 .f32) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg11))
  ∧ @Eq (Cert.Sim.Tn Cert.KernelIdeal.S256 .f32) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg12))
  ∧ @Eq (Cert.Sim.Tn Cert.KernelIdeal.S128x256 .f32) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg13))
  ∧ @Eq (Cert.Sim.Tn Cert.KernelIdeal.S128 .f32) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg14))
  ∧ @Eq (Cert.Sim.Tn Cert.KernelIdeal.S16384 .i32) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg15))

variable (m : KMem) (m' : RMem) (c : Dev Cert.KernelIdeal.nD)

/-- The kernel's launch contents on core `c`, as a valuation, and the reference's. -/
abbrev K00 : VK := fun b => m (c, b)
abbrev R00 : VR := launchContents m' c

theorem argsEq_launch (h : Agree m m' c) : ArgsEq (R00 m' c) (K00 m c) :=
  ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2.1, h.2.2.2.2.2.2.2.2.2.2.2.2.1, h.2.2.2.2.2.2.2.2.2.2.2.2.2.1, h.2.2.2.2.2.2.2.2.2.2.2.2.2.2.1, h.2.2.2.2.2.2.2.2.2.2.2.2.2.2.2⟩

theorem argsFin_launch (hpre : Cert.Pre_KernelIdeal m) : ArgsFin (K00 m c) :=
  ⟨Cert.KernelIdeal.Hand.args_finite_0 m hpre c, Cert.KernelIdeal.Hand.args_finite_1 m hpre c, Cert.KernelIdeal.Hand.args_finite_2 m hpre c, Cert.KernelIdeal.Hand.args_finite_3 m hpre c, Cert.KernelIdeal.Hand.args_finite_4 m hpre c, Cert.KernelIdeal.Hand.args_finite_5 m hpre c, Cert.KernelIdeal.Hand.args_finite_6 m hpre c, Cert.KernelIdeal.Hand.args_finite_7 m hpre c, Cert.KernelIdeal.Hand.args_finite_8 m hpre c, Cert.KernelIdeal.Hand.args_finite_9 m hpre c, Cert.KernelIdeal.Hand.args_finite_10 m hpre c, Cert.KernelIdeal.Hand.args_finite_11 m hpre c, Cert.KernelIdeal.Hand.args_finite_12 m hpre c, Cert.KernelIdeal.Hand.args_finite_13 m hpre c, Cert.KernelIdeal.Hand.args_finite_14 m hpre c⟩

/-- Contents that agree with the launch contents on every argument array inherit both facts. -/
theorem argsEq_of {W' : VR} {W : VK} (h0 : ArgsEq (R00 m' c) (K00 m c))
    (hR : ∀ k : Fin 16, W' (Proc.devRef .tc (Cert.ReferenceIdeal.Hand.argRef k)) = R00 m' c (Proc.devRef .tc (Cert.ReferenceIdeal.Hand.argRef k)))
    (hK : ∀ k : Fin 16, W (Proc.devRef .tc (Cert.KernelIdeal.Hand.argRef k)) = K00 m c (Proc.devRef .tc (Cert.KernelIdeal.Hand.argRef k))) :
    ArgsEq W' W :=
  ⟨(hR 0).trans (h0.a0.trans (hK 0).symm),
    (hR 1).trans (h0.a1.trans (hK 1).symm),
    (hR 2).trans (h0.a2.trans (hK 2).symm),
    (hR 3).trans (h0.a3.trans (hK 3).symm),
    (hR 4).trans (h0.a4.trans (hK 4).symm),
    (hR 5).trans (h0.a5.trans (hK 5).symm),
    (hR 6).trans (h0.a6.trans (hK 6).symm),
    (hR 7).trans (h0.a7.trans (hK 7).symm),
    (hR 8).trans (h0.a8.trans (hK 8).symm),
    (hR 9).trans (h0.a9.trans (hK 9).symm),
    (hR 10).trans (h0.a10.trans (hK 10).symm),
    (hR 11).trans (h0.a11.trans (hK 11).symm),
    (hR 12).trans (h0.a12.trans (hK 12).symm),
    (hR 13).trans (h0.a13.trans (hK 13).symm),
    (hR 14).trans (h0.a14.trans (hK 14).symm),
    (hR 15).trans (h0.a15.trans (hK 15).symm)⟩

theorem argsFin_of {W : VK} (h0 : ArgsFin (K00 m c))
    (hK : ∀ k : Fin 16, W (Proc.devRef .tc (Cert.KernelIdeal.Hand.argRef k)) = K00 m c (Proc.devRef .tc (Cert.KernelIdeal.Hand.argRef k))) :
    ArgsFin W :=
  ⟨Eq.mpr (congrArg (IdealFinite.AllFin (S := Cert.KernelIdeal.S16384x64)) (hK 0)) h0.a0,
    Eq.mpr (congrArg (IdealFinite.AllFin (S := Cert.KernelIdeal.S2048x64)) (hK 1)) h0.a1,
    Eq.mpr (congrArg (IdealFinite.AllFin (S := Cert.KernelIdeal.S8192x64)) (hK 2)) h0.a2,
    Eq.mpr (congrArg (IdealFinite.AllFin (S := Cert.KernelIdeal.S64x64)) (hK 3)) h0.a3,
    Eq.mpr (congrArg (IdealFinite.AllFin (S := Cert.KernelIdeal.S16384x128)) (hK 4)) h0.a4,
    Eq.mpr (congrArg (IdealFinite.AllFin (S := Cert.KernelIdeal.S256x128)) (hK 5)) h0.a5,
    Eq.mpr (congrArg (IdealFinite.AllFin (S := Cert.KernelIdeal.S256)) (hK 6)) h0.a6,
    Eq.mpr (congrArg (IdealFinite.AllFin (S := Cert.KernelIdeal.S256)) (hK 7)) h0.a7,
    Eq.mpr (congrArg (IdealFinite.AllFin (S := Cert.KernelIdeal.S64x256)) (hK 8)) h0.a8,
    Eq.mpr (congrArg (IdealFinite.AllFin (S := Cert.KernelIdeal.S64)) (hK 9)) h0.a9,
    Eq.mpr (congrArg (IdealFinite.AllFin (S := Cert.KernelIdeal.S256x64)) (hK 10)) h0.a10,
    Eq.mpr (congrArg (IdealFinite.AllFin (S := Cert.KernelIdeal.S256)) (hK 11)) h0.a11,
    Eq.mpr (congrArg (IdealFinite.AllFin (S := Cert.KernelIdeal.S256)) (hK 12)) h0.a12,
    Eq.mpr (congrArg (IdealFinite.AllFin (S := Cert.KernelIdeal.S128x256)) (hK 13)) h0.a13,
    Eq.mpr (congrArg (IdealFinite.AllFin (S := Cert.KernelIdeal.S128)) (hK 14)) h0.a14⟩

end Cert.Asm

end
-- ==== Proof.KPreBlocks.lean ====
/-
  The kernel program's host operations before the region, cut into blocks by what they compute: the connectivity matrix and
  the transitivity loss (26 operations); the first generator network and the reconstruction loss (64); the second generator
  network, which makes the queries (58); the gathered keys (9); the keys' squared norms laid out as a row (the rest).
-/
import proofs.«130977_j54631984005498_2_alg».proof.Proof.KRuns
import proofs.«130977_j54631984005498_2_alg».proof.Proof.LibAfterCut

set_option maxRecDepth 16384

noncomputable section

namespace Cert.KernelIdeal.PreBlocks

open Cert.KernelIdeal Cert.KernelIdeal.Gen Idealize.ShloMosaic Idealize.ShloMosaic.TcCoe Idealize.ShloMosaic.StableHlo

variable {F : FTy → Type} [FloatOps F]

/-- The operations, as one list. -/
abbrev L : List (HloOp τ sig (Elt F)) := List.flatten (Cert.KernelIdeal.Hand.preOpss (F := F))

abbrev pkA : List (HloOp τ sig (Elt F)) := (L (F := F)).take 26
abbrev pkB : List (HloOp τ sig (Elt F)) := ((L (F := F)).drop 26).take 64
abbrev pkC : List (HloOp τ sig (Elt F)) := ((L (F := F)).drop 90).take 58
abbrev pkD : List (HloOp τ sig (Elt F)) := ((L (F := F)).drop 148).take 9
abbrev pkE : List (HloOp τ sig (Elt F)) := (L (F := F)).drop 157

/-- The fold over the whole list is the folds over the blocks, one after the other. -/
theorem after_blocks (V : Valuation τ sig (Elt F)) :
    after (L (F := F)) V = after (pkE (F := F)) (after (pkD (F := F)) (after (pkC (F := F)) (after (pkB (F := F)) (after (pkA (F := F)) (V))))) := by
  rw [AfterCut.after_take_drop (L (F := F)) 26 V]
  rw [AfterCut.after_take_drop ((L (F := F)).drop 26) 64 _, List.drop_drop]
  rw [AfterCut.after_take_drop ((L (F := F)).drop 90) 58 _, List.drop_drop]
  rw [AfterCut.after_take_drop ((L (F := F)).drop 148) 9 _, List.drop_drop]

end Cert.KernelIdeal.PreBlocks

end
-- ==== Proof.RPreBlocks.lean ====
/-
  The reference program's first block (through the gathered keys), cut by what it computes: the connectivity matrix and the
  transitivity loss (26 operations); the first generator network and the reconstruction loss (64); the second generator
  network, which makes the queries (58); the gathered keys (the rest).
-/
import proofs.«130977_j54631984005498_2_alg».proof.Proof.RBlocks
import proofs.«130977_j54631984005498_2_alg».proof.Proof.LibAfterCut

set_option maxRecDepth 16384

noncomputable section

namespace Cert.ReferenceIdeal.PreBlocks

open Cert.ReferenceIdeal Cert.ReferenceIdeal.Gen Idealize.ShloMosaic Idealize.ShloMosaic.TcCoe Idealize.ShloMosaic.StableHlo

variable {F : FTy → Type} [FloatOps F]

/-- The operations, as one list. -/
abbrev L : List (HloOp τ sig (Elt F)) := Cert.ReferenceIdeal.Blocks.rB0 (F := F)

abbrev prA : List (HloOp τ sig (Elt F)) := (L (F := F)).take 26
abbrev prB : List (HloOp τ sig (Elt F)) := ((L (F := F)).drop 26).take 64
abbrev prC : List (HloOp τ sig (Elt F)) := ((L (F := F)).drop 90).take 58
abbrev prD : List (HloOp τ sig (Elt F)) := (L (F := F)).drop 148

/-- The fold over the whole list is the folds over the blocks, one after the other. -/
theorem after_blocks (V : Valuation τ sig (Elt F)) :
    after (L (F := F)) V = after (prD (F := F)) (after (prC (F := F)) (after (prB (F := F)) (after (prA (F := F)) (V)))) := by
  rw [AfterCut.after_take_drop (L (F := F)) 26 V]
  rw [AfterCut.after_take_drop ((L (F := F)).drop 26) 64 _, List.drop_drop]
  rw [AfterCut.after_take_drop ((L (F := F)).drop 90) 58 _, List.drop_drop]

end Cert.ReferenceIdeal.PreBlocks

end
-- ==== Proof.KPreKeeps.lean ====
/-
  The kernel program's blocks before the region keep the live values: a block writes none of the buffers made before
  it, and no operation writes an argument array. The program is in single-assignment form with its values numbered in
  the order they are made: operation number i of the list before the region writes exactly the buffer of index 16 + i
  (the sixteen arguments are the buffers 0 … 15). So the block that starts at position a writes only buffers of index
  at least 16 + a, while each value it must keep was made earlier and has a smaller index.
-/
import proofs.«130977_j54631984005498_2_alg».proof.Proof.KPreBlocks
import proofs.«130977_j54631984005498_2_alg».proof.Proof.KFrame
import proofs.«130977_j54631984005498_2_alg».proof.Proof.LibWriteOrder

set_option maxRecDepth 16384

noncomputable section

namespace Cert.KernelIdeal.PreBlocks

open Cert.KernelIdeal Cert.KernelIdeal.Gen Idealize.ShloMosaic Idealize.ShloMosaic.TcCoe Idealize.ShloMosaic.StableHlo
open Cert.KernelIdeal.Hand (argRef)
open WriteOrder

variable {F : FTy → Type} [FloatOps F]

/-- One operation's fact: what it writes is its result buffer by computation, and that buffer's index is a literal. -/
local macro "wr" : term => `(⟨_, rfl, by decide⟩)

/-- Stretch 0 before the region writes the buffers 16, … in order. -/
theorem hostOps0_writesFrom : WritesFrom 16 (hostOps0 : List (HloOp τ sig (Elt F))) :=
  ⟨wr, wr, wr, wr, wr, wr, wr, wr, wr, wr, wr, wr, wr, wr, wr, wr, wr, wr, wr, wr,
    wr, wr, wr, wr, wr, wr, wr, wr, wr, wr, wr, wr, wr, wr, trivial⟩

theorem hostOps0_length : (hostOps0 : List (HloOp τ sig (Elt F))).length = 34 := rfl

/-- Stretch 1 before the region writes the buffers 50, … in order. -/
theorem hostOps0_1_writesFrom : WritesFrom 50 (hostOps0_1 : List (HloOp τ sig (Elt F))) :=
  ⟨wr, wr, wr, wr, wr, wr, wr, wr, wr, wr, wr, wr, wr, wr, wr, wr, wr, wr, wr, wr,
    wr, wr, trivial⟩

theorem hostOps0_1_length : (hostOps0_1 : List (HloOp τ sig (Elt F))).length = 22 := rfl

/-- Stretch 2 before the region writes the buffers 72, … in order. -/
theorem hostOps0_2_writesFrom : WritesFrom 72 (hostOps0_2 : List (HloOp τ sig (Elt F))) :=
  ⟨wr, wr, wr, wr, wr, wr, wr, wr, wr, wr, wr, wr, wr, wr, wr, wr, wr, wr, wr, wr,
    wr, wr, trivial⟩

theorem hostOps0_2_length : (hostOps0_2 : List (HloOp τ sig (Elt F))).length = 22 := rfl

/-- Stretch 3 before the region writes the buffers 94, … in order. -/
theorem hostOps0_3_writesFrom : WritesFrom 94 (hostOps0_3 : List (HloOp τ sig (Elt F))) :=
  ⟨wr, trivial⟩

theorem hostOps0_3_length : (hostOps0_3 : List (HloOp τ sig (Elt F))).length = 1 := rfl

/-- Stretch 4 before the region writes the buffers 95, … in order. -/
theorem hostOps0_4_writesFrom : WritesFrom 95 (hostOps0_4 : List (HloOp τ sig (Elt F))) :=
  ⟨wr, wr, wr, wr, wr, wr, wr, wr, wr, wr, wr, wr, wr, wr, wr, wr, wr, wr, wr, trivial⟩

theorem hostOps0_4_length : (hostOps0_4 : List (HloOp τ sig (Elt F))).length = 19 := rfl

/-- Stretch 5 before the region writes the buffers 114, … in order. -/
theorem hostOps0_5_writesFrom : WritesFrom 114 (hostOps0_5 : List (HloOp τ sig (Elt F))) :=
  ⟨wr, wr, wr, wr, wr, wr, wr, wr, wr, wr, wr, wr, wr, wr, wr, wr, wr, wr, wr, wr,
    wr, wr, trivial⟩

theorem hostOps0_5_length : (hostOps0_5 : List (HloOp τ sig (Elt F))).length = 22 := rfl

/-- Stretch 6 before the region writes the buffers 136, … in order. -/
theorem hostOps0_6_writesFrom : WritesFrom 136 (hostOps0_6 : List (HloOp τ sig (Elt F))) :=
  ⟨wr, wr, wr, wr, wr, wr, wr, wr, wr, wr, wr, wr, wr, wr, wr, wr, wr, wr, wr, wr,
    wr, wr, trivial⟩

theorem hostOps0_6_length : (hostOps0_6 : List (HloOp τ sig (Elt F))).length = 22 := rfl

/-- Stretch 7 before the region writes the buffers 158, … in order. -/
theorem hostOps0_7_writesFrom : WritesFrom 158 (hostOps0_7 : List (HloOp τ sig (Elt F))) :=
  ⟨wr, trivial⟩

theorem hostOps0_7_length : (hostOps0_7 : List (HloOp τ sig (Elt F))).length = 1 := rfl

/-- Stretch 8 before the region writes the buffers 159, … in order. -/
theorem hostOps0_8_writesFrom : WritesFrom 159 (hostOps0_8 : List (HloOp τ sig (Elt F))) :=
  ⟨wr, wr, wr, wr, wr, wr, wr, wr, wr, wr, wr, wr, wr, wr, wr, wr, wr, wr, wr, trivial⟩

theorem hostOps0_8_length : (hostOps0_8 : List (HloOp τ sig (Elt F))).length = 19 := rfl

/-- The whole list before the region writes the buffers 16, 17, … in order. -/
theorem L_writesFrom : WritesFrom 16 (L : List (HloOp τ sig (Elt F))) := by
  show WritesFrom 16
    (hostOps0 ++ (hostOps0_1 ++ (hostOps0_2 ++ (hostOps0_3 ++ (hostOps0_4 ++ (hostOps0_5 ++ (hostOps0_6 ++ (hostOps0_7 ++ (hostOps0_8 ++ ([]))))))))) : List (HloOp τ sig (Elt F)))
  exact
    hostOps0_writesFrom.append' hostOps0_length <|
    hostOps0_1_writesFrom.append' hostOps0_1_length <|
    hostOps0_2_writesFrom.append' hostOps0_2_length <|
    hostOps0_3_writesFrom.append' hostOps0_3_length <|
    hostOps0_4_writesFrom.append' hostOps0_4_length <|
    hostOps0_5_writesFrom.append' hostOps0_5_length <|
    hostOps0_6_writesFrom.append' hostOps0_6_length <|
    hostOps0_7_writesFrom.append' hostOps0_7_length <|
    hostOps0_8_writesFrom.append' hostOps0_8_length <|
    trivial

theorem pkB_keeps : ∀ op ∈ (pkB : List (HloOp τ sig (Elt F))), ∀ b ∈ ([main_v16, main_v20] : List (Ref sig .tc)),
    Proc.devRef (τ := τ) .tc b ∉ op.writes :=
  keeps_of_writesFrom L_writesFrom 26 64 (by decide)

theorem pkC_keeps : ∀ op ∈ (pkC : List (HloOp τ sig (Elt F))), ∀ b ∈ ([main_v16, main_v20, main_v55] : List (Ref sig .tc)),
    Proc.devRef (τ := τ) .tc b ∉ op.writes :=
  keeps_of_writesFrom L_writesFrom 90 58 (by decide)

theorem pkD_keeps : ∀ op ∈ (pkD : List (HloOp τ sig (Elt F))), ∀ b ∈ ([main_v16, main_v20, main_v55, main_v86] : List (Ref sig .tc)),
    Proc.devRef (τ := τ) .tc b ∉ op.writes :=
  keeps_of_writesFrom L_writesFrom 148 9 (by decide)

theorem pkE_keeps : ∀ op ∈ (pkE : List (HloOp τ sig (Elt F))), ∀ b ∈ ([main_v16, main_v20, main_v55, main_v86, main_v93] : List (Ref sig .tc)),
    Proc.devRef (τ := τ) .tc b ∉ op.writes :=
  fun op hop b hb =>
    keeps_below ((L_writesFrom (F := F)).drop 157)
      ((by decide : ∀ b ∈ ([main_v16, main_v20, main_v55, main_v86, main_v93] : List (Ref sig .tc)), b.idx.val < 16 + 157) b hb) op hop

/-- No operation before the region writes an argument array: stretch by stretch, each operation's one written buffer
    is none of them. -/
theorem pre_blocks_keep_args : ∀ op ∈ (L : List (HloOp τ sig (Elt F))), ∀ k : Fin 16,
    Proc.devRef (τ := τ) .tc (argRef k) ∉ op.writes := by
  intro op hop k
  obtain ⟨ops, hops, hop'⟩ := List.mem_flatten.mp hop
  exact Hand.pre_keeps_args ops hops op hop' k

end Cert.KernelIdeal.PreBlocks

end
-- ==== Proof.RPreKeeps.lean ====
/-
  The reference program's first block, cut again, keeps the live values: a piece writes none of the buffers made
  before it, and no operation writes an argument array. Operation number i of the reference's whole list writes exactly
  the buffer of index 16 + i, and a prefix of such a list is such a list; so the piece that starts at position a
  writes only buffers of index at least 16 + a, while each value it must keep was made earlier and has a smaller index.
-/
import proofs.«130977_j54631984005498_2_alg».proof.Proof.RPreBlocks
import proofs.«130977_j54631984005498_2_alg».proof.Proof.RKeeps
import proofs.«130977_j54631984005498_2_alg».proof.Proof.LibWriteOrder

set_option maxRecDepth 16384

noncomputable section

namespace Cert.ReferenceIdeal.PreBlocks

open Cert.ReferenceIdeal Cert.ReferenceIdeal.Gen Idealize.ShloMosaic Idealize.ShloMosaic.TcCoe Idealize.ShloMosaic.StableHlo
open Cert.ReferenceIdeal.Hand (argRef)
open WriteOrder

variable {F : FTy → Type} [FloatOps F]

/-- A prefix of a list that writes the buffers `s`, `s + 1`, … in order writes them in order from `s` too. -/
theorem writesFrom_take : ∀ {s : Nat} (n : Nat) {l : List (HloOp τ sig (Elt F))}, WritesFrom s l → WritesFrom s (l.take n)
  | _, 0, _, _ => trivial
  | _, _ + 1, [], _ => trivial
  | _, n + 1, _ :: _, ⟨h, hl⟩ => ⟨h, writesFrom_take n hl⟩

/-- The first block writes the buffers 16, 17, … in order. -/
theorem L_writesFrom : WritesFrom 16 (L : List (HloOp τ sig (Elt F))) :=
  writesFrom_take 157 Blocks.L_writesFrom

theorem prB_keeps : ∀ op ∈ (prB : List (HloOp τ sig (Elt F))), ∀ b ∈ ([main_v16, main_v20] : List (Ref sig .tc)),
    Proc.devRef (τ := τ) .tc b ∉ op.writes :=
  keeps_of_writesFrom L_writesFrom 26 64 (by decide)

theorem prC_keeps : ∀ op ∈ (prC : List (HloOp τ sig (Elt F))), ∀ b ∈ ([main_v16, main_v20, main_v55] : List (Ref sig .tc)),
    Proc.devRef (τ := τ) .tc b ∉ op.writes :=
  keeps_of_writesFrom L_writesFrom 90 58 (by decide)

theorem prD_keeps : ∀ op ∈ (prD : List (HloOp τ sig (Elt F))), ∀ b ∈ ([main_v16, main_v20, main_v55, main_v86] : List (Ref sig .tc)),
    Proc.devRef (τ := τ) .tc b ∉ op.writes :=
  fun op hop b hb =>
    keeps_below ((L_writesFrom (F := F)).drop 148)
      ((by decide : ∀ b ∈ ([main_v16, main_v20, main_v55, main_v86] : List (Ref sig .tc)), b.idx.val < 16 + 148) b hb) op hop

/-- No operation of the first block writes an argument array: none of the whole list does. -/
theorem pre_blocks_keep_args : ∀ op ∈ (L : List (HloOp τ sig (Elt F))), ∀ k : Fin 16,
    Proc.devRef (τ := τ) .tc (argRef k) ∉ op.writes :=
  fun op hop => Blocks.blocks_keep_args op (List.mem_of_mem_take hop)

end Cert.ReferenceIdeal.PreBlocks

end
-- ==== Proof.SimPreA.lean ====
/-
  Before the pipelined region the kernel program runs, operation for operation, what the reference program
  runs first, and both lists are cut at the same positions into blocks that each start from the argument
  arrays. Two blocks are read here. The first: from the logits L, the connectivity matrix C — the logistic
  function of L - Lᵀ with its diagonal set to zero — and the sum of the entries of (C·C) ∘ Cᵀ. The fourth: the
  latent codes gathered along the index argument. From equal arguments each of the three values is equal in
  the two programs: it is the same expression in the arguments, read off by folding the block's operations
  over the starting contents.
-/
import proofs.«130977_j54631984005498_2_alg».proof.Proof.SimLib
import proofs.«130977_j54631984005498_2_alg».proof.Proof.KPreBlocks
import proofs.«130977_j54631984005498_2_alg».proof.Proof.RPreBlocks

-- one theorem at a time: each read below folds a block of both programs
set_option Elab.async false

noncomputable section

namespace Cert.Sim

open Idealize.ShloMosaic Idealize.ShloMosaic.TcCoe Idealize.SL.Sem Idealize.ShloMosaic.StableHlo

open Cert.KernelIdeal.Gen Cert.ReferenceIdeal.Hand in
set_option maxHeartbeats 4000000 in
set_option maxRecDepth 16384 in
/-- The connectivity matrix: the logistic function of the antisymmetrised logits, zero on the diagonal. -/
theorem sim_C (V : VK) (V' : VR) (ha : ArgsEq V' V) :
    @Eq (Tn (kb% S64x64) .f32) (after (Cert.ReferenceIdeal.PreBlocks.prA (F := Ideal)) V' (rb% main_v16))
      (after (Cert.KernelIdeal.PreBlocks.pkA (F := Ideal)) V (kb% main_v16)) := by
  simp only [Cert.KernelIdeal.PreBlocks.pkA, Cert.KernelIdeal.PreBlocks.L, Cert.ReferenceIdeal.PreBlocks.prA,
    Cert.ReferenceIdeal.PreBlocks.L, Cert.ReferenceIdeal.Blocks.rB0, Cert.KernelIdeal.Hand.preOpss, hostOps0, hostOps0_1, hostOps0_2, hostOps0_3, hostOps0_4, hostOps0_5, hostOps0_6, hostOps0_7, hostOps0_8, Cert.ReferenceIdeal.Blocks.L, ops0, ops1, ops2, ops3, ops4, ops5, List.flatten_cons, List.flatten_nil, List.cons_append, List.nil_append, List.append_nil, List.drop, List.take]
  after_results_simp
  sim_args ha

open Cert.KernelIdeal.Gen Cert.ReferenceIdeal.Hand in
set_option maxHeartbeats 4000000 in
set_option maxRecDepth 16384 in
/-- The sum of the entries of (C·C) ∘ Cᵀ, for C the connectivity matrix. -/
theorem sim_lt (V : VK) (V' : VR) (ha : ArgsEq V' V) :
    @Eq (Tn (kb% S_) .f32) (after (Cert.ReferenceIdeal.PreBlocks.prA (F := Ideal)) V' (rb% main_v20))
      (after (Cert.KernelIdeal.PreBlocks.pkA (F := Ideal)) V (kb% main_v20)) := by
  simp only [Cert.KernelIdeal.PreBlocks.pkA, Cert.KernelIdeal.PreBlocks.L, Cert.ReferenceIdeal.PreBlocks.prA,
    Cert.ReferenceIdeal.PreBlocks.L, Cert.ReferenceIdeal.Blocks.rB0, Cert.KernelIdeal.Hand.preOpss, hostOps0, hostOps0_1, hostOps0_2, hostOps0_3, hostOps0_4, hostOps0_5, hostOps0_6, hostOps0_7, hostOps0_8, Cert.ReferenceIdeal.Blocks.L, ops0, ops1, ops2, ops3, ops4, ops5, List.flatten_cons, List.flatten_nil, List.cons_append, List.nil_append, List.append_nil, List.drop, List.take]
  after_results_simp
  sim_args ha

open Cert.KernelIdeal.Gen Cert.ReferenceIdeal.Hand in
set_option maxHeartbeats 4000000 in
set_option maxRecDepth 16384 in
/-- The latent codes gathered along the index argument. -/
theorem sim_Zs (V : VK) (V' : VR) (ha : ArgsEq V' V) :
    @Eq (Tn (kb% S16384x128) .f32) (after (Cert.ReferenceIdeal.PreBlocks.prD (F := Ideal)) V' (rb% main_v93))
      (after (Cert.KernelIdeal.PreBlocks.pkD (F := Ideal)) V (kb% main_v93)) := by
  simp only [Cert.KernelIdeal.PreBlocks.pkD, Cert.KernelIdeal.PreBlocks.L, Cert.ReferenceIdeal.PreBlocks.prD,
    Cert.ReferenceIdeal.PreBlocks.L, Cert.ReferenceIdeal.Blocks.rB0, Cert.KernelIdeal.Hand.preOpss, hostOps0, hostOps0_1, hostOps0_2, hostOps0_3, hostOps0_4, hostOps0_5, hostOps0_6, hostOps0_7, hostOps0_8, Cert.ReferenceIdeal.Blocks.L, ops0, ops1, ops2, ops3, ops4, ops5, List.flatten_cons, List.flatten_nil, List.cons_append, List.nil_append, List.append_nil, List.drop, List.take]
  after_results_simp
  sim_args ha

end Cert.Sim

end
-- ==== Proof.SimPreB.lean ====
/-
  Before the pipelined region the kernel program runs, operation for operation, what the reference program
  runs first, and both lists are cut at the same positions into blocks that each start from the argument
  arrays. Read here, the second block: the decoder network (a linear layer without bias, a normalisation over
  the batch by its mean and its biased variance with a scale and a shift, a leaky rectifier, a linear layer
  with bias) applied to the latent codes, and the mean squared difference of its output from the data. From
  equal arguments that mean is equal in the two programs: it is the same expression in the arguments, read
  off by folding the block's operations over the starting contents.
-/
import proofs.«130977_j54631984005498_2_alg».proof.Proof.SimLib
import proofs.«130977_j54631984005498_2_alg».proof.Proof.KPreBlocks
import proofs.«130977_j54631984005498_2_alg».proof.Proof.RPreBlocks

-- one theorem at a time: each read below folds a block of both programs
set_option Elab.async false

noncomputable section

namespace Cert.Sim

open Idealize.ShloMosaic Idealize.ShloMosaic.TcCoe Idealize.SL.Sem Idealize.ShloMosaic.StableHlo

open Cert.KernelIdeal.Gen Cert.ReferenceIdeal.Hand in
set_option maxHeartbeats 4000000 in
set_option maxRecDepth 16384 in
/-- The mean squared difference between the decoder's output on the latent codes and the data. -/
theorem sim_mse (V : VK) (V' : VR) (ha : ArgsEq V' V) :
    @Eq (Tn (kb% S_) .f32) (after (Cert.ReferenceIdeal.PreBlocks.prB (F := Ideal)) V' (rb% main_v55))
      (after (Cert.KernelIdeal.PreBlocks.pkB (F := Ideal)) V (kb% main_v55)) := by
  simp only [Cert.KernelIdeal.PreBlocks.pkB, Cert.KernelIdeal.PreBlocks.L, Cert.ReferenceIdeal.PreBlocks.prB,
    Cert.ReferenceIdeal.PreBlocks.L, Cert.ReferenceIdeal.Blocks.rB0, Cert.KernelIdeal.Hand.preOpss, hostOps0, hostOps0_1, hostOps0_2, hostOps0_3, hostOps0_4, hostOps0_5, hostOps0_6, hostOps0_7, hostOps0_8, Cert.ReferenceIdeal.Blocks.L, ops0, ops1, ops2, ops3, ops4, ops5, List.flatten_cons, List.flatten_nil, List.cons_append, List.nil_append, List.append_nil, List.drop, List.take]
  after_results_simp
  simp only [TRef.ofBuf, TRef.toBuf, cast_eq]
  sim_args ha

end Cert.Sim

end
-- ==== Proof.SimPreC.lean ====
/-
  Before the pipelined region the kernel program runs, operation for operation, what the reference program
  runs first, and both lists are cut at the same positions into blocks that each start from the argument
  arrays. Read here, the third block: the translator network (a linear layer without bias, a normalisation
  over the batch by its mean and its biased variance with a scale and a shift, a leaky rectifier, a linear
  layer with bias) applied to the first noise sample. From equal arguments its output is equal in the two
  programs: it is the same expression in the arguments, read off by folding the block's operations over the
  starting contents.
-/
import proofs.«130977_j54631984005498_2_alg».proof.Proof.SimLib
import proofs.«130977_j54631984005498_2_alg».proof.Proof.KPreBlocks
import proofs.«130977_j54631984005498_2_alg».proof.Proof.RPreBlocks

-- one theorem at a time: each read below folds a block of both programs
set_option Elab.async false

noncomputable section

namespace Cert.Sim

open Idealize.ShloMosaic Idealize.ShloMosaic.TcCoe Idealize.SL.Sem Idealize.ShloMosaic.StableHlo

open Cert.KernelIdeal.Gen Cert.ReferenceIdeal.Hand in
set_option maxHeartbeats 4000000 in
set_option maxRecDepth 16384 in
/-- The translator network's output on the first noise sample. -/
theorem sim_Zp (V : VK) (V' : VR) (ha : ArgsEq V' V) :
    @Eq (Tn (kb% S2048x128) .f32) (after (Cert.ReferenceIdeal.PreBlocks.prC (F := Ideal)) V' (rb% main_v86))
      (after (Cert.KernelIdeal.PreBlocks.pkC (F := Ideal)) V (kb% main_v86)) := by
  simp only [Cert.KernelIdeal.PreBlocks.pkC, Cert.KernelIdeal.PreBlocks.L, Cert.ReferenceIdeal.PreBlocks.prC,
    Cert.ReferenceIdeal.PreBlocks.L, Cert.ReferenceIdeal.Blocks.rB0, Cert.KernelIdeal.Hand.preOpss, hostOps0, hostOps0_1, hostOps0_2, hostOps0_3, hostOps0_4, hostOps0_5, hostOps0_6, hostOps0_7, hostOps0_8, Cert.ReferenceIdeal.Blocks.L, ops0, ops1, ops2, ops3, ops4, ops5, List.flatten_cons, List.flatten_nil, List.cons_append, List.nil_append, List.append_nil, List.drop, List.take]
  after_results_simp
  simp only [TRef.ofBuf, TRef.toBuf, cast_eq]
  sim_args ha

end Cert.Sim

end
-- ==== Proof.SimPre.lean ====
/-
  Before the pipelined region the kernel program runs, operation for operation, what the reference program
  runs first, so that from equal arguments the five values the later blocks use are equal in the two programs:
  the connectivity matrix, the sum of the entries of (C·C) ∘ Cᵀ, the mean squared difference between the
  decoder's output and the data, the translator network's output on the first noise sample, and the latent codes
  gathered along the index argument; each over the block of operations that computes it, the two programs' lists
  being cut at the same positions. The five statements are proved in the three modules imported here (each read
  folds a block's operations over the starting contents); this module only gathers them.
-/
import proofs.«130977_j54631984005498_2_alg».proof.Proof.SimPreA
import proofs.«130977_j54631984005498_2_alg».proof.Proof.SimPreB
import proofs.«130977_j54631984005498_2_alg».proof.Proof.SimPreC
-- ==== Proof.PreChain.lean ====
/-
  The first part of both programs, composed: the connectivity matrix, the transitivity loss, the reconstruction loss, the
  queries and the gathered keys are computed by the same operations from the same arguments, block by block, and none is
  written again before the region (kernel) or before the end of the reference's first block; so at those points the two
  programs hold equal values.
-/
import proofs.«130977_j54631984005498_2_alg».proof.Proof.AsmArgs
import proofs.«130977_j54631984005498_2_alg».proof.Proof.KPreBlocks
import proofs.«130977_j54631984005498_2_alg».proof.Proof.RPreBlocks
import proofs.«130977_j54631984005498_2_alg».proof.Proof.KPreKeeps
import proofs.«130977_j54631984005498_2_alg».proof.Proof.RPreKeeps
import proofs.«130977_j54631984005498_2_alg».proof.Proof.SimPre
import proofs.«130977_j54631984005498_2_alg».proof.Proof.AsmNct
import proofs.«130977_j54631984005498_2_alg».proof.Proof.RChain

set_option maxRecDepth 65536
set_option maxHeartbeats 4000000

noncomputable section

namespace Cert.Asm

open Idealize.ShloMosaic Idealize.ShloMosaic.TcCoe Idealize.ShloMosaic.StableHlo Idealize.SL.Sem
open Cert.Sim (ArgsEq VK VR Tn)
open Cert.KernelIdeal.PreBlocks (pkA pkB pkC pkD pkE pkB_keeps pkC_keeps pkD_keeps pkE_keeps)
open Cert.ReferenceIdeal.PreBlocks (prA prB prC prD prB_keeps prC_keeps prD_keeps)

variable (m : KMem) (m' : RMem) (c : Dev Cert.KernelIdeal.nD)

/-- The kernel's contents after each block of its first part, and the reference's. -/
abbrev P1 : VK := after (pkA (F := Ideal)) (K00 m c)
abbrev P2 : VK := after (pkB (F := Ideal)) (P1 m c)
abbrev P3 : VK := after (pkC (F := Ideal)) (P2 m c)
abbrev P4 : VK := after (pkD (F := Ideal)) (P3 m c)
abbrev P5 : VK := after (pkE (F := Ideal)) (P4 m c)
abbrev Q1 : VR := after (prA (F := Ideal)) (R00 m' c)
abbrev Q2 : VR := after (prB (F := Ideal)) (Q1 m' c)
abbrev Q3 : VR := after (prC (F := Ideal)) (Q2 m' c)
abbrev Q4 : VR := after (prD (F := Ideal)) (Q3 m' c)

/-- The region-entry contents are the five blocks' composition; the reference's first block likewise. -/
theorem E0_eq : E0 m c = P5 m c := Cert.KernelIdeal.PreBlocks.after_blocks (K00 m c)
theorem R0_eq : Cert.ReferenceIdeal.Chain.R0 m' c = Q4 m' c := Cert.ReferenceIdeal.PreBlocks.after_blocks (R00 m' c)

/-- A block that writes none of the listed buffers leaves each of them as it found it (either program). -/
theorem keepK (l : List (HloOp Cert.KernelIdeal.τ Cert.KernelIdeal.sig (Elt Ideal))) (V : VK) (bs : List (Ref Cert.KernelIdeal.sig .tc))
    (h : ∀ op ∈ l, ∀ b ∈ bs, Proc.devRef (τ := Cert.KernelIdeal.τ) .tc b ∉ op.writes) (b : Ref Cert.KernelIdeal.sig .tc) (hb : b ∈ bs) :
    after l V (Proc.devRef .tc b) = V (Proc.devRef .tc b) :=
  AfterCut.after_congr_of_not_written l V fun op hop => h op hop b hb
theorem keepR (l : List (HloOp Cert.ReferenceIdeal.τ Cert.ReferenceIdeal.sig (Elt Ideal))) (V : VR) (bs : List (Ref Cert.ReferenceIdeal.sig .tc))
    (h : ∀ op ∈ l, ∀ b ∈ bs, Proc.devRef (τ := Cert.ReferenceIdeal.τ) .tc b ∉ op.writes) (b : Ref Cert.ReferenceIdeal.sig .tc) (hb : b ∈ bs) :
    after l V (Proc.devRef .tc b) = V (Proc.devRef .tc b) :=
  AfterCut.after_congr_of_not_written l V fun op hop => h op hop b hb

/-- No block of the first part writes an argument array. -/
theorem K_arg (l : List (HloOp Cert.KernelIdeal.τ Cert.KernelIdeal.sig (Elt Ideal))) (hl : ∀ op ∈ l, op ∈ (Cert.KernelIdeal.PreBlocks.L (F := Ideal)))
    (V : VK) (k : Fin 16) : after l V (Proc.devRef .tc (Cert.KernelIdeal.Hand.argRef k)) = V (Proc.devRef .tc (Cert.KernelIdeal.Hand.argRef k)) :=
  AfterCut.after_congr_of_not_written l V fun op hop => Cert.KernelIdeal.PreBlocks.pre_blocks_keep_args op (hl op hop) k
theorem R_arg (l : List (HloOp Cert.ReferenceIdeal.τ Cert.ReferenceIdeal.sig (Elt Ideal))) (hl : ∀ op ∈ l, op ∈ (Cert.ReferenceIdeal.PreBlocks.L (F := Ideal)))
    (V : VR) (k : Fin 16) : after l V (Proc.devRef .tc (Cert.ReferenceIdeal.Hand.argRef k)) = V (Proc.devRef .tc (Cert.ReferenceIdeal.Hand.argRef k)) :=
  AfterCut.after_congr_of_not_written l V fun op hop => Cert.ReferenceIdeal.PreBlocks.pre_blocks_keep_args op (hl op hop) k

theorem P1_arg (k : Fin 16) : P1 m c (Proc.devRef .tc (Cert.KernelIdeal.Hand.argRef k)) = K00 m c (Proc.devRef .tc (Cert.KernelIdeal.Hand.argRef k)) :=
  K_arg (pkA (F := Ideal)) (fun op h => List.mem_of_mem_take h) _ k
theorem P2_arg (k : Fin 16) : P2 m c (Proc.devRef .tc (Cert.KernelIdeal.Hand.argRef k)) = K00 m c (Proc.devRef .tc (Cert.KernelIdeal.Hand.argRef k)) :=
  (K_arg (pkB (F := Ideal)) (fun op h => List.mem_of_mem_drop (List.mem_of_mem_take h)) _ k).trans (P1_arg m c k)
theorem P3_arg (k : Fin 16) : P3 m c (Proc.devRef .tc (Cert.KernelIdeal.Hand.argRef k)) = K00 m c (Proc.devRef .tc (Cert.KernelIdeal.Hand.argRef k)) :=
  (K_arg (pkC (F := Ideal)) (fun op h => List.mem_of_mem_drop (List.mem_of_mem_take h)) _ k).trans (P2_arg m c k)
theorem Q1_arg (k : Fin 16) : Q1 m' c (Proc.devRef .tc (Cert.ReferenceIdeal.Hand.argRef k)) = R00 m' c (Proc.devRef .tc (Cert.ReferenceIdeal.Hand.argRef k)) :=
  R_arg (prA (F := Ideal)) (fun op h => List.mem_of_mem_take h) _ k
theorem Q2_arg (k : Fin 16) : Q2 m' c (Proc.devRef .tc (Cert.ReferenceIdeal.Hand.argRef k)) = R00 m' c (Proc.devRef .tc (Cert.ReferenceIdeal.Hand.argRef k)) :=
  (R_arg (prB (F := Ideal)) (fun op h => List.mem_of_mem_drop (List.mem_of_mem_take h)) _ k).trans (Q1_arg m' c k)
theorem Q3_arg (k : Fin 16) : Q3 m' c (Proc.devRef .tc (Cert.ReferenceIdeal.Hand.argRef k)) = R00 m' c (Proc.devRef .tc (Cert.ReferenceIdeal.Hand.argRef k)) :=
  (R_arg (prC (F := Ideal)) (fun op h => List.mem_of_mem_drop (List.mem_of_mem_take h)) _ k).trans (Q2_arg m' c k)

section
open Cert.KernelIdeal in
/-- Each value, at the end of the kernel's first part, is what its block left. -/
theorem E0_v16 : E0 m c (Proc.devRef .tc main_v16) = P1 m c (Proc.devRef .tc main_v16) := by
  rw [congrFun (E0_eq m c) _]
  exact (keepK _ _ _ pkE_keeps main_v16 (by simp)).trans ((keepK _ _ _ pkD_keeps main_v16 (by simp)).trans
    ((keepK _ _ _ pkC_keeps main_v16 (by simp)).trans (keepK _ _ _ pkB_keeps main_v16 (by simp))))
open Cert.KernelIdeal in
theorem E0_v20 : E0 m c (Proc.devRef .tc main_v20) = P1 m c (Proc.devRef .tc main_v20) := by
  rw [congrFun (E0_eq m c) _]
  exact (keepK _ _ _ pkE_keeps main_v20 (by simp)).trans ((keepK _ _ _ pkD_keeps main_v20 (by simp)).trans
    ((keepK _ _ _ pkC_keeps main_v20 (by simp)).trans (keepK _ _ _ pkB_keeps main_v20 (by simp))))
open Cert.KernelIdeal in
theorem E0_v55 : E0 m c (Proc.devRef .tc main_v55) = P2 m c (Proc.devRef .tc main_v55) := by
  rw [congrFun (E0_eq m c) _]
  exact (keepK _ _ _ pkE_keeps main_v55 (by simp)).trans ((keepK _ _ _ pkD_keeps main_v55 (by simp)).trans (keepK _ _ _ pkC_keeps main_v55 (by simp)))
open Cert.KernelIdeal in
theorem E0_v86 : E0 m c (Proc.devRef .tc main_v86) = P3 m c (Proc.devRef .tc main_v86) := by
  rw [congrFun (E0_eq m c) _]
  exact (keepK _ _ _ pkE_keeps main_v86 (by simp)).trans (keepK _ _ _ pkD_keeps main_v86 (by simp))
open Cert.KernelIdeal in
theorem E0_v93 : E0 m c (Proc.devRef .tc main_v93) = P4 m c (Proc.devRef .tc main_v93) := by
  rw [congrFun (E0_eq m c) _]
  exact keepK _ _ _ pkE_keeps main_v93 (by simp)
end

section
open Cert.ReferenceIdeal Cert.ReferenceIdeal.Chain in
/-- And at the end of the reference's first block. -/
theorem R0_v16 : R0 m' c (Proc.devRef .tc main_v16) = Q1 m' c (Proc.devRef .tc main_v16) := by
  rw [congrFun (R0_eq m' c) _]
  exact (keepR _ _ _ prD_keeps main_v16 (by simp)).trans ((keepR _ _ _ prC_keeps main_v16 (by simp)).trans (keepR _ _ _ prB_keeps main_v16 (by simp)))
open Cert.ReferenceIdeal Cert.ReferenceIdeal.Chain in
theorem R0_v20 : R0 m' c (Proc.devRef .tc main_v20) = Q1 m' c (Proc.devRef .tc main_v20) := by
  rw [congrFun (R0_eq m' c) _]
  exact (keepR _ _ _ prD_keeps main_v20 (by simp)).trans ((keepR _ _ _ prC_keeps main_v20 (by simp)).trans (keepR _ _ _ prB_keeps main_v20 (by simp)))
open Cert.ReferenceIdeal Cert.ReferenceIdeal.Chain in
theorem R0_v55 : R0 m' c (Proc.devRef .tc main_v55) = Q2 m' c (Proc.devRef .tc main_v55) := by
  rw [congrFun (R0_eq m' c) _]
  exact (keepR _ _ _ prD_keeps main_v55 (by simp)).trans (keepR _ _ _ prC_keeps main_v55 (by simp))
open Cert.ReferenceIdeal Cert.ReferenceIdeal.Chain in
theorem R0_v86 : R0 m' c (Proc.devRef .tc main_v86) = Q3 m' c (Proc.devRef .tc main_v86) := by
  rw [congrFun (R0_eq m' c) _]
  exact keepR _ _ _ prD_keeps main_v86 (by simp)
open Cert.ReferenceIdeal Cert.ReferenceIdeal.Chain in
theorem R0_v93 : R0 m' c (Proc.devRef .tc main_v93) = Q4 m' c (Proc.devRef .tc main_v93) :=
  congrFun (R0_eq m' c) _
end

open Cert.ReferenceIdeal.Chain (R0)

/-- THE FIRST PART: equal values on the two sides. -/
theorem pre_C (h0 : ArgsEq (R00 m' c) (K00 m c)) :
    @Eq (Tn Cert.KernelIdeal.S64x64 .f32) (R0 m' c (Proc.devRef .tc Cert.ReferenceIdeal.main_v16)) (E0 m c (Proc.devRef .tc Cert.KernelIdeal.main_v16)) :=
  (R0_v16 m' c).trans ((Cert.Sim.sim_C (K00 m c) (R00 m' c) h0).trans (E0_v16 m c).symm)
theorem pre_lt (h0 : ArgsEq (R00 m' c) (K00 m c)) :
    @Eq (Tn Cert.KernelIdeal.S_ .f32) (R0 m' c (Proc.devRef .tc Cert.ReferenceIdeal.main_v20)) (E0 m c (Proc.devRef .tc Cert.KernelIdeal.main_v20)) :=
  (R0_v20 m' c).trans ((Cert.Sim.sim_lt (K00 m c) (R00 m' c) h0).trans (E0_v20 m c).symm)
theorem pre_mse (h0 : ArgsEq (R00 m' c) (K00 m c)) :
    @Eq (Tn Cert.KernelIdeal.S_ .f32) (R0 m' c (Proc.devRef .tc Cert.ReferenceIdeal.main_v55)) (E0 m c (Proc.devRef .tc Cert.KernelIdeal.main_v55)) :=
  (R0_v55 m' c).trans ((Cert.Sim.sim_mse (P1 m c) (Q1 m' c) (argsEq_of m m' c h0 (Q1_arg m' c) (P1_arg m c))).trans (E0_v55 m c).symm)
theorem pre_Zp (h0 : ArgsEq (R00 m' c) (K00 m c)) :
    @Eq (Tn Cert.KernelIdeal.S2048x128 .f32) (R0 m' c (Proc.devRef .tc Cert.ReferenceIdeal.main_v86)) (E0 m c (Proc.devRef .tc Cert.KernelIdeal.main_v86)) :=
  (R0_v86 m' c).trans ((Cert.Sim.sim_Zp (P2 m c) (Q2 m' c) (argsEq_of m m' c h0 (Q2_arg m' c) (P2_arg m c))).trans (E0_v86 m c).symm)
theorem pre_Zs (h0 : ArgsEq (R00 m' c) (K00 m c)) :
    @Eq (Tn Cert.KernelIdeal.S16384x128 .f32) (R0 m' c (Proc.devRef .tc Cert.ReferenceIdeal.main_v93)) (E0 m c (Proc.devRef .tc Cert.KernelIdeal.main_v93)) :=
  (R0_v93 m' c).trans ((Cert.Sim.sim_Zs (P3 m c) (Q3 m' c) (argsEq_of m m' c h0 (Q3_arg m' c) (P3_arg m c))).trans (E0_v93 m c).symm)

end Cert.Asm

end
-- ==== Proof.AsmFront.lean ====
/-
  The comparison of the two programs' results, assembled. From the launch contents — the reference's agreeing with the
  kernel's on the sixteen arguments, the fifteen float arguments real-valued — the two programs compute the same
  connectivity matrix, transitivity loss, reconstruction loss, queries and gathered keys (the same operations on equal
  inputs); queries and keys are real-valued, so the two nearest-neighbour losses agree; the independence samples are
  the same and real-valued; and from there the remaining blocks give equal results (the residual Gram arrays agree when
  every column energy is positive, and otherwise both results are −∞ through the correlation sum).
-/
import proofs.«130977_j54631984005498_2_alg».proof.Proof.KChain
import proofs.«130977_j54631984005498_2_alg».proof.Proof.RChain
import proofs.«130977_j54631984005498_2_alg».proof.Proof.AsmNct
import proofs.«130977_j54631984005498_2_alg».proof.Proof.AsmCore
import proofs.«130977_j54631984005498_2_alg».proof.Proof.AsmArgs
import proofs.«130977_j54631984005498_2_alg».proof.Proof.PreChain
import proofs.«130977_j54631984005498_2_alg».proof.Proof.SimGen
import proofs.«130977_j54631984005498_2_alg».proof.Proof.FiniteChain
import proofs.«130977_j54631984005498_2_alg».proof.Proof.PreFinite

set_option maxRecDepth 65536
set_option maxHeartbeats 4000000

noncomputable section

namespace Cert.Asm

open Idealize.ShloMosaic Idealize.ShloMosaic.TcCoe Idealize.ShloMosaic.StableHlo Idealize.SL.Sem
open Cert.Sim (ArgsEq VK VR)
open Cert.FiniteChain (ArgsFin)

variable (m : KMem) (m' : RMem) (c : Dev Cert.KernelIdeal.nD)

open Cert.KernelIdeal.Chain Cert.ReferenceIdeal.Chain

/-- THE VALUE: the reference's result is the kernel's. -/
theorem value_eq (hpre : Cert.Pre_KernelIdeal m) (hag : Agree m m' c) :
    (Cert.ReferenceIdeal.Hand.WT (F := Ideal) m' c (Proc.devRef .tc Cert.ReferenceIdeal.main_v280) : Sc)
      = Cert.KernelIdeal.Hand.VT (F := Ideal) m c (Proc.devRef .tc Cert.KernelIdeal.main_v250) := by
  have hEq0 := argsEq_launch m m' c hag
  have hFin0 := argsFin_launch m c hpre
  -- the first block of each side: the same operations on equal arguments
  have hC0 := pre_C m m' c hEq0
  have hlt0 := pre_lt m m' c hEq0
  have hmse0 := pre_mse m m' c hEq0
  have hZp0 := pre_Zp m m' c hEq0
  have hZs0 := pre_Zs m m' c hEq0
  -- queries and gathered keys are real-valued
  have hfp := Cert.FiniteChain.fin_Zp (K00 m c) hFin0
  have hfs := Cert.FiniteChain.fin_Zs (K00 m c) hFin0
  -- the nearest-neighbour losses agree
  have hnct1 := nct_step m c (R0 m' c) hZp0 hZs0 hfp hfs
  -- the arguments are still in place after that block
  have hEq1 : ArgsEq (R1 m' c) (A1 m c) := argsEq_of m m' c hEq0 (R1_arg m' c) (A1_arg m c)
  have hFin1 : ArgsFin (A1 m c) := argsFin_of m c hFin0 (A1_arg m c)
  -- the independence samples: the same operations again, and real-valued
  have hX := Cert.Sim.sim_Xind (A1 m c) (R1 m' c) hEq1
  have hfX := Cert.FiniteChain.fin_Xind (A1 m c) hFin1
  -- the values the remaining blocks consume, where those blocks start
  have hC2 : (R2 m' c (Proc.devRef .tc Cert.ReferenceIdeal.main_v16) : M64) = A2 m c (Proc.devRef .tc Cert.KernelIdeal.main_v16) :=
    (R2_v16 m' c).trans (hC0.trans (A2_v16 m c).symm)
  have hlt2 : (R2 m' c (Proc.devRef .tc Cert.ReferenceIdeal.main_v20) : Sc) = A2 m c (Proc.devRef .tc Cert.KernelIdeal.main_v20) :=
    (R2_v20 m' c).trans (hlt0.trans (A2_v20 m c).symm)
  have hmse2 : (R2 m' c (Proc.devRef .tc Cert.ReferenceIdeal.main_v55) : Sc) = A2 m c (Proc.devRef .tc Cert.KernelIdeal.main_v55) :=
    (R2_v55 m' c).trans (hmse0.trans (A2_v55 m c).symm)
  have hnct2 : (R2 m' c (Proc.devRef .tc Cert.ReferenceIdeal.main_v112) : Sc) = A2 m c (Proc.devRef .tc Cert.KernelIdeal.main_v105) :=
    (R2_v112 m' c).trans (hnct1.trans (A2_v105 m c).symm)
  -- the remaining blocks
  have hcore := asm_core (A2 := A2 m c) (R2 := R2 m' c) hX hfX hC2 hlt2 hmse2 hnct2
  rw [congrFun (WT_eq m' c) _, congrFun (VT_eq m c) _]
  exact hcore

end Cert.Asm

end
-- ==== Proof.AsmClaim.lean ====
/-
  The equivalence claim: the idealized kernel program and the idealized reference, run from memories that agree on the
  sixteen arguments (the float ones real-valued), both terminate without a fault, leave their arguments as they were,
  and end with the same result — the kernel program's later host operations folded over what the region leaves.
-/
import proofs.«130977_j54631984005498_2_alg».proof.Proof.AsmFront

set_option maxRecDepth 65536
set_option maxHeartbeats 4000000

noncomputable section

namespace Cert.Asm

open Idealize.ShloMosaic Idealize.ShloMosaic.TcCoe Idealize.SL.Sem

theorem algebraic : Cert.algebraic_KernelIdeal_ReferenceIdeal := by
  intro m ρ m' ρ' hpre hagree
  refine ⟨fun c => Cert.KernelIdeal.Hand.VT (F := Ideal) m c (Proc.devRef .tc Cert.KernelIdeal.main_v250),
    Cert.KernelIdeal.Hand.run_value m ρ, ?_⟩
  exact (θ_run (Cert.ReferenceIdeal.defs (F := Ideal)) _ _).mono
    (fun r h c => ⟨((h c).1).trans (value_eq m m' c hpre (hagree c)), (h c).2⟩)
    (Cert.ReferenceIdeal.Hand.run_value m' ρ')

end Cert.Asm

end
-- ==== Proof.lean ====
/-
  The certificate of a causality-chain loss: a Pallas kernel streams the nearest-neighbour distances tile by tile
  (a running row minimum over eight key tiles, the query norm added afterwards) and computes the independence loss from a
  closed form of the regression residuals' Gram matrices; the reference takes the whole distance matrix and forms the
  residuals explicitly. The five claims:
  the three programs run to the end without a fault and leave their sixteen arguments as they were (each program's
  frame: host operations, for the kernel programs one pipelined region over a 4 × 8 grid with the output block carried
  between points, host operations again); the idealization rewrote nothing; and on real-valued inputs the two idealized
  programs end with the same number. That last claim rests on three facts about extended reals: the minimum over keys
  commutes with adding a constant and with dividing by a positive one, and splits over tiles; the Gram matrix of the
  centred residuals of column i and k after regressing on column j is S_ik − S_ji S_jk / s_j when the column energy s_j
  is not zero (the residuals are already centred); and when some s_j is zero the correlation term 0 / 0 is −∞ in both
  programs, which absorbs every sum it enters, so both results are −∞.
-/
import proofs.«130977_j54631984005498_2_alg».proof.Defs
import proofs.«130977_j54631984005498_2_alg».proof.Proof.Gen.Kernel
import proofs.«130977_j54631984005498_2_alg».proof.Proof.Gen.KernelIdeal
import proofs.«130977_j54631984005498_2_alg».proof.Proof.Gen.ReferenceIdeal
import proofs.«130977_j54631984005498_2_alg».proof.Proof.Gen.Pre_finite_inputs
import proofs.«130977_j54631984005498_2_alg».proof.Proof.BFrame
import proofs.«130977_j54631984005498_2_alg».proof.Proof.KFrame
import proofs.«130977_j54631984005498_2_alg».proof.Proof.RefRun
import proofs.«130977_j54631984005498_2_alg».proof.Proof.AsmClaim

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Hand.frame m ρ,
  trivial,
  Cert.Asm.algebraic⟩

end Cert.Proof

end
